-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x10 : Shape := ⟨2, ![50000, 10]⟩
abbrev S2x800000 : Shape := ⟨2, ![2, 800000]⟩
abbrev S800000x3 : Shape := ⟨2, ![800000, 3]⟩
abbrev S50000 : Shape := ⟨1, ![50000]⟩
abbrev S13x64 : Shape := ⟨2, ![13, 64]⟩
abbrev S64 : Shape := ⟨1, ![64]⟩
abbrev S74x64 : Shape := ⟨2, ![74, 64]⟩
abbrev S67x128 : Shape := ⟨2, ![67, 128]⟩
abbrev S128 : Shape := ⟨1, ![128]⟩
abbrev S192x128 : Shape := ⟨2, ![192, 128]⟩
abbrev S131x256 : Shape := ⟨2, ![131, 256]⟩
abbrev S256 : Shape := ⟨1, ![256]⟩
abbrev S384x256 : Shape := ⟨2, ![384, 256]⟩
abbrev S256x128 : Shape := ⟨2, ![256, 128]⟩
abbrev S128x64 : Shape := ⟨2, ![128, 64]⟩
abbrev S64x1 : Shape := ⟨2, ![64, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x10 : S_.BroadcastsInDim S50000x10 (![] : Fin 0 → Fin S50000x10.rank)
  reducesTo_S50000x10_S_d0_1 : S50000x10.ReducesTo [0, 1] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S13x64 : S_.BroadcastsInDim S13x64 (![] : Fin 0 → Fin S13x64.rank)
  reducesTo_S13x64_S_d0_1 : S13x64.ReducesTo [0, 1] S_
  bcast_S_S64 : S_.BroadcastsInDim S64 (![] : Fin 0 → Fin S64.rank)
  reducesTo_S64_S_d0 : S64.ReducesTo [0] S_
  bcast_S_S74x64 : S_.BroadcastsInDim S74x64 (![] : Fin 0 → Fin S74x64.rank)
  reducesTo_S74x64_S_d0_1 : S74x64.ReducesTo [0, 1] S_
  bcast_S_S67x128 : S_.BroadcastsInDim S67x128 (![] : Fin 0 → Fin S67x128.rank)
  reducesTo_S67x128_S_d0_1 : S67x128.ReducesTo [0, 1] S_
  bcast_S_S128 : S_.BroadcastsInDim S128 (![] : Fin 0 → Fin S128.rank)
  reducesTo_S128_S_d0 : S128.ReducesTo [0] S_
  bcast_S_S192x128 : S_.BroadcastsInDim S192x128 (![] : Fin 0 → Fin S192x128.rank)
  reducesTo_S192x128_S_d0_1 : S192x128.ReducesTo [0, 1] S_
  bcast_S_S131x256 : S_.BroadcastsInDim S131x256 (![] : Fin 0 → Fin S131x256.rank)
  reducesTo_S131x256_S_d0_1 : S131x256.ReducesTo [0, 1] S_
  bcast_S_S256 : S_.BroadcastsInDim S256 (![] : Fin 0 → Fin S256.rank)
  reducesTo_S256_S_d0 : S256.ReducesTo [0] S_
  bcast_S_S384x256 : S_.BroadcastsInDim S384x256 (![] : Fin 0 → Fin S384x256.rank)
  reducesTo_S384x256_S_d0_1 : S384x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part6 {F : FTy → Type} [FloatOps F] (main_arg1 : IVec S2x800000 32) (main_v98 : IVec S_ 1) (main_v102 : IVec S800000 1) : IVec S_ 1 :=
  let main_c_39 : IVec S_ 1 := constantI S_ 1 1#1
  let main_v103 : IVec S_ 1 := (fun x v => Host.reduce IntOp.andi x v reducesTo_S800000_S_d0 h_S_) main_v102 main_c_39
  let main_v104 : IVec S_ 1 := andi main_v98 main_v103
  let main_v105 : IVec S1x800000 32 := (extractStridedSlice S1x800000 ![0, 0] · slices_S2x800000_S1x800000_0_0) main_arg1
  let main_v106 : IVec S800000 32 := shapeCast S800000 main_v105 shapeCasts_S1x800000_S800000
  let main_c_40 : IVec S_ 32 := constantI S_ 32 50000#32
  let main_v107 : IVec S800000 32 := broadcastInDim S800000 ![] bcast_S_S800000 main_c_40
  let main_v108 : IVec S800000 1 := cmpi .slt main_v106 main_v107
  let main_c_41 : IVec S_ 1 := constantI S_ 1 1#1
  let main_v109 : IVec S_ 1 := (fun x v => Host.reduce IntOp.andi x v reducesTo_S800000_S_d0 h_S_) main_v108 main_c_41
  let main_v110 : IVec S_ 1 := andi main_v104 main_v109
  main_v110

def fn_part5 {F : FTy → Type} [FloatOps F] (main_arg1 : IVec S2x800000 32) (main_arg20 : FVec F S64x1 .f32) (main_arg21 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1 .f32 := Host.absf main_arg20
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : IVec S1x800000 32 := (extractStridedSlice S1x800000 ![0, 0] · slices_S2x800000_S1x800000_0_0) main_arg1
  let main_v100 : IVec S800000 32 := shapeCast S800000 main_v99 shapeCasts_S1x800000_S800000
  let main_c_38 : IVec S_ 32 := constantI S_ 32 4294917296#32
  let main_v101 : IVec S800000 32 := broadcastInDim S800000 ![] bcast_S_S800000 main_c_38
  let main_v102 : IVec S800000 1 := cmpi .sge main_v100 main_v101
  fn_part6 (F := F) main_arg1 main_v98 main_v102

def fn_part4 {F : FTy → Type} [FloatOps F] (main_arg1 : IVec S2x800000 32) (main_arg16 : FVec F S256x128 .f32) (main_arg17 : FVec F S128 .f32) (main_arg18 : FVec F S128x64 .f32) (main_arg19 : FVec F S64 .f32) (main_arg20 : FVec F S64x1 .f32) (main_arg21 : FVec F S1 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg18
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg1 main_arg20 main_arg21 main_v83 main_v84 main_cst_32

def fn_part3 {F : FTy → Type} [FloatOps F] (main_arg1 : IVec S2x800000 32) (main_arg13 : FVec F S256 .f32) (main_arg14 : FVec F S384x256 .f32) (main_arg15 : FVec F S256 .f32) (main_arg16 : FVec F S256x128 .f32) (main_arg17 : FVec F S128 .f32) (main_arg18 : FVec F S128x64 .f32) (main_arg19 : FVec F S64 .f32) (main_arg20 : FVec F S64x1 .f32) (main_arg21 : FVec F S1 .f32) (main_v48 : IVec S_ 1) (main_v49 : FVec F S131x256 .f32) (main_v50 : FVec F S131x256 .f32) : IVec S_ 1 :=
  let main_v51 : IVec S131x256 1 := cmpf .olt main_v49 main_v50
  let main_c_19 : IVec S_ 1 := constantI S_ 1 1#1
  let main_v52 : IVec S_ 1 := (fun x v => Host.reduce IntOp.andi x v reducesTo_S131x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S384x256 .f32 := Host.absf main_arg14
  let main_cst_22 : FVec F S_ .f32 := constant S_ .f32 0x7F800000#32
  let main_v60 : FVec F S384x256 .f32 := broadcastInDim S384x256 ![] bcast_S_S384x256 main_cst_22
  let main_v61 : IVec S384x256 1 := cmpf .olt main_v59 main_v60
  let main_c_23 : IVec S_ 1 := constantI S_ 1 1#1
  let main_v62 : IVec S_ 1 := (fun x v => Host.reduce IntOp.andi x v reducesTo_S384x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg16 main_arg17 main_arg18 main_arg19 main_arg20 main_arg21 main_v63 main_v67

def fn_part2 {F : FTy → Type} [FloatOps F] (main_arg1 : IVec S2x800000 32) (main_arg9 : FVec F S128 .f32) (main_arg10 : FVec F S192x128 .f32) (main_arg11 : FVec F S128 .f32) (main_arg12 : FVec F S131x256 .f32) (main_arg13 : FVec F S256 .f32) (main_arg14 : FVec F S384x256 .f32) (main_arg15 : FVec F S256 .f32) (main_arg16 : FVec F S256x128 .f32) (main_arg17 : FVec F S128 .f32) (main_arg18 : FVec F S128x64 .f32) (main_arg19 : FVec F S64 .f32) (main_arg20 : FVec F S64x1 .f32) (main_arg21 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S192x128 .f32 := Host.absf main_arg10
  let main_cst_14 : FVec F S_ .f32 := constant S_ .f32 0x7F800000#32
  let main_v40 : FVec F S192x128 .f32 := broadcastInDim S192x128 ![] bcast_S_S192x128 main_cst_14
  let main_v41 : IVec S192x128 1 := cmpf .olt main_v39 main_v40
  let main_c_15 : IVec S_ 1 := constantI S_ 1 1#1
  let main_v42 : IVec S_ 1 := (fun x v => Host.reduce IntOp.andi x v reducesTo_S192x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S131x256 .f32 := Host.absf main_arg12
  let main_cst_18 : FVec F S_ .f32 := constant S_ .f32 0x7F800000#32
  let main_v50 : FVec F S131x256 .f32 := broadcastInDim S131x256 ![] bcast_S_S131x256 main_cst_18
  fn_part3 (F := F) main_arg1 main_arg13 main_arg14 main_arg15 main_arg16 main_arg17 main_arg18 main_arg19 main_arg20 main_arg21 main_v48 main_v49 main_v50

def fn_part1 {F : FTy → Type} [FloatOps F] (main_arg1 : IVec S2x800000 32) (main_arg6 : FVec F S74x64 .f32) (main_arg7 : FVec F S64 .f32) (main_arg8 : FVec F S67x128 .f32) (main_arg9 : FVec F S128 .f32) (main_arg10 : FVec F S192x128 .f32) (main_arg11 : FVec F S128 .f32) (main_arg12 : FVec F S131x256 .f32) (main_arg13 : FVec F S256 .f32) (main_arg14 : FVec F S384x256 .f32) (main_arg15 : FVec F S256 .f32) (main_arg16 : FVec F S256x128 .f32) (main_arg17 : FVec F S128 .f32) (main_arg18 : FVec F S128x64 .f32) (main_arg19 : FVec F S64 .f32) (main_arg20 : FVec F S64x1 .f32) (main_arg21 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S74x64 .f32 := Host.absf main_arg6
  let main_cst_6 : FVec F S_ .f32 := constant S_ .f32 0x7F800000#32
  let main_v20 : FVec F S74x64 .f32 := broadcastInDim S74x64 ![] bcast_S_S74x64 main_cst_6
  let main_v21 : IVec S74x64 1 := cmpf .olt main_v19 main_v20
  let main_c_7 : IVec S_ 1 := constantI S_ 1 1#1
  let main_v22 : IVec S_ 1 := (fun x v => Host.reduce IntOp.andi x v reducesTo_S74x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S67x128 .f32 := Host.absf main_arg8
  let main_cst_10 : FVec F S_ .f32 := constant S_ .f32 0x7F800000#32
  let main_v30 : FVec F S67x128 .f32 := broadcastInDim S67x128 ![] bcast_S_S67x128 main_cst_10
  let main_v31 : IVec S67x128 1 := cmpf .olt main_v29 main_v30
  let main_c_11 : IVec S_ 1 := constantI S_ 1 1#1
  let main_v32 : IVec S_ 1 := (fun x v => Host.reduce IntOp.andi x v reducesTo_S67x128_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_v33

def fn {F : FTy → Type} [FloatOps F] (main_arg0 : FVec F S50000x10 .f32) (main_arg1 : IVec S2x800000 32) (main_arg2 : FVec F S800000x3 .f32) (main_arg3 : IVec S50000 32) (main_arg4 : FVec F S13x64 .f32) (main_arg5 : FVec F S64 .f32) (main_arg6 : FVec F S74x64 .f32) (main_arg7 : FVec F S64 .f32) (main_arg8 : FVec F S67x128 .f32) (main_arg9 : FVec F S128 .f32) (main_arg10 : FVec F S192x128 .f32) (main_arg11 : FVec F S128 .f32) (main_arg12 : FVec F S131x256 .f32) (main_arg13 : FVec F S256 .f32) (main_arg14 : FVec F S384x256 .f32) (main_arg15 : FVec F S256 .f32) (main_arg16 : FVec F S256x128 .f32) (main_arg17 : FVec F S128 .f32) (main_arg18 : FVec F S128x64 .f32) (main_arg19 : FVec F S64 .f32) (main_arg20 : FVec F S64x1 .f32) (main_arg21 : FVec F S1 .f32) : IVec S_ 1 :=
  let main_v0 : FVec F S50000x10 .f32 := Host.absf main_arg0
  let main_cst : FVec F S_ .f32 := constant S_ .f32 0x7F800000#32
  let main_v1 : FVec F S50000x10 .f32 := broadcastInDim S50000x10 ![] bcast_S_S50000x10 main_cst
  let main_v2 : IVec S50000x10 1 := cmpf .olt main_v0 main_v1
  let main_c : IVec S_ 1 := constantI S_ 1 1#1
  let main_v3 : IVec S_ 1 := (fun x v => Host.reduce IntOp.andi x v reducesTo_S50000x10_S_d0_1 h_S_) main_v2 main_c
  let main_v4 : FVec F S800000x3 .f32 := Host.absf main_arg2
  let main_cst_0 : FVec F S_ .f32 := constant S_ .f32 0x7F800000#32
  let main_v5 : FVec F S800000x3 .f32 := broadcastInDim S800000x3 ![] bcast_S_S800000x3 main_cst_0
  let main_v6 : IVec S800000x3 1 := cmpf .olt main_v4 main_v5
  let main_c_1 : IVec S_ 1 := constantI S_ 1 1#1
  let main_v7 : IVec S_ 1 := (fun x v => Host.reduce IntOp.andi x v reducesTo_S800000x3_S_d0_1 h_S_) main_v6 main_c_1
  let main_v8 : IVec S_ 1 := andi main_v3 main_v7
  let main_v9 : FVec F S13x64 .f32 := Host.absf main_arg4
  let main_cst_2 : FVec F S_ .f32 := constant S_ .f32 0x7F800000#32
  let main_v10 : FVec F S13x64 .f32 := broadcastInDim S13x64 ![] bcast_S_S13x64 main_cst_2
  let main_v11 : IVec S13x64 1 := cmpf .olt main_v9 main_v10
  let main_c_3 : IVec S_ 1 := constantI S_ 1 1#1
  let main_v12 : IVec S_ 1 := (fun x v => Host.reduce IntOp.andi x v reducesTo_S13x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x10 : Shape := ⟨2, ![50000, 10]⟩
abbrev S2x800000 : Shape := ⟨2, ![2, 800000]⟩
abbrev S800000x3 : Shape := ⟨2, ![800000, 3]⟩
abbrev S50000 : Shape := ⟨1, ![50000]⟩
abbrev S13x64 : Shape := ⟨2, ![13, 64]⟩
abbrev S64 : Shape := ⟨1, ![64]⟩
abbrev S74x64 : Shape := ⟨2, ![74, 64]⟩
abbrev S67x128 : Shape := ⟨2, ![67, 128]⟩
abbrev S128 : Shape := ⟨1, ![128]⟩
abbrev S192x128 : Shape := ⟨2, ![192, 128]⟩
abbrev S131x256 : Shape := ⟨2, ![131, 256]⟩
abbrev S256 : Shape := ⟨1, ![256]⟩
abbrev S384x256 : Shape := ⟨2, ![384, 256]⟩
abbrev S256x128 : Shape := ⟨2, ![256, 128]⟩
abbrev S128x64 : Shape := ⟨2, ![128, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x1 : Shape := ⟨2, ![1, 1]⟩
abbrev S800000x10 : Shape := ⟨2, ![800000, 10]⟩
abbrev S800000x13 : Shape := ⟨2, ![800000, 13]⟩
abbrev S1x64 : Shape := ⟨2, ![1, 64]⟩
abbrev S800000x64 : Shape := ⟨2, ![800000, 64]⟩
abbrev S8000x13 : Shape := ⟨2, ![8000, 13]⟩
abbrev S8000x64 : Shape := ⟨2, ![8000, 64]⟩
abbrev S50000x64 : Shape := ⟨2, ![50000, 64]⟩
abbrev S50000x74 : Shape := ⟨2, ![50000, 74]⟩
abbrev S5000x74 : Shape := ⟨2, ![5000, 74]⟩
abbrev S5000x64 : Shape := ⟨2, ![5000, 64]⟩
abbrev S800000x67 : Shape := ⟨2, ![800000, 67]⟩
abbrev S1x128 : Shape := ⟨2, ![1, 128]⟩
abbrev S800000x128 : Shape := ⟨2, ![800000, 128]⟩
abbrev S8000x67 : Shape := ⟨2, ![8000, 67]⟩
abbrev S8000x128 : Shape := ⟨2, ![8000, 128]⟩
abbrev S50000x128 : Shape := ⟨2, ![50000, 128]⟩
abbrev S50000x192 : Shape := ⟨2, ![50000, 192]⟩
abbrev S5000x192 : Shape := ⟨2, ![5000, 192]⟩
abbrev S5000x128 : Shape := ⟨2, ![5000, 128]⟩
abbrev S800000x131 : Shape := ⟨2, ![800000, 131]⟩
abbrev S1x256 : Shape := ⟨2, ![1, 256]⟩
abbrev S800000x256 : Shape := ⟨2, ![800000, 256]⟩
abbrev S8000x131 : Shape := ⟨2, ![8000, 131]⟩
abbrev S8000x256 : Shape := ⟨2, ![8000, 256]⟩
abbrev S50000x256 : Shape := ⟨2, ![50000, 256]⟩
abbrev S50000x384 : Shape := ⟨2, ![50000, 384]⟩
abbrev S5000x384 : Shape := ⟨2, ![5000, 384]⟩
abbrev S5000x256 : Shape := ⟨2, ![5000, 256]⟩
abbrev S32x256 : Shape := ⟨2, ![32, 256]⟩
abbrev S32 : Shape := ⟨1, ![32]⟩
abbrev S32x1 : Shape := ⟨2, ![32, 1]⟩
abbrev S32x128 : Shape := ⟨2, ![32, 128]⟩
abbrev S32x64 : Shape := ⟨2, ![32, 64]⟩

abbrev nBuf : Space → Nat
  | .hbm => 166
  | .vmem => 48
  | .smem => 0
  | _ => 0

abbrev hbmTy0_0 (i : Nat) : BufTy := match i % 128 with
  | 0 => ⟨S50000x10, .f32⟩
  | 1 => ⟨S2x800000, .i32⟩
  | 2 => ⟨S800000x3, .f32⟩
  | 3 => ⟨S50000, .i32⟩
  | 4 => ⟨S13x64, .f32⟩
  | 5 => ⟨S64, .f32⟩
  | 6 => ⟨S74x64, .f32⟩
  | 7 => ⟨S64, .f32⟩
  | 8 => ⟨S67x128, .f32⟩
  | 9 => ⟨S128, .f32⟩
  | 10 => ⟨S192x128, .f32⟩
  | 11 => ⟨S128, .f32⟩
  | 12 => ⟨S131x256, .f32⟩
  | 13 => ⟨S256, .f32⟩
  | 14 => ⟨S384x256, .f32⟩
  | 15 => ⟨S256, .f32⟩
  | 16 => ⟨S256x128, .f32⟩
  | 17 => ⟨S128, .f32⟩
  | 18 => ⟨S128x64, .f32⟩
  | 19 => ⟨S64, .f32⟩
  | 20 => ⟨S64x1, .f32⟩
  | 21 => ⟨S1, .f32⟩
  | 22 => ⟨S1x800000, .i32⟩
  | 23 => ⟨S800000, .i32⟩
  | 24 => ⟨S1x800000, .i32⟩
  | 25 => ⟨S800000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S50000x1, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S1, .i32⟩
  | 48 => ⟨S_, .i32⟩
  | 49 => ⟨S800000x1, .i32⟩
  | 50 => ⟨S800000x1, .i1⟩
  | 51 => ⟨S1x1, .i32⟩
  | 52 => ⟨S800000x1, .i32⟩
  | 53 => ⟨S800000x1, .i1⟩
  | 54 => ⟨S800000x1, .i1⟩
  | 55 => ⟨S_, .i1⟩
  | 56 => ⟨S800000, .i1⟩
  | 57 => ⟨S800000x10, .f32⟩
  | 58 => ⟨S800000x10, .i1⟩
  | 59 => ⟨S_, .f32⟩
  | 60 => ⟨S800000x10, .f32⟩
  | 61 => ⟨S800000x10, .f32⟩
  | 62 => ⟨S800000x13, .f32⟩
  | 63 => ⟨S1x64, .f32⟩
  | 64 => ⟨S800000x64, .f32⟩
  | 65 => ⟨S_, .f32⟩
  | 66 => ⟨S50000x64, .f32⟩
  | 67 => ⟨S800000x1, .i32⟩
  | 68 => ⟨S50000x64, .f32⟩
  | 69 => ⟨S50000x64, .f32⟩
  | 70 => ⟨S50000x64, .f32⟩
  | 71 => ⟨S50000x74, .f32⟩
  | 72 => ⟨S1x64, .f32⟩
  | 73 => ⟨S50000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S1, .i32⟩
  | 83 => ⟨S_, .i32⟩
  | 84 => ⟨S800000x1, .i32⟩
  | 85 => ⟨S800000x1, .i1⟩
  | 86 => ⟨S1x1, .i32⟩
  | 87 => ⟨S800000x1, .i32⟩
  | 88 => ⟨S800000x1, .i1⟩
  | 89 => ⟨S800000x1, .i1⟩
  | 90 => ⟨S_, .i1⟩
  | 91 => ⟨S800000, .i1⟩
  | 92 => ⟨S800000x64, .f32⟩
  | 93 => ⟨S800000x64, .i1⟩
  | 94 => ⟨S_, .f32⟩
  | 95 => ⟨S800000x64, .f32⟩
  | 96 => ⟨S800000x64, .f32⟩
  | 97 => ⟨S800000x67, .f32⟩
  | 98 => ⟨S1x128, .f32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S50000x128, .f32⟩
  | 105 => ⟨S50000x128, .f32⟩
  | 106 => ⟨S50000x192, .f32⟩
  | 107 => ⟨S1x128, .f32⟩
  | 108 => ⟨S50000x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S1, .i32⟩
  | 118 => ⟨S_, .i32⟩
  | 119 => ⟨S800000x1, .i32⟩
  | 120 => ⟨S800000x1, .i1⟩
  | 121 => ⟨S1x1, .i32⟩
  | 122 => ⟨S800000x1, .i32⟩
  | 123 => ⟨S800000x1, .i1⟩
  | 124 => ⟨S800000x1, .i1⟩
  | 125 => ⟨S_, .i1⟩
  | 126 => ⟨S800000, .i1⟩
  | 127 => ⟨S800000x128, .f32⟩
  | _ => ⟨S50000x10, .f32⟩

abbrev hbmTy0_1 (i : Nat) : BufTy := match i % 128 with
  | 0 => ⟨S800000x128, .i1⟩
  | 1 => ⟨S_, .f32⟩
  | 2 => ⟨S800000x128, .f32⟩
  | 3 => ⟨S800000x128, .f32⟩
  | 4 => ⟨S800000x131, .f32⟩
  | 5 => ⟨S1x256, .f32⟩
  | 6 => ⟨S800000x256, .f32⟩
  | 7 => ⟨S_, .f32⟩
  | 8 => ⟨S50000x256, .f32⟩
  | 9 => ⟨S800000x1, .i32⟩
  | 10 => ⟨S50000x256, .f32⟩
  | 11 => ⟨S50000x256, .f32⟩
  | 12 => ⟨S50000x256, .f32⟩
  | 13 => ⟨S50000x384, .f32⟩
  | 14 => ⟨S1x256, .f32⟩
  | 15 => ⟨S50000x256, .f32⟩
  | 16 => ⟨S_, .f32⟩
  | 17 => ⟨S32x256, .f32⟩
  | 18 => ⟨S50000x1, .i32⟩
  | 19 => ⟨S32x256, .f32⟩
  | 20 => ⟨S_, .f32⟩
  | 21 => ⟨S50000, .f32⟩
  | 22 => ⟨S_, .f32⟩
  | 23 => ⟨S32, .f32⟩
  | 24 => ⟨S50000x1, .i32⟩
  | 25 => ⟨S32, .f32⟩
  | 26 => ⟨S_, .f32⟩
  | 27 => ⟨S32, .f32⟩
  | 28 => ⟨S32, .f32⟩
  | 29 => ⟨S32x1, .f32⟩
  | 30 => ⟨S32x256, .f32⟩
  | 31 => ⟨S32x256, .f32⟩
  | 32 => ⟨S1x128, .f32⟩
  | 33 => ⟨S32x128, .f32⟩
  | 34 => ⟨S1x64, .f32⟩
  | 35 => ⟨S32x64, .f32⟩
  | 36 => ⟨S1x1, .f32⟩
  | 37 => ⟨S32x1, .f32⟩
  | _ => ⟨S50000x10, .f32⟩

abbrev hbmTy (i : Nat) : BufTy := match i / 128 with
  | 0 => hbmTy0_0 i
  | 1 => hbmTy0_1 i
  | _ => ⟨S50000x10, .f32⟩

abbrev bufTy : (tb : Table) → Fin (tcTables nBuf tb) → BufTy
  | .hbm, ⟨i, _⟩ => hbmTy i
  | .local _ .vmem, ⟨0, _⟩ => ⟨S8000x13, .f32⟩
  | .local _ .vmem, ⟨1, _⟩ => ⟨S8000x13, .f32⟩
  | .local _ .vmem, ⟨2, _⟩ => ⟨S13x64, .f32⟩
  | .local _ .vmem, ⟨3, _⟩ => ⟨S1x64, .f32⟩
  | .local _ .vmem, ⟨4, _⟩ => ⟨S8000x64, .f32⟩
  | .local _ .vmem, ⟨5, _⟩ => ⟨S8000x64, .f32⟩
  | .local _ .vmem, ⟨6, _⟩ => ⟨S5000x74, .f32⟩
  | .local _ .vmem, ⟨7, _⟩ => ⟨S5000x74, .f32⟩
  | .local _ .vmem, ⟨8, _⟩ => ⟨S74x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S8000x67, .f32⟩
  | .local _ .vmem, ⟨13, _⟩ => ⟨S8000x67, .f32⟩
  | .local _ .vmem, ⟨14, _⟩ => ⟨S67x128, .f32⟩
  | .local _ .vmem, ⟨15, _⟩ => ⟨S1x128, .f32⟩
  | .local _ .vmem, ⟨16, _⟩ => ⟨S8000x128, .f32⟩
  | .local _ .vmem, ⟨17, _⟩ => ⟨S8000x128, .f32⟩
  | .local _ .vmem, ⟨18, _⟩ => ⟨S5000x192, .f32⟩
  | .local _ .vmem, ⟨19, _⟩ => ⟨S5000x192, .f32⟩
  | .local _ .vmem, ⟨20, _⟩ => ⟨S192x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S8000x131, .f32⟩
  | .local _ .vmem, ⟨25, _⟩ => ⟨S8000x131, .f32⟩
  | .local _ .vmem, ⟨26, _⟩ => ⟨S131x256, .f32⟩
  | .local _ .vmem, ⟨27, _⟩ => ⟨S1x256, .f32⟩
  | .local _ .vmem, ⟨28, _⟩ => ⟨S8000x256, .f32⟩
  | .local _ .vmem, ⟨29, _⟩ => ⟨S8000x256, .f32⟩
  | .local _ .vmem, ⟨30, _⟩ => ⟨S5000x384, .f32⟩
  | .local _ .vmem, ⟨31, _⟩ => ⟨S5000x384, .f32⟩
  | .local _ .vmem, ⟨32, _⟩ => ⟨S384x256, .f32⟩
  | .local _ .vmem, ⟨33, _⟩ => ⟨S1x256, .f32⟩
  | .local _ .vmem, ⟨34, _⟩ => ⟨S5000x256, .f32⟩
  | .local _ .vmem, ⟨35, _⟩ => ⟨S5000x256, .f32⟩
  | .local _ .vmem, ⟨36, _⟩ => ⟨S32x256, .f32⟩
  | .local _ .vmem, ⟨37, _⟩ => ⟨S256x128, .f32⟩
  | .local _ .vmem, ⟨38, _⟩ => ⟨S1x128, .f32⟩
  | .local _ .vmem, ⟨39, _⟩ => ⟨S32x128, .f32⟩
  | .local _ .vmem, ⟨40, _⟩ => ⟨S32x128, .f32⟩
  | .local _ .vmem, ⟨41, _⟩ => ⟨S128x64, .f32⟩
  | .local _ .vmem, ⟨42, _⟩ => ⟨S1x64, .f32⟩
  | .local _ .vmem, ⟨43, _⟩ => ⟨S32x64, .f32⟩
  | .local _ .vmem, ⟨44, _⟩ => ⟨S32x64, .f32⟩
  | .local _ .vmem, ⟨45, _⟩ => ⟨S64x1, .f32⟩
  | .local _ .vmem, ⟨46, _⟩ => ⟨S1x1, .f32⟩
  | .local _ .vmem, ⟨47, _⟩ => ⟨S32x1, .f32⟩
  | _, _ => ⟨S50000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_cst_3 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_call1_c : Ref sig .tc := ⟨.hbm, 74, rfl⟩
abbrev main_call1_v0 : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_c_1 : Ref sig .tc := ⟨.hbm, 82, rfl⟩
abbrev main_call1_c_2 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_3 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_call1_cst : Ref sig .tc := ⟨.hbm, 94, rfl⟩
abbrev main_call1_v15 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_cst_4 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_call2_c : Ref sig .tc := ⟨.hbm, 109, rfl⟩
abbrev main_call2_v0 : Ref sig .tc := ⟨.hbm, 110, rfl⟩
abbrev main_call2_v1 : Ref sig .tc := ⟨.hbm, 111, rfl⟩
abbrev main_call2_c_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_c_1 : Ref sig .tc := ⟨.hbm, 117, rfl⟩
abbrev main_call2_c_2 : Ref sig .tc := ⟨.hbm, 118, rfl⟩
abbrev main_call2_v6 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_c_3 : Ref sig .tc := ⟨.hbm, 125, rfl⟩
abbrev main_call2_v12 : Ref sig .tc := ⟨.hbm, 126, rfl⟩
abbrev main_call2_v13 : Ref sig .tc := ⟨.hbm, 127, rfl⟩
abbrev main_call2_v14 : Ref sig .tc := ⟨.hbm, 128, rfl⟩
abbrev main_call2_cst : Ref sig .tc := ⟨.hbm, 129, rfl⟩
abbrev main_call2_v15 : Ref sig .tc := ⟨.hbm, 130, rfl⟩
abbrev main_v37 : Ref sig .tc := ⟨.hbm, 131, rfl⟩
abbrev main_v38 : Ref sig .tc := ⟨.hbm, 132, rfl⟩
abbrev main_v39 : Ref sig .tc := ⟨.hbm, 133, rfl⟩
abbrev main_v40 : Ref sig .tc := ⟨.hbm, 134, rfl⟩
abbrev main_cst_5 : Ref sig .tc := ⟨.hbm, 135, rfl⟩
abbrev main_v41 : Ref sig .tc := ⟨.hbm, 136, rfl⟩
abbrev main_v42 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_cst_6 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_cst_7 : Ref sig .tc := ⟨.hbm, 148, rfl⟩
abbrev main_v52 : Ref sig .tc := ⟨.hbm, 149, rfl⟩
abbrev main_cst_8 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_cst_9 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc7_stg0_0 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc8_stg0_0 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem1_0 : DmaSem sig := 37
abbrev cc6_sem2_0 : DmaSem sig := 38
abbrev cc6_sem3_0 : DmaSem sig := 39
abbrev cc7_sem0_0 : DmaSem sig := 40
abbrev cc7_sem1_0 : DmaSem sig := 41
abbrev cc7_sem2_0 : DmaSem sig := 42
abbrev cc7_sem3_0 : DmaSem sig := 43
abbrev cc8_sem0_0 : DmaSem sig := 44
abbrev cc8_sem1_0 : DmaSem sig := 45
abbrev cc8_sem2_0 : DmaSem sig := 46
abbrev cc8_sem3_0 : DmaSem sig := 47

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S13x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x74 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S74x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x67 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S67x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S192x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x131 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S131x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x384 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S384x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S32x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S32x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S32x64 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S64x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S32x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x10_0 : S800000.BroadcastsInDim S800000x10 (![0] : Fin 1 → Fin S800000x10.rank)
  bcast_S_S800000x10 : S_.BroadcastsInDim S800000x10 (![] : Fin 0 → Fin S800000x10.rank)
  concatenates_S800000x10_S800000x3_S800000x13_d1 : Shape.Concatenates [S800000x10, S800000x3] S800000x13 1
  shapeCasts_S64_S1x64 : S64.ShapeCasts S1x64
  inb_S8000x13_S8000x13_0_0 : ∀ a, (![0, 0] : Fin 2 → Nat) a + S8000x13.size a ≤ S8000x13.size a
  h_S8000x13 : 0 < S8000x13.numel
  shapeCasts_S8000x13_S8000x13 : S8000x13.ShapeCasts S8000x13
  inb_S13x64_S13x64_0_0 : ∀ a, (![0, 0] : Fin 2 → Nat) a + S13x64.size a ≤ S13x64.size a
  h_S13x64 : 0 < S13x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S50000x64_S50000x10_S50000x74_d1 : Shape.Concatenates [S50000x64, S50000x10] S50000x74 1
  inb_S5000x74_S5000x74_0_0 : ∀ a, (![0, 0] : Fin 2 → Nat) a + S5000x74.size a ≤ S5000x74.size a
  h_S5000x74 : 0 < S5000x74.numel
  shapeCasts_S5000x74_S5000x74 : S5000x74.ShapeCasts S5000x74
  inb_S74x64_S74x64_0_0 : ∀ a, (![0, 0] : Fin 2 → Nat) a + S74x64.size a ≤ S74x64.size a
  h_S74x64 : 0 < S74x64.numel
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  concatenates_S800000x64_S800000x3_S800000x67_d1 : Shape.Concatenates [S800000x64, S800000x3] S800000x67 1
  shapeCasts_S128_S1x128 : S128.ShapeCasts S1x128
  inb_S8000x67_S8000x67_0_0 : ∀ a, (![0, 0] : Fin 2 → Nat) a + S8000x67.size a ≤ S8000x67.size a
  h_S8000x67 : 0 < S8000x67.numel
  shapeCasts_S8000x67_S8000x67 : S8000x67.ShapeCasts S8000x67
  inb_S67x128_S67x128_0_0 : ∀ a, (![0, 0] : Fin 2 → Nat) a + S67x128.size a ≤ S67x128.size a
  h_S67x128 : 0 < S67x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x64_S50000x192_d1 : Shape.Concatenates [S50000x128, S50000x64] S50000x192 1
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  inb_S192x128_S192x128_0_0 : ∀ a, (![0, 0] : Fin 2 → Nat) a + S192x128.size a ≤ S192x128.size a
  h_S192x128 : 0 < S192x128.numel
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S800000_S800000x128_0 : S800000.BroadcastsInDim S800000x128 (![0] : Fin 1 → Fin S800000x128.rank)
  bcast_S_S800000x128 : S_.BroadcastsInDim S800000x128 (![] : Fin 0 → Fin S800000x128.rank)
  concatenates_S800000x128_S800000x3_S800000x131_d1 : Shape.Concatenates [S800000x128, S800000x3] S800000x131 1
  shapeCasts_S256_S1x256 : S256.ShapeCasts S1x256
  inb_S8000x131_S8000x131_0_0 : ∀ a, (![0, 0] : Fin 2 → Nat) a + S8000x131.size a ≤ S8000x131.size a
  h_S8000x131 : 0 < S8000x131.numel
  shapeCasts_S8000x131_S8000x131 : S8000x131.ShapeCasts S8000x131
  inb_S131x256_S131x256_0_0 : ∀ a, (![0, 0] : Fin 2 → Nat) a + S131x256.size a ≤ S131x256.size a
  h_S131x256 : 0 < S131x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S8000x256_S8000x256_0_0 : ∀ a, (![0, 0] : Fin 2 → Nat) a + S8000x256.size a ≤ S8000x256.size a
  h_S8000x256 : 0 < S8000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S50000x256_S50000x128_S50000x384_d1 : Shape.Concatenates [S50000x256, S50000x128] S50000x384 1
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  inb_S384x256_S384x256_0_0 : ∀ a, (![0, 0] : Fin 2 → Nat) a + S384x256.size a ≤ S384x256.size a
  h_S384x256 : 0 < S384x256.numel
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S32x256 : S_.BroadcastsInDim S32x256 (![] : Fin 0 → Fin S32x256.rank)
  bcast_S_S32 : S_.BroadcastsInDim S32 (![] : Fin 0 → Fin S32.rank)
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S256x128_S256x128_0_0 : ∀ a, (![0, 0] : Fin 2 → Nat) a + S256x128.size a ≤ S256x128.size a
  h_S256x128 : 0 < S256x128.numel
  broadcasts_S1x128_S32x128 : S1x128.Broadcasts S32x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x64_S128x64_0_0 : ∀ a, (![0, 0] : Fin 2 → Nat) a + S128x64.size a ≤ S128x64.size a
  h_S128x64 : 0 < S128x64.numel
  broadcasts_S1x64_S32x64 : S1x64.Broadcasts S32x64
  inb_S32x64_S32x64_0_0 : ∀ a, (![0, 0] : Fin 2 → Nat) a + S32x64.size a ≤ S32x64.size a
  h_S32x64 : 0 < S32x64.numel
  shapeCasts_S1_S1x1 : S1.ShapeCasts S1x1
  shapeCasts_S32x64_S32x64 : S32x64.ShapeCasts S32x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32x1 : S1x1.Broadcasts S32x1
  inb_S32x1_S32x1_0_0 : ∀ a, (![0, 0] : Fin 2 → Nat) a + S32x1.size a ≤ S32x1.size a
  h_S32x1 : 0 < S32x1.numel
  scatter_S50000_S800000x1_S800000_n_0_0_1_wf : ScatterDims.WF S50000 S800000x1 S800000 [] [0] [0] 1
  gather_S50000x10_S800000x1_S800000x10_1_0_n_n_0_1_110_wf : GatherDims.WF S50000x10 S800000x1 S800000x10 [1] [0] [] [0] [] 1 ![1, 10]
  dot_S8000x13_S13x64_S8000x64_1_0_0_1_n_n_wf : DotDims.WF S8000x13 S13x64 S8000x64 [1] [0] [0] [1] [] []
  scatter_S50000x64_S800000x1_S800000x64_1_0_0_1_wf : ScatterDims.WF S50000x64 S800000x1 S800000x64 [1] [0] [0] 1
  dot_S5000x74_S74x64_S5000x64_1_0_0_1_n_n_wf : DotDims.WF S5000x74 S74x64 S5000x64 [1] [0] [0] [1] [] []
  gather_S50000x64_S800000x1_S800000x64_1_0_n_n_0_1_164_wf : GatherDims.WF S50000x64 S800000x1 S800000x64 [1] [0] [] [0] [] 1 ![1, 64]
  dot_S8000x67_S67x128_S8000x128_1_0_0_1_n_n_wf : DotDims.WF S8000x67 S67x128 S8000x128 [1] [0] [0] [1] [] []
  scatter_S50000x128_S800000x1_S800000x128_1_0_0_1_wf : ScatterDims.WF S50000x128 S800000x1 S800000x128 [1] [0] [0] 1
  dot_S5000x192_S192x128_S5000x128_1_0_0_1_n_n_wf : DotDims.WF S5000x192 S192x128 S5000x128 [1] [0] [0] [1] [] []
  gather_S50000x128_S800000x1_S800000x128_1_0_n_n_0_1_1128_wf : GatherDims.WF S50000x128 S800000x1 S800000x128 [1] [0] [] [0] [] 1 ![1, 128]
  dot_S8000x131_S131x256_S8000x256_1_0_0_1_n_n_wf : DotDims.WF S8000x131 S131x256 S8000x256 [1] [0] [0] [1] [] []
  scatter_S50000x256_S800000x1_S800000x256_1_0_0_1_wf : ScatterDims.WF S50000x256 S800000x1 S800000x256 [1] [0] [0] 1
  dot_S5000x384_S384x256_S5000x256_1_0_0_1_n_n_wf : DotDims.WF S5000x384 S384x256 S5000x256 [1] [0] [0] [1] [] []
  scatter_S32x256_S50000x1_S50000x256_1_0_0_1_wf : ScatterDims.WF S32x256 S50000x1 S50000x256 [1] [0] [0] 1
  scatter_S32_S50000x1_S50000_n_0_0_1_wf : ScatterDims.WF S32 S50000x1 S50000 [] [0] [0] 1
  dot_S32x256_S256x128_S32x128_1_0_0_1_n_n_wf : DotDims.WF S32x256 S256x128 S32x128 [1] [0] [0] [1] [] []
  dot_S32x128_S128x64_S32x64_1_0_0_1_n_n_wf : DotDims.WF S32x128 S128x64 S32x64 [1] [0] [0] [1] [] []
  dot_S32x64_S64x1_S32x1_1_0_0_1_n_n_wf : DotDims.WF S32x64 S64x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x13.size a ≤ S800000x13.size a
  hwx0_0 : ∀ i : grid0.Coords, EltTy.bits .f32 = 32 ∨ (Rect.block (s := S800000x13) S8000x13.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S13x64.size a ≤ S13x64.size a
  hwx0_1 : ∀ i : grid0.Coords, EltTy.bits .f32 = 32 ∨ (Rect.block (s := S13x64) S13x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S800000x64.size a
  hwx0_3 : ∀ i : grid0.Coords, EltTy.bits .f32 = 32 ∨ (Rect.block (s := S800000x64) S8000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x74.size a ≤ S50000x74.size a
  hwx1_0 : ∀ i : grid1.Coords, EltTy.bits .f32 = 32 ∨ (Rect.block (s := S50000x74) S5000x74.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S74x64.size a ≤ S74x64.size a
  hwx1_1 : ∀ i : grid1.Coords, EltTy.bits .f32 = 32 ∨ (Rect.block (s := S74x64) S74x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x67.size a ≤ S800000x67.size a
  hwx2_0 : ∀ i : grid2.Coords, EltTy.bits .f32 = 32 ∨ (Rect.block (s := S800000x67) S8000x67.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S67x128.size a ≤ S67x128.size a
  hwx2_1 : ∀ i : grid2.Coords, EltTy.bits .f32 = 32 ∨ (Rect.block (s := S67x128) S67x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S800000x128.size a
  hwx2_3 : ∀ i : grid2.Coords, EltTy.bits .f32 = 32 ∨ (Rect.block (s := S800000x128) S8000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x192.size a ≤ S50000x192.size a
  hwx3_0 : ∀ i : grid3.Coords, EltTy.bits .f32 = 32 ∨ (Rect.block (s := S50000x192) S5000x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S192x128.size a ≤ S192x128.size a
  hwx3_1 : ∀ i : grid3.Coords, EltTy.bits .f32 = 32 ∨ (Rect.block (s := S192x128) S192x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x131.size a ≤ S800000x131.size a
  hwx4_0 : ∀ i : grid4.Coords, EltTy.bits .f32 = 32 ∨ (Rect.block (s := S800000x131) S8000x131.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S131x256.size a ≤ S131x256.size a
  hwx4_1 : ∀ i : grid4.Coords, EltTy.bits .f32 = 32 ∨ (Rect.block (s := S131x256) S131x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x256.size a ≤ S800000x256.size a
  hwx4_3 : ∀ i : grid4.Coords, EltTy.bits .f32 = 32 ∨ (Rect.block (s := S800000x256) S8000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x384.size a ≤ S50000x384.size a
  hwx5_0 : ∀ i : grid5.Coords, EltTy.bits .f32 = 32 ∨ (Rect.block (s := S50000x384) S5000x384.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S384x256.size a ≤ S384x256.size a
  hwx5_1 : ∀ i : grid5.Coords, EltTy.bits .f32 = 32 ∨ (Rect.block (s := S384x256) S384x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x256.size a ≤ S50000x256.size a
  hwx5_3 : ∀ i : grid5.Coords, EltTy.bits .f32 = 32 ∨ (Rect.block (s := S50000x256) S5000x256.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S32x256.size a ≤ S32x256.size a
  hwx6_0 : ∀ i : grid6.Coords, EltTy.bits .f32 = 32 ∨ (Rect.block (s := S32x256) S32x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S32x128.size a ≤ S32x128.size a
  hwx6_3 : ∀ i : grid6.Coords, EltTy.bits .f32 = 32 ∨ (Rect.block (s := S32x128) S32x128.size (cc6_transform_3 i) (hinb6_3 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S32x128.size a ≤ S32x128.size a
  hwx7_0 : ∀ i : grid7.Coords, EltTy.bits .f32 = 32 ∨ (Rect.block (s := S32x128) S32x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S32x64.size a ≤ S32x64.size a
  hwx7_3 : ∀ i : grid7.Coords, EltTy.bits .f32 = 32 ∨ (Rect.block (s := S32x64) S32x64.size (cc7_transform_3 i) (hinb7_3 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S32x64.size a ≤ S32x64.size a
  hwx8_0 : ∀ i : grid8.Coords, EltTy.bits .f32 = 32 ∨ (Rect.block (s := S32x64) S32x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x1.size a ≤ S64x1.size a
  hwx8_1 : ∀ i : grid8.Coords, EltTy.bits .f32 = 32 ∨ (Rect.block (s := S64x1) S64x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S32x1.size a ≤ S32x1.size a
  hwx8_3 : ∀ i : grid8.Coords, EltTy.bits .f32 = 32 ∨ (Rect.block (s := S32x1) S32x1.size (cc8_transform_3 i) (hinb8_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x10_S800000x1_S800000x10_1_0_n_n_0_1_110 : GatherDims S50000x10 S800000x1 S800000x10 where
  offsetDims := [1]
  collapsedSliceDims := [0]
  operandBatchingDims := []
  startIndicesBatchingDims := []
  startIndexMap := [0]
  indexVectorDim := 1
  sliceSizes := ![1, 10]
  wf := gather_S50000x10_S800000x1_S800000x10_1_0_n_n_0_1_110_wf
def dot_S8000x13_S13x64_S8000x64_1_0_0_1_n_n : DotDims S8000x13 S13x64 S8000x64 where
  lhsContracting := [1]
  rhsContracting := [0]
  lhsNonContracting := [0]
  rhsNonContracting := [1]
  lhsBatch := []
  rhsBatch := []
  wf := dot_S8000x13_S13x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x74_S74x64_S5000x64_1_0_0_1_n_n : DotDims S5000x74 S74x64 S5000x64 where
  lhsContracting := [1]
  rhsContracting := [0]
  lhsNonContracting := [0]
  rhsNonContracting := [1]
  lhsBatch := []
  rhsBatch := []
  wf := dot_S5000x74_S74x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x67_S67x128_S8000x128_1_0_0_1_n_n : DotDims S8000x67 S67x128 S8000x128 where
  lhsContracting := [1]
  rhsContracting := [0]
  lhsNonContracting := [0]
  rhsNonContracting := [1]
  lhsBatch := []
  rhsBatch := []
  wf := dot_S8000x67_S67x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x192_S192x128_S5000x128_1_0_0_1_n_n : DotDims S5000x192 S192x128 S5000x128 where
  lhsContracting := [1]
  rhsContracting := [0]
  lhsNonContracting := [0]
  rhsNonContracting := [1]
  lhsBatch := []
  rhsBatch := []
  wf := dot_S5000x192_S192x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x131_S131x256_S8000x256_1_0_0_1_n_n : DotDims S8000x131 S131x256 S8000x256 where
  lhsContracting := [1]
  rhsContracting := [0]
  lhsNonContracting := [0]
  rhsNonContracting := [1]
  lhsBatch := []
  rhsBatch := []
  wf := dot_S8000x131_S131x256_S8000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x384_S384x256_S5000x256_1_0_0_1_n_n : DotDims S5000x384 S384x256 S5000x256 where
  lhsContracting := [1]
  rhsContracting := [0]
  lhsNonContracting := [0]
  rhsNonContracting := [1]
  lhsBatch := []
  rhsBatch := []
  wf := dot_S5000x384_S384x256_S5000x256_1_0_0_1_n_n_wf
def scatter_S32x256_S50000x1_S50000x256_1_0_0_1 : ScatterDims S32x256 S50000x1 S50000x256 where
  updateWindowDims := [1]
  insertedWindowDims := [0]
  scatterDimsToOperandDims := [0]
  indexVectorDim := 1
  wf := scatter_S32x256_S50000x1_S50000x256_1_0_0_1_wf
def scatter_S32_S50000x1_S50000_n_0_0_1 : ScatterDims S32 S50000x1 S50000 where
  updateWindowDims := []
  insertedWindowDims := [0]
  scatterDimsToOperandDims := [0]
  indexVectorDim := 1
  wf := scatter_S32_S50000x1_S50000_n_0_0_1_wf
def dot_S32x256_S256x128_S32x128_1_0_0_1_n_n : DotDims S32x256 S256x128 S32x128 where
  lhsContracting := [1]
  rhsContracting := [0]
  lhsNonContracting := [0]
  rhsNonContracting := [1]
  lhsBatch := []
  rhsBatch := []
  wf := dot_S32x256_S256x128_S32x128_1_0_0_1_n_n_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf
def dot_S32x64_S64x1_S32x1_1_0_0_1_n_n : DotDims S32x64 S64x1 S32x1 where
  lhsContracting := [1]
  rhsContracting := [0]
  lhsNonContracting := [0]
  rhsNonContracting := [1]
  lhsBatch := []
  rhsBatch := []
  wf := dot_S32x64_S64x1_S32x1_1_0_0_1_n_n_wf

abbrev win0_0 : Pipeline.Window sig grid0 :=
  Pipeline.Window.ofSpec (Memref.whole main_v14) S8000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S13x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x74.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S74x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S8000x67.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S67x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S8000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v34) S5000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S192x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v38) S8000x131.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S131x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v39) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v40) S8000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v46) S5000x384.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S384x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v48) S5000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v60) S32x256.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg16) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v62) S32x128.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v62) S32x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg18) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v63) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v64) S32x64.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v64) S32x64.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_arg20) S64x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v65) S1x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v66) S32x1.size cc8_transform_3 reads8_3 true false 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x10 : Shape := ⟨2, ![50000, 10]⟩
abbrev S2x800000 : Shape := ⟨2, ![2, 800000]⟩
abbrev S800000x3 : Shape := ⟨2, ![800000, 3]⟩
abbrev S50000 : Shape := ⟨1, ![50000]⟩
abbrev S13x64 : Shape := ⟨2, ![13, 64]⟩
abbrev S64 : Shape := ⟨1, ![64]⟩
abbrev S74x64 : Shape := ⟨2, ![74, 64]⟩
abbrev S67x128 : Shape := ⟨2, ![67, 128]⟩
abbrev S128 : Shape := ⟨1, ![128]⟩
abbrev S192x128 : Shape := ⟨2, ![192, 128]⟩
abbrev S131x256 : Shape := ⟨2, ![131, 256]⟩
abbrev S256 : Shape := ⟨1, ![256]⟩
abbrev S384x256 : Shape := ⟨2, ![384, 256]⟩
abbrev S256x128 : Shape := ⟨2, ![256, 128]⟩
abbrev S128x64 : Shape := ⟨2, ![128, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x10 : Shape := ⟨2, ![800000, 10]⟩
abbrev S800000x13 : Shape := ⟨2, ![800000, 13]⟩
abbrev S800000x64 : Shape := ⟨2, ![800000, 64]⟩
abbrev S1x64 : Shape := ⟨2, ![1, 64]⟩
abbrev S50000x64 : Shape := ⟨2, ![50000, 64]⟩
abbrev S50000x74 : Shape := ⟨2, ![50000, 74]⟩
abbrev S800000x67 : Shape := ⟨2, ![800000, 67]⟩
abbrev S800000x128 : Shape := ⟨2, ![800000, 128]⟩
abbrev S1x128 : Shape := ⟨2, ![1, 128]⟩
abbrev S50000x128 : Shape := ⟨2, ![50000, 128]⟩
abbrev S50000x192 : Shape := ⟨2, ![50000, 192]⟩
abbrev S800000x131 : Shape := ⟨2, ![800000, 131]⟩
abbrev S800000x256 : Shape := ⟨2, ![800000, 256]⟩
abbrev S1x256 : Shape := ⟨2, ![1, 256]⟩
abbrev S50000x256 : Shape := ⟨2, ![50000, 256]⟩
abbrev S50000x384 : Shape := ⟨2, ![50000, 384]⟩
abbrev S32x256 : Shape := ⟨2, ![32, 256]⟩
abbrev S32 : Shape := ⟨1, ![32]⟩
abbrev S32x1 : Shape := ⟨2, ![32, 1]⟩
abbrev S32x128 : Shape := ⟨2, ![32, 128]⟩
abbrev S32x64 : Shape := ⟨2, ![32, 64]⟩
abbrev S1x1 : Shape := ⟨2, ![1, 1]⟩

abbrev nBuf : Space → Nat
  | .hbm => 198
  | .vmem => 0
  | .smem => 0
  | _ => 0

abbrev hbmTy0_0 (i : Nat) : BufTy := match i % 128 with
  | 0 => ⟨S50000x10, .f32⟩
  | 1 => ⟨S2x800000, .i32⟩
  | 2 => ⟨S800000x3, .f32⟩
  | 3 => ⟨S50000, .i32⟩
  | 4 => ⟨S13x64, .f32⟩
  | 5 => ⟨S64, .f32⟩
  | 6 => ⟨S74x64, .f32⟩
  | 7 => ⟨S64, .f32⟩
  | 8 => ⟨S67x128, .f32⟩
  | 9 => ⟨S128, .f32⟩
  | 10 => ⟨S192x128, .f32⟩
  | 11 => ⟨S128, .f32⟩
  | 12 => ⟨S131x256, .f32⟩
  | 13 => ⟨S256, .f32⟩
  | 14 => ⟨S384x256, .f32⟩
  | 15 => ⟨S256, .f32⟩
  | 16 => ⟨S256x128, .f32⟩
  | 17 => ⟨S128, .f32⟩
  | 18 => ⟨S128x64, .f32⟩
  | 19 => ⟨S64, .f32⟩
  | 20 => ⟨S64x1, .f32⟩
  | 21 => ⟨S1, .f32⟩
  | 22 => ⟨S1x800000, .i32⟩
  | 23 => ⟨S800000, .i32⟩
  | 24 => ⟨S1x800000, .i32⟩
  | 25 => ⟨S800000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S50000x1, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x10, .f32⟩
  | 48 => ⟨S800000x13, .f32⟩
  | 49 => ⟨S800000x64, .f32⟩
  | 50 => ⟨S1x64, .f32⟩
  | 51 => ⟨S800000x64, .f32⟩
  | 52 => ⟨S800000x64, .f32⟩
  | 53 => ⟨S_, .f32⟩
  | 54 => ⟨S800000x64, .f32⟩
  | 55 => ⟨S800000x64, .i1⟩
  | 56 => ⟨S_, .f32⟩
  | 57 => ⟨S800000x64, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S50000x64, .f32⟩
  | 65 => ⟨S50000x64, .f32⟩
  | 66 => ⟨S50000x74, .f32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .i1⟩
  | 74 => ⟨S_, .f32⟩
  | 75 => ⟨S50000x64, .f32⟩
  | 76 => ⟨S50000x64, .f32⟩
  | 77 => ⟨S50000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S800000x67, .f32⟩
  | 88 => ⟨S800000x128, .f32⟩
  | 89 => ⟨S1x128, .f32⟩
  | 90 => ⟨S800000x128, .f32⟩
  | 91 => ⟨S800000x128, .f32⟩
  | 92 => ⟨S_, .f32⟩
  | 93 => ⟨S800000x128, .f32⟩
  | 94 => ⟨S800000x128, .i1⟩
  | 95 => ⟨S_, .f32⟩
  | 96 => ⟨S800000x128, .f32⟩
  | 97 => ⟨S800000x128, .f32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S50000x128, .f32⟩
  | 104 => ⟨S50000x128, .f32⟩
  | 105 => ⟨S50000x192, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .i1⟩
  | 113 => ⟨S_, .f32⟩
  | 114 => ⟨S50000x128, .f32⟩
  | 115 => ⟨S50000x128, .f32⟩
  | 116 => ⟨S50000x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S800000x131, .f32⟩
  | 127 => ⟨S800000x256, .f32⟩
  | _ => ⟨S50000x10, .f32⟩

abbrev hbmTy0_1 (i : Nat) : BufTy := match i % 128 with
  | 0 => ⟨S1x256, .f32⟩
  | 1 => ⟨S800000x256, .f32⟩
  | 2 => ⟨S800000x256, .f32⟩
  | 3 => ⟨S_, .f32⟩
  | 4 => ⟨S800000x256, .f32⟩
  | 5 => ⟨S800000x256, .i1⟩
  | 6 => ⟨S_, .f32⟩
  | 7 => ⟨S800000x256, .f32⟩
  | 8 => ⟨S800000x256, .f32⟩
  | 9 => ⟨S800000x256, .f32⟩
  | 10 => ⟨S_, .f32⟩
  | 11 => ⟨S50000x256, .f32⟩
  | 12 => ⟨S800000x1, .i32⟩
  | 13 => ⟨S50000x256, .f32⟩
  | 14 => ⟨S50000x256, .f32⟩
  | 15 => ⟨S50000x256, .f32⟩
  | 16 => ⟨S50000x384, .f32⟩
  | 17 => ⟨S50000x256, .f32⟩
  | 18 => ⟨S1x256, .f32⟩
  | 19 => ⟨S50000x256, .f32⟩
  | 20 => ⟨S50000x256, .f32⟩
  | 21 => ⟨S_, .f32⟩
  | 22 => ⟨S50000x256, .f32⟩
  | 23 => ⟨S50000x256, .i1⟩
  | 24 => ⟨S_, .f32⟩
  | 25 => ⟨S50000x256, .f32⟩
  | 26 => ⟨S50000x256, .f32⟩
  | 27 => ⟨S50000x256, .f32⟩
  | 28 => ⟨S_, .f32⟩
  | 29 => ⟨S32x256, .f32⟩
  | 30 => ⟨S50000x1, .i32⟩
  | 31 => ⟨S32x256, .f32⟩
  | 32 => ⟨S_, .f32⟩
  | 33 => ⟨S50000, .f32⟩
  | 34 => ⟨S_, .f32⟩
  | 35 => ⟨S32, .f32⟩
  | 36 => ⟨S50000x1, .i32⟩
  | 37 => ⟨S32, .f32⟩
  | 38 => ⟨S_, .f32⟩
  | 39 => ⟨S32, .f32⟩
  | 40 => ⟨S32, .f32⟩
  | 41 => ⟨S32x1, .f32⟩
  | 42 => ⟨S32x256, .f32⟩
  | 43 => ⟨S32x256, .f32⟩
  | 44 => ⟨S32x128, .f32⟩
  | 45 => ⟨S1x128, .f32⟩
  | 46 => ⟨S32x128, .f32⟩
  | 47 => ⟨S32x128, .f32⟩
  | 48 => ⟨S_, .f32⟩
  | 49 => ⟨S32x128, .f32⟩
  | 50 => ⟨S32x128, .i1⟩
  | 51 => ⟨S_, .f32⟩
  | 52 => ⟨S32x128, .f32⟩
  | 53 => ⟨S32x128, .f32⟩
  | 54 => ⟨S32x128, .f32⟩
  | 55 => ⟨S32x64, .f32⟩
  | 56 => ⟨S1x64, .f32⟩
  | 57 => ⟨S32x64, .f32⟩
  | 58 => ⟨S32x64, .f32⟩
  | 59 => ⟨S_, .f32⟩
  | 60 => ⟨S32x64, .f32⟩
  | 61 => ⟨S32x64, .i1⟩
  | 62 => ⟨S_, .f32⟩
  | 63 => ⟨S32x64, .f32⟩
  | 64 => ⟨S32x64, .f32⟩
  | 65 => ⟨S32x64, .f32⟩
  | 66 => ⟨S32x1, .f32⟩
  | 67 => ⟨S1x1, .f32⟩
  | 68 => ⟨S32x1, .f32⟩
  | 69 => ⟨S32x1, .f32⟩
  | _ => ⟨S50000x10, .f32⟩

abbrev hbmTy (i : Nat) : BufTy := match i / 128 with
  | 0 => hbmTy0_0 i
  | 1 => hbmTy0_1 i
  | _ => ⟨S50000x10, .f32⟩

abbrev bufTy : (tb : Table) → Fin (tcTables nBuf tb) → BufTy
  | .hbm, ⟨i, _⟩ => hbmTy i
  | _, _ => ⟨S50000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_cst_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_v41 : Ref sig .tc := ⟨.hbm, 73, rfl⟩
abbrev main_cst_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_9 : Ref sig .tc := ⟨.hbm, 78, rfl⟩
abbrev main_v45 : Ref sig .tc := ⟨.hbm, 79, rfl⟩
abbrev main_v46 : Ref sig .tc := ⟨.hbm, 80, rfl⟩
abbrev main_c_10 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_11 : Ref sig .tc := ⟨.hbm, 92, rfl⟩
abbrev main_v57 : Ref sig .tc := ⟨.hbm, 93, rfl⟩
abbrev main_v58 : Ref sig .tc := ⟨.hbm, 94, rfl⟩
abbrev main_cst_12 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_13 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_14 : Ref sig .tc := ⟨.hbm, 110, rfl⟩
abbrev main_v72 : Ref sig .tc := ⟨.hbm, 111, rfl⟩
abbrev main_v73 : Ref sig .tc := ⟨.hbm, 112, rfl⟩
abbrev main_cst_15 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_16 : Ref sig .tc := ⟨.hbm, 117, rfl⟩
abbrev main_v77 : Ref sig .tc := ⟨.hbm, 118, rfl⟩
abbrev main_v78 : Ref sig .tc := ⟨.hbm, 119, rfl⟩
abbrev main_c_17 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_18 : Ref sig .tc := ⟨.hbm, 131, rfl⟩
abbrev main_v89 : Ref sig .tc := ⟨.hbm, 132, rfl⟩
abbrev main_v90 : Ref sig .tc := ⟨.hbm, 133, rfl⟩
abbrev main_cst_19 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_21 : Ref sig .tc := ⟨.hbm, 149, rfl⟩
abbrev main_v104 : Ref sig .tc := ⟨.hbm, 150, rfl⟩
abbrev main_v105 : Ref sig .tc := ⟨.hbm, 151, rfl⟩
abbrev main_cst_22 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_23 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_24 : Ref sig .tc := ⟨.hbm, 160, rfl⟩
abbrev main_v112 : Ref sig .tc := ⟨.hbm, 161, rfl⟩
abbrev main_cst_25 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_26 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_27 : Ref sig .tc := ⟨.hbm, 176, rfl⟩
abbrev main_v125 : Ref sig .tc := ⟨.hbm, 177, rfl⟩
abbrev main_v126 : Ref sig .tc := ⟨.hbm, 178, rfl⟩
abbrev main_cst_28 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_29 : Ref sig .tc := ⟨.hbm, 187, rfl⟩
abbrev main_v134 : Ref sig .tc := ⟨.hbm, 188, rfl⟩
abbrev main_v135 : Ref sig .tc := ⟨.hbm, 189, rfl⟩
abbrev main_cst_30 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  concatenates_S800000x10_S800000x3_S800000x13_d1 : Shape.Concatenates [S800000x10, S800000x3] S800000x13 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S50000x64_S50000x10_S50000x74_d1 : Shape.Concatenates [S50000x64, S50000x10] S50000x74 1
  bcast_S1x64_S50000x64_0_1 : S1x64.BroadcastsInDim S50000x64 (![0, 1] : Fin 2 → Fin S50000x64.rank)
  concatenates_S800000x64_S800000x3_S800000x67_d1 : Shape.Concatenates [S800000x64, S800000x3] S800000x67 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x64_S50000x192_d1 : Shape.Concatenates [S50000x128, S50000x64] S50000x192 1
  bcast_S1x128_S50000x128_0_1 : S1x128.BroadcastsInDim S50000x128 (![0, 1] : Fin 2 → Fin S50000x128.rank)
  concatenates_S800000x128_S800000x3_S800000x131_d1 : Shape.Concatenates [S800000x128, S800000x3] S800000x131 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S50000x256_S50000x128_S50000x384_d1 : Shape.Concatenates [S50000x256, S50000x128] S50000x384 1
  bcast_S1x256_S50000x256_0_1 : S1x256.BroadcastsInDim S50000x256 (![0, 1] : Fin 2 → Fin S50000x256.rank)
  bcast_S_S32x256 : S_.BroadcastsInDim S32x256 (![] : Fin 0 → Fin S32x256.rank)
  bcast_S_S32 : S_.BroadcastsInDim S32 (![] : Fin 0 → Fin S32.rank)
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  scatter_S50000_S800000x1_S800000_n_0_0_1_wf : ScatterDims.WF S50000 S800000x1 S800000 [] [0] [0] 1
  gather_S50000x10_S800000x1_S800000x10_1_0_n_n_0_1_110_wf : GatherDims.WF S50000x10 S800000x1 S800000x10 [1] [0] [] [0] [] 1 ![1, 10]
  dot_S800000x13_S13x64_S800000x64_1_0_0_1_n_n_wf : DotDims.WF S800000x13 S13x64 S800000x64 [1] [0] [0] [1] [] []
  scatter_S50000x64_S800000x1_S800000x64_1_0_0_1_wf : ScatterDims.WF S50000x64 S800000x1 S800000x64 [1] [0] [0] 1
  dot_S50000x74_S74x64_S50000x64_1_0_0_1_n_n_wf : DotDims.WF S50000x74 S74x64 S50000x64 [1] [0] [0] [1] [] []
  gather_S50000x64_S800000x1_S800000x64_1_0_n_n_0_1_164_wf : GatherDims.WF S50000x64 S800000x1 S800000x64 [1] [0] [] [0] [] 1 ![1, 64]
  dot_S800000x67_S67x128_S800000x128_1_0_0_1_n_n_wf : DotDims.WF S800000x67 S67x128 S800000x128 [1] [0] [0] [1] [] []
  scatter_S50000x128_S800000x1_S800000x128_1_0_0_1_wf : ScatterDims.WF S50000x128 S800000x1 S800000x128 [1] [0] [0] 1
  dot_S50000x192_S192x128_S50000x128_1_0_0_1_n_n_wf : DotDims.WF S50000x192 S192x128 S50000x128 [1] [0] [0] [1] [] []
  gather_S50000x128_S800000x1_S800000x128_1_0_n_n_0_1_1128_wf : GatherDims.WF S50000x128 S800000x1 S800000x128 [1] [0] [] [0] [] 1 ![1, 128]
  dot_S800000x131_S131x256_S800000x256_1_0_0_1_n_n_wf : DotDims.WF S800000x131 S131x256 S800000x256 [1] [0] [0] [1] [] []
  scatter_S50000x256_S800000x1_S800000x256_1_0_0_1_wf : ScatterDims.WF S50000x256 S800000x1 S800000x256 [1] [0] [0] 1
  dot_S50000x384_S384x256_S50000x256_1_0_0_1_n_n_wf : DotDims.WF S50000x384 S384x256 S50000x256 [1] [0] [0] [1] [] []
  scatter_S32x256_S50000x1_S50000x256_1_0_0_1_wf : ScatterDims.WF S32x256 S50000x1 S50000x256 [1] [0] [0] 1
  scatter_S32_S50000x1_S50000_n_0_0_1_wf : ScatterDims.WF S32 S50000x1 S50000 [] [0] [0] 1
  dot_S32x256_S256x128_S32x128_1_0_0_1_n_n_wf : DotDims.WF S32x256 S256x128 S32x128 [1] [0] [0] [1] [] []
  dot_S32x128_S128x64_S32x64_1_0_0_1_n_n_wf : DotDims.WF S32x128 S128x64 S32x64 [1] [0] [0] [1] [] []
  dot_S32x64_S64x1_S32x1_1_0_0_1_n_n_wf : DotDims.WF S32x64 S64x1 S32x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x10_S800000x1_S800000x10_1_0_n_n_0_1_110 : GatherDims S50000x10 S800000x1 S800000x10 where
  offsetDims := [1]
  collapsedSliceDims := [0]
  operandBatchingDims := []
  startIndicesBatchingDims := []
  startIndexMap := [0]
  indexVectorDim := 1
  sliceSizes := ![1, 10]
  wf := gather_S50000x10_S800000x1_S800000x10_1_0_n_n_0_1_110_wf
def dot_S800000x13_S13x64_S800000x64_1_0_0_1_n_n : DotDims S800000x13 S13x64 S800000x64 where
  lhsContracting := [1]
  rhsContracting := [0]
  lhsNonContracting := [0]
  rhsNonContracting := [1]
  lhsBatch := []
  rhsBatch := []
  wf := dot_S800000x13_S13x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x74_S74x64_S50000x64_1_0_0_1_n_n : DotDims S50000x74 S74x64 S50000x64 where
  lhsContracting := [1]
  rhsContracting := [0]
  lhsNonContracting := [0]
  rhsNonContracting := [1]
  lhsBatch := []
  rhsBatch := []
  wf := dot_S50000x74_S74x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x67_S67x128_S800000x128_1_0_0_1_n_n : DotDims S800000x67 S67x128 S800000x128 where
  lhsContracting := [1]
  rhsContracting := [0]
  lhsNonContracting := [0]
  rhsNonContracting := [1]
  lhsBatch := []
  rhsBatch := []
  wf := dot_S800000x67_S67x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x131_S131x256_S800000x256_1_0_0_1_n_n : DotDims S800000x131 S131x256 S800000x256 where
  lhsContracting := [1]
  rhsContracting := [0]
  lhsNonContracting := [0]
  rhsNonContracting := [1]
  lhsBatch := []
  rhsBatch := []
  wf := dot_S800000x131_S131x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x384_S384x256_S50000x256_1_0_0_1_n_n : DotDims S50000x384 S384x256 S50000x256 where
  lhsContracting := [1]
  rhsContracting := [0]
  lhsNonContracting := [0]
  rhsNonContracting := [1]
  lhsBatch := []
  rhsBatch := []
  wf := dot_S50000x384_S384x256_S50000x256_1_0_0_1_n_n_wf
def scatter_S32x256_S50000x1_S50000x256_1_0_0_1 : ScatterDims S32x256 S50000x1 S50000x256 where
  updateWindowDims := [1]
  insertedWindowDims := [0]
  scatterDimsToOperandDims := [0]
  indexVectorDim := 1
  wf := scatter_S32x256_S50000x1_S50000x256_1_0_0_1_wf
def scatter_S32_S50000x1_S50000_n_0_0_1 : ScatterDims S32 S50000x1 S50000 where
  updateWindowDims := []
  insertedWindowDims := [0]
  scatterDimsToOperandDims := [0]
  indexVectorDim := 1
  wf := scatter_S32_S50000x1_S50000_n_0_0_1_wf
def dot_S32x256_S256x128_S32x128_1_0_0_1_n_n : DotDims S32x256 S256x128 S32x128 where
  lhsContracting := [1]
  rhsContracting := [0]
  lhsNonContracting := [0]
  rhsNonContracting := [1]
  lhsBatch := []
  rhsBatch := []
  wf := dot_S32x256_S256x128_S32x128_1_0_0_1_n_n_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf
def dot_S32x64_S64x1_S32x1_1_0_0_1_n_n : DotDims S32x64 S64x1 S32x1 where
  lhsContracting := [1]
  rhsContracting := [0]
  lhsNonContracting := [0]
  rhsNonContracting := [1]
  lhsBatch := []
  rhsBatch := []
  wf := dot_S32x64_S64x1_S32x1_1_0_0_1_n_n_wf

class Facts : Prop extends Facts₀ where

variable [Facts]
-- ==== Proof.RefArgs.lean ====
/-
  NO OPERATION OF THE REFERENCE WRITES AN ARGUMENT: every one of the 176 operations writes its own result buffer, and an
  argument's buffer is none of them. So the fold of the whole list leaves each argument array as launched.
-/
import proofs.«407242_j23235773071434_1_alg».proof.Proof.RefRun

set_option maxRecDepth 16384

noncomputable section

namespace Cert.ReferenceIdeal.RF

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- The buffer in the goal is written by no operation of the list. -/
macro "arg_kept" : tactic =>
  `(tactic| (refine StableHlo.after_of_forall_not_mem _ _ (List.forall_iff_forall_mem.mp (by
      simp only [RunP.ops, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))))

set_option maxHeartbeats 2000000 in
theorem kept_arg0 : after (RunP.ops (F := F)) (launchContents m c) (Proc.devRef .tc main_arg0) = m ((c.tc : Thread nD τ).loc main_arg0) := by
  refine Eq.trans (by arg_kept) rfl

set_option maxHeartbeats 2000000 in
theorem kept_arg1 : after (RunP.ops (F := F)) (launchContents m c) (Proc.devRef .tc main_arg1) = m ((c.tc : Thread nD τ).loc main_arg1) := by
  refine Eq.trans (by arg_kept) rfl

set_option maxHeartbeats 2000000 in
theorem kept_arg2 : after (RunP.ops (F := F)) (launchContents m c) (Proc.devRef .tc main_arg2) = m ((c.tc : Thread nD τ).loc main_arg2) := by
  refine Eq.trans (by arg_kept) rfl

set_option maxHeartbeats 2000000 in
theorem kept_arg3 : after (RunP.ops (F := F)) (launchContents m c) (Proc.devRef .tc main_arg3) = m ((c.tc : Thread nD τ).loc main_arg3) := by
  refine Eq.trans (by arg_kept) rfl

set_option maxHeartbeats 2000000 in
theorem kept_arg4 : after (RunP.ops (F := F)) (launchContents m c) (Proc.devRef .tc main_arg4) = m ((c.tc : Thread nD τ).loc main_arg4) := by
  refine Eq.trans (by arg_kept) rfl

set_option maxHeartbeats 2000000 in
theorem kept_arg5 : after (RunP.ops (F := F)) (launchContents m c) (Proc.devRef .tc main_arg5) = m ((c.tc : Thread nD τ).loc main_arg5) := by
  refine Eq.trans (by arg_kept) rfl

set_option maxHeartbeats 2000000 in
theorem kept_arg6 : after (RunP.ops (F := F)) (launchContents m c) (Proc.devRef .tc main_arg6) = m ((c.tc : Thread nD τ).loc main_arg6) := by
  refine Eq.trans (by arg_kept) rfl

set_option maxHeartbeats 2000000 in
theorem kept_arg7 : after (RunP.ops (F := F)) (launchContents m c) (Proc.devRef .tc main_arg7) = m ((c.tc : Thread nD τ).loc main_arg7) := by
  refine Eq.trans (by arg_kept) rfl

set_option maxHeartbeats 2000000 in
theorem kept_arg8 : after (RunP.ops (F := F)) (launchContents m c) (Proc.devRef .tc main_arg8) = m ((c.tc : Thread nD τ).loc main_arg8) := by
  refine Eq.trans (by arg_kept) rfl

set_option maxHeartbeats 2000000 in
theorem kept_arg9 : after (RunP.ops (F := F)) (launchContents m c) (Proc.devRef .tc main_arg9) = m ((c.tc : Thread nD τ).loc main_arg9) := by
  refine Eq.trans (by arg_kept) rfl

set_option maxHeartbeats 2000000 in
theorem kept_arg10 : after (RunP.ops (F := F)) (launchContents m c) (Proc.devRef .tc main_arg10) = m ((c.tc : Thread nD τ).loc main_arg10) := by
  refine Eq.trans (by arg_kept) rfl

set_option maxHeartbeats 2000000 in
theorem kept_arg11 : after (RunP.ops (F := F)) (launchContents m c) (Proc.devRef .tc main_arg11) = m ((c.tc : Thread nD τ).loc main_arg11) := by
  refine Eq.trans (by arg_kept) rfl

set_option maxHeartbeats 2000000 in
theorem kept_arg12 : after (RunP.ops (F := F)) (launchContents m c) (Proc.devRef .tc main_arg12) = m ((c.tc : Thread nD τ).loc main_arg12) := by
  refine Eq.trans (by arg_kept) rfl

set_option maxHeartbeats 2000000 in
theorem kept_arg13 : after (RunP.ops (F := F)) (launchContents m c) (Proc.devRef .tc main_arg13) = m ((c.tc : Thread nD τ).loc main_arg13) := by
  refine Eq.trans (by arg_kept) rfl

set_option maxHeartbeats 2000000 in
theorem kept_arg14 : after (RunP.ops (F := F)) (launchContents m c) (Proc.devRef .tc main_arg14) = m ((c.tc : Thread nD τ).loc main_arg14) := by
  refine Eq.trans (by arg_kept) rfl

set_option maxHeartbeats 2000000 in
theorem kept_arg15 : after (RunP.ops (F := F)) (launchContents m c) (Proc.devRef .tc main_arg15) = m ((c.tc : Thread nD τ).loc main_arg15) := by
  refine Eq.trans (by arg_kept) rfl

set_option maxHeartbeats 2000000 in
theorem kept_arg16 : after (RunP.ops (F := F)) (launchContents m c) (Proc.devRef .tc main_arg16) = m ((c.tc : Thread nD τ).loc main_arg16) := by
  refine Eq.trans (by arg_kept) rfl

set_option maxHeartbeats 2000000 in
theorem kept_arg17 : after (RunP.ops (F := F)) (launchContents m c) (Proc.devRef .tc main_arg17) = m ((c.tc : Thread nD τ).loc main_arg17) := by
  refine Eq.trans (by arg_kept) rfl

set_option maxHeartbeats 2000000 in
theorem kept_arg18 : after (RunP.ops (F := F)) (launchContents m c) (Proc.devRef .tc main_arg18) = m ((c.tc : Thread nD τ).loc main_arg18) := by
  refine Eq.trans (by arg_kept) rfl

set_option maxHeartbeats 2000000 in
theorem kept_arg19 : after (RunP.ops (F := F)) (launchContents m c) (Proc.devRef .tc main_arg19) = m ((c.tc : Thread nD τ).loc main_arg19) := by
  refine Eq.trans (by arg_kept) rfl

set_option maxHeartbeats 2000000 in
theorem kept_arg20 : after (RunP.ops (F := F)) (launchContents m c) (Proc.devRef .tc main_arg20) = m ((c.tc : Thread nD τ).loc main_arg20) := by
  refine Eq.trans (by arg_kept) rfl

set_option maxHeartbeats 2000000 in
theorem kept_arg21 : after (RunP.ops (F := F)) (launchContents m c) (Proc.devRef .tc main_arg21) = m ((c.tc : Thread nD τ).loc main_arg21) := by
  refine Eq.trans (by arg_kept) rfl

end Cert.ReferenceIdeal.RF

end
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.Spec.lean ====
/-
  WHAT BOTH PROGRAMS COMPUTE, stage by stage, as functions of the 22 argument arrays (bundled in `Args`), at the
  extended reals. Three rounds of message passing on a graph of 50000 nodes and 800000 edges — gather the source node's
  features along each edge and append the edge's own 3 features; a rectified affine layer per edge; add the edge
  messages up at their destination nodes and scale by the inverse in-degree (at least 1); append the node's previous
  features; a rectified affine layer per node — then the nodes' features added up per graph (32 graphs) and divided by
  the graph's node count (at least 1), and three affine layers (the last one not rectified) down to one number per graph.
  The source index of an edge is read the NumPy way (a negative index counts from the end) and the gather clamps.
-/
import proofs.«407242_j23235773071434_1_alg».proof.ReferenceIdeal
import proofs.«407242_j23235773071434_1_alg».proof.Proof.Gen.ReferenceIdeal
import proofs.«407242_j23235773071434_1_alg».proof.Proof.LibDense

noncomputable section

namespace Cert.Spec

open Idealize.ShloMosaic Cert.ReferenceIdeal Cert.ReferenceIdeal.Gen Cert.Lib.Dense

/-- The 22 argument arrays. -/
structure Args where
  x : FVec Ideal S50000x10 .f32
  ei : IVec S2x800000 32
  ea : FVec Ideal S800000x3 .f32
  batch : IVec S50000 32
  mw0 : FVec Ideal S13x64 .f32
  mb0 : FVec Ideal S64 .f32
  uw0 : FVec Ideal S74x64 .f32
  ub0 : FVec Ideal S64 .f32
  mw1 : FVec Ideal S67x128 .f32
  mb1 : FVec Ideal S128 .f32
  uw1 : FVec Ideal S192x128 .f32
  ub1 : FVec Ideal S128 .f32
  mw2 : FVec Ideal S131x256 .f32
  mb2 : FVec Ideal S256 .f32
  uw2 : FVec Ideal S384x256 .f32
  ub2 : FVec Ideal S256 .f32
  fw0 : FVec Ideal S256x128 .f32
  fb0 : FVec Ideal S128 .f32
  fw1 : FVec Ideal S128x64 .f32
  fb1 : FVec Ideal S64 .f32
  fw2 : FVec Ideal S64x1 .f32
  fb2 : FVec Ideal S1 .f32

variable (a : Args)

/-- The edges' source and destination nodes: the two rows of the edge index. -/
def src : IVec S800000 32 :=
  shapeCast S800000 (extractStridedSlice S1x800000 ![0, 0] a.ei slices_S2x800000_S1x800000_0_0) shapeCasts_S1x800000_S800000
def dst : IVec S800000 32 :=
  shapeCast S800000 (extractStridedSlice S1x800000 ![1, 0] a.ei slices_S2x800000_S1x800000_1_0) shapeCasts_S1x800000_S800000

/-- One over the in-degree (at least 1) of every node, as a column. -/
def invd : FVec Ideal S50000x1 .f32 :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1 (broadcastInDim S50000 ![] bcast_S_S50000 (constant S_ .f32 0x00000000#32))
          (broadcastInDim S800000x1 ![0] bcast_S800000_S800000x1_0 (dst a))
          (broadcastInDim S800000 ![] bcast_S_S800000 (constant S_ .f32 0x3F800000#32)))
        (broadcastInDim S50000 ![] bcast_S_S50000 (constant S_ .f32 0x3F800000#32))))

/-- The source indices with a negative one counted from the end, as a column of start indices. -/
def idxcol : IVec S800000x1 32 :=
  broadcastInDim S800000x1 ![0] bcast_S800000_S800000x1_0
    (select (cmpi .slt (src a) (broadcastInDim S800000 ![] bcast_S_S800000 (constantI S_ 32 0#32)))
      (addi (src a) (broadcastInDim S800000 ![] bcast_S_S800000 (constantI S_ 32 50000#32))) (src a))

/-- Every source index lies in [-50000, 50000): the range in which indexing a table of 50000 rows is defined. -/
def SrcOk : Prop :=
  ∀ p : Fin 800000, -50000 ≤ (src a (ValueIdx.ix1 p)).toInt ∧ (src a (ValueIdx.ix1 p)).toInt < 50000

/-! ## Round 0 -/
def gat0 : FVec Ideal S800000x10 .f32 := Host.gather gather_S50000x10_S800000x1_S800000x10_1_0_n_n_0_1_110 a.x (idxcol a)
def cat0 : FVec Ideal S800000x13 .f32 :=
  concatenate S800000x13 1 [⟨S800000x10, gat0 a⟩, ⟨S800000x3, a.ea⟩] concatenates_S800000x10_S800000x3_S800000x13_d1
def msg0 : FVec Ideal S800000x64 .f32 := denseLeaky (M := 800000) (K := 13) (N := 64) (cat0 a) a.mw0 (biasRow a.mb0)
def agg0 : FVec Ideal S50000x74 .f32 :=
  concatenate S50000x74 1 [⟨S50000x64, mulf
      (Host.scatterAdd scatter_S50000x64_S800000x1_S800000x64_1_0_0_1 (broadcastInDim S50000x64 ![] bcast_S_S50000x64 (constant S_ .f32 0x00000000#32))
        (broadcastInDim S800000x1 ![0] bcast_S800000_S800000x1_0 (dst a)) (msg0 a))
      (broadcastInDim S50000x64 ![0, 1] bcast_S50000x1_S50000x64_0_1 (invd a))⟩, ⟨S50000x10, a.x⟩] concatenates_S50000x64_S50000x10_S50000x74_d1
def h1 : FVec Ideal S50000x64 .f32 := denseLeaky (M := 50000) (K := 74) (N := 64) (agg0 a) a.uw0 (biasRow a.ub0)

/-! ## Round 1 -/
def gat1 : FVec Ideal S800000x64 .f32 := Host.gather gather_S50000x64_S800000x1_S800000x64_1_0_n_n_0_1_164 (h1 a) (idxcol a)
def cat1 : FVec Ideal S800000x67 .f32 :=
  concatenate S800000x67 1 [⟨S800000x64, gat1 a⟩, ⟨S800000x3, a.ea⟩] concatenates_S800000x64_S800000x3_S800000x67_d1
def msg1 : FVec Ideal S800000x128 .f32 := denseLeaky (M := 800000) (K := 67) (N := 128) (cat1 a) a.mw1 (biasRow a.mb1)
def agg1 : FVec Ideal S50000x192 .f32 :=
  concatenate S50000x192 1 [⟨S50000x128, mulf
      (Host.scatterAdd scatter_S50000x128_S800000x1_S800000x128_1_0_0_1 (broadcastInDim S50000x128 ![] bcast_S_S50000x128 (constant S_ .f32 0x00000000#32))
        (broadcastInDim S800000x1 ![0] bcast_S800000_S800000x1_0 (dst a)) (msg1 a))
      (broadcastInDim S50000x128 ![0, 1] bcast_S50000x1_S50000x128_0_1 (invd a))⟩, ⟨S50000x64, h1 a⟩] concatenates_S50000x128_S50000x64_S50000x192_d1
def h2 : FVec Ideal S50000x128 .f32 := denseLeaky (M := 50000) (K := 192) (N := 128) (agg1 a) a.uw1 (biasRow a.ub1)

/-! ## Round 2 -/
def gat2 : FVec Ideal S800000x128 .f32 := Host.gather gather_S50000x128_S800000x1_S800000x128_1_0_n_n_0_1_1128 (h2 a) (idxcol a)
def cat2 : FVec Ideal S800000x131 .f32 :=
  concatenate S800000x131 1 [⟨S800000x128, gat2 a⟩, ⟨S800000x3, a.ea⟩] concatenates_S800000x128_S800000x3_S800000x131_d1
def msg2 : FVec Ideal S800000x256 .f32 := denseLeaky (M := 800000) (K := 131) (N := 256) (cat2 a) a.mw2 (biasRow a.mb2)
def agg2 : FVec Ideal S50000x384 .f32 :=
  concatenate S50000x384 1 [⟨S50000x256, mulf
      (Host.scatterAdd scatter_S50000x256_S800000x1_S800000x256_1_0_0_1 (broadcastInDim S50000x256 ![] bcast_S_S50000x256 (constant S_ .f32 0x00000000#32))
        (broadcastInDim S800000x1 ![0] bcast_S800000_S800000x1_0 (dst a)) (msg2 a))
      (broadcastInDim S50000x256 ![0, 1] bcast_S50000x1_S50000x256_0_1 (invd a))⟩, ⟨S50000x128, h2 a⟩] concatenates_S50000x256_S50000x128_S50000x384_d1
def h3 : FVec Ideal S50000x256 .f32 := denseLeaky (M := 50000) (K := 384) (N := 256) (agg2 a) a.uw2 (biasRow a.ub2)

/-! ## The per-graph mean and the three last layers -/
def pooled : FVec Ideal S32x256 .f32 :=
  Host.divf
    (Host.scatterAdd scatter_S32x256_S50000x1_S50000x256_1_0_0_1 (broadcastInDim S32x256 ![] bcast_S_S32x256 (constant S_ .f32 0x00000000#32))
      (broadcastInDim S50000x1 ![0] bcast_S50000_S50000x1_0 a.batch) (h3 a))
    (broadcastInDim S32x256 ![0, 1] bcast_S32x1_S32x256_0_1 (broadcastInDim S32x1 ![0] bcast_S32_S32x1_0
      (maximumf
        (Host.scatterAdd scatter_S32_S50000x1_S50000_n_0_0_1 (broadcastInDim S32 ![] bcast_S_S32 (constant S_ .f32 0x00000000#32))
          (broadcastInDim S50000x1 ![0] bcast_S50000_S50000x1_0 a.batch)
          (broadcastInDim S50000 ![] bcast_S_S50000 (constant S_ .f32 0x3F800000#32)))
        (broadcastInDim S32 ![] bcast_S_S32 (constant S_ .f32 0x3F800000#32)))))
def g1 : FVec Ideal S32x128 .f32 := denseLeaky (M := 32) (K := 256) (N := 128) (pooled a) a.fw0 (biasRow a.fb0)
def g2 : FVec Ideal S32x64 .f32 := denseLeaky (M := 32) (K := 128) (N := 64) (g1 a) a.fw1 (biasRow a.fb1)
def out : FVec Ideal S32x1 .f32 := affine (M := 32) (K := 64) (N := 1) (g2 a) a.fw2 (biasRow a.fb2)

end Cert.Spec

end
-- ==== Proof.RChunks.lean ====
import proofs.«407242_j23235773071434_1_alg».proof.Proof.RefRun
import proofs.«407242_j23235773071434_1_alg».proof.Proof.Spec

set_option maxRecDepth 8192

noncomputable section

namespace Cert.ReferenceIdeal.RF

open Cert.ReferenceIdeal Cert.ReferenceIdeal.Gen Idealize.ShloMosaic Idealize.ShloMosaic.TcCoe Idealize.SL.Sem Idealize.ShloMosaic.StableHlo

variable {F : FTy → Type} [FloatOps F]

/-- Operations 0 … 16 of @main. -/
abbrev cA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v10 main_v9 main_v11 (Host.divf : (⟨S50000, .f32⟩ : BufTy).Contents (Elt F) → (⟨S50000, .f32⟩ : BufTy).Contents (Elt F) → (⟨S50000, .f32⟩ : BufTy).Contents (Elt F)),
    unary main_v11 main_v12 (broadcastInDim S50000x1 ![0] bcast_S50000_S50000x1_0 : (⟨S50000, .f32⟩ : BufTy).Contents (Elt F) → (⟨S50000x1, .f32⟩ : BufTy).Contents (Elt F)) ]

/-- Operations 17 … 26 of @main. -/
abbrev cB0 : List (HloOp τ sig (Elt F)) :=
  [ nullary main_c (constantI S_ 32 0#32),
    unary main_c main_v13 (broadcastInDim S800000 ![] bcast_S_S800000 : (⟨S_, .i32⟩ : BufTy).Contents (Elt F) → (⟨S800000, .i32⟩ : BufTy).Contents (Elt F)),
    binary main_v1 main_v13 main_v14 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v15 (broadcastInDim S800000 ![] bcast_S_S800000 : (⟨S_, .i32⟩ : BufTy).Contents (Elt F) → (⟨S800000, .i32⟩ : BufTy).Contents (Elt F)),
    binary main_v1 main_v15 main_v16 (addi : (⟨S800000, .i32⟩ : BufTy).Contents (Elt F) → (⟨S800000, .i32⟩ : BufTy).Contents (Elt F) → (⟨S800000, .i32⟩ : BufTy).Contents (Elt F)),
    ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v17 main_v18 (broadcastInDim S800000x1 ![0] bcast_S800000_S800000x1_0 : (⟨S800000, .i32⟩ : BufTy).Contents (Elt F) → (⟨S800000x1, .i32⟩ : BufTy).Contents (Elt F)),
    binary main_arg0 main_v18 main_v19 ((fun x i => Host.gather gather_S50000x10_S800000x1_S800000x10_1_0_n_n_0_1_110 x i) : (⟨S50000x10, .f32⟩ : BufTy).Contents (Elt F) → (⟨S800000x1, .i32⟩ : BufTy).Contents (Elt F) → (⟨S800000x10, .f32⟩ : BufTy).Contents (Elt F)),
    binary main_v19 main_arg2 main_v20 ((fun a b => concatenate S800000x13 1 [⟨S800000x10, a⟩, ⟨S800000x3, b⟩] concatenates_S800000x10_S800000x3_S800000x13_d1) : (⟨S800000x10, .f32⟩ : BufTy).Contents (Elt F) → (⟨S800000x3, .f32⟩ : BufTy).Contents (Elt F) → (⟨S800000x13, .f32⟩ : BufTy).Contents (Elt F)) ]

/-- Operations 27 … 37 of @main. -/
abbrev cC0 : List (HloOp τ sig (Elt F)) :=
  [ binary main_v20 main_arg4 main_v21 ((fun l r => Host.dotGeneral dot_S800000x13_S13x64_S800000x64_1_0_0_1_n_n none l r) : (⟨S800000x13, .f32⟩ : BufTy).Contents (Elt F) → (⟨S13x64, .f32⟩ : BufTy).Contents (Elt F) → (⟨S800000x64, .f32⟩ : BufTy).Contents (Elt F)),
    unary main_arg5 main_v22 (broadcastInDim S1x64 ![1] bcast_S64_S1x64_1 : (⟨S64, .f32⟩ : BufTy).Contents (Elt F) → (⟨S1x64, .f32⟩ : BufTy).Contents (Elt F)),
    unary main_v22 main_v23 (broadcastInDim S800000x64 ![0, 1] bcast_S1x64_S800000x64_0_1 : (⟨S1x64, .f32⟩ : BufTy).Contents (Elt F) → (⟨S800000x64, .f32⟩ : BufTy).Contents (Elt F)),
    binary main_v21 main_v23 main_v24 (addf : (⟨S800000x64, .f32⟩ : BufTy).Contents (Elt F) → (⟨S800000x64, .f32⟩ : BufTy).Contents (Elt F) → (⟨S800000x64, .f32⟩ : BufTy).Contents (Elt F)),
    nullary main_cst_4 (constant S_ .f32 0x00000000#32),
    unary main_cst_4 main_v25 (broadcastInDim S800000x64 ![] bcast_S_S800000x64 : (⟨S_, .f32⟩ : BufTy).Contents (Elt F) → (⟨S800000x64, .f32⟩ : BufTy).Contents (Elt F)),
    binary main_v24 main_v25 main_v26 (cmpf .oge : (⟨S800000x64, .f32⟩ : BufTy).Contents (Elt F) → (⟨S800000x64, .f32⟩ : BufTy).Contents (Elt F) → (⟨S800000x64, .i1⟩ : BufTy).Contents (Elt F)),
    nullary main_cst_5 (constant S_ .f32 0x3E4CCCCD#32),
    unary main_cst_5 main_v27 (broadcastInDim S800000x64 ![] bcast_S_S800000x64 : (⟨S_, .f32⟩ : BufTy).Contents (Elt F) → (⟨S800000x64, .f32⟩ : BufTy).Contents (Elt F)),
    binary main_v27 main_v24 main_v28 (mulf : (⟨S800000x64, .f32⟩ : BufTy).Contents (Elt F) → (⟨S800000x64, .f32⟩ : BufTy).Contents (Elt F) → (⟨S800000x64, .f32⟩ : BufTy).Contents (Elt F)),
    TRef.ternary (TRef.of (T := ⟨S800000x64, .i1⟩) main_v26) (TRef.of (T := ⟨S800000x64, .f32⟩) main_v24) (TRef.of (T := ⟨S800000x64, .f32⟩) main_v28) (TRef.of (T := ⟨S800000x64, .f32⟩) main_v29) select ]

/-- Operations 38 … 44 of @main. -/
abbrev cD0 : List (HloOp τ sig (Elt F)) :=
  [ nullary main_cst_6 (constant S_ .f32 0x00000000#32),
    unary main_cst_6 main_v30 (broadcastInDim S50000x64 ![] bcast_S_S50000x64 : (⟨S_, .f32⟩ : BufTy).Contents (Elt F) → (⟨S50000x64, .f32⟩ : BufTy).Contents (Elt F)),
    unary main_v3 main_v31 (broadcastInDim S800000x1 ![0] bcast_S800000_S800000x1_0 : (⟨S800000, .i32⟩ : BufTy).Contents (Elt F) → (⟨S800000x1, .i32⟩ : BufTy).Contents (Elt F)),
    ternary main_v30 main_v31 main_v29 main_v32 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v12 main_v33 (broadcastInDim S50000x64 ![0, 1] bcast_S50000x1_S50000x64_0_1 : (⟨S50000x1, .f32⟩ : BufTy).Contents (Elt F) → (⟨S50000x64, .f32⟩ : BufTy).Contents (Elt F)),
    binary main_v32 main_v33 main_v34 (mulf : (⟨S50000x64, .f32⟩ : BufTy).Contents (Elt F) → (⟨S50000x64, .f32⟩ : BufTy).Contents (Elt F) → (⟨S50000x64, .f32⟩ : BufTy).Contents (Elt F)),
    binary main_v34 main_arg0 main_v35 ((fun a b => concatenate S50000x74 1 [⟨S50000x64, a⟩, ⟨S50000x10, b⟩] concatenates_S50000x64_S50000x10_S50000x74_d1) : (⟨S50000x64, .f32⟩ : BufTy).Contents (Elt F) → (⟨S50000x10, .f32⟩ : BufTy).Contents (Elt F) → (⟨S50000x74, .f32⟩ : BufTy).Contents (Elt F)) ]

/-- Operations 45 … 55 of @main. -/
abbrev cE0 : List (HloOp τ sig (Elt F)) :=
  [ binary main_v35 main_arg6 main_v36 ((fun l r => Host.dotGeneral dot_S50000x74_S74x64_S50000x64_1_0_0_1_n_n none l r) : (⟨S50000x74, .f32⟩ : BufTy).Contents (Elt F) → (⟨S74x64, .f32⟩ : BufTy).Contents (Elt F) → (⟨S50000x64, .f32⟩ : BufTy).Contents (Elt F)),
    unary main_arg7 main_v37 (broadcastInDim S1x64 ![1] bcast_S64_S1x64_1 : (⟨S64, .f32⟩ : BufTy).Contents (Elt F) → (⟨S1x64, .f32⟩ : BufTy).Contents (Elt F)),
    unary main_v37 main_v38 (broadcastInDim S50000x64 ![0, 1] bcast_S1x64_S50000x64_0_1 : (⟨S1x64, .f32⟩ : BufTy).Contents (Elt F) → (⟨S50000x64, .f32⟩ : BufTy).Contents (Elt F)),
    binary main_v36 main_v38 main_v39 (addf : (⟨S50000x64, .f32⟩ : BufTy).Contents (Elt F) → (⟨S50000x64, .f32⟩ : BufTy).Contents (Elt F) → (⟨S50000x64, .f32⟩ : BufTy).Contents (Elt F)),
    nullary main_cst_7 (constant S_ .f32 0x00000000#32),
    unary main_cst_7 main_v40 (broadcastInDim S50000x64 ![] bcast_S_S50000x64 : (⟨S_, .f32⟩ : BufTy).Contents (Elt F) → (⟨S50000x64, .f32⟩ : BufTy).Contents (Elt F)),
    binary main_v39 main_v40 main_v41 (cmpf .oge : (⟨S50000x64, .f32⟩ : BufTy).Contents (Elt F) → (⟨S50000x64, .f32⟩ : BufTy).Contents (Elt F) → (⟨S50000x64, .i1⟩ : BufTy).Contents (Elt F)),
    nullary main_cst_8 (constant S_ .f32 0x3E4CCCCD#32),
    unary main_cst_8 main_v42 (broadcastInDim S50000x64 ![] bcast_S_S50000x64 : (⟨S_, .f32⟩ : BufTy).Contents (Elt F) → (⟨S50000x64, .f32⟩ : BufTy).Contents (Elt F)),
    binary main_v42 main_v39 main_v43 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v41) (TRef.of (T := ⟨S50000x64, .f32⟩) main_v39) (TRef.of (T := ⟨S50000x64, .f32⟩) main_v43) (TRef.of (T := ⟨S50000x64, .f32⟩) main_v44) select ]

/-- Operations 56 … 65 of @main. -/
abbrev cB1 : List (HloOp τ sig (Elt F)) :=
  [ nullary main_c_9 (constantI S_ 32 0#32),
    unary main_c_9 main_v45 (broadcastInDim S800000 ![] bcast_S_S800000 : (⟨S_, .i32⟩ : BufTy).Contents (Elt F) → (⟨S800000, .i32⟩ : BufTy).Contents (Elt F)),
    binary main_v1 main_v45 main_v46 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v47 (broadcastInDim S800000 ![] bcast_S_S800000 : (⟨S_, .i32⟩ : BufTy).Contents (Elt F) → (⟨S800000, .i32⟩ : BufTy).Contents (Elt F)),
    binary main_v1 main_v47 main_v48 (addi : (⟨S800000, .i32⟩ : BufTy).Contents (Elt F) → (⟨S800000, .i32⟩ : BufTy).Contents (Elt F) → (⟨S800000, .i32⟩ : BufTy).Contents (Elt F)),
    ternary main_v46 main_v48 main_v1 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v49 main_v50 (broadcastInDim S800000x1 ![0] bcast_S800000_S800000x1_0 : (⟨S800000, .i32⟩ : BufTy).Contents (Elt F) → (⟨S800000x1, .i32⟩ : BufTy).Contents (Elt F)),
    binary main_v44 main_v50 main_v51 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v51 main_arg2 main_v52 ((fun a b => concatenate S800000x67 1 [⟨S800000x64, a⟩, ⟨S800000x3, b⟩] concatenates_S800000x64_S800000x3_S800000x67_d1) : (⟨S800000x64, .f32⟩ : BufTy).Contents (Elt F) → (⟨S800000x3, .f32⟩ : BufTy).Contents (Elt F) → (⟨S800000x67, .f32⟩ : BufTy).Contents (Elt F)) ]

/-- Operations 66 … 76 of @main. -/
abbrev cC1 : List (HloOp τ sig (Elt F)) :=
  [ binary main_v52 main_arg8 main_v53 ((fun l r => Host.dotGeneral dot_S800000x67_S67x128_S800000x128_1_0_0_1_n_n none l r) : (⟨S800000x67, .f32⟩ : BufTy).Contents (Elt F) → (⟨S67x128, .f32⟩ : BufTy).Contents (Elt F) → (⟨S800000x128, .f32⟩ : BufTy).Contents (Elt F)),
    unary main_arg9 main_v54 (broadcastInDim S1x128 ![1] bcast_S128_S1x128_1 : (⟨S128, .f32⟩ : BufTy).Contents (Elt F) → (⟨S1x128, .f32⟩ : BufTy).Contents (Elt F)),
    unary main_v54 main_v55 (broadcastInDim S800000x128 ![0, 1] bcast_S1x128_S800000x128_0_1 : (⟨S1x128, .f32⟩ : BufTy).Contents (Elt F) → (⟨S800000x128, .f32⟩ : BufTy).Contents (Elt F)),
    binary main_v53 main_v55 main_v56 (addf : (⟨S800000x128, .f32⟩ : BufTy).Contents (Elt F) → (⟨S800000x128, .f32⟩ : BufTy).Contents (Elt F) → (⟨S800000x128, .f32⟩ : BufTy).Contents (Elt F)),
    nullary main_cst_11 (constant S_ .f32 0x00000000#32),
    unary main_cst_11 main_v57 (broadcastInDim S800000x128 ![] bcast_S_S800000x128 : (⟨S_, .f32⟩ : BufTy).Contents (Elt F) → (⟨S800000x128, .f32⟩ : BufTy).Contents (Elt F)),
    binary main_v56 main_v57 main_v58 (cmpf .oge : (⟨S800000x128, .f32⟩ : BufTy).Contents (Elt F) → (⟨S800000x128, .f32⟩ : BufTy).Contents (Elt F) → (⟨S800000x128, .i1⟩ : BufTy).Contents (Elt F)),
    nullary main_cst_12 (constant S_ .f32 0x3E4CCCCD#32),
    unary main_cst_12 main_v59 (broadcastInDim S800000x128 ![] bcast_S_S800000x128 : (⟨S_, .f32⟩ : BufTy).Contents (Elt F) → (⟨S800000x128, .f32⟩ : BufTy).Contents (Elt F)),
    binary main_v59 main_v56 main_v60 (mulf : (⟨S800000x128, .f32⟩ : BufTy).Contents (Elt F) → (⟨S800000x128, .f32⟩ : BufTy).Contents (Elt F) → (⟨S800000x128, .f32⟩ : BufTy).Contents (Elt F)),
    TRef.ternary (TRef.of (T := ⟨S800000x128, .i1⟩) main_v58) (TRef.of (T := ⟨S800000x128, .f32⟩) main_v56) (TRef.of (T := ⟨S800000x128, .f32⟩) main_v60) (TRef.of (T := ⟨S800000x128, .f32⟩) main_v61) select ]

/-- Operations 77 … 83 of @main. -/
abbrev cD1 : List (HloOp τ sig (Elt F)) :=
  [ nullary main_cst_13 (constant S_ .f32 0x00000000#32),
    unary main_cst_13 main_v62 (broadcastInDim S50000x128 ![] bcast_S_S50000x128 : (⟨S_, .f32⟩ : BufTy).Contents (Elt F) → (⟨S50000x128, .f32⟩ : BufTy).Contents (Elt F)),
    unary main_v3 main_v63 (broadcastInDim S800000x1 ![0] bcast_S800000_S800000x1_0 : (⟨S800000, .i32⟩ : BufTy).Contents (Elt F) → (⟨S800000x1, .i32⟩ : BufTy).Contents (Elt F)),
    ternary main_v62 main_v63 main_v61 main_v64 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v65 (broadcastInDim S50000x128 ![0, 1] bcast_S50000x1_S50000x128_0_1 : (⟨S50000x1, .f32⟩ : BufTy).Contents (Elt F) → (⟨S50000x128, .f32⟩ : BufTy).Contents (Elt F)),
    binary main_v64 main_v65 main_v66 (mulf : (⟨S50000x128, .f32⟩ : BufTy).Contents (Elt F) → (⟨S50000x128, .f32⟩ : BufTy).Contents (Elt F) → (⟨S50000x128, .f32⟩ : BufTy).Contents (Elt F)),
    binary main_v66 main_v44 main_v67 ((fun a b => concatenate S50000x192 1 [⟨S50000x128, a⟩, ⟨S50000x64, b⟩] concatenates_S50000x128_S50000x64_S50000x192_d1) : (⟨S50000x128, .f32⟩ : BufTy).Contents (Elt F) → (⟨S50000x64, .f32⟩ : BufTy).Contents (Elt F) → (⟨S50000x192, .f32⟩ : BufTy).Contents (Elt F)) ]

/-- Operations 84 … 94 of @main. -/
abbrev cE1 : List (HloOp τ sig (Elt F)) :=
  [ binary main_v67 main_arg10 main_v68 ((fun l r => Host.dotGeneral dot_S50000x192_S192x128_S50000x128_1_0_0_1_n_n none l r) : (⟨S50000x192, .f32⟩ : BufTy).Contents (Elt F) → (⟨S192x128, .f32⟩ : BufTy).Contents (Elt F) → (⟨S50000x128, .f32⟩ : BufTy).Contents (Elt F)),
    unary main_arg11 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v68 main_v70 main_v71 (addf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x00000000#32),
    unary main_cst_14 main_v72 (broadcastInDim S50000x128 ![] bcast_S_S50000x128 : (⟨S_, .f32⟩ : BufTy).Contents (Elt F) → (⟨S50000x128, .f32⟩ : BufTy).Contents (Elt F)),
    binary main_v71 main_v72 main_v73 (cmpf .oge : (⟨S50000x128, .f32⟩ : BufTy).Contents (Elt F) → (⟨S50000x128, .f32⟩ : BufTy).Contents (Elt F) → (⟨S50000x128, .i1⟩ : BufTy).Contents (Elt F)),
    nullary main_cst_15 (constant S_ .f32 0x3E4CCCCD#32),
    unary main_cst_15 main_v74 (broadcastInDim S50000x128 ![] bcast_S_S50000x128 : (⟨S_, .f32⟩ : BufTy).Contents (Elt F) → (⟨S50000x128, .f32⟩ : BufTy).Contents (Elt F)),
    binary main_v74 main_v71 main_v75 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v73) (TRef.of (T := ⟨S50000x128, .f32⟩) main_v71) (TRef.of (T := ⟨S50000x128, .f32⟩) main_v75) (TRef.of (T := ⟨S50000x128, .f32⟩) main_v76) select ]

/-- Operations 95 … 104 of @main. -/
abbrev cB2 : List (HloOp τ sig (Elt F)) :=
  [ nullary main_c_16 (constantI S_ 32 0#32),
    unary main_c_16 main_v77 (broadcastInDim S800000 ![] bcast_S_S800000 : (⟨S_, .i32⟩ : BufTy).Contents (Elt F) → (⟨S800000, .i32⟩ : BufTy).Contents (Elt F)),
    binary main_v1 main_v77 main_v78 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v79 (broadcastInDim S800000 ![] bcast_S_S800000 : (⟨S_, .i32⟩ : BufTy).Contents (Elt F) → (⟨S800000, .i32⟩ : BufTy).Contents (Elt F)),
    binary main_v1 main_v79 main_v80 (addi : (⟨S800000, .i32⟩ : BufTy).Contents (Elt F) → (⟨S800000, .i32⟩ : BufTy).Contents (Elt F) → (⟨S800000, .i32⟩ : BufTy).Contents (Elt F)),
    ternary main_v78 main_v80 main_v1 main_v81 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v81 main_v82 (broadcastInDim S800000x1 ![0] bcast_S800000_S800000x1_0 : (⟨S800000, .i32⟩ : BufTy).Contents (Elt F) → (⟨S800000x1, .i32⟩ : BufTy).Contents (Elt F)),
    binary main_v76 main_v82 main_v83 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v83 main_arg2 main_v84 ((fun a b => concatenate S800000x131 1 [⟨S800000x128, a⟩, ⟨S800000x3, b⟩] concatenates_S800000x128_S800000x3_S800000x131_d1) : (⟨S800000x128, .f32⟩ : BufTy).Contents (Elt F) → (⟨S800000x3, .f32⟩ : BufTy).Contents (Elt F) → (⟨S800000x131, .f32⟩ : BufTy).Contents (Elt F)) ]

/-- Operations 105 … 115 of @main. -/
abbrev cC2 : List (HloOp τ sig (Elt F)) :=
  [ binary main_v84 main_arg12 main_v85 ((fun l r => Host.dotGeneral dot_S800000x131_S131x256_S800000x256_1_0_0_1_n_n none l r) : (⟨S800000x131, .f32⟩ : BufTy).Contents (Elt F) → (⟨S131x256, .f32⟩ : BufTy).Contents (Elt F) → (⟨S800000x256, .f32⟩ : BufTy).Contents (Elt F)),
    unary main_arg13 main_v86 (broadcastInDim S1x256 ![1] bcast_S256_S1x256_1 : (⟨S256, .f32⟩ : BufTy).Contents (Elt F) → (⟨S1x256, .f32⟩ : BufTy).Contents (Elt F)),
    unary main_v86 main_v87 (broadcastInDim S800000x256 ![0, 1] bcast_S1x256_S800000x256_0_1 : (⟨S1x256, .f32⟩ : BufTy).Contents (Elt F) → (⟨S800000x256, .f32⟩ : BufTy).Contents (Elt F)),
    binary main_v85 main_v87 main_v88 (addf : (⟨S800000x256, .f32⟩ : BufTy).Contents (Elt F) → (⟨S800000x256, .f32⟩ : BufTy).Contents (Elt F) → (⟨S800000x256, .f32⟩ : BufTy).Contents (Elt F)),
    nullary main_cst_18 (constant S_ .f32 0x00000000#32),
    unary main_cst_18 main_v89 (broadcastInDim S800000x256 ![] bcast_S_S800000x256 : (⟨S_, .f32⟩ : BufTy).Contents (Elt F) → (⟨S800000x256, .f32⟩ : BufTy).Contents (Elt F)),
    binary main_v88 main_v89 main_v90 (cmpf .oge : (⟨S800000x256, .f32⟩ : BufTy).Contents (Elt F) → (⟨S800000x256, .f32⟩ : BufTy).Contents (Elt F) → (⟨S800000x256, .i1⟩ : BufTy).Contents (Elt F)),
    nullary main_cst_19 (constant S_ .f32 0x3E4CCCCD#32),
    unary main_cst_19 main_v91 (broadcastInDim S800000x256 ![] bcast_S_S800000x256 : (⟨S_, .f32⟩ : BufTy).Contents (Elt F) → (⟨S800000x256, .f32⟩ : BufTy).Contents (Elt F)),
    binary main_v91 main_v88 main_v92 (mulf : (⟨S800000x256, .f32⟩ : BufTy).Contents (Elt F) → (⟨S800000x256, .f32⟩ : BufTy).Contents (Elt F) → (⟨S800000x256, .f32⟩ : BufTy).Contents (Elt F)),
    TRef.ternary (TRef.of (T := ⟨S800000x256, .i1⟩) main_v90) (TRef.of (T := ⟨S800000x256, .f32⟩) main_v88) (TRef.of (T := ⟨S800000x256, .f32⟩) main_v92) (TRef.of (T := ⟨S800000x256, .f32⟩) main_v93) select ]

/-- Operations 116 … 122 of @main. -/
abbrev cD2 : List (HloOp τ sig (Elt F)) :=
  [ nullary main_cst_20 (constant S_ .f32 0x00000000#32),
    unary main_cst_20 main_v94 (broadcastInDim S50000x256 ![] bcast_S_S50000x256 : (⟨S_, .f32⟩ : BufTy).Contents (Elt F) → (⟨S50000x256, .f32⟩ : BufTy).Contents (Elt F)),
    unary main_v3 main_v95 (broadcastInDim S800000x1 ![0] bcast_S800000_S800000x1_0 : (⟨S800000, .i32⟩ : BufTy).Contents (Elt F) → (⟨S800000x1, .i32⟩ : BufTy).Contents (Elt F)),
    ternary main_v94 main_v95 main_v93 main_v96 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v97 (broadcastInDim S50000x256 ![0, 1] bcast_S50000x1_S50000x256_0_1 : (⟨S50000x1, .f32⟩ : BufTy).Contents (Elt F) → (⟨S50000x256, .f32⟩ : BufTy).Contents (Elt F)),
    binary main_v96 main_v97 main_v98 (mulf : (⟨S50000x256, .f32⟩ : BufTy).Contents (Elt F) → (⟨S50000x256, .f32⟩ : BufTy).Contents (Elt F) → (⟨S50000x256, .f32⟩ : BufTy).Contents (Elt F)),
    binary main_v98 main_v76 main_v99 ((fun a b => concatenate S50000x384 1 [⟨S50000x256, a⟩, ⟨S50000x128, b⟩] concatenates_S50000x256_S50000x128_S50000x384_d1) : (⟨S50000x256, .f32⟩ : BufTy).Contents (Elt F) → (⟨S50000x128, .f32⟩ : BufTy).Contents (Elt F) → (⟨S50000x384, .f32⟩ : BufTy).Contents (Elt F)) ]

/-- Operations 123 … 133 of @main. -/
abbrev cE2 : List (HloOp τ sig (Elt F)) :=
  [ binary main_v99 main_arg14 main_v100 ((fun l r => Host.dotGeneral dot_S50000x384_S384x256_S50000x256_1_0_0_1_n_n none l r) : (⟨S50000x384, .f32⟩ : BufTy).Contents (Elt F) → (⟨S384x256, .f32⟩ : BufTy).Contents (Elt F) → (⟨S50000x256, .f32⟩ : BufTy).Contents (Elt F)),
    unary main_arg15 main_v101 (broadcastInDim S1x256 ![1] bcast_S256_S1x256_1 : (⟨S256, .f32⟩ : BufTy).Contents (Elt F) → (⟨S1x256, .f32⟩ : BufTy).Contents (Elt F)),
    unary main_v101 main_v102 (broadcastInDim S50000x256 ![0, 1] bcast_S1x256_S50000x256_0_1 : (⟨S1x256, .f32⟩ : BufTy).Contents (Elt F) → (⟨S50000x256, .f32⟩ : BufTy).Contents (Elt F)),
    binary main_v100 main_v102 main_v103 (addf : (⟨S50000x256, .f32⟩ : BufTy).Contents (Elt F) → (⟨S50000x256, .f32⟩ : BufTy).Contents (Elt F) → (⟨S50000x256, .f32⟩ : BufTy).Contents (Elt F)),
    nullary main_cst_21 (constant S_ .f32 0x00000000#32),
    unary main_cst_21 main_v104 (broadcastInDim S50000x256 ![] bcast_S_S50000x256 : (⟨S_, .f32⟩ : BufTy).Contents (Elt F) → (⟨S50000x256, .f32⟩ : BufTy).Contents (Elt F)),
    binary main_v103 main_v104 main_v105 (cmpf .oge : (⟨S50000x256, .f32⟩ : BufTy).Contents (Elt F) → (⟨S50000x256, .f32⟩ : BufTy).Contents (Elt F) → (⟨S50000x256, .i1⟩ : BufTy).Contents (Elt F)),
    nullary main_cst_22 (constant S_ .f32 0x3E4CCCCD#32),
    unary main_cst_22 main_v106 (broadcastInDim S50000x256 ![] bcast_S_S50000x256 : (⟨S_, .f32⟩ : BufTy).Contents (Elt F) → (⟨S50000x256, .f32⟩ : BufTy).Contents (Elt F)),
    binary main_v106 main_v103 main_v107 (mulf : (⟨S50000x256, .f32⟩ : BufTy).Contents (Elt F) → (⟨S50000x256, .f32⟩ : BufTy).Contents (Elt F) → (⟨S50000x256, .f32⟩ : BufTy).Contents (Elt F)),
    TRef.ternary (TRef.of (T := ⟨S50000x256, .i1⟩) main_v105) (TRef.of (T := ⟨S50000x256, .f32⟩) main_v103) (TRef.of (T := ⟨S50000x256, .f32⟩) main_v107) (TRef.of (T := ⟨S50000x256, .f32⟩) main_v108) select ]

/-- Operations 134 … 149 of @main. -/
abbrev cP : List (HloOp τ sig (Elt F)) :=
  [ nullary main_cst_23 (constant S_ .f32 0x00000000#32),
    unary main_cst_23 main_v109 (broadcastInDim S32x256 ![] bcast_S_S32x256 : (⟨S_, .f32⟩ : BufTy).Contents (Elt F) → (⟨S32x256, .f32⟩ : BufTy).Contents (Elt F)),
    unary main_arg3 main_v110 (broadcastInDim S50000x1 ![0] bcast_S50000_S50000x1_0 : (⟨S50000, .i32⟩ : BufTy).Contents (Elt F) → (⟨S50000x1, .i32⟩ : BufTy).Contents (Elt F)),
    ternary main_v109 main_v110 main_v108 main_v111 ((fun x i u => Host.scatterAdd scatter_S32x256_S50000x1_S50000x256_1_0_0_1 x i u) : (⟨S32x256, .f32⟩ : BufTy).Contents (Elt F) → (⟨S50000x1, .i32⟩ : BufTy).Contents (Elt F) → (⟨S50000x256, .f32⟩ : BufTy).Contents (Elt F) → (⟨S32x256, .f32⟩ : BufTy).Contents (Elt F)),
    nullary main_cst_24 (constant S_ .f32 0x3F800000#32),
    unary main_cst_24 main_v112 (broadcastInDim S50000 ![] bcast_S_S50000 : (⟨S_, .f32⟩ : BufTy).Contents (Elt F) → (⟨S50000, .f32⟩ : BufTy).Contents (Elt F)),
    nullary main_cst_25 (constant S_ .f32 0x00000000#32),
    unary main_cst_25 main_v113 (broadcastInDim S32 ![] bcast_S_S32 : (⟨S_, .f32⟩ : BufTy).Contents (Elt F) → (⟨S32, .f32⟩ : BufTy).Contents (Elt F)),
    unary main_arg3 main_v114 (broadcastInDim S50000x1 ![0] bcast_S50000_S50000x1_0 : (⟨S50000, .i32⟩ : BufTy).Contents (Elt F) → (⟨S50000x1, .i32⟩ : BufTy).Contents (Elt F)),
    ternary main_v113 main_v114 main_v112 main_v115 ((fun x i u => Host.scatterAdd scatter_S32_S50000x1_S50000_n_0_0_1 x i u) : (⟨S32, .f32⟩ : BufTy).Contents (Elt F) → (⟨S50000x1, .i32⟩ : BufTy).Contents (Elt F) → (⟨S50000, .f32⟩ : BufTy).Contents (Elt F) → (⟨S32, .f32⟩ : BufTy).Contents (Elt F)),
    nullary main_cst_26 (constant S_ .f32 0x3F800000#32),
    unary main_cst_26 main_v116 (broadcastInDim S32 ![] bcast_S_S32 : (⟨S_, .f32⟩ : BufTy).Contents (Elt F) → (⟨S32, .f32⟩ : BufTy).Contents (Elt F)),
    binary main_v115 main_v116 main_v117 (maximumf : (⟨S32, .f32⟩ : BufTy).Contents (Elt F) → (⟨S32, .f32⟩ : BufTy).Contents (Elt F) → (⟨S32, .f32⟩ : BufTy).Contents (Elt F)),
    unary main_v117 main_v118 (broadcastInDim S32x1 ![0] bcast_S32_S32x1_0 : (⟨S32, .f32⟩ : BufTy).Contents (Elt F) → (⟨S32x1, .f32⟩ : BufTy).Contents (Elt F)),
    unary main_v118 main_v119 (broadcastInDim S32x256 ![0, 1] bcast_S32x1_S32x256_0_1 : (⟨S32x1, .f32⟩ : BufTy).Contents (Elt F) → (⟨S32x256, .f32⟩ : BufTy).Contents (Elt F)),
    binary main_v111 main_v119 main_v120 (Host.divf : (⟨S32x256, .f32⟩ : BufTy).Contents (Elt F) → (⟨S32x256, .f32⟩ : BufTy).Contents (Elt F) → (⟨S32x256, .f32⟩ : BufTy).Contents (Elt F)) ]

/-- Operations 150 … 160 of @main. -/
abbrev cF0 : List (HloOp τ sig (Elt F)) :=
  [ binary main_v120 main_arg16 main_v121 ((fun l r => Host.dotGeneral dot_S32x256_S256x128_S32x128_1_0_0_1_n_n none l r) : (⟨S32x256, .f32⟩ : BufTy).Contents (Elt F) → (⟨S256x128, .f32⟩ : BufTy).Contents (Elt F) → (⟨S32x128, .f32⟩ : BufTy).Contents (Elt F)),
    unary main_arg17 main_v122 (broadcastInDim S1x128 ![1] bcast_S128_S1x128_1 : (⟨S128, .f32⟩ : BufTy).Contents (Elt F) → (⟨S1x128, .f32⟩ : BufTy).Contents (Elt F)),
    unary main_v122 main_v123 (broadcastInDim S32x128 ![0, 1] bcast_S1x128_S32x128_0_1 : (⟨S1x128, .f32⟩ : BufTy).Contents (Elt F) → (⟨S32x128, .f32⟩ : BufTy).Contents (Elt F)),
    binary main_v121 main_v123 main_v124 (addf : (⟨S32x128, .f32⟩ : BufTy).Contents (Elt F) → (⟨S32x128, .f32⟩ : BufTy).Contents (Elt F) → (⟨S32x128, .f32⟩ : BufTy).Contents (Elt F)),
    nullary main_cst_27 (constant S_ .f32 0x00000000#32),
    unary main_cst_27 main_v125 (broadcastInDim S32x128 ![] bcast_S_S32x128 : (⟨S_, .f32⟩ : BufTy).Contents (Elt F) → (⟨S32x128, .f32⟩ : BufTy).Contents (Elt F)),
    binary main_v124 main_v125 main_v126 (cmpf .oge : (⟨S32x128, .f32⟩ : BufTy).Contents (Elt F) → (⟨S32x128, .f32⟩ : BufTy).Contents (Elt F) → (⟨S32x128, .i1⟩ : BufTy).Contents (Elt F)),
    nullary main_cst_28 (constant S_ .f32 0x3E4CCCCD#32),
    unary main_cst_28 main_v127 (broadcastInDim S32x128 ![] bcast_S_S32x128 : (⟨S_, .f32⟩ : BufTy).Contents (Elt F) → (⟨S32x128, .f32⟩ : BufTy).Contents (Elt F)),
    binary main_v127 main_v124 main_v128 (mulf : (⟨S32x128, .f32⟩ : BufTy).Contents (Elt F) → (⟨S32x128, .f32⟩ : BufTy).Contents (Elt F) → (⟨S32x128, .f32⟩ : BufTy).Contents (Elt F)),
    TRef.ternary (TRef.of (T := ⟨S32x128, .i1⟩) main_v126) (TRef.of (T := ⟨S32x128, .f32⟩) main_v124) (TRef.of (T := ⟨S32x128, .f32⟩) main_v128) (TRef.of (T := ⟨S32x128, .f32⟩) main_v129) select ]

/-- Operations 161 … 171 of @main. -/
abbrev cF1 : List (HloOp τ sig (Elt F)) :=
  [ binary main_v129 main_arg18 main_v130 ((fun l r => Host.dotGeneral dot_S32x128_S128x64_S32x64_1_0_0_1_n_n none l r) : (⟨S32x128, .f32⟩ : BufTy).Contents (Elt F) → (⟨S128x64, .f32⟩ : BufTy).Contents (Elt F) → (⟨S32x64, .f32⟩ : BufTy).Contents (Elt F)),
    unary main_arg19 main_v131 (broadcastInDim S1x64 ![1] bcast_S64_S1x64_1 : (⟨S64, .f32⟩ : BufTy).Contents (Elt F) → (⟨S1x64, .f32⟩ : BufTy).Contents (Elt F)),
    unary main_v131 main_v132 (broadcastInDim S32x64 ![0, 1] bcast_S1x64_S32x64_0_1 : (⟨S1x64, .f32⟩ : BufTy).Contents (Elt F) → (⟨S32x64, .f32⟩ : BufTy).Contents (Elt F)),
    binary main_v130 main_v132 main_v133 (addf : (⟨S32x64, .f32⟩ : BufTy).Contents (Elt F) → (⟨S32x64, .f32⟩ : BufTy).Contents (Elt F) → (⟨S32x64, .f32⟩ : BufTy).Contents (Elt F)),
    nullary main_cst_29 (constant S_ .f32 0x00000000#32),
    unary main_cst_29 main_v134 (broadcastInDim S32x64 ![] bcast_S_S32x64 : (⟨S_, .f32⟩ : BufTy).Contents (Elt F) → (⟨S32x64, .f32⟩ : BufTy).Contents (Elt F)),
    binary main_v133 main_v134 main_v135 (cmpf .oge : (⟨S32x64, .f32⟩ : BufTy).Contents (Elt F) → (⟨S32x64, .f32⟩ : BufTy).Contents (Elt F) → (⟨S32x64, .i1⟩ : BufTy).Contents (Elt F)),
    nullary main_cst_30 (constant S_ .f32 0x3E4CCCCD#32),
    unary main_cst_30 main_v136 (broadcastInDim S32x64 ![] bcast_S_S32x64 : (⟨S_, .f32⟩ : BufTy).Contents (Elt F) → (⟨S32x64, .f32⟩ : BufTy).Contents (Elt F)),
    binary main_v136 main_v133 main_v137 (mulf : (⟨S32x64, .f32⟩ : BufTy).Contents (Elt F) → (⟨S32x64, .f32⟩ : BufTy).Contents (Elt F) → (⟨S32x64, .f32⟩ : BufTy).Contents (Elt F)),
    TRef.ternary (TRef.of (T := ⟨S32x64, .i1⟩) main_v135) (TRef.of (T := ⟨S32x64, .f32⟩) main_v133) (TRef.of (T := ⟨S32x64, .f32⟩) main_v137) (TRef.of (T := ⟨S32x64, .f32⟩) main_v138) select ]

/-- Operations 172 … 175 of @main. -/
abbrev cF2 : List (HloOp τ sig (Elt F)) :=
  [ binary main_v138 main_arg20 main_v139 ((fun l r => Host.dotGeneral dot_S32x64_S64x1_S32x1_1_0_0_1_n_n none l r) : (⟨S32x64, .f32⟩ : BufTy).Contents (Elt F) → (⟨S64x1, .f32⟩ : BufTy).Contents (Elt F) → (⟨S32x1, .f32⟩ : BufTy).Contents (Elt F)),
    unary main_arg21 main_v140 (broadcastInDim S1x1 ![1] bcast_S1_S1x1_1 : (⟨S1, .f32⟩ : BufTy).Contents (Elt F) → (⟨S1x1, .f32⟩ : BufTy).Contents (Elt F)),
    unary main_v140 main_v141 (broadcastInDim S32x1 ![0, 1] bcast_S1x1_S32x1_0_1 : (⟨S1x1, .f32⟩ : BufTy).Contents (Elt F) → (⟨S32x1, .f32⟩ : BufTy).Contents (Elt F)),
    binary main_v139 main_v141 main_v142 (addf : (⟨S32x1, .f32⟩ : BufTy).Contents (Elt F) → (⟨S32x1, .f32⟩ : BufTy).Contents (Elt F) → (⟨S32x1, .f32⟩ : BufTy).Contents (Elt F)) ]

set_option maxHeartbeats 4000000 in
/-- The operation list is the stages in order. -/
theorem ops_eq : (RunP.ops : List (HloOp τ sig (Elt F))) = cA ++ cB0 ++ cC0 ++ cD0 ++ cE0 ++ cB1 ++ cC1 ++ cD1 ++ cE1 ++ cB2 ++ cC2 ++ cD2 ++ cE2 ++ cP ++ cF0 ++ cF1 ++ cF2 := by
  simp only [cA, cB0, cC0, cD0, cE0, cB1, cC1, cD1, cE1, cB2, cC2, cD2, cE2, cP, cF0, cF1, cF2, List.cons_append, List.nil_append]

/-- The fold over a concatenation is the fold over the second list from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

variable (m : (ℓ : Loc nD τ sig) → Buf (Elt F) ℓ) (c : Dev nD)

/-- The TensorCore's buffer contents at each stage boundary. -/
abbrev R0 : Valuation τ sig (Elt F) := launchContents m c
abbrev R1 : Valuation τ sig (Elt F) := after cA (R0 m c)
abbrev R2 : Valuation τ sig (Elt F) := after cB0 (R1 m c)
abbrev R3 : Valuation τ sig (Elt F) := after cC0 (R2 m c)
abbrev R4 : Valuation τ sig (Elt F) := after cD0 (R3 m c)
abbrev R5 : Valuation τ sig (Elt F) := after cE0 (R4 m c)
abbrev R6 : Valuation τ sig (Elt F) := after cB1 (R5 m c)
abbrev R7 : Valuation τ sig (Elt F) := after cC1 (R6 m c)
abbrev R8 : Valuation τ sig (Elt F) := after cD1 (R7 m c)
abbrev R9 : Valuation τ sig (Elt F) := after cE1 (R8 m c)
abbrev R10 : Valuation τ sig (Elt F) := after cB2 (R9 m c)
abbrev R11 : Valuation τ sig (Elt F) := after cC2 (R10 m c)
abbrev R12 : Valuation τ sig (Elt F) := after cD2 (R11 m c)
abbrev R13 : Valuation τ sig (Elt F) := after cE2 (R12 m c)
abbrev R14 : Valuation τ sig (Elt F) := after cP (R13 m c)
abbrev R15 : Valuation τ sig (Elt F) := after cF0 (R14 m c)
abbrev R16 : Valuation τ sig (Elt F) := after cF1 (R15 m c)
abbrev R17 : Valuation τ sig (Elt F) := after cF2 (R16 m c)

/-- The whole fold is the last boundary. -/
theorem after_ops : after (RunP.ops (F := F)) (launchContents m c) = R17 m c := by
  rw [ops_eq]; simp only [after_append]

end Cert.ReferenceIdeal.RF

namespace Cert.ReferenceIdeal.RF
open Cert.ReferenceIdeal Idealize.ShloMosaic Idealize.ShloMosaic.TcCoe Idealize.SL.Sem
/-- The reference program's 22 argument arrays, as launched, bundled for the stage functions. -/
def rArgs (m : (ℓ : Loc nD τ sig) → Buf (Elt Ideal) ℓ) (c : Dev nD) : Cert.Spec.Args where
  x := m ((c.tc : Thread nD τ).loc main_arg0)
  ei := m ((c.tc : Thread nD τ).loc main_arg1)
  ea := m ((c.tc : Thread nD τ).loc main_arg2)
  batch := m ((c.tc : Thread nD τ).loc main_arg3)
  mw0 := m ((c.tc : Thread nD τ).loc main_arg4)
  mb0 := m ((c.tc : Thread nD τ).loc main_arg5)
  uw0 := m ((c.tc : Thread nD τ).loc main_arg6)
  ub0 := m ((c.tc : Thread nD τ).loc main_arg7)
  mw1 := m ((c.tc : Thread nD τ).loc main_arg8)
  mb1 := m ((c.tc : Thread nD τ).loc main_arg9)
  uw1 := m ((c.tc : Thread nD τ).loc main_arg10)
  ub1 := m ((c.tc : Thread nD τ).loc main_arg11)
  mw2 := m ((c.tc : Thread nD τ).loc main_arg12)
  mb2 := m ((c.tc : Thread nD τ).loc main_arg13)
  uw2 := m ((c.tc : Thread nD τ).loc main_arg14)
  ub2 := m ((c.tc : Thread nD τ).loc main_arg15)
  fw0 := m ((c.tc : Thread nD τ).loc main_arg16)
  fb0 := m ((c.tc : Thread nD τ).loc main_arg17)
  fw1 := m ((c.tc : Thread nD τ).loc main_arg18)
  fb1 := m ((c.tc : Thread nD τ).loc main_arg19)
  fw2 := m ((c.tc : Thread nD τ).loc main_arg20)
  fb2 := m ((c.tc : Thread nD τ).loc main_arg21)
end Cert.ReferenceIdeal.RF

end
-- ==== Proof.RF1.lean ====
/-
  THE REFERENCE'S FIRST ROUND, stage by stage: what each stage's result buffer holds after the stage, as the
  specification's function of the argument arrays.
-/
import proofs.«407242_j23235773071434_1_alg».proof.Proof.RChunks
import Idealize.ShloMosaic.Lib.StableHlo.Run

set_option maxRecDepth 16384

noncomputable section

namespace Cert.ReferenceIdeal.RF

open Idealize.ShloMosaic Idealize.ShloMosaic.TcCoe Idealize.SL.Sem Idealize.ShloMosaic.StableHlo
open Cert.ReferenceIdeal Cert.ReferenceIdeal.Gen Cert.Lib.Dense

/-! ## What a stage leaves alone

Each operation writes exactly one array, its result. So a stage leaves every array that is not among its operations'
results as it found it, and an array that no stage so far has written holds what it held at launch: in particular every
argument array, which no operation writes. -/

section Keep
variable {F : FTy → Type} [FloatOps F]

/-- Every operation of the stage writes an array of the list: each writes just its result, and the result is in the list. -/
local macro "writes_in " h:ident : tactic => `(tactic| (
  simp only [$h:ident, List.Forall, StableHlo.TRef.ternary, StableHlo.TRef.of, StableHlo.nullary_writes, StableHlo.unary_writes, StableHlo.binary_writes,
    StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))))

/-- Stage `cA` leaves an array that is none of its operations' results as it was. -/
theorem cA_keeps (V : Valuation τ sig (Elt F)) (r : Ref sig .tc)
    (hr : r ∉ [main_v0, main_v1, main_v2, main_v3, main_cst, main_v4, main_cst_0, main_v5, main_v6, main_v7, main_cst_1, main_v8, main_v9, main_cst_2, main_v10, main_v11, main_v12]) :
    after cA V (Proc.devRef .tc r) = V (Proc.devRef .tc r) :=
  after_of_writes_sub cA V (by writes_in cA) hr

/-- Stage `cB0` leaves an array that is none of its operations' results as it was. -/
theorem cB0_keeps (V : Valuation τ sig (Elt F)) (r : Ref sig .tc)
    (hr : r ∉ [main_c, main_v13, main_v14, main_c_3, main_v15, main_v16, main_v17, main_v18, main_v19, main_v20]) :
    after cB0 V (Proc.devRef .tc r) = V (Proc.devRef .tc r) :=
  after_of_writes_sub cB0 V (by writes_in cB0) hr

/-- Stage `cC0` leaves an array that is none of its operations' results as it was. -/
theorem cC0_keeps (V : Valuation τ sig (Elt F)) (r : Ref sig .tc)
    (hr : r ∉ [main_v21, main_v22, main_v23, main_v24, main_cst_4, main_v25, main_v26, main_cst_5, main_v27, main_v28, main_v29]) :
    after cC0 V (Proc.devRef .tc r) = V (Proc.devRef .tc r) :=
  after_of_writes_sub cC0 V (by writes_in cC0) hr

/-- Stage `cD0` leaves an array that is none of its operations' results as it was. -/
theorem cD0_keeps (V : Valuation τ sig (Elt F)) (r : Ref sig .tc)
    (hr : r ∉ [main_cst_6, main_v30, main_v31, main_v32, main_v33, main_v34, main_v35]) :
    after cD0 V (Proc.devRef .tc r) = V (Proc.devRef .tc r) :=
  after_of_writes_sub cD0 V (by writes_in cD0) hr

/-- Stage `cE0` leaves an array that is none of its operations' results as it was. -/
theorem cE0_keeps (V : Valuation τ sig (Elt F)) (r : Ref sig .tc)
    (hr : r ∉ [main_v36, main_v37, main_v38, main_v39, main_cst_7, main_v40, main_v41, main_cst_8, main_v42, main_v43, main_v44]) :
    after cE0 V (Proc.devRef .tc r) = V (Proc.devRef .tc r) :=
  after_of_writes_sub cE0 V (by writes_in cE0) hr

end Keep

variable (m : (ℓ : Loc nD τ sig) → Buf (Elt Ideal) ℓ) (c : Dev nD)

/-! ## An array no stage so far has written holds its launch contents -/

theorem R1_launch (r : Ref sig .tc)
    (h1 : r ∉ [main_v0, main_v1, main_v2, main_v3, main_cst, main_v4, main_cst_0, main_v5, main_v6, main_v7, main_cst_1, main_v8, main_v9, main_cst_2, main_v10, main_v11, main_v12]) :
    R1 m c (Proc.devRef .tc r) = m ((c.tc : Thread nD τ).loc r) :=
  cA_keeps (R0 m c) r h1

theorem R2_launch (r : Ref sig .tc)
    (h1 : r ∉ [main_v0, main_v1, main_v2, main_v3, main_cst, main_v4, main_cst_0, main_v5, main_v6, main_v7, main_cst_1, main_v8, main_v9, main_cst_2, main_v10, main_v11, main_v12])
    (h2 : r ∉ [main_c, main_v13, main_v14, main_c_3, main_v15, main_v16, main_v17, main_v18, main_v19, main_v20]) :
    R2 m c (Proc.devRef .tc r) = m ((c.tc : Thread nD τ).loc r) :=
  (cB0_keeps (R1 m c) r h2).trans (R1_launch m c r h1)

theorem R3_launch (r : Ref sig .tc)
    (h1 : r ∉ [main_v0, main_v1, main_v2, main_v3, main_cst, main_v4, main_cst_0, main_v5, main_v6, main_v7, main_cst_1, main_v8, main_v9, main_cst_2, main_v10, main_v11, main_v12])
    (h2 : r ∉ [main_c, main_v13, main_v14, main_c_3, main_v15, main_v16, main_v17, main_v18, main_v19, main_v20])
    (h3 : r ∉ [main_v21, main_v22, main_v23, main_v24, main_cst_4, main_v25, main_v26, main_cst_5, main_v27, main_v28, main_v29]) :
    R3 m c (Proc.devRef .tc r) = m ((c.tc : Thread nD τ).loc r) :=
  (cC0_keeps (R2 m c) r h3).trans (R2_launch m c r h1 h2)

theorem R4_launch (r : Ref sig .tc)
    (h1 : r ∉ [main_v0, main_v1, main_v2, main_v3, main_cst, main_v4, main_cst_0, main_v5, main_v6, main_v7, main_cst_1, main_v8, main_v9, main_cst_2, main_v10, main_v11, main_v12])
    (h2 : r ∉ [main_c, main_v13, main_v14, main_c_3, main_v15, main_v16, main_v17, main_v18, main_v19, main_v20])
    (h3 : r ∉ [main_v21, main_v22, main_v23, main_v24, main_cst_4, main_v25, main_v26, main_cst_5, main_v27, main_v28, main_v29])
    (h4 : r ∉ [main_cst_6, main_v30, main_v31, main_v32, main_v33, main_v34, main_v35]) :
    R4 m c (Proc.devRef .tc r) = m ((c.tc : Thread nD τ).loc r) :=
  (cD0_keeps (R3 m c) r h4).trans (R3_launch m c r h1 h2 h3)

theorem R5_launch (r : Ref sig .tc)
    (h1 : r ∉ [main_v0, main_v1, main_v2, main_v3, main_cst, main_v4, main_cst_0, main_v5, main_v6, main_v7, main_cst_1, main_v8, main_v9, main_cst_2, main_v10, main_v11, main_v12])
    (h2 : r ∉ [main_c, main_v13, main_v14, main_c_3, main_v15, main_v16, main_v17, main_v18, main_v19, main_v20])
    (h3 : r ∉ [main_v21, main_v22, main_v23, main_v24, main_cst_4, main_v25, main_v26, main_cst_5, main_v27, main_v28, main_v29])
    (h4 : r ∉ [main_cst_6, main_v30, main_v31, main_v32, main_v33, main_v34, main_v35])
    (h5 : r ∉ [main_v36, main_v37, main_v38, main_v39, main_cst_7, main_v40, main_v41, main_cst_8, main_v42, main_v43, main_v44]) :
    R5 m c (Proc.devRef .tc r) = m ((c.tc : Thread nD τ).loc r) :=
  (cE0_keeps (R4 m c) r h5).trans (R4_launch m c r h1 h2 h3 h4)

/-! ## The argument arrays, at the boundaries where a stage reads them -/

theorem R1_arg0 : R1 m c (Proc.devRef .tc main_arg0) = m ((c.tc : Thread nD τ).loc main_arg0) :=
  R1_launch m c main_arg0 (by decide)

theorem R1_arg2 : R1 m c (Proc.devRef .tc main_arg2) = m ((c.tc : Thread nD τ).loc main_arg2) :=
  R1_launch m c main_arg2 (by decide)

theorem R2_arg4 : R2 m c (Proc.devRef .tc main_arg4) = m ((c.tc : Thread nD τ).loc main_arg4) :=
  R2_launch m c main_arg4 (by decide) (by decide)

theorem R2_arg5 : R2 m c (Proc.devRef .tc main_arg5) = m ((c.tc : Thread nD τ).loc main_arg5) :=
  R2_launch m c main_arg5 (by decide) (by decide)

theorem R3_arg0 : R3 m c (Proc.devRef .tc main_arg0) = m ((c.tc : Thread nD τ).loc main_arg0) :=
  R3_launch m c main_arg0 (by decide) (by decide) (by decide)

theorem R4_arg6 : R4 m c (Proc.devRef .tc main_arg6) = m ((c.tc : Thread nD τ).loc main_arg6) :=
  R4_launch m c main_arg6 (by decide) (by decide) (by decide) (by decide)

theorem R4_arg7 : R4 m c (Proc.devRef .tc main_arg7) = m ((c.tc : Thread nD τ).loc main_arg7) :=
  R4_launch m c main_arg7 (by decide) (by decide) (by decide) (by decide)

theorem R5_arg2 : R5 m c (Proc.devRef .tc main_arg2) = m ((c.tc : Thread nD τ).loc main_arg2) :=
  R5_launch m c main_arg2 (by decide) (by decide) (by decide) (by decide) (by decide)

/-! ## The first stage: the edges' source and destination nodes and the inverse degree -/

theorem R1_v1 : R1 m c (Proc.devRef .tc main_v1) = Cert.Spec.src (rArgs m c) := by
  show StableHlo.after cA (R0 m c) (Proc.devRef .tc main_v1) = _
  after_results
  rfl

theorem R1_v3 : R1 m c (Proc.devRef .tc main_v3) = Cert.Spec.dst (rArgs m c) := by
  show StableHlo.after cA (R0 m c) (Proc.devRef .tc main_v3) = _
  after_results
  rfl

theorem R1_v12 : R1 m c (Proc.devRef .tc main_v12) = Cert.Spec.invd (rArgs m c) := by
  show StableHlo.after cA (R0 m c) (Proc.devRef .tc main_v12) = _
  after_results
  rfl

/-! ## The index vectors and the inverse degree, carried through the round: no stage of it writes them -/

theorem R2_v1 : R2 m c (Proc.devRef .tc main_v1) = Cert.Spec.src (rArgs m c) :=
  (cB0_keeps (R1 m c) main_v1 (by decide)).trans (R1_v1 m c)

theorem R3_v1 : R3 m c (Proc.devRef .tc main_v1) = Cert.Spec.src (rArgs m c) :=
  (cC0_keeps (R2 m c) main_v1 (by decide)).trans (R2_v1 m c)

theorem R4_v1 : R4 m c (Proc.devRef .tc main_v1) = Cert.Spec.src (rArgs m c) :=
  (cD0_keeps (R3 m c) main_v1 (by decide)).trans (R3_v1 m c)

theorem R5_v1 : R5 m c (Proc.devRef .tc main_v1) = Cert.Spec.src (rArgs m c) :=
  (cE0_keeps (R4 m c) main_v1 (by decide)).trans (R4_v1 m c)

theorem R2_v3 : R2 m c (Proc.devRef .tc main_v3) = Cert.Spec.dst (rArgs m c) :=
  (cB0_keeps (R1 m c) main_v3 (by decide)).trans (R1_v3 m c)

theorem R3_v3 : R3 m c (Proc.devRef .tc main_v3) = Cert.Spec.dst (rArgs m c) :=
  (cC0_keeps (R2 m c) main_v3 (by decide)).trans (R2_v3 m c)

theorem R4_v3 : R4 m c (Proc.devRef .tc main_v3) = Cert.Spec.dst (rArgs m c) :=
  (cD0_keeps (R3 m c) main_v3 (by decide)).trans (R3_v3 m c)

theorem R5_v3 : R5 m c (Proc.devRef .tc main_v3) = Cert.Spec.dst (rArgs m c) :=
  (cE0_keeps (R4 m c) main_v3 (by decide)).trans (R4_v3 m c)

theorem R2_v12 : R2 m c (Proc.devRef .tc main_v12) = Cert.Spec.invd (rArgs m c) :=
  (cB0_keeps (R1 m c) main_v12 (by decide)).trans (R1_v12 m c)

theorem R3_v12 : R3 m c (Proc.devRef .tc main_v12) = Cert.Spec.invd (rArgs m c) :=
  (cC0_keeps (R2 m c) main_v12 (by decide)).trans (R2_v12 m c)

theorem R4_v12 : R4 m c (Proc.devRef .tc main_v12) = Cert.Spec.invd (rArgs m c) :=
  (cD0_keeps (R3 m c) main_v12 (by decide)).trans (R3_v12 m c)

theorem R5_v12 : R5 m c (Proc.devRef .tc main_v12) = Cert.Spec.invd (rArgs m c) :=
  (cE0_keeps (R4 m c) main_v12 (by decide)).trans (R4_v12 m c)

/-! ## The stages

Each stage's result array, read off the stage's operations over the arrays it reads (whose contents the facts above
and the earlier stages give), is the specification's term: literally so for the gather / concatenate stage and the
aggregation stage; by the affine-layer law of the dot product plus the repeated bias row, then the rectifier, for the two
layer stages. -/

/-- The rectifier's selection of stage `cC0`, spelt over references that carry their arrays' types, is the plain
    selection: each reference's own type is the type it carries. -/
theorem where_cC0 (p : (⟨S800000x64, .i1⟩ : BufTy).Contents (Elt Ideal)) (x y : (⟨S800000x64, .f32⟩ : BufTy).Contents (Elt Ideal)) :
    (TRef.of (T := ⟨S800000x64, .f32⟩) main_v29).toBuf (Val := Elt Ideal)
      (select ((TRef.of (T := ⟨S800000x64, .i1⟩) main_v26).ofBuf (Val := Elt Ideal) p)
        ((TRef.of (T := ⟨S800000x64, .f32⟩) main_v24).ofBuf (Val := Elt Ideal) x)
        ((TRef.of (T := ⟨S800000x64, .f32⟩) main_v28).ofBuf (Val := Elt Ideal) y)) = select p x y := rfl

/-- The rectifier's selection of stage `cE0`, spelt over references that carry their arrays' types, is the plain
    selection: each reference's own type is the type it carries. -/
theorem where_cE0 (p : (⟨S50000x64, .i1⟩ : BufTy).Contents (Elt Ideal)) (x y : (⟨S50000x64, .f32⟩ : BufTy).Contents (Elt Ideal)) :
    (TRef.of (T := ⟨S50000x64, .f32⟩) main_v44).toBuf (Val := Elt Ideal)
      (select ((TRef.of (T := ⟨S50000x64, .i1⟩) main_v41).ofBuf (Val := Elt Ideal) p)
        ((TRef.of (T := ⟨S50000x64, .f32⟩) main_v39).ofBuf (Val := Elt Ideal) x)
        ((TRef.of (T := ⟨S50000x64, .f32⟩) main_v43).ofBuf (Val := Elt Ideal) y)) = select p x y := rfl

theorem R2_v20 : R2 m c (Proc.devRef .tc main_v20) = Cert.Spec.cat0 (rArgs m c) := by
  show StableHlo.after cB0 (R1 m c) (Proc.devRef .tc main_v20) = _
  generalize hV : R1 m c = V
  after_results
  subst hV
  rw [R1_v1 m c, R1_arg0 m c, R1_arg2 m c]
  rfl

theorem R3_v29 : R3 m c (Proc.devRef .tc main_v29) = Cert.Spec.msg0 (rArgs m c) := by
  show StableHlo.after cC0 (R2 m c) (Proc.devRef .tc main_v29) = _
  generalize hV : R2 m c = V
  after_results
  subst hV
  rw [R2_v20 m c, R2_arg4 m c, R2_arg5 m c]
  rw [where_cC0]
  exact host_denseLeaky (M := 800000) (K := 13) (N := 64) (Cert.Spec.cat0 (rArgs m c)) (m ((c.tc : Thread nD τ).loc main_arg4)) (m ((c.tc : Thread nD τ).loc main_arg5)) bcast_S64_S1x64_1 bcast_S1x64_S800000x64_0_1 bcast_S_S800000x64 bcast_S_S800000x64

theorem R4_v35 : R4 m c (Proc.devRef .tc main_v35) = Cert.Spec.agg0 (rArgs m c) := by
  show StableHlo.after cD0 (R3 m c) (Proc.devRef .tc main_v35) = _
  generalize hV : R3 m c = V
  after_results
  subst hV
  rw [R3_v29 m c, R3_v3 m c, R3_v12 m c, R3_arg0 m c]
  rfl

theorem R5_v44 : R5 m c (Proc.devRef .tc main_v44) = Cert.Spec.h1 (rArgs m c) := by
  show StableHlo.after cE0 (R4 m c) (Proc.devRef .tc main_v44) = _
  generalize hV : R4 m c = V
  after_results
  subst hV
  rw [R4_v35 m c, R4_arg6 m c, R4_arg7 m c]
  rw [where_cE0]
  exact host_denseLeaky (M := 50000) (K := 74) (N := 64) (Cert.Spec.agg0 (rArgs m c)) (m ((c.tc : Thread nD τ).loc main_arg6)) (m ((c.tc : Thread nD τ).loc main_arg7)) bcast_S64_S1x64_1 bcast_S1x64_S50000x64_0_1 bcast_S_S50000x64 bcast_S_S50000x64

end Cert.ReferenceIdeal.RF

end
-- ==== Proof.RF1b.lean ====
/-
  THE REFERENCE'S SECOND ROUND, stage by stage, and the index vectors and the inverse degree carried to where the third
  round reads them.
-/
import proofs.«407242_j23235773071434_1_alg».proof.Proof.RChunks
import proofs.«407242_j23235773071434_1_alg».proof.Proof.RF1
import Idealize.ShloMosaic.Lib.StableHlo.Run

set_option maxRecDepth 16384

noncomputable section

namespace Cert.ReferenceIdeal.RF

open Idealize.ShloMosaic Idealize.ShloMosaic.TcCoe Idealize.SL.Sem Idealize.ShloMosaic.StableHlo
open Cert.ReferenceIdeal Cert.ReferenceIdeal.Gen Cert.Lib.Dense

variable (m : (ℓ : Loc nD τ sig) → Buf (Elt Ideal) ℓ) (c : Dev nD)

/-! ## What a stage leaves alone

Each operation writes exactly one array, its result; so a stage leaves every array that is not among its operations'
results as it found it. The results of each stage are listed; an array outside the lists of the stages between two
boundaries holds at the later boundary what it held at the earlier one. No operation writes an argument array, so an
argument array holds at every boundary what it held at launch. -/

/-- Every operation of the stage writes an array of the list: each writes just its result, and the result is in the list. -/
local macro "stage_writes_b " h:ident w:ident : tactic => `(tactic| (
  simp only [$h:ident, $w:ident, List.Forall, TRef.ternary, TRef.of, nullary_writes, unary_writes, binary_writes,
    ternary_writes, reshape_writes, Finset.singleton_subset_iff, List.mem_toFinset]
  repeat' apply And.intro
  all_goals exact List.mem_map_of_mem (by decide)))

/-- The arrays stage `cA` writes: its operations' results. -/
def wA_b : List (Ref sig .tc) := [main_v0, main_v1, main_v2, main_v3, main_cst, main_v4, main_cst_0, main_v5, main_v6, main_v7, main_cst_1, main_v8, main_v9, main_cst_2, main_v10, main_v11, main_v12]

theorem cA_keep_b {r : Ref sig .tc} (V : Valuation τ sig (Elt Ideal)) (hr : r ∉ wA_b) :
    after cA V (Proc.devRef .tc r) = V (Proc.devRef .tc r) :=
  after_of_writes_sub (W := wA_b) cA V (by stage_writes_b cA wA_b) hr

/-- The arrays stage `cB0` writes: its operations' results. -/
def wB0_b : List (Ref sig .tc) := [main_c, main_v13, main_v14, main_c_3, main_v15, main_v16, main_v17, main_v18, main_v19, main_v20]

theorem cB0_keep_b {r : Ref sig .tc} (V : Valuation τ sig (Elt Ideal)) (hr : r ∉ wB0_b) :
    after cB0 V (Proc.devRef .tc r) = V (Proc.devRef .tc r) :=
  after_of_writes_sub (W := wB0_b) cB0 V (by stage_writes_b cB0 wB0_b) hr

/-- The arrays stage `cC0` writes: its operations' results. -/
def wC0_b : List (Ref sig .tc) := [main_v21, main_v22, main_v23, main_v24, main_cst_4, main_v25, main_v26, main_cst_5, main_v27, main_v28, main_v29]

theorem cC0_keep_b {r : Ref sig .tc} (V : Valuation τ sig (Elt Ideal)) (hr : r ∉ wC0_b) :
    after cC0 V (Proc.devRef .tc r) = V (Proc.devRef .tc r) :=
  after_of_writes_sub (W := wC0_b) cC0 V (by stage_writes_b cC0 wC0_b) hr

/-- The arrays stage `cD0` writes: its operations' results. -/
def wD0_b : List (Ref sig .tc) := [main_cst_6, main_v30, main_v31, main_v32, main_v33, main_v34, main_v35]

theorem cD0_keep_b {r : Ref sig .tc} (V : Valuation τ sig (Elt Ideal)) (hr : r ∉ wD0_b) :
    after cD0 V (Proc.devRef .tc r) = V (Proc.devRef .tc r) :=
  after_of_writes_sub (W := wD0_b) cD0 V (by stage_writes_b cD0 wD0_b) hr

/-- The arrays stage `cE0` writes: its operations' results. -/
def wE0_b : List (Ref sig .tc) := [main_v36, main_v37, main_v38, main_v39, main_cst_7, main_v40, main_v41, main_cst_8, main_v42, main_v43, main_v44]

theorem cE0_keep_b {r : Ref sig .tc} (V : Valuation τ sig (Elt Ideal)) (hr : r ∉ wE0_b) :
    after cE0 V (Proc.devRef .tc r) = V (Proc.devRef .tc r) :=
  after_of_writes_sub (W := wE0_b) cE0 V (by stage_writes_b cE0 wE0_b) hr

/-- The arrays stage `cB1` writes: its operations' results. -/
def wB1_b : List (Ref sig .tc) := [main_c_9, main_v45, main_v46, main_c_10, main_v47, main_v48, main_v49, main_v50, main_v51, main_v52]

theorem cB1_keep_b {r : Ref sig .tc} (V : Valuation τ sig (Elt Ideal)) (hr : r ∉ wB1_b) :
    after cB1 V (Proc.devRef .tc r) = V (Proc.devRef .tc r) :=
  after_of_writes_sub (W := wB1_b) cB1 V (by stage_writes_b cB1 wB1_b) hr

/-- The arrays stage `cC1` writes: its operations' results. -/
def wC1_b : List (Ref sig .tc) := [main_v53, main_v54, main_v55, main_v56, main_cst_11, main_v57, main_v58, main_cst_12, main_v59, main_v60, main_v61]

theorem cC1_keep_b {r : Ref sig .tc} (V : Valuation τ sig (Elt Ideal)) (hr : r ∉ wC1_b) :
    after cC1 V (Proc.devRef .tc r) = V (Proc.devRef .tc r) :=
  after_of_writes_sub (W := wC1_b) cC1 V (by stage_writes_b cC1 wC1_b) hr

/-- The arrays stage `cD1` writes: its operations' results. -/
def wD1_b : List (Ref sig .tc) := [main_cst_13, main_v62, main_v63, main_v64, main_v65, main_v66, main_v67]

theorem cD1_keep_b {r : Ref sig .tc} (V : Valuation τ sig (Elt Ideal)) (hr : r ∉ wD1_b) :
    after cD1 V (Proc.devRef .tc r) = V (Proc.devRef .tc r) :=
  after_of_writes_sub (W := wD1_b) cD1 V (by stage_writes_b cD1 wD1_b) hr

/-- The arrays stage `cE1` writes: its operations' results. -/
def wE1_b : List (Ref sig .tc) := [main_v68, main_v69, main_v70, main_v71, main_cst_14, main_v72, main_v73, main_cst_15, main_v74, main_v75, main_v76]

theorem cE1_keep_b {r : Ref sig .tc} (V : Valuation τ sig (Elt Ideal)) (hr : r ∉ wE1_b) :
    after cE1 V (Proc.devRef .tc r) = V (Proc.devRef .tc r) :=
  after_of_writes_sub (W := wE1_b) cE1 V (by stage_writes_b cE1 wE1_b) hr

/-- The arrays written after the first boundary, up to each later boundary. -/
def u2_b : List (Ref sig .tc) := wB0_b
def u3_b : List (Ref sig .tc) := u2_b ++ wC0_b
def u4_b : List (Ref sig .tc) := u3_b ++ wD0_b
def u5_b : List (Ref sig .tc) := u4_b ++ wE0_b
def u6_b : List (Ref sig .tc) := u5_b ++ wB1_b
def u7_b : List (Ref sig .tc) := u6_b ++ wC1_b
def u8_b : List (Ref sig .tc) := u7_b ++ wD1_b
def u9_b : List (Ref sig .tc) := u8_b ++ wE1_b

/-- An array no stage after the first writes, up to a boundary, holds there what it held at the first boundary. -/
theorem carry2_b {r : Ref sig .tc} (h : r ∉ u2_b) : R2 m c (Proc.devRef .tc r) = R1 m c (Proc.devRef .tc r) :=
  cB0_keep_b (R1 m c) h
theorem carry3_b {r : Ref sig .tc} (h : r ∉ u3_b) : R3 m c (Proc.devRef .tc r) = R1 m c (Proc.devRef .tc r) :=
  calc R3 m c (Proc.devRef .tc r)
    _ = R2 m c (Proc.devRef .tc r) := cC0_keep_b (R2 m c) fun h' => h (List.mem_append_right _ h')
    _ = R1 m c (Proc.devRef .tc r) := carry2_b m c fun h' => h (List.mem_append_left _ h')
theorem carry4_b {r : Ref sig .tc} (h : r ∉ u4_b) : R4 m c (Proc.devRef .tc r) = R1 m c (Proc.devRef .tc r) :=
  calc R4 m c (Proc.devRef .tc r)
    _ = R3 m c (Proc.devRef .tc r) := cD0_keep_b (R3 m c) fun h' => h (List.mem_append_right _ h')
    _ = R1 m c (Proc.devRef .tc r) := carry3_b m c fun h' => h (List.mem_append_left _ h')
theorem carry5_b {r : Ref sig .tc} (h : r ∉ u5_b) : R5 m c (Proc.devRef .tc r) = R1 m c (Proc.devRef .tc r) :=
  calc R5 m c (Proc.devRef .tc r)
    _ = R4 m c (Proc.devRef .tc r) := cE0_keep_b (R4 m c) fun h' => h (List.mem_append_right _ h')
    _ = R1 m c (Proc.devRef .tc r) := carry4_b m c fun h' => h (List.mem_append_left _ h')
theorem carry6_b {r : Ref sig .tc} (h : r ∉ u6_b) : R6 m c (Proc.devRef .tc r) = R1 m c (Proc.devRef .tc r) :=
  calc R6 m c (Proc.devRef .tc r)
    _ = R5 m c (Proc.devRef .tc r) := cB1_keep_b (R5 m c) fun h' => h (List.mem_append_right _ h')
    _ = R1 m c (Proc.devRef .tc r) := carry5_b m c fun h' => h (List.mem_append_left _ h')
theorem carry7_b {r : Ref sig .tc} (h : r ∉ u7_b) : R7 m c (Proc.devRef .tc r) = R1 m c (Proc.devRef .tc r) :=
  calc R7 m c (Proc.devRef .tc r)
    _ = R6 m c (Proc.devRef .tc r) := cC1_keep_b (R6 m c) fun h' => h (List.mem_append_right _ h')
    _ = R1 m c (Proc.devRef .tc r) := carry6_b m c fun h' => h (List.mem_append_left _ h')
theorem carry8_b {r : Ref sig .tc} (h : r ∉ u8_b) : R8 m c (Proc.devRef .tc r) = R1 m c (Proc.devRef .tc r) :=
  calc R8 m c (Proc.devRef .tc r)
    _ = R7 m c (Proc.devRef .tc r) := cD1_keep_b (R7 m c) fun h' => h (List.mem_append_right _ h')
    _ = R1 m c (Proc.devRef .tc r) := carry7_b m c fun h' => h (List.mem_append_left _ h')
theorem carry9_b {r : Ref sig .tc} (h : r ∉ u9_b) : R9 m c (Proc.devRef .tc r) = R1 m c (Proc.devRef .tc r) :=
  calc R9 m c (Proc.devRef .tc r)
    _ = R8 m c (Proc.devRef .tc r) := cE1_keep_b (R8 m c) fun h' => h (List.mem_append_right _ h')
    _ = R1 m c (Proc.devRef .tc r) := carry8_b m c fun h' => h (List.mem_append_left _ h')

/-! ## The argument arrays, at the boundaries where a stage of the second round reads them -/

theorem R5_arg2_b : R5 m c (Proc.devRef .tc main_arg2) = m ((c.tc : Thread nD τ).loc main_arg2) :=
  calc R5 m c (Proc.devRef .tc main_arg2)
    _ = R1 m c (Proc.devRef .tc main_arg2) := carry5_b m c (by decide)
    _ = R0 m c (Proc.devRef .tc main_arg2) := cA_keep_b (R0 m c) (by decide)
    _ = m ((c.tc : Thread nD τ).loc main_arg2) := rfl

theorem R6_arg8_b : R6 m c (Proc.devRef .tc main_arg8) = m ((c.tc : Thread nD τ).loc main_arg8) :=
  calc R6 m c (Proc.devRef .tc main_arg8)
    _ = R1 m c (Proc.devRef .tc main_arg8) := carry6_b m c (by decide)
    _ = R0 m c (Proc.devRef .tc main_arg8) := cA_keep_b (R0 m c) (by decide)
    _ = m ((c.tc : Thread nD τ).loc main_arg8) := rfl

theorem R6_arg9_b : R6 m c (Proc.devRef .tc main_arg9) = m ((c.tc : Thread nD τ).loc main_arg9) :=
  calc R6 m c (Proc.devRef .tc main_arg9)
    _ = R1 m c (Proc.devRef .tc main_arg9) := carry6_b m c (by decide)
    _ = R0 m c (Proc.devRef .tc main_arg9) := cA_keep_b (R0 m c) (by decide)
    _ = m ((c.tc : Thread nD τ).loc main_arg9) := rfl

theorem R8_arg10_b : R8 m c (Proc.devRef .tc main_arg10) = m ((c.tc : Thread nD τ).loc main_arg10) :=
  calc R8 m c (Proc.devRef .tc main_arg10)
    _ = R1 m c (Proc.devRef .tc main_arg10) := carry8_b m c (by decide)
    _ = R0 m c (Proc.devRef .tc main_arg10) := cA_keep_b (R0 m c) (by decide)
    _ = m ((c.tc : Thread nD τ).loc main_arg10) := rfl

theorem R8_arg11_b : R8 m c (Proc.devRef .tc main_arg11) = m ((c.tc : Thread nD τ).loc main_arg11) :=
  calc R8 m c (Proc.devRef .tc main_arg11)
    _ = R1 m c (Proc.devRef .tc main_arg11) := carry8_b m c (by decide)
    _ = R0 m c (Proc.devRef .tc main_arg11) := cA_keep_b (R0 m c) (by decide)
    _ = m ((c.tc : Thread nD τ).loc main_arg11) := rfl

/-! ## The source and destination indices and the inverse degree, made by the first stage and written by none after it,
and the first round's node features, carried to where the second round reads them -/

theorem R5_v1_b : R5 m c (Proc.devRef .tc main_v1) = Cert.Spec.src (rArgs m c) :=
  calc R5 m c (Proc.devRef .tc main_v1)
    _ = R1 m c (Proc.devRef .tc main_v1) := carry5_b m c (by decide)
    _ = Cert.Spec.src (rArgs m c) := R1_v1 m c

theorem R7_v3_b : R7 m c (Proc.devRef .tc main_v3) = Cert.Spec.dst (rArgs m c) :=
  calc R7 m c (Proc.devRef .tc main_v3)
    _ = R1 m c (Proc.devRef .tc main_v3) := carry7_b m c (by decide)
    _ = Cert.Spec.dst (rArgs m c) := R1_v3 m c

theorem R7_v12_b : R7 m c (Proc.devRef .tc main_v12) = Cert.Spec.invd (rArgs m c) :=
  calc R7 m c (Proc.devRef .tc main_v12)
    _ = R1 m c (Proc.devRef .tc main_v12) := carry7_b m c (by decide)
    _ = Cert.Spec.invd (rArgs m c) := R1_v12 m c

theorem R7_v44_b : R7 m c (Proc.devRef .tc main_v44) = Cert.Spec.h1 (rArgs m c) :=
  calc R7 m c (Proc.devRef .tc main_v44)
    _ = R6 m c (Proc.devRef .tc main_v44) := cC1_keep_b (R6 m c) (by decide)
    _ = R5 m c (Proc.devRef .tc main_v44) := cB1_keep_b (R5 m c) (by decide)
    _ = Cert.Spec.h1 (rArgs m c) := R5_v44 m c

/-! ## The stages

Each stage's result array, read off the stage's operations over the arrays it reads (whose contents the facts above
and the earlier stages give), is the specification's term: literally so for the gather / concatenate and the aggregate
stages; by the affine-layer law of the dot product plus the repeated bias row, then the rectifier, for the layer stages. -/

/-- The rectifier's selection of stage `cC1`, spelt over references that carry their arrays' types, is the plain
    selection: each reference's own type is the type it carries. -/
theorem where_cC1_b (p : (⟨S800000x128, .i1⟩ : BufTy).Contents (Elt Ideal)) (x y : (⟨S800000x128, .f32⟩ : BufTy).Contents (Elt Ideal)) :
    (TRef.of (T := ⟨S800000x128, .f32⟩) main_v61).toBuf (Val := Elt Ideal)
      (select ((TRef.of (T := ⟨S800000x128, .i1⟩) main_v58).ofBuf (Val := Elt Ideal) p)
        ((TRef.of (T := ⟨S800000x128, .f32⟩) main_v56).ofBuf (Val := Elt Ideal) x)
        ((TRef.of (T := ⟨S800000x128, .f32⟩) main_v60).ofBuf (Val := Elt Ideal) y)) = select p x y := rfl

/-- The rectifier's selection of stage `cE1`, spelt over references that carry their arrays' types, is the plain
    selection: each reference's own type is the type it carries. -/
theorem where_cE1_b (p : (⟨S50000x128, .i1⟩ : BufTy).Contents (Elt Ideal)) (x y : (⟨S50000x128, .f32⟩ : BufTy).Contents (Elt Ideal)) :
    (TRef.of (T := ⟨S50000x128, .f32⟩) main_v76).toBuf (Val := Elt Ideal)
      (select ((TRef.of (T := ⟨S50000x128, .i1⟩) main_v73).ofBuf (Val := Elt Ideal) p)
        ((TRef.of (T := ⟨S50000x128, .f32⟩) main_v71).ofBuf (Val := Elt Ideal) x)
        ((TRef.of (T := ⟨S50000x128, .f32⟩) main_v75).ofBuf (Val := Elt Ideal) y)) = select p x y := rfl

theorem R6_v52 : R6 m c (Proc.devRef .tc main_v52) = Cert.Spec.cat1 (rArgs m c) := by
  show StableHlo.after cB1 (R5 m c) (Proc.devRef .tc main_v52) = _
  generalize hV : R5 m c = V
  after_results
  subst hV
  rw [R5_v1_b m c, R5_v44 m c, R5_arg2_b m c]
  rfl

theorem R7_v61 : R7 m c (Proc.devRef .tc main_v61) = Cert.Spec.msg1 (rArgs m c) := by
  show StableHlo.after cC1 (R6 m c) (Proc.devRef .tc main_v61) = _
  generalize hV : R6 m c = V
  after_results
  subst hV
  rw [R6_v52 m c, R6_arg8_b m c, R6_arg9_b m c]
  rw [where_cC1_b]
  exact host_denseLeaky (M := 800000) (K := 67) (N := 128) (Cert.Spec.cat1 (rArgs m c)) (m ((c.tc : Thread nD τ).loc main_arg8)) (m ((c.tc : Thread nD τ).loc main_arg9)) bcast_S128_S1x128_1 bcast_S1x128_S800000x128_0_1 bcast_S_S800000x128 bcast_S_S800000x128

theorem R8_v67 : R8 m c (Proc.devRef .tc main_v67) = Cert.Spec.agg1 (rArgs m c) := by
  show StableHlo.after cD1 (R7 m c) (Proc.devRef .tc main_v67) = _
  generalize hV : R7 m c = V
  after_results
  subst hV
  rw [R7_v61 m c, R7_v3_b m c, R7_v12_b m c, R7_v44_b m c]
  rfl

theorem R9_v76 : R9 m c (Proc.devRef .tc main_v76) = Cert.Spec.h2 (rArgs m c) := by
  show StableHlo.after cE1 (R8 m c) (Proc.devRef .tc main_v76) = _
  generalize hV : R8 m c = V
  after_results
  subst hV
  rw [R8_v67 m c, R8_arg10_b m c, R8_arg11_b m c]
  rw [where_cE1_b]
  exact host_denseLeaky (M := 50000) (K := 192) (N := 128) (Cert.Spec.agg1 (rArgs m c)) (m ((c.tc : Thread nD τ).loc main_arg10)) (m ((c.tc : Thread nD τ).loc main_arg11)) bcast_S128_S1x128_1 bcast_S1x128_S50000x128_0_1 bcast_S_S50000x128 bcast_S_S50000x128

/-! ## Carried to the third round -/

theorem R9_v1 : R9 m c (Proc.devRef .tc main_v1) = Cert.Spec.src (rArgs m c) := by
  exact (carry9_b m c (by decide)).trans (R1_v1 m c)

theorem R9_v3 : R9 m c (Proc.devRef .tc main_v3) = Cert.Spec.dst (rArgs m c) := by
  exact (carry9_b m c (by decide)).trans (R1_v3 m c)

theorem R9_v12 : R9 m c (Proc.devRef .tc main_v12) = Cert.Spec.invd (rArgs m c) := by
  exact (carry9_b m c (by decide)).trans (R1_v12 m c)

end Cert.ReferenceIdeal.RF

end
-- ==== Proof.RF2.lean ====
/-
  THE REFERENCE'S THIRD ROUND, THE PER-GRAPH MEAN AND THE LAST THREE LAYERS, stage by stage; and the whole run's result.
-/
import proofs.«407242_j23235773071434_1_alg».proof.Proof.RChunks
import proofs.«407242_j23235773071434_1_alg».proof.Proof.RF1
import proofs.«407242_j23235773071434_1_alg».proof.Proof.RF1b
import Idealize.ShloMosaic.Lib.StableHlo.Run

set_option maxRecDepth 16384

noncomputable section

namespace Cert.ReferenceIdeal.RF

open Idealize.ShloMosaic Idealize.ShloMosaic.TcCoe Idealize.SL.Sem Idealize.ShloMosaic.StableHlo
open Cert.ReferenceIdeal Cert.ReferenceIdeal.Gen Cert.Lib.Dense

variable (m : (ℓ : Loc nD τ sig) → Buf (Elt Ideal) ℓ) (c : Dev nD)
/-! ## What a stage leaves alone

Each operation writes exactly one array, its result; so a stage leaves every array that is not among its operations'
results as it found it. The results of each stage are listed, and an array outside the lists of all the stages up to a
boundary holds at that boundary what it held at launch: in particular every argument array, which no operation writes. -/

/-- Every operation of the stage writes an array of the list: each writes just its result, and the result is in the list. -/
local macro "stage_writes " h:ident w:ident : tactic => `(tactic| (
  simp only [$h:ident, $w:ident, List.Forall, TRef.ternary, TRef.of, nullary_writes, unary_writes, binary_writes,
    ternary_writes, reshape_writes, Finset.singleton_subset_iff, List.mem_toFinset]
  repeat' apply And.intro
  all_goals exact List.mem_map_of_mem (by decide)))

/-- The arrays stage `cA` writes: its operations' results. -/
def wA : List (Ref sig .tc) := [main_v0, main_v1, main_v2, main_v3, main_cst, main_v4, main_cst_0, main_v5, main_v6, main_v7, main_cst_1, main_v8, main_v9, main_cst_2, main_v10, main_v11, main_v12]

theorem cA_keep {r : Ref sig .tc} (V : Valuation τ sig (Elt Ideal)) (hr : r ∉ wA) :
    after cA V (Proc.devRef .tc r) = V (Proc.devRef .tc r) :=
  after_of_writes_sub (W := wA) cA V (by stage_writes cA wA) hr

/-- The arrays stage `cB0` writes: its operations' results. -/
def wB0 : List (Ref sig .tc) := [main_c, main_v13, main_v14, main_c_3, main_v15, main_v16, main_v17, main_v18, main_v19, main_v20]

theorem cB0_keep {r : Ref sig .tc} (V : Valuation τ sig (Elt Ideal)) (hr : r ∉ wB0) :
    after cB0 V (Proc.devRef .tc r) = V (Proc.devRef .tc r) :=
  after_of_writes_sub (W := wB0) cB0 V (by stage_writes cB0 wB0) hr

/-- The arrays stage `cC0` writes: its operations' results. -/
def wC0 : List (Ref sig .tc) := [main_v21, main_v22, main_v23, main_v24, main_cst_4, main_v25, main_v26, main_cst_5, main_v27, main_v28, main_v29]

theorem cC0_keep {r : Ref sig .tc} (V : Valuation τ sig (Elt Ideal)) (hr : r ∉ wC0) :
    after cC0 V (Proc.devRef .tc r) = V (Proc.devRef .tc r) :=
  after_of_writes_sub (W := wC0) cC0 V (by stage_writes cC0 wC0) hr

/-- The arrays stage `cD0` writes: its operations' results. -/
def wD0 : List (Ref sig .tc) := [main_cst_6, main_v30, main_v31, main_v32, main_v33, main_v34, main_v35]

theorem cD0_keep {r : Ref sig .tc} (V : Valuation τ sig (Elt Ideal)) (hr : r ∉ wD0) :
    after cD0 V (Proc.devRef .tc r) = V (Proc.devRef .tc r) :=
  after_of_writes_sub (W := wD0) cD0 V (by stage_writes cD0 wD0) hr

/-- The arrays stage `cE0` writes: its operations' results. -/
def wE0 : List (Ref sig .tc) := [main_v36, main_v37, main_v38, main_v39, main_cst_7, main_v40, main_v41, main_cst_8, main_v42, main_v43, main_v44]

theorem cE0_keep {r : Ref sig .tc} (V : Valuation τ sig (Elt Ideal)) (hr : r ∉ wE0) :
    after cE0 V (Proc.devRef .tc r) = V (Proc.devRef .tc r) :=
  after_of_writes_sub (W := wE0) cE0 V (by stage_writes cE0 wE0) hr

/-- The arrays stage `cB1` writes: its operations' results. -/
def wB1 : List (Ref sig .tc) := [main_c_9, main_v45, main_v46, main_c_10, main_v47, main_v48, main_v49, main_v50, main_v51, main_v52]

theorem cB1_keep {r : Ref sig .tc} (V : Valuation τ sig (Elt Ideal)) (hr : r ∉ wB1) :
    after cB1 V (Proc.devRef .tc r) = V (Proc.devRef .tc r) :=
  after_of_writes_sub (W := wB1) cB1 V (by stage_writes cB1 wB1) hr

/-- The arrays stage `cC1` writes: its operations' results. -/
def wC1 : List (Ref sig .tc) := [main_v53, main_v54, main_v55, main_v56, main_cst_11, main_v57, main_v58, main_cst_12, main_v59, main_v60, main_v61]

theorem cC1_keep {r : Ref sig .tc} (V : Valuation τ sig (Elt Ideal)) (hr : r ∉ wC1) :
    after cC1 V (Proc.devRef .tc r) = V (Proc.devRef .tc r) :=
  after_of_writes_sub (W := wC1) cC1 V (by stage_writes cC1 wC1) hr

/-- The arrays stage `cD1` writes: its operations' results. -/
def wD1 : List (Ref sig .tc) := [main_cst_13, main_v62, main_v63, main_v64, main_v65, main_v66, main_v67]

theorem cD1_keep {r : Ref sig .tc} (V : Valuation τ sig (Elt Ideal)) (hr : r ∉ wD1) :
    after cD1 V (Proc.devRef .tc r) = V (Proc.devRef .tc r) :=
  after_of_writes_sub (W := wD1) cD1 V (by stage_writes cD1 wD1) hr

/-- The arrays stage `cE1` writes: its operations' results. -/
def wE1 : List (Ref sig .tc) := [main_v68, main_v69, main_v70, main_v71, main_cst_14, main_v72, main_v73, main_cst_15, main_v74, main_v75, main_v76]

theorem cE1_keep {r : Ref sig .tc} (V : Valuation τ sig (Elt Ideal)) (hr : r ∉ wE1) :
    after cE1 V (Proc.devRef .tc r) = V (Proc.devRef .tc r) :=
  after_of_writes_sub (W := wE1) cE1 V (by stage_writes cE1 wE1) hr

/-- The arrays stage `cB2` writes: its operations' results. -/
def wB2 : List (Ref sig .tc) := [main_c_16, main_v77, main_v78, main_c_17, main_v79, main_v80, main_v81, main_v82, main_v83, main_v84]

theorem cB2_keep {r : Ref sig .tc} (V : Valuation τ sig (Elt Ideal)) (hr : r ∉ wB2) :
    after cB2 V (Proc.devRef .tc r) = V (Proc.devRef .tc r) :=
  after_of_writes_sub (W := wB2) cB2 V (by stage_writes cB2 wB2) hr

/-- The arrays stage `cC2` writes: its operations' results. -/
def wC2 : List (Ref sig .tc) := [main_v85, main_v86, main_v87, main_v88, main_cst_18, main_v89, main_v90, main_cst_19, main_v91, main_v92, main_v93]

theorem cC2_keep {r : Ref sig .tc} (V : Valuation τ sig (Elt Ideal)) (hr : r ∉ wC2) :
    after cC2 V (Proc.devRef .tc r) = V (Proc.devRef .tc r) :=
  after_of_writes_sub (W := wC2) cC2 V (by stage_writes cC2 wC2) hr

/-- The arrays stage `cD2` writes: its operations' results. -/
def wD2 : List (Ref sig .tc) := [main_cst_20, main_v94, main_v95, main_v96, main_v97, main_v98, main_v99]

theorem cD2_keep {r : Ref sig .tc} (V : Valuation τ sig (Elt Ideal)) (hr : r ∉ wD2) :
    after cD2 V (Proc.devRef .tc r) = V (Proc.devRef .tc r) :=
  after_of_writes_sub (W := wD2) cD2 V (by stage_writes cD2 wD2) hr

/-- The arrays stage `cE2` writes: its operations' results. -/
def wE2 : List (Ref sig .tc) := [main_v100, main_v101, main_v102, main_v103, main_cst_21, main_v104, main_v105, main_cst_22, main_v106, main_v107, main_v108]

theorem cE2_keep {r : Ref sig .tc} (V : Valuation τ sig (Elt Ideal)) (hr : r ∉ wE2) :
    after cE2 V (Proc.devRef .tc r) = V (Proc.devRef .tc r) :=
  after_of_writes_sub (W := wE2) cE2 V (by stage_writes cE2 wE2) hr

/-- The arrays stage `cP` writes: its operations' results. -/
def wP : List (Ref sig .tc) := [main_cst_23, main_v109, main_v110, main_v111, main_cst_24, main_v112, main_cst_25, main_v113, main_v114, main_v115, main_cst_26, main_v116, main_v117, main_v118, main_v119, main_v120]

theorem cP_keep {r : Ref sig .tc} (V : Valuation τ sig (Elt Ideal)) (hr : r ∉ wP) :
    after cP V (Proc.devRef .tc r) = V (Proc.devRef .tc r) :=
  after_of_writes_sub (W := wP) cP V (by stage_writes cP wP) hr

/-- The arrays stage `cF0` writes: its operations' results. -/
def wF0 : List (Ref sig .tc) := [main_v121, main_v122, main_v123, main_v124, main_cst_27, main_v125, main_v126, main_cst_28, main_v127, main_v128, main_v129]

theorem cF0_keep {r : Ref sig .tc} (V : Valuation τ sig (Elt Ideal)) (hr : r ∉ wF0) :
    after cF0 V (Proc.devRef .tc r) = V (Proc.devRef .tc r) :=
  after_of_writes_sub (W := wF0) cF0 V (by stage_writes cF0 wF0) hr

/-- The arrays stage `cF1` writes: its operations' results. -/
def wF1 : List (Ref sig .tc) := [main_v130, main_v131, main_v132, main_v133, main_cst_29, main_v134, main_v135, main_cst_30, main_v136, main_v137, main_v138]

theorem cF1_keep {r : Ref sig .tc} (V : Valuation τ sig (Elt Ideal)) (hr : r ∉ wF1) :
    after cF1 V (Proc.devRef .tc r) = V (Proc.devRef .tc r) :=
  after_of_writes_sub (W := wF1) cF1 V (by stage_writes cF1 wF1) hr

/-- The arrays written up to each boundary. -/
def w1 : List (Ref sig .tc) := wA
def w2 : List (Ref sig .tc) := w1 ++ wB0
def w3 : List (Ref sig .tc) := w2 ++ wC0
def w4 : List (Ref sig .tc) := w3 ++ wD0
def w5 : List (Ref sig .tc) := w4 ++ wE0
def w6 : List (Ref sig .tc) := w5 ++ wB1
def w7 : List (Ref sig .tc) := w6 ++ wC1
def w8 : List (Ref sig .tc) := w7 ++ wD1
def w9 : List (Ref sig .tc) := w8 ++ wE1
def w10 : List (Ref sig .tc) := w9 ++ wB2
def w11 : List (Ref sig .tc) := w10 ++ wC2
def w12 : List (Ref sig .tc) := w11 ++ wD2
def w13 : List (Ref sig .tc) := w12 ++ wE2
def w14 : List (Ref sig .tc) := w13 ++ wP
def w15 : List (Ref sig .tc) := w14 ++ wF0
def w16 : List (Ref sig .tc) := w15 ++ wF1

/-- An array no stage up to a boundary writes holds there what it held at launch. -/
theorem keep1 {r : Ref sig .tc} (h : r ∉ w1) : R1 m c (Proc.devRef .tc r) = R0 m c (Proc.devRef .tc r) :=
  cA_keep (R0 m c) h
theorem keep2 {r : Ref sig .tc} (h : r ∉ w2) : R2 m c (Proc.devRef .tc r) = R0 m c (Proc.devRef .tc r) :=
  calc R2 m c (Proc.devRef .tc r)
    _ = R1 m c (Proc.devRef .tc r) := cB0_keep (R1 m c) fun h' => h (List.mem_append_right _ h')
    _ = R0 m c (Proc.devRef .tc r) := keep1 m c fun h' => h (List.mem_append_left _ h')
theorem keep3 {r : Ref sig .tc} (h : r ∉ w3) : R3 m c (Proc.devRef .tc r) = R0 m c (Proc.devRef .tc r) :=
  calc R3 m c (Proc.devRef .tc r)
    _ = R2 m c (Proc.devRef .tc r) := cC0_keep (R2 m c) fun h' => h (List.mem_append_right _ h')
    _ = R0 m c (Proc.devRef .tc r) := keep2 m c fun h' => h (List.mem_append_left _ h')
theorem keep4 {r : Ref sig .tc} (h : r ∉ w4) : R4 m c (Proc.devRef .tc r) = R0 m c (Proc.devRef .tc r) :=
  calc R4 m c (Proc.devRef .tc r)
    _ = R3 m c (Proc.devRef .tc r) := cD0_keep (R3 m c) fun h' => h (List.mem_append_right _ h')
    _ = R0 m c (Proc.devRef .tc r) := keep3 m c fun h' => h (List.mem_append_left _ h')
theorem keep5 {r : Ref sig .tc} (h : r ∉ w5) : R5 m c (Proc.devRef .tc r) = R0 m c (Proc.devRef .tc r) :=
  calc R5 m c (Proc.devRef .tc r)
    _ = R4 m c (Proc.devRef .tc r) := cE0_keep (R4 m c) fun h' => h (List.mem_append_right _ h')
    _ = R0 m c (Proc.devRef .tc r) := keep4 m c fun h' => h (List.mem_append_left _ h')
theorem keep6 {r : Ref sig .tc} (h : r ∉ w6) : R6 m c (Proc.devRef .tc r) = R0 m c (Proc.devRef .tc r) :=
  calc R6 m c (Proc.devRef .tc r)
    _ = R5 m c (Proc.devRef .tc r) := cB1_keep (R5 m c) fun h' => h (List.mem_append_right _ h')
    _ = R0 m c (Proc.devRef .tc r) := keep5 m c fun h' => h (List.mem_append_left _ h')
theorem keep7 {r : Ref sig .tc} (h : r ∉ w7) : R7 m c (Proc.devRef .tc r) = R0 m c (Proc.devRef .tc r) :=
  calc R7 m c (Proc.devRef .tc r)
    _ = R6 m c (Proc.devRef .tc r) := cC1_keep (R6 m c) fun h' => h (List.mem_append_right _ h')
    _ = R0 m c (Proc.devRef .tc r) := keep6 m c fun h' => h (List.mem_append_left _ h')
theorem keep8 {r : Ref sig .tc} (h : r ∉ w8) : R8 m c (Proc.devRef .tc r) = R0 m c (Proc.devRef .tc r) :=
  calc R8 m c (Proc.devRef .tc r)
    _ = R7 m c (Proc.devRef .tc r) := cD1_keep (R7 m c) fun h' => h (List.mem_append_right _ h')
    _ = R0 m c (Proc.devRef .tc r) := keep7 m c fun h' => h (List.mem_append_left _ h')
theorem keep9 {r : Ref sig .tc} (h : r ∉ w9) : R9 m c (Proc.devRef .tc r) = R0 m c (Proc.devRef .tc r) :=
  calc R9 m c (Proc.devRef .tc r)
    _ = R8 m c (Proc.devRef .tc r) := cE1_keep (R8 m c) fun h' => h (List.mem_append_right _ h')
    _ = R0 m c (Proc.devRef .tc r) := keep8 m c fun h' => h (List.mem_append_left _ h')
theorem keep10 {r : Ref sig .tc} (h : r ∉ w10) : R10 m c (Proc.devRef .tc r) = R0 m c (Proc.devRef .tc r) :=
  calc R10 m c (Proc.devRef .tc r)
    _ = R9 m c (Proc.devRef .tc r) := cB2_keep (R9 m c) fun h' => h (List.mem_append_right _ h')
    _ = R0 m c (Proc.devRef .tc r) := keep9 m c fun h' => h (List.mem_append_left _ h')
theorem keep11 {r : Ref sig .tc} (h : r ∉ w11) : R11 m c (Proc.devRef .tc r) = R0 m c (Proc.devRef .tc r) :=
  calc R11 m c (Proc.devRef .tc r)
    _ = R10 m c (Proc.devRef .tc r) := cC2_keep (R10 m c) fun h' => h (List.mem_append_right _ h')
    _ = R0 m c (Proc.devRef .tc r) := keep10 m c fun h' => h (List.mem_append_left _ h')
theorem keep12 {r : Ref sig .tc} (h : r ∉ w12) : R12 m c (Proc.devRef .tc r) = R0 m c (Proc.devRef .tc r) :=
  calc R12 m c (Proc.devRef .tc r)
    _ = R11 m c (Proc.devRef .tc r) := cD2_keep (R11 m c) fun h' => h (List.mem_append_right _ h')
    _ = R0 m c (Proc.devRef .tc r) := keep11 m c fun h' => h (List.mem_append_left _ h')
theorem keep13 {r : Ref sig .tc} (h : r ∉ w13) : R13 m c (Proc.devRef .tc r) = R0 m c (Proc.devRef .tc r) :=
  calc R13 m c (Proc.devRef .tc r)
    _ = R12 m c (Proc.devRef .tc r) := cE2_keep (R12 m c) fun h' => h (List.mem_append_right _ h')
    _ = R0 m c (Proc.devRef .tc r) := keep12 m c fun h' => h (List.mem_append_left _ h')
theorem keep14 {r : Ref sig .tc} (h : r ∉ w14) : R14 m c (Proc.devRef .tc r) = R0 m c (Proc.devRef .tc r) :=
  calc R14 m c (Proc.devRef .tc r)
    _ = R13 m c (Proc.devRef .tc r) := cP_keep (R13 m c) fun h' => h (List.mem_append_right _ h')
    _ = R0 m c (Proc.devRef .tc r) := keep13 m c fun h' => h (List.mem_append_left _ h')
theorem keep15 {r : Ref sig .tc} (h : r ∉ w15) : R15 m c (Proc.devRef .tc r) = R0 m c (Proc.devRef .tc r) :=
  calc R15 m c (Proc.devRef .tc r)
    _ = R14 m c (Proc.devRef .tc r) := cF0_keep (R14 m c) fun h' => h (List.mem_append_right _ h')
    _ = R0 m c (Proc.devRef .tc r) := keep14 m c fun h' => h (List.mem_append_left _ h')
theorem keep16 {r : Ref sig .tc} (h : r ∉ w16) : R16 m c (Proc.devRef .tc r) = R0 m c (Proc.devRef .tc r) :=
  calc R16 m c (Proc.devRef .tc r)
    _ = R15 m c (Proc.devRef .tc r) := cF1_keep (R15 m c) fun h' => h (List.mem_append_right _ h')
    _ = R0 m c (Proc.devRef .tc r) := keep15 m c fun h' => h (List.mem_append_left _ h')

/-! ## The argument arrays, at the boundaries where a stage reads them -/

theorem R9_arg2 : R9 m c (Proc.devRef .tc main_arg2) = m ((c.tc : Thread nD τ).loc main_arg2) :=
  calc R9 m c (Proc.devRef .tc main_arg2)
    _ = R0 m c (Proc.devRef .tc main_arg2) := keep9 m c (by decide)
    _ = m ((c.tc : Thread nD τ).loc main_arg2) := rfl

theorem R10_arg12 : R10 m c (Proc.devRef .tc main_arg12) = m ((c.tc : Thread nD τ).loc main_arg12) :=
  calc R10 m c (Proc.devRef .tc main_arg12)
    _ = R0 m c (Proc.devRef .tc main_arg12) := keep10 m c (by decide)
    _ = m ((c.tc : Thread nD τ).loc main_arg12) := rfl

theorem R10_arg13 : R10 m c (Proc.devRef .tc main_arg13) = m ((c.tc : Thread nD τ).loc main_arg13) :=
  calc R10 m c (Proc.devRef .tc main_arg13)
    _ = R0 m c (Proc.devRef .tc main_arg13) := keep10 m c (by decide)
    _ = m ((c.tc : Thread nD τ).loc main_arg13) := rfl

theorem R12_arg14 : R12 m c (Proc.devRef .tc main_arg14) = m ((c.tc : Thread nD τ).loc main_arg14) :=
  calc R12 m c (Proc.devRef .tc main_arg14)
    _ = R0 m c (Proc.devRef .tc main_arg14) := keep12 m c (by decide)
    _ = m ((c.tc : Thread nD τ).loc main_arg14) := rfl

theorem R12_arg15 : R12 m c (Proc.devRef .tc main_arg15) = m ((c.tc : Thread nD τ).loc main_arg15) :=
  calc R12 m c (Proc.devRef .tc main_arg15)
    _ = R0 m c (Proc.devRef .tc main_arg15) := keep12 m c (by decide)
    _ = m ((c.tc : Thread nD τ).loc main_arg15) := rfl

theorem R13_arg3 : R13 m c (Proc.devRef .tc main_arg3) = m ((c.tc : Thread nD τ).loc main_arg3) :=
  calc R13 m c (Proc.devRef .tc main_arg3)
    _ = R0 m c (Proc.devRef .tc main_arg3) := keep13 m c (by decide)
    _ = m ((c.tc : Thread nD τ).loc main_arg3) := rfl

theorem R14_arg16 : R14 m c (Proc.devRef .tc main_arg16) = m ((c.tc : Thread nD τ).loc main_arg16) :=
  calc R14 m c (Proc.devRef .tc main_arg16)
    _ = R0 m c (Proc.devRef .tc main_arg16) := keep14 m c (by decide)
    _ = m ((c.tc : Thread nD τ).loc main_arg16) := rfl

theorem R14_arg17 : R14 m c (Proc.devRef .tc main_arg17) = m ((c.tc : Thread nD τ).loc main_arg17) :=
  calc R14 m c (Proc.devRef .tc main_arg17)
    _ = R0 m c (Proc.devRef .tc main_arg17) := keep14 m c (by decide)
    _ = m ((c.tc : Thread nD τ).loc main_arg17) := rfl

theorem R15_arg18 : R15 m c (Proc.devRef .tc main_arg18) = m ((c.tc : Thread nD τ).loc main_arg18) :=
  calc R15 m c (Proc.devRef .tc main_arg18)
    _ = R0 m c (Proc.devRef .tc main_arg18) := keep15 m c (by decide)
    _ = m ((c.tc : Thread nD τ).loc main_arg18) := rfl

theorem R15_arg19 : R15 m c (Proc.devRef .tc main_arg19) = m ((c.tc : Thread nD τ).loc main_arg19) :=
  calc R15 m c (Proc.devRef .tc main_arg19)
    _ = R0 m c (Proc.devRef .tc main_arg19) := keep15 m c (by decide)
    _ = m ((c.tc : Thread nD τ).loc main_arg19) := rfl

theorem R16_arg20 : R16 m c (Proc.devRef .tc main_arg20) = m ((c.tc : Thread nD τ).loc main_arg20) :=
  calc R16 m c (Proc.devRef .tc main_arg20)
    _ = R0 m c (Proc.devRef .tc main_arg20) := keep16 m c (by decide)
    _ = m ((c.tc : Thread nD τ).loc main_arg20) := rfl

theorem R16_arg21 : R16 m c (Proc.devRef .tc main_arg21) = m ((c.tc : Thread nD τ).loc main_arg21) :=
  calc R16 m c (Proc.devRef .tc main_arg21)
    _ = R0 m c (Proc.devRef .tc main_arg21) := keep16 m c (by decide)
    _ = m ((c.tc : Thread nD τ).loc main_arg21) := rfl

/-! ## The destination indices, the inverse degree and the second round's node features, carried past the third round's
first two stages (which write none of them) to where the third aggregation reads them -/

theorem R11_v3 : R11 m c (Proc.devRef .tc main_v3) = Cert.Spec.dst (rArgs m c) :=
  calc R11 m c (Proc.devRef .tc main_v3)
    _ = R10 m c (Proc.devRef .tc main_v3) := cC2_keep (R10 m c) (by decide)
    _ = R9 m c (Proc.devRef .tc main_v3) := cB2_keep (R9 m c) (by decide)
    _ = Cert.Spec.dst (rArgs m c) := R9_v3 m c

theorem R11_v12 : R11 m c (Proc.devRef .tc main_v12) = Cert.Spec.invd (rArgs m c) :=
  calc R11 m c (Proc.devRef .tc main_v12)
    _ = R10 m c (Proc.devRef .tc main_v12) := cC2_keep (R10 m c) (by decide)
    _ = R9 m c (Proc.devRef .tc main_v12) := cB2_keep (R9 m c) (by decide)
    _ = Cert.Spec.invd (rArgs m c) := R9_v12 m c

theorem R11_v76 : R11 m c (Proc.devRef .tc main_v76) = Cert.Spec.h2 (rArgs m c) :=
  calc R11 m c (Proc.devRef .tc main_v76)
    _ = R10 m c (Proc.devRef .tc main_v76) := cC2_keep (R10 m c) (by decide)
    _ = R9 m c (Proc.devRef .tc main_v76) := cB2_keep (R9 m c) (by decide)
    _ = Cert.Spec.h2 (rArgs m c) := R9_v76 m c

/-! ## The stages

Each stage's result array, read off the stage's operations over the arrays it reads (whose contents the facts above
and the earlier stages give), is the specification's term: literally so for the gather / concatenate, aggregate and mean
stages; by the affine-layer law of the dot product plus the repeated bias row, then the rectifier, for the layer stages. -/

/-- The rectifier's selection of stage `cC2`, spelt over references that carry their arrays' types, is the plain
    selection: each reference's own type is the type it carries. -/
theorem where_cC2 (p : (⟨S800000x256, .i1⟩ : BufTy).Contents (Elt Ideal)) (x y : (⟨S800000x256, .f32⟩ : BufTy).Contents (Elt Ideal)) :
    (TRef.of (T := ⟨S800000x256, .f32⟩) main_v93).toBuf (Val := Elt Ideal)
      (select ((TRef.of (T := ⟨S800000x256, .i1⟩) main_v90).ofBuf (Val := Elt Ideal) p)
        ((TRef.of (T := ⟨S800000x256, .f32⟩) main_v88).ofBuf (Val := Elt Ideal) x)
        ((TRef.of (T := ⟨S800000x256, .f32⟩) main_v92).ofBuf (Val := Elt Ideal) y)) = select p x y := rfl

/-- The rectifier's selection of stage `cE2`, spelt over references that carry their arrays' types, is the plain
    selection: each reference's own type is the type it carries. -/
theorem where_cE2 (p : (⟨S50000x256, .i1⟩ : BufTy).Contents (Elt Ideal)) (x y : (⟨S50000x256, .f32⟩ : BufTy).Contents (Elt Ideal)) :
    (TRef.of (T := ⟨S50000x256, .f32⟩) main_v108).toBuf (Val := Elt Ideal)
      (select ((TRef.of (T := ⟨S50000x256, .i1⟩) main_v105).ofBuf (Val := Elt Ideal) p)
        ((TRef.of (T := ⟨S50000x256, .f32⟩) main_v103).ofBuf (Val := Elt Ideal) x)
        ((TRef.of (T := ⟨S50000x256, .f32⟩) main_v107).ofBuf (Val := Elt Ideal) y)) = select p x y := rfl

/-- The rectifier's selection of stage `cF0`, spelt over references that carry their arrays' types, is the plain
    selection: each reference's own type is the type it carries. -/
theorem where_cF0 (p : (⟨S32x128, .i1⟩ : BufTy).Contents (Elt Ideal)) (x y : (⟨S32x128, .f32⟩ : BufTy).Contents (Elt Ideal)) :
    (TRef.of (T := ⟨S32x128, .f32⟩) main_v129).toBuf (Val := Elt Ideal)
      (select ((TRef.of (T := ⟨S32x128, .i1⟩) main_v126).ofBuf (Val := Elt Ideal) p)
        ((TRef.of (T := ⟨S32x128, .f32⟩) main_v124).ofBuf (Val := Elt Ideal) x)
        ((TRef.of (T := ⟨S32x128, .f32⟩) main_v128).ofBuf (Val := Elt Ideal) y)) = select p x y := rfl

/-- The rectifier's selection of stage `cF1`, spelt over references that carry their arrays' types, is the plain
    selection: each reference's own type is the type it carries. -/
theorem where_cF1 (p : (⟨S32x64, .i1⟩ : BufTy).Contents (Elt Ideal)) (x y : (⟨S32x64, .f32⟩ : BufTy).Contents (Elt Ideal)) :
    (TRef.of (T := ⟨S32x64, .f32⟩) main_v138).toBuf (Val := Elt Ideal)
      (select ((TRef.of (T := ⟨S32x64, .i1⟩) main_v135).ofBuf (Val := Elt Ideal) p)
        ((TRef.of (T := ⟨S32x64, .f32⟩) main_v133).ofBuf (Val := Elt Ideal) x)
        ((TRef.of (T := ⟨S32x64, .f32⟩) main_v137).ofBuf (Val := Elt Ideal) y)) = select p x y := rfl

theorem R10_v84 : R10 m c (Proc.devRef .tc main_v84) = Cert.Spec.cat2 (rArgs m c) := by
  show StableHlo.after cB2 (R9 m c) (Proc.devRef .tc main_v84) = _
  generalize hV : R9 m c = V
  after_results
  subst hV
  rw [R9_v1 m c, R9_v76 m c, R9_arg2 m c]
  rfl

theorem R11_v93 : R11 m c (Proc.devRef .tc main_v93) = Cert.Spec.msg2 (rArgs m c) := by
  show StableHlo.after cC2 (R10 m c) (Proc.devRef .tc main_v93) = _
  generalize hV : R10 m c = V
  after_results
  subst hV
  rw [R10_v84 m c, R10_arg12 m c, R10_arg13 m c]
  rw [where_cC2]
  exact host_denseLeaky (M := 800000) (K := 131) (N := 256) (Cert.Spec.cat2 (rArgs m c)) (m ((c.tc : Thread nD τ).loc main_arg12)) (m ((c.tc : Thread nD τ).loc main_arg13)) bcast_S256_S1x256_1 bcast_S1x256_S800000x256_0_1 bcast_S_S800000x256 bcast_S_S800000x256

theorem R12_v99 : R12 m c (Proc.devRef .tc main_v99) = Cert.Spec.agg2 (rArgs m c) := by
  show StableHlo.after cD2 (R11 m c) (Proc.devRef .tc main_v99) = _
  generalize hV : R11 m c = V
  after_results
  subst hV
  rw [R11_v93 m c, R11_v3 m c, R11_v12 m c, R11_v76 m c]
  rfl

theorem R13_v108 : R13 m c (Proc.devRef .tc main_v108) = Cert.Spec.h3 (rArgs m c) := by
  show StableHlo.after cE2 (R12 m c) (Proc.devRef .tc main_v108) = _
  generalize hV : R12 m c = V
  after_results
  subst hV
  rw [R12_v99 m c, R12_arg14 m c, R12_arg15 m c]
  rw [where_cE2]
  exact host_denseLeaky (M := 50000) (K := 384) (N := 256) (Cert.Spec.agg2 (rArgs m c)) (m ((c.tc : Thread nD τ).loc main_arg14)) (m ((c.tc : Thread nD τ).loc main_arg15)) bcast_S256_S1x256_1 bcast_S1x256_S50000x256_0_1 bcast_S_S50000x256 bcast_S_S50000x256

theorem R14_v120 : R14 m c (Proc.devRef .tc main_v120) = Cert.Spec.pooled (rArgs m c) := by
  show StableHlo.after cP (R13 m c) (Proc.devRef .tc main_v120) = _
  generalize hV : R13 m c = V
  after_results
  subst hV
  rw [R13_v108 m c, R13_arg3 m c]
  rfl

theorem R15_v129 : R15 m c (Proc.devRef .tc main_v129) = Cert.Spec.g1 (rArgs m c) := by
  show StableHlo.after cF0 (R14 m c) (Proc.devRef .tc main_v129) = _
  generalize hV : R14 m c = V
  after_results
  subst hV
  rw [R14_v120 m c, R14_arg16 m c, R14_arg17 m c]
  rw [where_cF0]
  exact host_denseLeaky (M := 32) (K := 256) (N := 128) (Cert.Spec.pooled (rArgs m c)) (m ((c.tc : Thread nD τ).loc main_arg16)) (m ((c.tc : Thread nD τ).loc main_arg17)) bcast_S128_S1x128_1 bcast_S1x128_S32x128_0_1 bcast_S_S32x128 bcast_S_S32x128

theorem R16_v138 : R16 m c (Proc.devRef .tc main_v138) = Cert.Spec.g2 (rArgs m c) := by
  show StableHlo.after cF1 (R15 m c) (Proc.devRef .tc main_v138) = _
  generalize hV : R15 m c = V
  after_results
  subst hV
  rw [R15_v129 m c, R15_arg18 m c, R15_arg19 m c]
  rw [where_cF1]
  exact host_denseLeaky (M := 32) (K := 128) (N := 64) (Cert.Spec.g1 (rArgs m c)) (m ((c.tc : Thread nD τ).loc main_arg18)) (m ((c.tc : Thread nD τ).loc main_arg19)) bcast_S64_S1x64_1 bcast_S1x64_S32x64_0_1 bcast_S_S32x64 bcast_S_S32x64

theorem R17_v142 : R17 m c (Proc.devRef .tc main_v142) = Cert.Spec.out (rArgs m c) := by
  show StableHlo.after cF2 (R16 m c) (Proc.devRef .tc main_v142) = _
  generalize hV : R16 m c = V
  after_results
  subst hV
  rw [R16_v138 m c, R16_arg20 m c, R16_arg21 m c]
  exact host_affine_row (M := 32) (K := 64) (N := 1) _ _ _ _ _

/-- THE REFERENCE'S RESULT: the fold of all 176 operations over the launch contents, at the result buffer, is the
    specification's result of the argument arrays. -/
theorem ref_result : after (RunP.ops (F := Ideal)) (launchContents m c) (Proc.devRef .tc main_v142) = Cert.Spec.out (rArgs m c) := by
  rw [after_ops]
  exact R17_v142 m c

end Cert.ReferenceIdeal.RF

end
-- ==== Proof.KBase.lean ====
/-
  The kernel program's 22 argument arrays, as launched, bundled for the stage functions.
-/
import proofs.«407242_j23235773071434_1_alg».proof.Proof.Gen.KernelIdeal.Frame
import proofs.«407242_j23235773071434_1_alg».proof.Proof.Spec

noncomputable section

namespace Cert.KernelIdeal.KF

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The argument arrays at launch on core `c`. -/
def kArgs : Cert.Spec.Args where
  x := m ((c : Thread nD τ).loc main_arg0)
  ei := m ((c : Thread nD τ).loc main_arg1)
  ea := m ((c : Thread nD τ).loc main_arg2)
  batch := m ((c : Thread nD τ).loc main_arg3)
  mw0 := m ((c : Thread nD τ).loc main_arg4)
  mb0 := m ((c : Thread nD τ).loc main_arg5)
  uw0 := m ((c : Thread nD τ).loc main_arg6)
  ub0 := m ((c : Thread nD τ).loc main_arg7)
  mw1 := m ((c : Thread nD τ).loc main_arg8)
  mb1 := m ((c : Thread nD τ).loc main_arg9)
  uw1 := m ((c : Thread nD τ).loc main_arg10)
  ub1 := m ((c : Thread nD τ).loc main_arg11)
  mw2 := m ((c : Thread nD τ).loc main_arg12)
  mb2 := m ((c : Thread nD τ).loc main_arg13)
  uw2 := m ((c : Thread nD τ).loc main_arg14)
  ub2 := m ((c : Thread nD τ).loc main_arg15)
  fw0 := m ((c : Thread nD τ).loc main_arg16)
  fb0 := m ((c : Thread nD τ).loc main_arg17)
  fw1 := m ((c : Thread nD τ).loc main_arg18)
  fb1 := m ((c : Thread nD τ).loc main_arg19)
  fw2 := m ((c : Thread nD τ).loc main_arg20)
  fb2 := m ((c : Thread nD τ).loc main_arg21)

end Cert.KernelIdeal.KF

end
-- ==== Proof.KCarry.lean ====
/-
  CARRYING BUFFERS ACROSS BOUNDARIES. A host stretch leaves a buffer none of its operations writes as it was; a region
  leaves every buffer that is none of its arrays as it was. So an argument array holds at every boundary what it held at
  launch, and an intermediate array holds, until something writes it again, what the stretch that made it left.
-/
import proofs.«407242_j23235773071434_1_alg».proof.Proof.Gen.KernelIdeal.Frame

set_option maxRecDepth 16384

noncomputable section

namespace Cert.KernelIdeal.KF

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- One host stretch, at a buffer none of its operations writes: the stretch is listed operation by operation, each
    operation writes exactly its result buffer, and that buffer is a different reference. -/
local macro "host_carry " h:ident : tactic => `(tactic| (
  refine StableHlo.after_of_forall_not_mem _ _ (List.forall_iff_forall_mem.mp ?_)
  simp only [$h:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes,
    StableHlo.binaryIndexed_writes, Finset.mem_singleton]
  repeat' apply And.intro
  all_goals exact StableHlo.devRef_ne_of_ne (by decide)))
/-! ## The arguments, at the boundaries where something reads them -/

theorem W1_arg0 : W1 m ρ c (Proc.devRef .tc main_arg0) = m ((c : Thread nD τ).loc main_arg0) :=
  calc W1 m ρ c (Proc.devRef .tc main_arg0)
    _ = W0 m ρ c (Proc.devRef .tc main_arg0) := by host_carry hostOps0
    _ = m ((c : Thread nD τ).loc main_arg0) := rfl

private theorem c2_arg0 : W2 m ρ c (Proc.devRef .tc main_arg0) = m ((c : Thread nD τ).loc main_arg0) :=
  calc W2 m ρ c (Proc.devRef .tc main_arg0)
    _ = W1 m ρ c (Proc.devRef .tc main_arg0) := by host_carry hostOps0_1
    _ = m ((c : Thread nD τ).loc main_arg0) := W1_arg0 m ρ c

private theorem c3_arg0 : W3 m ρ c (Proc.devRef .tc main_arg0) = m ((c : Thread nD τ).loc main_arg0) :=
  calc W3 m ρ c (Proc.devRef .tc main_arg0)
    _ = W2 m ρ c (Proc.devRef .tc main_arg0) := by host_carry hostOps0_2
    _ = m ((c : Thread nD τ).loc main_arg0) := c2_arg0 m ρ c

theorem W4_arg0 : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = m ((c : Thread nD τ).loc main_arg0) := c3_arg0 m ρ c

private theorem c1_arg2 : W1 m ρ c (Proc.devRef .tc main_arg2) = m ((c : Thread nD τ).loc main_arg2) :=
  calc W1 m ρ c (Proc.devRef .tc main_arg2)
    _ = W0 m ρ c (Proc.devRef .tc main_arg2) := by host_carry hostOps0
    _ = m ((c : Thread nD τ).loc main_arg2) := rfl

theorem W2_arg2 : W2 m ρ c (Proc.devRef .tc main_arg2) = m ((c : Thread nD τ).loc main_arg2) :=
  calc W2 m ρ c (Proc.devRef .tc main_arg2)
    _ = W1 m ρ c (Proc.devRef .tc main_arg2) := by host_carry hostOps0_1
    _ = m ((c : Thread nD τ).loc main_arg2) := c1_arg2 m ρ c

private theorem c3_arg2 : W3 m ρ c (Proc.devRef .tc main_arg2) = m ((c : Thread nD τ).loc main_arg2) :=
  calc W3 m ρ c (Proc.devRef .tc main_arg2)
    _ = W2 m ρ c (Proc.devRef .tc main_arg2) := by host_carry hostOps0_2
    _ = m ((c : Thread nD τ).loc main_arg2) := W2_arg2 m ρ c

private theorem c4_arg2 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = m ((c : Thread nD τ).loc main_arg2) := c3_arg2 m ρ c

private theorem c5_arg2 : W5 m ρ c (Proc.devRef .tc main_arg2) = m ((c : Thread nD τ).loc main_arg2) :=
  calc W5 m ρ c (Proc.devRef .tc main_arg2)
    _ = W4 m ρ c (Proc.devRef .tc main_arg2) := by host_carry hostOps1
    _ = m ((c : Thread nD τ).loc main_arg2) := c4_arg2 m ρ c

private theorem c6_arg2 : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = m ((c : Thread nD τ).loc main_arg2) := c5_arg2 m ρ c

theorem W7_arg2 : W7 m ρ c (Proc.devRef .tc main_arg2) = m ((c : Thread nD τ).loc main_arg2) :=
  calc W7 m ρ c (Proc.devRef .tc main_arg2)
    _ = W6 m ρ c (Proc.devRef .tc main_arg2) := by host_carry hostOps2
    _ = m ((c : Thread nD τ).loc main_arg2) := c6_arg2 m ρ c

private theorem c8_arg2 : W8 m ρ c (Proc.devRef .tc main_arg2) = m ((c : Thread nD τ).loc main_arg2) :=
  calc W8 m ρ c (Proc.devRef .tc main_arg2)
    _ = W7 m ρ c (Proc.devRef .tc main_arg2) := by host_carry hostOps2_1
    _ = m ((c : Thread nD τ).loc main_arg2) := W7_arg2 m ρ c

private theorem c9_arg2 : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = m ((c : Thread nD τ).loc main_arg2) := c8_arg2 m ρ c

private theorem c10_arg2 : W10 m ρ c (Proc.devRef .tc main_arg2) = m ((c : Thread nD τ).loc main_arg2) :=
  calc W10 m ρ c (Proc.devRef .tc main_arg2)
    _ = W9 m ρ c (Proc.devRef .tc main_arg2) := by host_carry hostOps3
    _ = m ((c : Thread nD τ).loc main_arg2) := c9_arg2 m ρ c

private theorem c11_arg2 : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = m ((c : Thread nD τ).loc main_arg2) := c10_arg2 m ρ c

theorem W12_arg2 : W12 m ρ c (Proc.devRef .tc main_arg2) = m ((c : Thread nD τ).loc main_arg2) :=
  calc W12 m ρ c (Proc.devRef .tc main_arg2)
    _ = W11 m ρ c (Proc.devRef .tc main_arg2) := by host_carry hostOps4
    _ = m ((c : Thread nD τ).loc main_arg2) := c11_arg2 m ρ c

private theorem c1_arg5 : W1 m ρ c (Proc.devRef .tc main_arg5) = m ((c : Thread nD τ).loc main_arg5) :=
  calc W1 m ρ c (Proc.devRef .tc main_arg5)
    _ = W0 m ρ c (Proc.devRef .tc main_arg5) := by host_carry hostOps0
    _ = m ((c : Thread nD τ).loc main_arg5) := rfl

theorem W2_arg5 : W2 m ρ c (Proc.devRef .tc main_arg5) = m ((c : Thread nD τ).loc main_arg5) :=
  calc W2 m ρ c (Proc.devRef .tc main_arg5)
    _ = W1 m ρ c (Proc.devRef .tc main_arg5) := by host_carry hostOps0_1
    _ = m ((c : Thread nD τ).loc main_arg5) := c1_arg5 m ρ c

private theorem c1_arg4 : W1 m ρ c (Proc.devRef .tc main_arg4) = m ((c : Thread nD τ).loc main_arg4) :=
  calc W1 m ρ c (Proc.devRef .tc main_arg4)
    _ = W0 m ρ c (Proc.devRef .tc main_arg4) := by host_carry hostOps0
    _ = m ((c : Thread nD τ).loc main_arg4) := rfl

private theorem c2_arg4 : W2 m ρ c (Proc.devRef .tc main_arg4) = m ((c : Thread nD τ).loc main_arg4) :=
  calc W2 m ρ c (Proc.devRef .tc main_arg4)
    _ = W1 m ρ c (Proc.devRef .tc main_arg4) := by host_carry hostOps0_1
    _ = m ((c : Thread nD τ).loc main_arg4) := c1_arg4 m ρ c

theorem W3_arg4 : W3 m ρ c (Proc.devRef .tc main_arg4) = m ((c : Thread nD τ).loc main_arg4) :=
  calc W3 m ρ c (Proc.devRef .tc main_arg4)
    _ = W2 m ρ c (Proc.devRef .tc main_arg4) := by host_carry hostOps0_2
    _ = m ((c : Thread nD τ).loc main_arg4) := c2_arg4 m ρ c

private theorem c1_arg7 : W1 m ρ c (Proc.devRef .tc main_arg7) = m ((c : Thread nD τ).loc main_arg7) :=
  calc W1 m ρ c (Proc.devRef .tc main_arg7)
    _ = W0 m ρ c (Proc.devRef .tc main_arg7) := by host_carry hostOps0
    _ = m ((c : Thread nD τ).loc main_arg7) := rfl

private theorem c2_arg7 : W2 m ρ c (Proc.devRef .tc main_arg7) = m ((c : Thread nD τ).loc main_arg7) :=
  calc W2 m ρ c (Proc.devRef .tc main_arg7)
    _ = W1 m ρ c (Proc.devRef .tc main_arg7) := by host_carry hostOps0_1
    _ = m ((c : Thread nD τ).loc main_arg7) := c1_arg7 m ρ c

private theorem c3_arg7 : W3 m ρ c (Proc.devRef .tc main_arg7) = m ((c : Thread nD τ).loc main_arg7) :=
  calc W3 m ρ c (Proc.devRef .tc main_arg7)
    _ = W2 m ρ c (Proc.devRef .tc main_arg7) := by host_carry hostOps0_2
    _ = m ((c : Thread nD τ).loc main_arg7) := c2_arg7 m ρ c

theorem W4_arg7 : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = m ((c : Thread nD τ).loc main_arg7) := c3_arg7 m ρ c

private theorem c1_arg6 : W1 m ρ c (Proc.devRef .tc main_arg6) = m ((c : Thread nD τ).loc main_arg6) :=
  calc W1 m ρ c (Proc.devRef .tc main_arg6)
    _ = W0 m ρ c (Proc.devRef .tc main_arg6) := by host_carry hostOps0
    _ = m ((c : Thread nD τ).loc main_arg6) := rfl

private theorem c2_arg6 : W2 m ρ c (Proc.devRef .tc main_arg6) = m ((c : Thread nD τ).loc main_arg6) :=
  calc W2 m ρ c (Proc.devRef .tc main_arg6)
    _ = W1 m ρ c (Proc.devRef .tc main_arg6) := by host_carry hostOps0_1
    _ = m ((c : Thread nD τ).loc main_arg6) := c1_arg6 m ρ c

private theorem c3_arg6 : W3 m ρ c (Proc.devRef .tc main_arg6) = m ((c : Thread nD τ).loc main_arg6) :=
  calc W3 m ρ c (Proc.devRef .tc main_arg6)
    _ = W2 m ρ c (Proc.devRef .tc main_arg6) := by host_carry hostOps0_2
    _ = m ((c : Thread nD τ).loc main_arg6) := c2_arg6 m ρ c

private theorem c4_arg6 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = m ((c : Thread nD τ).loc main_arg6) := c3_arg6 m ρ c

theorem W5_arg6 : W5 m ρ c (Proc.devRef .tc main_arg6) = m ((c : Thread nD τ).loc main_arg6) :=
  calc W5 m ρ c (Proc.devRef .tc main_arg6)
    _ = W4 m ρ c (Proc.devRef .tc main_arg6) := by host_carry hostOps1
    _ = m ((c : Thread nD τ).loc main_arg6) := c4_arg6 m ρ c

private theorem c1_arg9 : W1 m ρ c (Proc.devRef .tc main_arg9) = m ((c : Thread nD τ).loc main_arg9) :=
  calc W1 m ρ c (Proc.devRef .tc main_arg9)
    _ = W0 m ρ c (Proc.devRef .tc main_arg9) := by host_carry hostOps0
    _ = m ((c : Thread nD τ).loc main_arg9) := rfl

private theorem c2_arg9 : W2 m ρ c (Proc.devRef .tc main_arg9) = m ((c : Thread nD τ).loc main_arg9) :=
  calc W2 m ρ c (Proc.devRef .tc main_arg9)
    _ = W1 m ρ c (Proc.devRef .tc main_arg9) := by host_carry hostOps0_1
    _ = m ((c : Thread nD τ).loc main_arg9) := c1_arg9 m ρ c

private theorem c3_arg9 : W3 m ρ c (Proc.devRef .tc main_arg9) = m ((c : Thread nD τ).loc main_arg9) :=
  calc W3 m ρ c (Proc.devRef .tc main_arg9)
    _ = W2 m ρ c (Proc.devRef .tc main_arg9) := by host_carry hostOps0_2
    _ = m ((c : Thread nD τ).loc main_arg9) := c2_arg9 m ρ c

private theorem c4_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = m ((c : Thread nD τ).loc main_arg9) := c3_arg9 m ρ c

private theorem c5_arg9 : W5 m ρ c (Proc.devRef .tc main_arg9) = m ((c : Thread nD τ).loc main_arg9) :=
  calc W5 m ρ c (Proc.devRef .tc main_arg9)
    _ = W4 m ρ c (Proc.devRef .tc main_arg9) := by host_carry hostOps1
    _ = m ((c : Thread nD τ).loc main_arg9) := c4_arg9 m ρ c

private theorem c6_arg9 : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = m ((c : Thread nD τ).loc main_arg9) := c5_arg9 m ρ c

theorem W7_arg9 : W7 m ρ c (Proc.devRef .tc main_arg9) = m ((c : Thread nD τ).loc main_arg9) :=
  calc W7 m ρ c (Proc.devRef .tc main_arg9)
    _ = W6 m ρ c (Proc.devRef .tc main_arg9) := by host_carry hostOps2
    _ = m ((c : Thread nD τ).loc main_arg9) := c6_arg9 m ρ c

private theorem c1_arg8 : W1 m ρ c (Proc.devRef .tc main_arg8) = m ((c : Thread nD τ).loc main_arg8) :=
  calc W1 m ρ c (Proc.devRef .tc main_arg8)
    _ = W0 m ρ c (Proc.devRef .tc main_arg8) := by host_carry hostOps0
    _ = m ((c : Thread nD τ).loc main_arg8) := rfl

private theorem c2_arg8 : W2 m ρ c (Proc.devRef .tc main_arg8) = m ((c : Thread nD τ).loc main_arg8) :=
  calc W2 m ρ c (Proc.devRef .tc main_arg8)
    _ = W1 m ρ c (Proc.devRef .tc main_arg8) := by host_carry hostOps0_1
    _ = m ((c : Thread nD τ).loc main_arg8) := c1_arg8 m ρ c

private theorem c3_arg8 : W3 m ρ c (Proc.devRef .tc main_arg8) = m ((c : Thread nD τ).loc main_arg8) :=
  calc W3 m ρ c (Proc.devRef .tc main_arg8)
    _ = W2 m ρ c (Proc.devRef .tc main_arg8) := by host_carry hostOps0_2
    _ = m ((c : Thread nD τ).loc main_arg8) := c2_arg8 m ρ c

private theorem c4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = m ((c : Thread nD τ).loc main_arg8) := c3_arg8 m ρ c

private theorem c5_arg8 : W5 m ρ c (Proc.devRef .tc main_arg8) = m ((c : Thread nD τ).loc main_arg8) :=
  calc W5 m ρ c (Proc.devRef .tc main_arg8)
    _ = W4 m ρ c (Proc.devRef .tc main_arg8) := by host_carry hostOps1
    _ = m ((c : Thread nD τ).loc main_arg8) := c4_arg8 m ρ c

private theorem c6_arg8 : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = m ((c : Thread nD τ).loc main_arg8) := c5_arg8 m ρ c

private theorem c7_arg8 : W7 m ρ c (Proc.devRef .tc main_arg8) = m ((c : Thread nD τ).loc main_arg8) :=
  calc W7 m ρ c (Proc.devRef .tc main_arg8)
    _ = W6 m ρ c (Proc.devRef .tc main_arg8) := by host_carry hostOps2
    _ = m ((c : Thread nD τ).loc main_arg8) := c6_arg8 m ρ c

theorem W8_arg8 : W8 m ρ c (Proc.devRef .tc main_arg8) = m ((c : Thread nD τ).loc main_arg8) :=
  calc W8 m ρ c (Proc.devRef .tc main_arg8)
    _ = W7 m ρ c (Proc.devRef .tc main_arg8) := by host_carry hostOps2_1
    _ = m ((c : Thread nD τ).loc main_arg8) := c7_arg8 m ρ c

private theorem c1_arg11 : W1 m ρ c (Proc.devRef .tc main_arg11) = m ((c : Thread nD τ).loc main_arg11) :=
  calc W1 m ρ c (Proc.devRef .tc main_arg11)
    _ = W0 m ρ c (Proc.devRef .tc main_arg11) := by host_carry hostOps0
    _ = m ((c : Thread nD τ).loc main_arg11) := rfl

private theorem c2_arg11 : W2 m ρ c (Proc.devRef .tc main_arg11) = m ((c : Thread nD τ).loc main_arg11) :=
  calc W2 m ρ c (Proc.devRef .tc main_arg11)
    _ = W1 m ρ c (Proc.devRef .tc main_arg11) := by host_carry hostOps0_1
    _ = m ((c : Thread nD τ).loc main_arg11) := c1_arg11 m ρ c

private theorem c3_arg11 : W3 m ρ c (Proc.devRef .tc main_arg11) = m ((c : Thread nD τ).loc main_arg11) :=
  calc W3 m ρ c (Proc.devRef .tc main_arg11)
    _ = W2 m ρ c (Proc.devRef .tc main_arg11) := by host_carry hostOps0_2
    _ = m ((c : Thread nD τ).loc main_arg11) := c2_arg11 m ρ c

private theorem c4_arg11 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = m ((c : Thread nD τ).loc main_arg11) := c3_arg11 m ρ c

private theorem c5_arg11 : W5 m ρ c (Proc.devRef .tc main_arg11) = m ((c : Thread nD τ).loc main_arg11) :=
  calc W5 m ρ c (Proc.devRef .tc main_arg11)
    _ = W4 m ρ c (Proc.devRef .tc main_arg11) := by host_carry hostOps1
    _ = m ((c : Thread nD τ).loc main_arg11) := c4_arg11 m ρ c

private theorem c6_arg11 : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = m ((c : Thread nD τ).loc main_arg11) := c5_arg11 m ρ c

private theorem c7_arg11 : W7 m ρ c (Proc.devRef .tc main_arg11) = m ((c : Thread nD τ).loc main_arg11) :=
  calc W7 m ρ c (Proc.devRef .tc main_arg11)
    _ = W6 m ρ c (Proc.devRef .tc main_arg11) := by host_carry hostOps2
    _ = m ((c : Thread nD τ).loc main_arg11) := c6_arg11 m ρ c

private theorem c8_arg11 : W8 m ρ c (Proc.devRef .tc main_arg11) = m ((c : Thread nD τ).loc main_arg11) :=
  calc W8 m ρ c (Proc.devRef .tc main_arg11)
    _ = W7 m ρ c (Proc.devRef .tc main_arg11) := by host_carry hostOps2_1
    _ = m ((c : Thread nD τ).loc main_arg11) := c7_arg11 m ρ c

theorem W9_arg11 : W9 m ρ c (Proc.devRef .tc main_arg11) = m ((c : Thread nD τ).loc main_arg11) :=
  calc W9 m ρ c (Proc.devRef .tc main_arg11)
    _ = W8 m ρ c (Proc.devRef .tc main_arg11) := W9_of_ne m ρ c main_arg11 (by decide)
    _ = m ((c : Thread nD τ).loc main_arg11) := c8_arg11 m ρ c

private theorem c1_arg10 : W1 m ρ c (Proc.devRef .tc main_arg10) = m ((c : Thread nD τ).loc main_arg10) :=
  calc W1 m ρ c (Proc.devRef .tc main_arg10)
    _ = W0 m ρ c (Proc.devRef .tc main_arg10) := by host_carry hostOps0
    _ = m ((c : Thread nD τ).loc main_arg10) := rfl

private theorem c2_arg10 : W2 m ρ c (Proc.devRef .tc main_arg10) = m ((c : Thread nD τ).loc main_arg10) :=
  calc W2 m ρ c (Proc.devRef .tc main_arg10)
    _ = W1 m ρ c (Proc.devRef .tc main_arg10) := by host_carry hostOps0_1
    _ = m ((c : Thread nD τ).loc main_arg10) := c1_arg10 m ρ c

private theorem c3_arg10 : W3 m ρ c (Proc.devRef .tc main_arg10) = m ((c : Thread nD τ).loc main_arg10) :=
  calc W3 m ρ c (Proc.devRef .tc main_arg10)
    _ = W2 m ρ c (Proc.devRef .tc main_arg10) := by host_carry hostOps0_2
    _ = m ((c : Thread nD τ).loc main_arg10) := c2_arg10 m ρ c

private theorem c4_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = m ((c : Thread nD τ).loc main_arg10) := c3_arg10 m ρ c

private theorem c5_arg10 : W5 m ρ c (Proc.devRef .tc main_arg10) = m ((c : Thread nD τ).loc main_arg10) :=
  calc W5 m ρ c (Proc.devRef .tc main_arg10)
    _ = W4 m ρ c (Proc.devRef .tc main_arg10) := by host_carry hostOps1
    _ = m ((c : Thread nD τ).loc main_arg10) := c4_arg10 m ρ c

private theorem c6_arg10 : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = m ((c : Thread nD τ).loc main_arg10) := c5_arg10 m ρ c

private theorem c7_arg10 : W7 m ρ c (Proc.devRef .tc main_arg10) = m ((c : Thread nD τ).loc main_arg10) :=
  calc W7 m ρ c (Proc.devRef .tc main_arg10)
    _ = W6 m ρ c (Proc.devRef .tc main_arg10) := by host_carry hostOps2
    _ = m ((c : Thread nD τ).loc main_arg10) := c6_arg10 m ρ c

private theorem c8_arg10 : W8 m ρ c (Proc.devRef .tc main_arg10) = m ((c : Thread nD τ).loc main_arg10) :=
  calc W8 m ρ c (Proc.devRef .tc main_arg10)
    _ = W7 m ρ c (Proc.devRef .tc main_arg10) := by host_carry hostOps2_1
    _ = m ((c : Thread nD τ).loc main_arg10) := c7_arg10 m ρ c

private theorem c9_arg10 : W9 m ρ c (Proc.devRef .tc main_arg10) = m ((c : Thread nD τ).loc main_arg10) :=
  calc W9 m ρ c (Proc.devRef .tc main_arg10)
    _ = W8 m ρ c (Proc.devRef .tc main_arg10) := W9_of_ne m ρ c main_arg10 (by decide)
    _ = m ((c : Thread nD τ).loc main_arg10) := c8_arg10 m ρ c

theorem W10_arg10 : W10 m ρ c (Proc.devRef .tc main_arg10) = m ((c : Thread nD τ).loc main_arg10) :=
  calc W10 m ρ c (Proc.devRef .tc main_arg10)
    _ = W9 m ρ c (Proc.devRef .tc main_arg10) := by host_carry hostOps3
    _ = m ((c : Thread nD τ).loc main_arg10) := c9_arg10 m ρ c

private theorem c1_arg13 : W1 m ρ c (Proc.devRef .tc main_arg13) = m ((c : Thread nD τ).loc main_arg13) :=
  calc W1 m ρ c (Proc.devRef .tc main_arg13)
    _ = W0 m ρ c (Proc.devRef .tc main_arg13) := by host_carry hostOps0
    _ = m ((c : Thread nD τ).loc main_arg13) := rfl

private theorem c2_arg13 : W2 m ρ c (Proc.devRef .tc main_arg13) = m ((c : Thread nD τ).loc main_arg13) :=
  calc W2 m ρ c (Proc.devRef .tc main_arg13)
    _ = W1 m ρ c (Proc.devRef .tc main_arg13) := by host_carry hostOps0_1
    _ = m ((c : Thread nD τ).loc main_arg13) := c1_arg13 m ρ c

private theorem c3_arg13 : W3 m ρ c (Proc.devRef .tc main_arg13) = m ((c : Thread nD τ).loc main_arg13) :=
  calc W3 m ρ c (Proc.devRef .tc main_arg13)
    _ = W2 m ρ c (Proc.devRef .tc main_arg13) := by host_carry hostOps0_2
    _ = m ((c : Thread nD τ).loc main_arg13) := c2_arg13 m ρ c

private theorem c4_arg13 : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = m ((c : Thread nD τ).loc main_arg13) := c3_arg13 m ρ c

private theorem c5_arg13 : W5 m ρ c (Proc.devRef .tc main_arg13) = m ((c : Thread nD τ).loc main_arg13) :=
  calc W5 m ρ c (Proc.devRef .tc main_arg13)
    _ = W4 m ρ c (Proc.devRef .tc main_arg13) := by host_carry hostOps1
    _ = m ((c : Thread nD τ).loc main_arg13) := c4_arg13 m ρ c

private theorem c6_arg13 : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = m ((c : Thread nD τ).loc main_arg13) := c5_arg13 m ρ c

private theorem c7_arg13 : W7 m ρ c (Proc.devRef .tc main_arg13) = m ((c : Thread nD τ).loc main_arg13) :=
  calc W7 m ρ c (Proc.devRef .tc main_arg13)
    _ = W6 m ρ c (Proc.devRef .tc main_arg13) := by host_carry hostOps2
    _ = m ((c : Thread nD τ).loc main_arg13) := c6_arg13 m ρ c

private theorem c8_arg13 : W8 m ρ c (Proc.devRef .tc main_arg13) = m ((c : Thread nD τ).loc main_arg13) :=
  calc W8 m ρ c (Proc.devRef .tc main_arg13)
    _ = W7 m ρ c (Proc.devRef .tc main_arg13) := by host_carry hostOps2_1
    _ = m ((c : Thread nD τ).loc main_arg13) := c7_arg13 m ρ c

private theorem c9_arg13 : W9 m ρ c (Proc.devRef .tc main_arg13) = m ((c : Thread nD τ).loc main_arg13) :=
  calc W9 m ρ c (Proc.devRef .tc main_arg13)
    _ = W8 m ρ c (Proc.devRef .tc main_arg13) := W9_of_ne m ρ c main_arg13 (by decide)
    _ = m ((c : Thread nD τ).loc main_arg13) := c8_arg13 m ρ c

private theorem c10_arg13 : W10 m ρ c (Proc.devRef .tc main_arg13) = m ((c : Thread nD τ).loc main_arg13) :=
  calc W10 m ρ c (Proc.devRef .tc main_arg13)
    _ = W9 m ρ c (Proc.devRef .tc main_arg13) := by host_carry hostOps3
    _ = m ((c : Thread nD τ).loc main_arg13) := c9_arg13 m ρ c

private theorem c11_arg13 : W11 m ρ c (Proc.devRef .tc main_arg13) = m ((c : Thread nD τ).loc main_arg13) :=
  calc W11 m ρ c (Proc.devRef .tc main_arg13)
    _ = W10 m ρ c (Proc.devRef .tc main_arg13) := W11_of_ne m ρ c main_arg13 (by decide)
    _ = m ((c : Thread nD τ).loc main_arg13) := c10_arg13 m ρ c

theorem W12_arg13 : W12 m ρ c (Proc.devRef .tc main_arg13) = m ((c : Thread nD τ).loc main_arg13) :=
  calc W12 m ρ c (Proc.devRef .tc main_arg13)
    _ = W11 m ρ c (Proc.devRef .tc main_arg13) := by host_carry hostOps4
    _ = m ((c : Thread nD τ).loc main_arg13) := c11_arg13 m ρ c

private theorem c1_arg12 : W1 m ρ c (Proc.devRef .tc main_arg12) = m ((c : Thread nD τ).loc main_arg12) :=
  calc W1 m ρ c (Proc.devRef .tc main_arg12)
    _ = W0 m ρ c (Proc.devRef .tc main_arg12) := by host_carry hostOps0
    _ = m ((c : Thread nD τ).loc main_arg12) := rfl

private theorem c2_arg12 : W2 m ρ c (Proc.devRef .tc main_arg12) = m ((c : Thread nD τ).loc main_arg12) :=
  calc W2 m ρ c (Proc.devRef .tc main_arg12)
    _ = W1 m ρ c (Proc.devRef .tc main_arg12) := by host_carry hostOps0_1
    _ = m ((c : Thread nD τ).loc main_arg12) := c1_arg12 m ρ c

private theorem c3_arg12 : W3 m ρ c (Proc.devRef .tc main_arg12) = m ((c : Thread nD τ).loc main_arg12) :=
  calc W3 m ρ c (Proc.devRef .tc main_arg12)
    _ = W2 m ρ c (Proc.devRef .tc main_arg12) := by host_carry hostOps0_2
    _ = m ((c : Thread nD τ).loc main_arg12) := c2_arg12 m ρ c

private theorem c4_arg12 : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = m ((c : Thread nD τ).loc main_arg12) := c3_arg12 m ρ c

private theorem c5_arg12 : W5 m ρ c (Proc.devRef .tc main_arg12) = m ((c : Thread nD τ).loc main_arg12) :=
  calc W5 m ρ c (Proc.devRef .tc main_arg12)
    _ = W4 m ρ c (Proc.devRef .tc main_arg12) := by host_carry hostOps1
    _ = m ((c : Thread nD τ).loc main_arg12) := c4_arg12 m ρ c

private theorem c6_arg12 : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = m ((c : Thread nD τ).loc main_arg12) := c5_arg12 m ρ c

private theorem c7_arg12 : W7 m ρ c (Proc.devRef .tc main_arg12) = m ((c : Thread nD τ).loc main_arg12) :=
  calc W7 m ρ c (Proc.devRef .tc main_arg12)
    _ = W6 m ρ c (Proc.devRef .tc main_arg12) := by host_carry hostOps2
    _ = m ((c : Thread nD τ).loc main_arg12) := c6_arg12 m ρ c

private theorem c8_arg12 : W8 m ρ c (Proc.devRef .tc main_arg12) = m ((c : Thread nD τ).loc main_arg12) :=
  calc W8 m ρ c (Proc.devRef .tc main_arg12)
    _ = W7 m ρ c (Proc.devRef .tc main_arg12) := by host_carry hostOps2_1
    _ = m ((c : Thread nD τ).loc main_arg12) := c7_arg12 m ρ c

private theorem c9_arg12 : W9 m ρ c (Proc.devRef .tc main_arg12) = m ((c : Thread nD τ).loc main_arg12) :=
  calc W9 m ρ c (Proc.devRef .tc main_arg12)
    _ = W8 m ρ c (Proc.devRef .tc main_arg12) := W9_of_ne m ρ c main_arg12 (by decide)
    _ = m ((c : Thread nD τ).loc main_arg12) := c8_arg12 m ρ c

private theorem c10_arg12 : W10 m ρ c (Proc.devRef .tc main_arg12) = m ((c : Thread nD τ).loc main_arg12) :=
  calc W10 m ρ c (Proc.devRef .tc main_arg12)
    _ = W9 m ρ c (Proc.devRef .tc main_arg12) := by host_carry hostOps3
    _ = m ((c : Thread nD τ).loc main_arg12) := c9_arg12 m ρ c

private theorem c11_arg12 : W11 m ρ c (Proc.devRef .tc main_arg12) = m ((c : Thread nD τ).loc main_arg12) :=
  calc W11 m ρ c (Proc.devRef .tc main_arg12)
    _ = W10 m ρ c (Proc.devRef .tc main_arg12) := W11_of_ne m ρ c main_arg12 (by decide)
    _ = m ((c : Thread nD τ).loc main_arg12) := c10_arg12 m ρ c

private theorem c12_arg12 : W12 m ρ c (Proc.devRef .tc main_arg12) = m ((c : Thread nD τ).loc main_arg12) :=
  calc W12 m ρ c (Proc.devRef .tc main_arg12)
    _ = W11 m ρ c (Proc.devRef .tc main_arg12) := by host_carry hostOps4
    _ = m ((c : Thread nD τ).loc main_arg12) := c11_arg12 m ρ c

theorem W13_arg12 : W13 m ρ c (Proc.devRef .tc main_arg12) = m ((c : Thread nD τ).loc main_arg12) :=
  calc W13 m ρ c (Proc.devRef .tc main_arg12)
    _ = W12 m ρ c (Proc.devRef .tc main_arg12) := by host_carry hostOps4_1
    _ = m ((c : Thread nD τ).loc main_arg12) := c12_arg12 m ρ c

private theorem c1_arg15 : W1 m ρ c (Proc.devRef .tc main_arg15) = m ((c : Thread nD τ).loc main_arg15) :=
  calc W1 m ρ c (Proc.devRef .tc main_arg15)
    _ = W0 m ρ c (Proc.devRef .tc main_arg15) := by host_carry hostOps0
    _ = m ((c : Thread nD τ).loc main_arg15) := rfl

private theorem c2_arg15 : W2 m ρ c (Proc.devRef .tc main_arg15) = m ((c : Thread nD τ).loc main_arg15) :=
  calc W2 m ρ c (Proc.devRef .tc main_arg15)
    _ = W1 m ρ c (Proc.devRef .tc main_arg15) := by host_carry hostOps0_1
    _ = m ((c : Thread nD τ).loc main_arg15) := c1_arg15 m ρ c

private theorem c3_arg15 : W3 m ρ c (Proc.devRef .tc main_arg15) = m ((c : Thread nD τ).loc main_arg15) :=
  calc W3 m ρ c (Proc.devRef .tc main_arg15)
    _ = W2 m ρ c (Proc.devRef .tc main_arg15) := by host_carry hostOps0_2
    _ = m ((c : Thread nD τ).loc main_arg15) := c2_arg15 m ρ c

private theorem c4_arg15 : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = m ((c : Thread nD τ).loc main_arg15) := c3_arg15 m ρ c

private theorem c5_arg15 : W5 m ρ c (Proc.devRef .tc main_arg15) = m ((c : Thread nD τ).loc main_arg15) :=
  calc W5 m ρ c (Proc.devRef .tc main_arg15)
    _ = W4 m ρ c (Proc.devRef .tc main_arg15) := by host_carry hostOps1
    _ = m ((c : Thread nD τ).loc main_arg15) := c4_arg15 m ρ c

private theorem c6_arg15 : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = m ((c : Thread nD τ).loc main_arg15) := c5_arg15 m ρ c

private theorem c7_arg15 : W7 m ρ c (Proc.devRef .tc main_arg15) = m ((c : Thread nD τ).loc main_arg15) :=
  calc W7 m ρ c (Proc.devRef .tc main_arg15)
    _ = W6 m ρ c (Proc.devRef .tc main_arg15) := by host_carry hostOps2
    _ = m ((c : Thread nD τ).loc main_arg15) := c6_arg15 m ρ c

private theorem c8_arg15 : W8 m ρ c (Proc.devRef .tc main_arg15) = m ((c : Thread nD τ).loc main_arg15) :=
  calc W8 m ρ c (Proc.devRef .tc main_arg15)
    _ = W7 m ρ c (Proc.devRef .tc main_arg15) := by host_carry hostOps2_1
    _ = m ((c : Thread nD τ).loc main_arg15) := c7_arg15 m ρ c

private theorem c9_arg15 : W9 m ρ c (Proc.devRef .tc main_arg15) = m ((c : Thread nD τ).loc main_arg15) :=
  calc W9 m ρ c (Proc.devRef .tc main_arg15)
    _ = W8 m ρ c (Proc.devRef .tc main_arg15) := W9_of_ne m ρ c main_arg15 (by decide)
    _ = m ((c : Thread nD τ).loc main_arg15) := c8_arg15 m ρ c

private theorem c10_arg15 : W10 m ρ c (Proc.devRef .tc main_arg15) = m ((c : Thread nD τ).loc main_arg15) :=
  calc W10 m ρ c (Proc.devRef .tc main_arg15)
    _ = W9 m ρ c (Proc.devRef .tc main_arg15) := by host_carry hostOps3
    _ = m ((c : Thread nD τ).loc main_arg15) := c9_arg15 m ρ c

private theorem c11_arg15 : W11 m ρ c (Proc.devRef .tc main_arg15) = m ((c : Thread nD τ).loc main_arg15) :=
  calc W11 m ρ c (Proc.devRef .tc main_arg15)
    _ = W10 m ρ c (Proc.devRef .tc main_arg15) := W11_of_ne m ρ c main_arg15 (by decide)
    _ = m ((c : Thread nD τ).loc main_arg15) := c10_arg15 m ρ c

private theorem c12_arg15 : W12 m ρ c (Proc.devRef .tc main_arg15) = m ((c : Thread nD τ).loc main_arg15) :=
  calc W12 m ρ c (Proc.devRef .tc main_arg15)
    _ = W11 m ρ c (Proc.devRef .tc main_arg15) := by host_carry hostOps4
    _ = m ((c : Thread nD τ).loc main_arg15) := c11_arg15 m ρ c

private theorem c13_arg15 : W13 m ρ c (Proc.devRef .tc main_arg15) = m ((c : Thread nD τ).loc main_arg15) :=
  calc W13 m ρ c (Proc.devRef .tc main_arg15)
    _ = W12 m ρ c (Proc.devRef .tc main_arg15) := by host_carry hostOps4_1
    _ = m ((c : Thread nD τ).loc main_arg15) := c12_arg15 m ρ c

theorem W14_arg15 : W14 m ρ c (Proc.devRef .tc main_arg15) = m ((c : Thread nD τ).loc main_arg15) :=
  calc W14 m ρ c (Proc.devRef .tc main_arg15)
    _ = W13 m ρ c (Proc.devRef .tc main_arg15) := W14_of_ne m ρ c main_arg15 (by decide)
    _ = m ((c : Thread nD τ).loc main_arg15) := c13_arg15 m ρ c

private theorem c1_arg14 : W1 m ρ c (Proc.devRef .tc main_arg14) = m ((c : Thread nD τ).loc main_arg14) :=
  calc W1 m ρ c (Proc.devRef .tc main_arg14)
    _ = W0 m ρ c (Proc.devRef .tc main_arg14) := by host_carry hostOps0
    _ = m ((c : Thread nD τ).loc main_arg14) := rfl

private theorem c2_arg14 : W2 m ρ c (Proc.devRef .tc main_arg14) = m ((c : Thread nD τ).loc main_arg14) :=
  calc W2 m ρ c (Proc.devRef .tc main_arg14)
    _ = W1 m ρ c (Proc.devRef .tc main_arg14) := by host_carry hostOps0_1
    _ = m ((c : Thread nD τ).loc main_arg14) := c1_arg14 m ρ c

private theorem c3_arg14 : W3 m ρ c (Proc.devRef .tc main_arg14) = m ((c : Thread nD τ).loc main_arg14) :=
  calc W3 m ρ c (Proc.devRef .tc main_arg14)
    _ = W2 m ρ c (Proc.devRef .tc main_arg14) := by host_carry hostOps0_2
    _ = m ((c : Thread nD τ).loc main_arg14) := c2_arg14 m ρ c

private theorem c4_arg14 : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = m ((c : Thread nD τ).loc main_arg14) := c3_arg14 m ρ c

private theorem c5_arg14 : W5 m ρ c (Proc.devRef .tc main_arg14) = m ((c : Thread nD τ).loc main_arg14) :=
  calc W5 m ρ c (Proc.devRef .tc main_arg14)
    _ = W4 m ρ c (Proc.devRef .tc main_arg14) := by host_carry hostOps1
    _ = m ((c : Thread nD τ).loc main_arg14) := c4_arg14 m ρ c

private theorem c6_arg14 : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = m ((c : Thread nD τ).loc main_arg14) := c5_arg14 m ρ c

private theorem c7_arg14 : W7 m ρ c (Proc.devRef .tc main_arg14) = m ((c : Thread nD τ).loc main_arg14) :=
  calc W7 m ρ c (Proc.devRef .tc main_arg14)
    _ = W6 m ρ c (Proc.devRef .tc main_arg14) := by host_carry hostOps2
    _ = m ((c : Thread nD τ).loc main_arg14) := c6_arg14 m ρ c

private theorem c8_arg14 : W8 m ρ c (Proc.devRef .tc main_arg14) = m ((c : Thread nD τ).loc main_arg14) :=
  calc W8 m ρ c (Proc.devRef .tc main_arg14)
    _ = W7 m ρ c (Proc.devRef .tc main_arg14) := by host_carry hostOps2_1
    _ = m ((c : Thread nD τ).loc main_arg14) := c7_arg14 m ρ c

private theorem c9_arg14 : W9 m ρ c (Proc.devRef .tc main_arg14) = m ((c : Thread nD τ).loc main_arg14) :=
  calc W9 m ρ c (Proc.devRef .tc main_arg14)
    _ = W8 m ρ c (Proc.devRef .tc main_arg14) := W9_of_ne m ρ c main_arg14 (by decide)
    _ = m ((c : Thread nD τ).loc main_arg14) := c8_arg14 m ρ c

private theorem c10_arg14 : W10 m ρ c (Proc.devRef .tc main_arg14) = m ((c : Thread nD τ).loc main_arg14) :=
  calc W10 m ρ c (Proc.devRef .tc main_arg14)
    _ = W9 m ρ c (Proc.devRef .tc main_arg14) := by host_carry hostOps3
    _ = m ((c : Thread nD τ).loc main_arg14) := c9_arg14 m ρ c

private theorem c11_arg14 : W11 m ρ c (Proc.devRef .tc main_arg14) = m ((c : Thread nD τ).loc main_arg14) :=
  calc W11 m ρ c (Proc.devRef .tc main_arg14)
    _ = W10 m ρ c (Proc.devRef .tc main_arg14) := W11_of_ne m ρ c main_arg14 (by decide)
    _ = m ((c : Thread nD τ).loc main_arg14) := c10_arg14 m ρ c

private theorem c12_arg14 : W12 m ρ c (Proc.devRef .tc main_arg14) = m ((c : Thread nD τ).loc main_arg14) :=
  calc W12 m ρ c (Proc.devRef .tc main_arg14)
    _ = W11 m ρ c (Proc.devRef .tc main_arg14) := by host_carry hostOps4
    _ = m ((c : Thread nD τ).loc main_arg14) := c11_arg14 m ρ c

private theorem c13_arg14 : W13 m ρ c (Proc.devRef .tc main_arg14) = m ((c : Thread nD τ).loc main_arg14) :=
  calc W13 m ρ c (Proc.devRef .tc main_arg14)
    _ = W12 m ρ c (Proc.devRef .tc main_arg14) := by host_carry hostOps4_1
    _ = m ((c : Thread nD τ).loc main_arg14) := c12_arg14 m ρ c

private theorem c14_arg14 : W14 m ρ c (Proc.devRef .tc main_arg14) = m ((c : Thread nD τ).loc main_arg14) :=
  calc W14 m ρ c (Proc.devRef .tc main_arg14)
    _ = W13 m ρ c (Proc.devRef .tc main_arg14) := W14_of_ne m ρ c main_arg14 (by decide)
    _ = m ((c : Thread nD τ).loc main_arg14) := c13_arg14 m ρ c

theorem W15_arg14 : W15 m ρ c (Proc.devRef .tc main_arg14) = m ((c : Thread nD τ).loc main_arg14) :=
  calc W15 m ρ c (Proc.devRef .tc main_arg14)
    _ = W14 m ρ c (Proc.devRef .tc main_arg14) := by host_carry hostOps5
    _ = m ((c : Thread nD τ).loc main_arg14) := c14_arg14 m ρ c

private theorem c1_arg3 : W1 m ρ c (Proc.devRef .tc main_arg3) = m ((c : Thread nD τ).loc main_arg3) :=
  calc W1 m ρ c (Proc.devRef .tc main_arg3)
    _ = W0 m ρ c (Proc.devRef .tc main_arg3) := by host_carry hostOps0
    _ = m ((c : Thread nD τ).loc main_arg3) := rfl

private theorem c2_arg3 : W2 m ρ c (Proc.devRef .tc main_arg3) = m ((c : Thread nD τ).loc main_arg3) :=
  calc W2 m ρ c (Proc.devRef .tc main_arg3)
    _ = W1 m ρ c (Proc.devRef .tc main_arg3) := by host_carry hostOps0_1
    _ = m ((c : Thread nD τ).loc main_arg3) := c1_arg3 m ρ c

private theorem c3_arg3 : W3 m ρ c (Proc.devRef .tc main_arg3) = m ((c : Thread nD τ).loc main_arg3) :=
  calc W3 m ρ c (Proc.devRef .tc main_arg3)
    _ = W2 m ρ c (Proc.devRef .tc main_arg3) := by host_carry hostOps0_2
    _ = m ((c : Thread nD τ).loc main_arg3) := c2_arg3 m ρ c

private theorem c4_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = m ((c : Thread nD τ).loc main_arg3) := c3_arg3 m ρ c

private theorem c5_arg3 : W5 m ρ c (Proc.devRef .tc main_arg3) = m ((c : Thread nD τ).loc main_arg3) :=
  calc W5 m ρ c (Proc.devRef .tc main_arg3)
    _ = W4 m ρ c (Proc.devRef .tc main_arg3) := by host_carry hostOps1
    _ = m ((c : Thread nD τ).loc main_arg3) := c4_arg3 m ρ c

private theorem c6_arg3 : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = m ((c : Thread nD τ).loc main_arg3) := c5_arg3 m ρ c

private theorem c7_arg3 : W7 m ρ c (Proc.devRef .tc main_arg3) = m ((c : Thread nD τ).loc main_arg3) :=
  calc W7 m ρ c (Proc.devRef .tc main_arg3)
    _ = W6 m ρ c (Proc.devRef .tc main_arg3) := by host_carry hostOps2
    _ = m ((c : Thread nD τ).loc main_arg3) := c6_arg3 m ρ c

private theorem c8_arg3 : W8 m ρ c (Proc.devRef .tc main_arg3) = m ((c : Thread nD τ).loc main_arg3) :=
  calc W8 m ρ c (Proc.devRef .tc main_arg3)
    _ = W7 m ρ c (Proc.devRef .tc main_arg3) := by host_carry hostOps2_1
    _ = m ((c : Thread nD τ).loc main_arg3) := c7_arg3 m ρ c

private theorem c9_arg3 : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = m ((c : Thread nD τ).loc main_arg3) := c8_arg3 m ρ c

private theorem c10_arg3 : W10 m ρ c (Proc.devRef .tc main_arg3) = m ((c : Thread nD τ).loc main_arg3) :=
  calc W10 m ρ c (Proc.devRef .tc main_arg3)
    _ = W9 m ρ c (Proc.devRef .tc main_arg3) := by host_carry hostOps3
    _ = m ((c : Thread nD τ).loc main_arg3) := c9_arg3 m ρ c

private theorem c11_arg3 : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = m ((c : Thread nD τ).loc main_arg3) := c10_arg3 m ρ c

private theorem c12_arg3 : W12 m ρ c (Proc.devRef .tc main_arg3) = m ((c : Thread nD τ).loc main_arg3) :=
  calc W12 m ρ c (Proc.devRef .tc main_arg3)
    _ = W11 m ρ c (Proc.devRef .tc main_arg3) := by host_carry hostOps4
    _ = m ((c : Thread nD τ).loc main_arg3) := c11_arg3 m ρ c

private theorem c13_arg3 : W13 m ρ c (Proc.devRef .tc main_arg3) = m ((c : Thread nD τ).loc main_arg3) :=
  calc W13 m ρ c (Proc.devRef .tc main_arg3)
    _ = W12 m ρ c (Proc.devRef .tc main_arg3) := by host_carry hostOps4_1
    _ = m ((c : Thread nD τ).loc main_arg3) := c12_arg3 m ρ c

private theorem c14_arg3 : W14 m ρ c (Proc.devRef .tc main_arg3) = m ((c : Thread nD τ).loc main_arg3) :=
  calc W14 m ρ c (Proc.devRef .tc main_arg3)
    _ = W13 m ρ c (Proc.devRef .tc main_arg3) := W14_of_ne m ρ c main_arg3 (by decide)
    _ = m ((c : Thread nD τ).loc main_arg3) := c13_arg3 m ρ c

private theorem c15_arg3 : W15 m ρ c (Proc.devRef .tc main_arg3) = m ((c : Thread nD τ).loc main_arg3) :=
  calc W15 m ρ c (Proc.devRef .tc main_arg3)
    _ = W14 m ρ c (Proc.devRef .tc main_arg3) := by host_carry hostOps5
    _ = m ((c : Thread nD τ).loc main_arg3) := c14_arg3 m ρ c

theorem W16_arg3 : W16 m ρ c (Proc.devRef .tc main_arg3) = m ((c : Thread nD τ).loc main_arg3) :=
  calc W16 m ρ c (Proc.devRef .tc main_arg3)
    _ = W15 m ρ c (Proc.devRef .tc main_arg3) := W16_of_ne m ρ c main_arg3 (by decide)
    _ = m ((c : Thread nD τ).loc main_arg3) := c15_arg3 m ρ c

private theorem c1_arg17 : W1 m ρ c (Proc.devRef .tc main_arg17) = m ((c : Thread nD τ).loc main_arg17) :=
  calc W1 m ρ c (Proc.devRef .tc main_arg17)
    _ = W0 m ρ c (Proc.devRef .tc main_arg17) := by host_carry hostOps0
    _ = m ((c : Thread nD τ).loc main_arg17) := rfl

private theorem c2_arg17 : W2 m ρ c (Proc.devRef .tc main_arg17) = m ((c : Thread nD τ).loc main_arg17) :=
  calc W2 m ρ c (Proc.devRef .tc main_arg17)
    _ = W1 m ρ c (Proc.devRef .tc main_arg17) := by host_carry hostOps0_1
    _ = m ((c : Thread nD τ).loc main_arg17) := c1_arg17 m ρ c

private theorem c3_arg17 : W3 m ρ c (Proc.devRef .tc main_arg17) = m ((c : Thread nD τ).loc main_arg17) :=
  calc W3 m ρ c (Proc.devRef .tc main_arg17)
    _ = W2 m ρ c (Proc.devRef .tc main_arg17) := by host_carry hostOps0_2
    _ = m ((c : Thread nD τ).loc main_arg17) := c2_arg17 m ρ c

private theorem c4_arg17 : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = m ((c : Thread nD τ).loc main_arg17) := c3_arg17 m ρ c

private theorem c5_arg17 : W5 m ρ c (Proc.devRef .tc main_arg17) = m ((c : Thread nD τ).loc main_arg17) :=
  calc W5 m ρ c (Proc.devRef .tc main_arg17)
    _ = W4 m ρ c (Proc.devRef .tc main_arg17) := by host_carry hostOps1
    _ = m ((c : Thread nD τ).loc main_arg17) := c4_arg17 m ρ c

private theorem c6_arg17 : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = m ((c : Thread nD τ).loc main_arg17) := c5_arg17 m ρ c

private theorem c7_arg17 : W7 m ρ c (Proc.devRef .tc main_arg17) = m ((c : Thread nD τ).loc main_arg17) :=
  calc W7 m ρ c (Proc.devRef .tc main_arg17)
    _ = W6 m ρ c (Proc.devRef .tc main_arg17) := by host_carry hostOps2
    _ = m ((c : Thread nD τ).loc main_arg17) := c6_arg17 m ρ c

private theorem c8_arg17 : W8 m ρ c (Proc.devRef .tc main_arg17) = m ((c : Thread nD τ).loc main_arg17) :=
  calc W8 m ρ c (Proc.devRef .tc main_arg17)
    _ = W7 m ρ c (Proc.devRef .tc main_arg17) := by host_carry hostOps2_1
    _ = m ((c : Thread nD τ).loc main_arg17) := c7_arg17 m ρ c

private theorem c9_arg17 : W9 m ρ c (Proc.devRef .tc main_arg17) = m ((c : Thread nD τ).loc main_arg17) :=
  calc W9 m ρ c (Proc.devRef .tc main_arg17)
    _ = W8 m ρ c (Proc.devRef .tc main_arg17) := W9_of_ne m ρ c main_arg17 (by decide)
    _ = m ((c : Thread nD τ).loc main_arg17) := c8_arg17 m ρ c

private theorem c10_arg17 : W10 m ρ c (Proc.devRef .tc main_arg17) = m ((c : Thread nD τ).loc main_arg17) :=
  calc W10 m ρ c (Proc.devRef .tc main_arg17)
    _ = W9 m ρ c (Proc.devRef .tc main_arg17) := by host_carry hostOps3
    _ = m ((c : Thread nD τ).loc main_arg17) := c9_arg17 m ρ c

private theorem c11_arg17 : W11 m ρ c (Proc.devRef .tc main_arg17) = m ((c : Thread nD τ).loc main_arg17) :=
  calc W11 m ρ c (Proc.devRef .tc main_arg17)
    _ = W10 m ρ c (Proc.devRef .tc main_arg17) := W11_of_ne m ρ c main_arg17 (by decide)
    _ = m ((c : Thread nD τ).loc main_arg17) := c10_arg17 m ρ c

private theorem c12_arg17 : W12 m ρ c (Proc.devRef .tc main_arg17) = m ((c : Thread nD τ).loc main_arg17) :=
  calc W12 m ρ c (Proc.devRef .tc main_arg17)
    _ = W11 m ρ c (Proc.devRef .tc main_arg17) := by host_carry hostOps4
    _ = m ((c : Thread nD τ).loc main_arg17) := c11_arg17 m ρ c

private theorem c13_arg17 : W13 m ρ c (Proc.devRef .tc main_arg17) = m ((c : Thread nD τ).loc main_arg17) :=
  calc W13 m ρ c (Proc.devRef .tc main_arg17)
    _ = W12 m ρ c (Proc.devRef .tc main_arg17) := by host_carry hostOps4_1
    _ = m ((c : Thread nD τ).loc main_arg17) := c12_arg17 m ρ c

private theorem c14_arg17 : W14 m ρ c (Proc.devRef .tc main_arg17) = m ((c : Thread nD τ).loc main_arg17) :=
  calc W14 m ρ c (Proc.devRef .tc main_arg17)
    _ = W13 m ρ c (Proc.devRef .tc main_arg17) := W14_of_ne m ρ c main_arg17 (by decide)
    _ = m ((c : Thread nD τ).loc main_arg17) := c13_arg17 m ρ c

private theorem c15_arg17 : W15 m ρ c (Proc.devRef .tc main_arg17) = m ((c : Thread nD τ).loc main_arg17) :=
  calc W15 m ρ c (Proc.devRef .tc main_arg17)
    _ = W14 m ρ c (Proc.devRef .tc main_arg17) := by host_carry hostOps5
    _ = m ((c : Thread nD τ).loc main_arg17) := c14_arg17 m ρ c

theorem W16_arg17 : W16 m ρ c (Proc.devRef .tc main_arg17) = m ((c : Thread nD τ).loc main_arg17) :=
  calc W16 m ρ c (Proc.devRef .tc main_arg17)
    _ = W15 m ρ c (Proc.devRef .tc main_arg17) := W16_of_ne m ρ c main_arg17 (by decide)
    _ = m ((c : Thread nD τ).loc main_arg17) := c15_arg17 m ρ c

private theorem c1_arg16 : W1 m ρ c (Proc.devRef .tc main_arg16) = m ((c : Thread nD τ).loc main_arg16) :=
  calc W1 m ρ c (Proc.devRef .tc main_arg16)
    _ = W0 m ρ c (Proc.devRef .tc main_arg16) := by host_carry hostOps0
    _ = m ((c : Thread nD τ).loc main_arg16) := rfl

private theorem c2_arg16 : W2 m ρ c (Proc.devRef .tc main_arg16) = m ((c : Thread nD τ).loc main_arg16) :=
  calc W2 m ρ c (Proc.devRef .tc main_arg16)
    _ = W1 m ρ c (Proc.devRef .tc main_arg16) := by host_carry hostOps0_1
    _ = m ((c : Thread nD τ).loc main_arg16) := c1_arg16 m ρ c

private theorem c3_arg16 : W3 m ρ c (Proc.devRef .tc main_arg16) = m ((c : Thread nD τ).loc main_arg16) :=
  calc W3 m ρ c (Proc.devRef .tc main_arg16)
    _ = W2 m ρ c (Proc.devRef .tc main_arg16) := by host_carry hostOps0_2
    _ = m ((c : Thread nD τ).loc main_arg16) := c2_arg16 m ρ c

private theorem c4_arg16 : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = m ((c : Thread nD τ).loc main_arg16) := c3_arg16 m ρ c

private theorem c5_arg16 : W5 m ρ c (Proc.devRef .tc main_arg16) = m ((c : Thread nD τ).loc main_arg16) :=
  calc W5 m ρ c (Proc.devRef .tc main_arg16)
    _ = W4 m ρ c (Proc.devRef .tc main_arg16) := by host_carry hostOps1
    _ = m ((c : Thread nD τ).loc main_arg16) := c4_arg16 m ρ c

private theorem c6_arg16 : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = m ((c : Thread nD τ).loc main_arg16) := c5_arg16 m ρ c

private theorem c7_arg16 : W7 m ρ c (Proc.devRef .tc main_arg16) = m ((c : Thread nD τ).loc main_arg16) :=
  calc W7 m ρ c (Proc.devRef .tc main_arg16)
    _ = W6 m ρ c (Proc.devRef .tc main_arg16) := by host_carry hostOps2
    _ = m ((c : Thread nD τ).loc main_arg16) := c6_arg16 m ρ c

private theorem c8_arg16 : W8 m ρ c (Proc.devRef .tc main_arg16) = m ((c : Thread nD τ).loc main_arg16) :=
  calc W8 m ρ c (Proc.devRef .tc main_arg16)
    _ = W7 m ρ c (Proc.devRef .tc main_arg16) := by host_carry hostOps2_1
    _ = m ((c : Thread nD τ).loc main_arg16) := c7_arg16 m ρ c

private theorem c9_arg16 : W9 m ρ c (Proc.devRef .tc main_arg16) = m ((c : Thread nD τ).loc main_arg16) :=
  calc W9 m ρ c (Proc.devRef .tc main_arg16)
    _ = W8 m ρ c (Proc.devRef .tc main_arg16) := W9_of_ne m ρ c main_arg16 (by decide)
    _ = m ((c : Thread nD τ).loc main_arg16) := c8_arg16 m ρ c

private theorem c10_arg16 : W10 m ρ c (Proc.devRef .tc main_arg16) = m ((c : Thread nD τ).loc main_arg16) :=
  calc W10 m ρ c (Proc.devRef .tc main_arg16)
    _ = W9 m ρ c (Proc.devRef .tc main_arg16) := by host_carry hostOps3
    _ = m ((c : Thread nD τ).loc main_arg16) := c9_arg16 m ρ c

private theorem c11_arg16 : W11 m ρ c (Proc.devRef .tc main_arg16) = m ((c : Thread nD τ).loc main_arg16) :=
  calc W11 m ρ c (Proc.devRef .tc main_arg16)
    _ = W10 m ρ c (Proc.devRef .tc main_arg16) := W11_of_ne m ρ c main_arg16 (by decide)
    _ = m ((c : Thread nD τ).loc main_arg16) := c10_arg16 m ρ c

private theorem c12_arg16 : W12 m ρ c (Proc.devRef .tc main_arg16) = m ((c : Thread nD τ).loc main_arg16) :=
  calc W12 m ρ c (Proc.devRef .tc main_arg16)
    _ = W11 m ρ c (Proc.devRef .tc main_arg16) := by host_carry hostOps4
    _ = m ((c : Thread nD τ).loc main_arg16) := c11_arg16 m ρ c

private theorem c13_arg16 : W13 m ρ c (Proc.devRef .tc main_arg16) = m ((c : Thread nD τ).loc main_arg16) :=
  calc W13 m ρ c (Proc.devRef .tc main_arg16)
    _ = W12 m ρ c (Proc.devRef .tc main_arg16) := by host_carry hostOps4_1
    _ = m ((c : Thread nD τ).loc main_arg16) := c12_arg16 m ρ c

private theorem c14_arg16 : W14 m ρ c (Proc.devRef .tc main_arg16) = m ((c : Thread nD τ).loc main_arg16) :=
  calc W14 m ρ c (Proc.devRef .tc main_arg16)
    _ = W13 m ρ c (Proc.devRef .tc main_arg16) := W14_of_ne m ρ c main_arg16 (by decide)
    _ = m ((c : Thread nD τ).loc main_arg16) := c13_arg16 m ρ c

private theorem c15_arg16 : W15 m ρ c (Proc.devRef .tc main_arg16) = m ((c : Thread nD τ).loc main_arg16) :=
  calc W15 m ρ c (Proc.devRef .tc main_arg16)
    _ = W14 m ρ c (Proc.devRef .tc main_arg16) := by host_carry hostOps5
    _ = m ((c : Thread nD τ).loc main_arg16) := c14_arg16 m ρ c

private theorem c16_arg16 : W16 m ρ c (Proc.devRef .tc main_arg16) = m ((c : Thread nD τ).loc main_arg16) :=
  calc W16 m ρ c (Proc.devRef .tc main_arg16)
    _ = W15 m ρ c (Proc.devRef .tc main_arg16) := W16_of_ne m ρ c main_arg16 (by decide)
    _ = m ((c : Thread nD τ).loc main_arg16) := c15_arg16 m ρ c

theorem W17_arg16 : W17 m ρ c (Proc.devRef .tc main_arg16) = m ((c : Thread nD τ).loc main_arg16) :=
  calc W17 m ρ c (Proc.devRef .tc main_arg16)
    _ = W16 m ρ c (Proc.devRef .tc main_arg16) := by host_carry hostOps6
    _ = m ((c : Thread nD τ).loc main_arg16) := c16_arg16 m ρ c

private theorem c1_arg19 : W1 m ρ c (Proc.devRef .tc main_arg19) = m ((c : Thread nD τ).loc main_arg19) :=
  calc W1 m ρ c (Proc.devRef .tc main_arg19)
    _ = W0 m ρ c (Proc.devRef .tc main_arg19) := by host_carry hostOps0
    _ = m ((c : Thread nD τ).loc main_arg19) := rfl

private theorem c2_arg19 : W2 m ρ c (Proc.devRef .tc main_arg19) = m ((c : Thread nD τ).loc main_arg19) :=
  calc W2 m ρ c (Proc.devRef .tc main_arg19)
    _ = W1 m ρ c (Proc.devRef .tc main_arg19) := by host_carry hostOps0_1
    _ = m ((c : Thread nD τ).loc main_arg19) := c1_arg19 m ρ c

private theorem c3_arg19 : W3 m ρ c (Proc.devRef .tc main_arg19) = m ((c : Thread nD τ).loc main_arg19) :=
  calc W3 m ρ c (Proc.devRef .tc main_arg19)
    _ = W2 m ρ c (Proc.devRef .tc main_arg19) := by host_carry hostOps0_2
    _ = m ((c : Thread nD τ).loc main_arg19) := c2_arg19 m ρ c

private theorem c4_arg19 : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = m ((c : Thread nD τ).loc main_arg19) := c3_arg19 m ρ c

private theorem c5_arg19 : W5 m ρ c (Proc.devRef .tc main_arg19) = m ((c : Thread nD τ).loc main_arg19) :=
  calc W5 m ρ c (Proc.devRef .tc main_arg19)
    _ = W4 m ρ c (Proc.devRef .tc main_arg19) := by host_carry hostOps1
    _ = m ((c : Thread nD τ).loc main_arg19) := c4_arg19 m ρ c

private theorem c6_arg19 : W6 m ρ c (Proc.devRef .tc main_arg19) = m ((c : Thread nD τ).loc main_arg19) :=
  calc W6 m ρ c (Proc.devRef .tc main_arg19)
    _ = W5 m ρ c (Proc.devRef .tc main_arg19) := W6_of_ne m ρ c main_arg19 (by decide)
    _ = m ((c : Thread nD τ).loc main_arg19) := c5_arg19 m ρ c

private theorem c7_arg19 : W7 m ρ c (Proc.devRef .tc main_arg19) = m ((c : Thread nD τ).loc main_arg19) :=
  calc W7 m ρ c (Proc.devRef .tc main_arg19)
    _ = W6 m ρ c (Proc.devRef .tc main_arg19) := by host_carry hostOps2
    _ = m ((c : Thread nD τ).loc main_arg19) := c6_arg19 m ρ c

private theorem c8_arg19 : W8 m ρ c (Proc.devRef .tc main_arg19) = m ((c : Thread nD τ).loc main_arg19) :=
  calc W8 m ρ c (Proc.devRef .tc main_arg19)
    _ = W7 m ρ c (Proc.devRef .tc main_arg19) := by host_carry hostOps2_1
    _ = m ((c : Thread nD τ).loc main_arg19) := c7_arg19 m ρ c

private theorem c9_arg19 : W9 m ρ c (Proc.devRef .tc main_arg19) = m ((c : Thread nD τ).loc main_arg19) :=
  calc W9 m ρ c (Proc.devRef .tc main_arg19)
    _ = W8 m ρ c (Proc.devRef .tc main_arg19) := W9_of_ne m ρ c main_arg19 (by decide)
    _ = m ((c : Thread nD τ).loc main_arg19) := c8_arg19 m ρ c

private theorem c10_arg19 : W10 m ρ c (Proc.devRef .tc main_arg19) = m ((c : Thread nD τ).loc main_arg19) :=
  calc W10 m ρ c (Proc.devRef .tc main_arg19)
    _ = W9 m ρ c (Proc.devRef .tc main_arg19) := by host_carry hostOps3
    _ = m ((c : Thread nD τ).loc main_arg19) := c9_arg19 m ρ c

private theorem c11_arg19 : W11 m ρ c (Proc.devRef .tc main_arg19) = m ((c : Thread nD τ).loc main_arg19) :=
  calc W11 m ρ c (Proc.devRef .tc main_arg19)
    _ = W10 m ρ c (Proc.devRef .tc main_arg19) := W11_of_ne m ρ c main_arg19 (by decide)
    _ = m ((c : Thread nD τ).loc main_arg19) := c10_arg19 m ρ c

private theorem c12_arg19 : W12 m ρ c (Proc.devRef .tc main_arg19) = m ((c : Thread nD τ).loc main_arg19) :=
  calc W12 m ρ c (Proc.devRef .tc main_arg19)
    _ = W11 m ρ c (Proc.devRef .tc main_arg19) := by host_carry hostOps4
    _ = m ((c : Thread nD τ).loc main_arg19) := c11_arg19 m ρ c

private theorem c13_arg19 : W13 m ρ c (Proc.devRef .tc main_arg19) = m ((c : Thread nD τ).loc main_arg19) :=
  calc W13 m ρ c (Proc.devRef .tc main_arg19)
    _ = W12 m ρ c (Proc.devRef .tc main_arg19) := by host_carry hostOps4_1
    _ = m ((c : Thread nD τ).loc main_arg19) := c12_arg19 m ρ c

private theorem c14_arg19 : W14 m ρ c (Proc.devRef .tc main_arg19) = m ((c : Thread nD τ).loc main_arg19) :=
  calc W14 m ρ c (Proc.devRef .tc main_arg19)
    _ = W13 m ρ c (Proc.devRef .tc main_arg19) := W14_of_ne m ρ c main_arg19 (by decide)
    _ = m ((c : Thread nD τ).loc main_arg19) := c13_arg19 m ρ c

private theorem c15_arg19 : W15 m ρ c (Proc.devRef .tc main_arg19) = m ((c : Thread nD τ).loc main_arg19) :=
  calc W15 m ρ c (Proc.devRef .tc main_arg19)
    _ = W14 m ρ c (Proc.devRef .tc main_arg19) := by host_carry hostOps5
    _ = m ((c : Thread nD τ).loc main_arg19) := c14_arg19 m ρ c

private theorem c16_arg19 : W16 m ρ c (Proc.devRef .tc main_arg19) = m ((c : Thread nD τ).loc main_arg19) :=
  calc W16 m ρ c (Proc.devRef .tc main_arg19)
    _ = W15 m ρ c (Proc.devRef .tc main_arg19) := W16_of_ne m ρ c main_arg19 (by decide)
    _ = m ((c : Thread nD τ).loc main_arg19) := c15_arg19 m ρ c

private theorem c17_arg19 : W17 m ρ c (Proc.devRef .tc main_arg19) = m ((c : Thread nD τ).loc main_arg19) :=
  calc W17 m ρ c (Proc.devRef .tc main_arg19)
    _ = W16 m ρ c (Proc.devRef .tc main_arg19) := by host_carry hostOps6
    _ = m ((c : Thread nD τ).loc main_arg19) := c16_arg19 m ρ c

theorem W18_arg19 : W18 m ρ c (Proc.devRef .tc main_arg19) = m ((c : Thread nD τ).loc main_arg19) :=
  calc W18 m ρ c (Proc.devRef .tc main_arg19)
    _ = W17 m ρ c (Proc.devRef .tc main_arg19) := W18_of_ne m ρ c main_arg19 (by decide)
    _ = m ((c : Thread nD τ).loc main_arg19) := c17_arg19 m ρ c

private theorem c1_arg18 : W1 m ρ c (Proc.devRef .tc main_arg18) = m ((c : Thread nD τ).loc main_arg18) :=
  calc W1 m ρ c (Proc.devRef .tc main_arg18)
    _ = W0 m ρ c (Proc.devRef .tc main_arg18) := by host_carry hostOps0
    _ = m ((c : Thread nD τ).loc main_arg18) := rfl

private theorem c2_arg18 : W2 m ρ c (Proc.devRef .tc main_arg18) = m ((c : Thread nD τ).loc main_arg18) :=
  calc W2 m ρ c (Proc.devRef .tc main_arg18)
    _ = W1 m ρ c (Proc.devRef .tc main_arg18) := by host_carry hostOps0_1
    _ = m ((c : Thread nD τ).loc main_arg18) := c1_arg18 m ρ c

private theorem c3_arg18 : W3 m ρ c (Proc.devRef .tc main_arg18) = m ((c : Thread nD τ).loc main_arg18) :=
  calc W3 m ρ c (Proc.devRef .tc main_arg18)
    _ = W2 m ρ c (Proc.devRef .tc main_arg18) := by host_carry hostOps0_2
    _ = m ((c : Thread nD τ).loc main_arg18) := c2_arg18 m ρ c

private theorem c4_arg18 : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = m ((c : Thread nD τ).loc main_arg18) := c3_arg18 m ρ c

private theorem c5_arg18 : W5 m ρ c (Proc.devRef .tc main_arg18) = m ((c : Thread nD τ).loc main_arg18) :=
  calc W5 m ρ c (Proc.devRef .tc main_arg18)
    _ = W4 m ρ c (Proc.devRef .tc main_arg18) := by host_carry hostOps1
    _ = m ((c : Thread nD τ).loc main_arg18) := c4_arg18 m ρ c

private theorem c6_arg18 : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = m ((c : Thread nD τ).loc main_arg18) := c5_arg18 m ρ c

private theorem c7_arg18 : W7 m ρ c (Proc.devRef .tc main_arg18) = m ((c : Thread nD τ).loc main_arg18) :=
  calc W7 m ρ c (Proc.devRef .tc main_arg18)
    _ = W6 m ρ c (Proc.devRef .tc main_arg18) := by host_carry hostOps2
    _ = m ((c : Thread nD τ).loc main_arg18) := c6_arg18 m ρ c

private theorem c8_arg18 : W8 m ρ c (Proc.devRef .tc main_arg18) = m ((c : Thread nD τ).loc main_arg18) :=
  calc W8 m ρ c (Proc.devRef .tc main_arg18)
    _ = W7 m ρ c (Proc.devRef .tc main_arg18) := by host_carry hostOps2_1
    _ = m ((c : Thread nD τ).loc main_arg18) := c7_arg18 m ρ c

private theorem c9_arg18 : W9 m ρ c (Proc.devRef .tc main_arg18) = m ((c : Thread nD τ).loc main_arg18) :=
  calc W9 m ρ c (Proc.devRef .tc main_arg18)
    _ = W8 m ρ c (Proc.devRef .tc main_arg18) := W9_of_ne m ρ c main_arg18 (by decide)
    _ = m ((c : Thread nD τ).loc main_arg18) := c8_arg18 m ρ c

private theorem c10_arg18 : W10 m ρ c (Proc.devRef .tc main_arg18) = m ((c : Thread nD τ).loc main_arg18) :=
  calc W10 m ρ c (Proc.devRef .tc main_arg18)
    _ = W9 m ρ c (Proc.devRef .tc main_arg18) := by host_carry hostOps3
    _ = m ((c : Thread nD τ).loc main_arg18) := c9_arg18 m ρ c

private theorem c11_arg18 : W11 m ρ c (Proc.devRef .tc main_arg18) = m ((c : Thread nD τ).loc main_arg18) :=
  calc W11 m ρ c (Proc.devRef .tc main_arg18)
    _ = W10 m ρ c (Proc.devRef .tc main_arg18) := W11_of_ne m ρ c main_arg18 (by decide)
    _ = m ((c : Thread nD τ).loc main_arg18) := c10_arg18 m ρ c

private theorem c12_arg18 : W12 m ρ c (Proc.devRef .tc main_arg18) = m ((c : Thread nD τ).loc main_arg18) :=
  calc W12 m ρ c (Proc.devRef .tc main_arg18)
    _ = W11 m ρ c (Proc.devRef .tc main_arg18) := by host_carry hostOps4
    _ = m ((c : Thread nD τ).loc main_arg18) := c11_arg18 m ρ c

private theorem c13_arg18 : W13 m ρ c (Proc.devRef .tc main_arg18) = m ((c : Thread nD τ).loc main_arg18) :=
  calc W13 m ρ c (Proc.devRef .tc main_arg18)
    _ = W12 m ρ c (Proc.devRef .tc main_arg18) := by host_carry hostOps4_1
    _ = m ((c : Thread nD τ).loc main_arg18) := c12_arg18 m ρ c

private theorem c14_arg18 : W14 m ρ c (Proc.devRef .tc main_arg18) = m ((c : Thread nD τ).loc main_arg18) :=
  calc W14 m ρ c (Proc.devRef .tc main_arg18)
    _ = W13 m ρ c (Proc.devRef .tc main_arg18) := W14_of_ne m ρ c main_arg18 (by decide)
    _ = m ((c : Thread nD τ).loc main_arg18) := c13_arg18 m ρ c

private theorem c15_arg18 : W15 m ρ c (Proc.devRef .tc main_arg18) = m ((c : Thread nD τ).loc main_arg18) :=
  calc W15 m ρ c (Proc.devRef .tc main_arg18)
    _ = W14 m ρ c (Proc.devRef .tc main_arg18) := by host_carry hostOps5
    _ = m ((c : Thread nD τ).loc main_arg18) := c14_arg18 m ρ c

private theorem c16_arg18 : W16 m ρ c (Proc.devRef .tc main_arg18) = m ((c : Thread nD τ).loc main_arg18) :=
  calc W16 m ρ c (Proc.devRef .tc main_arg18)
    _ = W15 m ρ c (Proc.devRef .tc main_arg18) := W16_of_ne m ρ c main_arg18 (by decide)
    _ = m ((c : Thread nD τ).loc main_arg18) := c15_arg18 m ρ c

private theorem c17_arg18 : W17 m ρ c (Proc.devRef .tc main_arg18) = m ((c : Thread nD τ).loc main_arg18) :=
  calc W17 m ρ c (Proc.devRef .tc main_arg18)
    _ = W16 m ρ c (Proc.devRef .tc main_arg18) := by host_carry hostOps6
    _ = m ((c : Thread nD τ).loc main_arg18) := c16_arg18 m ρ c

private theorem c18_arg18 : W18 m ρ c (Proc.devRef .tc main_arg18) = m ((c : Thread nD τ).loc main_arg18) :=
  calc W18 m ρ c (Proc.devRef .tc main_arg18)
    _ = W17 m ρ c (Proc.devRef .tc main_arg18) := W18_of_ne m ρ c main_arg18 (by decide)
    _ = m ((c : Thread nD τ).loc main_arg18) := c17_arg18 m ρ c

theorem W19_arg18 : W19 m ρ c (Proc.devRef .tc main_arg18) = m ((c : Thread nD τ).loc main_arg18) :=
  calc W19 m ρ c (Proc.devRef .tc main_arg18)
    _ = W18 m ρ c (Proc.devRef .tc main_arg18) := by host_carry hostOps7
    _ = m ((c : Thread nD τ).loc main_arg18) := c18_arg18 m ρ c

private theorem c1_arg21 : W1 m ρ c (Proc.devRef .tc main_arg21) = m ((c : Thread nD τ).loc main_arg21) :=
  calc W1 m ρ c (Proc.devRef .tc main_arg21)
    _ = W0 m ρ c (Proc.devRef .tc main_arg21) := by host_carry hostOps0
    _ = m ((c : Thread nD τ).loc main_arg21) := rfl

private theorem c2_arg21 : W2 m ρ c (Proc.devRef .tc main_arg21) = m ((c : Thread nD τ).loc main_arg21) :=
  calc W2 m ρ c (Proc.devRef .tc main_arg21)
    _ = W1 m ρ c (Proc.devRef .tc main_arg21) := by host_carry hostOps0_1
    _ = m ((c : Thread nD τ).loc main_arg21) := c1_arg21 m ρ c

private theorem c3_arg21 : W3 m ρ c (Proc.devRef .tc main_arg21) = m ((c : Thread nD τ).loc main_arg21) :=
  calc W3 m ρ c (Proc.devRef .tc main_arg21)
    _ = W2 m ρ c (Proc.devRef .tc main_arg21) := by host_carry hostOps0_2
    _ = m ((c : Thread nD τ).loc main_arg21) := c2_arg21 m ρ c

private theorem c4_arg21 : W4 m ρ c (Proc.devRef .tc main_arg21) = m ((c : Thread nD τ).loc main_arg21) :=
  calc W4 m ρ c (Proc.devRef .tc main_arg21)
    _ = W3 m ρ c (Proc.devRef .tc main_arg21) := W4_of_ne m ρ c main_arg21 (by decide)
    _ = m ((c : Thread nD τ).loc main_arg21) := c3_arg21 m ρ c

private theorem c5_arg21 : W5 m ρ c (Proc.devRef .tc main_arg21) = m ((c : Thread nD τ).loc main_arg21) :=
  calc W5 m ρ c (Proc.devRef .tc main_arg21)
    _ = W4 m ρ c (Proc.devRef .tc main_arg21) := by host_carry hostOps1
    _ = m ((c : Thread nD τ).loc main_arg21) := c4_arg21 m ρ c

private theorem c6_arg21 : W6 m ρ c (Proc.devRef .tc main_arg21) = m ((c : Thread nD τ).loc main_arg21) :=
  calc W6 m ρ c (Proc.devRef .tc main_arg21)
    _ = W5 m ρ c (Proc.devRef .tc main_arg21) := W6_of_ne m ρ c main_arg21 (by decide)
    _ = m ((c : Thread nD τ).loc main_arg21) := c5_arg21 m ρ c

private theorem c7_arg21 : W7 m ρ c (Proc.devRef .tc main_arg21) = m ((c : Thread nD τ).loc main_arg21) :=
  calc W7 m ρ c (Proc.devRef .tc main_arg21)
    _ = W6 m ρ c (Proc.devRef .tc main_arg21) := by host_carry hostOps2
    _ = m ((c : Thread nD τ).loc main_arg21) := c6_arg21 m ρ c

private theorem c8_arg21 : W8 m ρ c (Proc.devRef .tc main_arg21) = m ((c : Thread nD τ).loc main_arg21) :=
  calc W8 m ρ c (Proc.devRef .tc main_arg21)
    _ = W7 m ρ c (Proc.devRef .tc main_arg21) := by host_carry hostOps2_1
    _ = m ((c : Thread nD τ).loc main_arg21) := c7_arg21 m ρ c

private theorem c9_arg21 : W9 m ρ c (Proc.devRef .tc main_arg21) = m ((c : Thread nD τ).loc main_arg21) :=
  calc W9 m ρ c (Proc.devRef .tc main_arg21)
    _ = W8 m ρ c (Proc.devRef .tc main_arg21) := W9_of_ne m ρ c main_arg21 (by decide)
    _ = m ((c : Thread nD τ).loc main_arg21) := c8_arg21 m ρ c

private theorem c10_arg21 : W10 m ρ c (Proc.devRef .tc main_arg21) = m ((c : Thread nD τ).loc main_arg21) :=
  calc W10 m ρ c (Proc.devRef .tc main_arg21)
    _ = W9 m ρ c (Proc.devRef .tc main_arg21) := by host_carry hostOps3
    _ = m ((c : Thread nD τ).loc main_arg21) := c9_arg21 m ρ c

private theorem c11_arg21 : W11 m ρ c (Proc.devRef .tc main_arg21) = m ((c : Thread nD τ).loc main_arg21) :=
  calc W11 m ρ c (Proc.devRef .tc main_arg21)
    _ = W10 m ρ c (Proc.devRef .tc main_arg21) := W11_of_ne m ρ c main_arg21 (by decide)
    _ = m ((c : Thread nD τ).loc main_arg21) := c10_arg21 m ρ c

private theorem c12_arg21 : W12 m ρ c (Proc.devRef .tc main_arg21) = m ((c : Thread nD τ).loc main_arg21) :=
  calc W12 m ρ c (Proc.devRef .tc main_arg21)
    _ = W11 m ρ c (Proc.devRef .tc main_arg21) := by host_carry hostOps4
    _ = m ((c : Thread nD τ).loc main_arg21) := c11_arg21 m ρ c

private theorem c13_arg21 : W13 m ρ c (Proc.devRef .tc main_arg21) = m ((c : Thread nD τ).loc main_arg21) :=
  calc W13 m ρ c (Proc.devRef .tc main_arg21)
    _ = W12 m ρ c (Proc.devRef .tc main_arg21) := by host_carry hostOps4_1
    _ = m ((c : Thread nD τ).loc main_arg21) := c12_arg21 m ρ c

private theorem c14_arg21 : W14 m ρ c (Proc.devRef .tc main_arg21) = m ((c : Thread nD τ).loc main_arg21) :=
  calc W14 m ρ c (Proc.devRef .tc main_arg21)
    _ = W13 m ρ c (Proc.devRef .tc main_arg21) := W14_of_ne m ρ c main_arg21 (by decide)
    _ = m ((c : Thread nD τ).loc main_arg21) := c13_arg21 m ρ c

private theorem c15_arg21 : W15 m ρ c (Proc.devRef .tc main_arg21) = m ((c : Thread nD τ).loc main_arg21) :=
  calc W15 m ρ c (Proc.devRef .tc main_arg21)
    _ = W14 m ρ c (Proc.devRef .tc main_arg21) := by host_carry hostOps5
    _ = m ((c : Thread nD τ).loc main_arg21) := c14_arg21 m ρ c

private theorem c16_arg21 : W16 m ρ c (Proc.devRef .tc main_arg21) = m ((c : Thread nD τ).loc main_arg21) :=
  calc W16 m ρ c (Proc.devRef .tc main_arg21)
    _ = W15 m ρ c (Proc.devRef .tc main_arg21) := W16_of_ne m ρ c main_arg21 (by decide)
    _ = m ((c : Thread nD τ).loc main_arg21) := c15_arg21 m ρ c

private theorem c17_arg21 : W17 m ρ c (Proc.devRef .tc main_arg21) = m ((c : Thread nD τ).loc main_arg21) :=
  calc W17 m ρ c (Proc.devRef .tc main_arg21)
    _ = W16 m ρ c (Proc.devRef .tc main_arg21) := by host_carry hostOps6
    _ = m ((c : Thread nD τ).loc main_arg21) := c16_arg21 m ρ c

private theorem c18_arg21 : W18 m ρ c (Proc.devRef .tc main_arg21) = m ((c : Thread nD τ).loc main_arg21) :=
  calc W18 m ρ c (Proc.devRef .tc main_arg21)
    _ = W17 m ρ c (Proc.devRef .tc main_arg21) := W18_of_ne m ρ c main_arg21 (by decide)
    _ = m ((c : Thread nD τ).loc main_arg21) := c17_arg21 m ρ c

private theorem c19_arg21 : W19 m ρ c (Proc.devRef .tc main_arg21) = m ((c : Thread nD τ).loc main_arg21) :=
  calc W19 m ρ c (Proc.devRef .tc main_arg21)
    _ = W18 m ρ c (Proc.devRef .tc main_arg21) := by host_carry hostOps7
    _ = m ((c : Thread nD τ).loc main_arg21) := c18_arg21 m ρ c

theorem W20_arg21 : W20 m ρ c (Proc.devRef .tc main_arg21) = m ((c : Thread nD τ).loc main_arg21) :=
  calc W20 m ρ c (Proc.devRef .tc main_arg21)
    _ = W19 m ρ c (Proc.devRef .tc main_arg21) := W20_of_ne m ρ c main_arg21 (by decide)
    _ = m ((c : Thread nD τ).loc main_arg21) := c19_arg21 m ρ c

private theorem c1_arg20 : W1 m ρ c (Proc.devRef .tc main_arg20) = m ((c : Thread nD τ).loc main_arg20) :=
  calc W1 m ρ c (Proc.devRef .tc main_arg20)
    _ = W0 m ρ c (Proc.devRef .tc main_arg20) := by host_carry hostOps0
    _ = m ((c : Thread nD τ).loc main_arg20) := rfl

private theorem c2_arg20 : W2 m ρ c (Proc.devRef .tc main_arg20) = m ((c : Thread nD τ).loc main_arg20) :=
  calc W2 m ρ c (Proc.devRef .tc main_arg20)
    _ = W1 m ρ c (Proc.devRef .tc main_arg20) := by host_carry hostOps0_1
    _ = m ((c : Thread nD τ).loc main_arg20) := c1_arg20 m ρ c

private theorem c3_arg20 : W3 m ρ c (Proc.devRef .tc main_arg20) = m ((c : Thread nD τ).loc main_arg20) :=
  calc W3 m ρ c (Proc.devRef .tc main_arg20)
    _ = W2 m ρ c (Proc.devRef .tc main_arg20) := by host_carry hostOps0_2
    _ = m ((c : Thread nD τ).loc main_arg20) := c2_arg20 m ρ c

private theorem c4_arg20 : W4 m ρ c (Proc.devRef .tc main_arg20) = m ((c : Thread nD τ).loc main_arg20) :=
  calc W4 m ρ c (Proc.devRef .tc main_arg20)
    _ = W3 m ρ c (Proc.devRef .tc main_arg20) := W4_of_ne m ρ c main_arg20 (by decide)
    _ = m ((c : Thread nD τ).loc main_arg20) := c3_arg20 m ρ c

private theorem c5_arg20 : W5 m ρ c (Proc.devRef .tc main_arg20) = m ((c : Thread nD τ).loc main_arg20) :=
  calc W5 m ρ c (Proc.devRef .tc main_arg20)
    _ = W4 m ρ c (Proc.devRef .tc main_arg20) := by host_carry hostOps1
    _ = m ((c : Thread nD τ).loc main_arg20) := c4_arg20 m ρ c

private theorem c6_arg20 : W6 m ρ c (Proc.devRef .tc main_arg20) = m ((c : Thread nD τ).loc main_arg20) :=
  calc W6 m ρ c (Proc.devRef .tc main_arg20)
    _ = W5 m ρ c (Proc.devRef .tc main_arg20) := W6_of_ne m ρ c main_arg20 (by decide)
    _ = m ((c : Thread nD τ).loc main_arg20) := c5_arg20 m ρ c

private theorem c7_arg20 : W7 m ρ c (Proc.devRef .tc main_arg20) = m ((c : Thread nD τ).loc main_arg20) :=
  calc W7 m ρ c (Proc.devRef .tc main_arg20)
    _ = W6 m ρ c (Proc.devRef .tc main_arg20) := by host_carry hostOps2
    _ = m ((c : Thread nD τ).loc main_arg20) := c6_arg20 m ρ c

private theorem c8_arg20 : W8 m ρ c (Proc.devRef .tc main_arg20) = m ((c : Thread nD τ).loc main_arg20) :=
  calc W8 m ρ c (Proc.devRef .tc main_arg20)
    _ = W7 m ρ c (Proc.devRef .tc main_arg20) := by host_carry hostOps2_1
    _ = m ((c : Thread nD τ).loc main_arg20) := c7_arg20 m ρ c

private theorem c9_arg20 : W9 m ρ c (Proc.devRef .tc main_arg20) = m ((c : Thread nD τ).loc main_arg20) :=
  calc W9 m ρ c (Proc.devRef .tc main_arg20)
    _ = W8 m ρ c (Proc.devRef .tc main_arg20) := W9_of_ne m ρ c main_arg20 (by decide)
    _ = m ((c : Thread nD τ).loc main_arg20) := c8_arg20 m ρ c

private theorem c10_arg20 : W10 m ρ c (Proc.devRef .tc main_arg20) = m ((c : Thread nD τ).loc main_arg20) :=
  calc W10 m ρ c (Proc.devRef .tc main_arg20)
    _ = W9 m ρ c (Proc.devRef .tc main_arg20) := by host_carry hostOps3
    _ = m ((c : Thread nD τ).loc main_arg20) := c9_arg20 m ρ c

private theorem c11_arg20 : W11 m ρ c (Proc.devRef .tc main_arg20) = m ((c : Thread nD τ).loc main_arg20) :=
  calc W11 m ρ c (Proc.devRef .tc main_arg20)
    _ = W10 m ρ c (Proc.devRef .tc main_arg20) := W11_of_ne m ρ c main_arg20 (by decide)
    _ = m ((c : Thread nD τ).loc main_arg20) := c10_arg20 m ρ c

private theorem c12_arg20 : W12 m ρ c (Proc.devRef .tc main_arg20) = m ((c : Thread nD τ).loc main_arg20) :=
  calc W12 m ρ c (Proc.devRef .tc main_arg20)
    _ = W11 m ρ c (Proc.devRef .tc main_arg20) := by host_carry hostOps4
    _ = m ((c : Thread nD τ).loc main_arg20) := c11_arg20 m ρ c

private theorem c13_arg20 : W13 m ρ c (Proc.devRef .tc main_arg20) = m ((c : Thread nD τ).loc main_arg20) :=
  calc W13 m ρ c (Proc.devRef .tc main_arg20)
    _ = W12 m ρ c (Proc.devRef .tc main_arg20) := by host_carry hostOps4_1
    _ = m ((c : Thread nD τ).loc main_arg20) := c12_arg20 m ρ c

private theorem c14_arg20 : W14 m ρ c (Proc.devRef .tc main_arg20) = m ((c : Thread nD τ).loc main_arg20) :=
  calc W14 m ρ c (Proc.devRef .tc main_arg20)
    _ = W13 m ρ c (Proc.devRef .tc main_arg20) := W14_of_ne m ρ c main_arg20 (by decide)
    _ = m ((c : Thread nD τ).loc main_arg20) := c13_arg20 m ρ c

private theorem c15_arg20 : W15 m ρ c (Proc.devRef .tc main_arg20) = m ((c : Thread nD τ).loc main_arg20) :=
  calc W15 m ρ c (Proc.devRef .tc main_arg20)
    _ = W14 m ρ c (Proc.devRef .tc main_arg20) := by host_carry hostOps5
    _ = m ((c : Thread nD τ).loc main_arg20) := c14_arg20 m ρ c

private theorem c16_arg20 : W16 m ρ c (Proc.devRef .tc main_arg20) = m ((c : Thread nD τ).loc main_arg20) :=
  calc W16 m ρ c (Proc.devRef .tc main_arg20)
    _ = W15 m ρ c (Proc.devRef .tc main_arg20) := W16_of_ne m ρ c main_arg20 (by decide)
    _ = m ((c : Thread nD τ).loc main_arg20) := c15_arg20 m ρ c

private theorem c17_arg20 : W17 m ρ c (Proc.devRef .tc main_arg20) = m ((c : Thread nD τ).loc main_arg20) :=
  calc W17 m ρ c (Proc.devRef .tc main_arg20)
    _ = W16 m ρ c (Proc.devRef .tc main_arg20) := by host_carry hostOps6
    _ = m ((c : Thread nD τ).loc main_arg20) := c16_arg20 m ρ c

private theorem c18_arg20 : W18 m ρ c (Proc.devRef .tc main_arg20) = m ((c : Thread nD τ).loc main_arg20) :=
  calc W18 m ρ c (Proc.devRef .tc main_arg20)
    _ = W17 m ρ c (Proc.devRef .tc main_arg20) := W18_of_ne m ρ c main_arg20 (by decide)
    _ = m ((c : Thread nD τ).loc main_arg20) := c17_arg20 m ρ c

private theorem c19_arg20 : W19 m ρ c (Proc.devRef .tc main_arg20) = m ((c : Thread nD τ).loc main_arg20) :=
  calc W19 m ρ c (Proc.devRef .tc main_arg20)
    _ = W18 m ρ c (Proc.devRef .tc main_arg20) := by host_carry hostOps7
    _ = m ((c : Thread nD τ).loc main_arg20) := c18_arg20 m ρ c

private theorem c20_arg20 : W20 m ρ c (Proc.devRef .tc main_arg20) = m ((c : Thread nD τ).loc main_arg20) :=
  calc W20 m ρ c (Proc.devRef .tc main_arg20)
    _ = W19 m ρ c (Proc.devRef .tc main_arg20) := W20_of_ne m ρ c main_arg20 (by decide)
    _ = m ((c : Thread nD τ).loc main_arg20) := c19_arg20 m ρ c

theorem W21_arg20 : W21 m ρ c (Proc.devRef .tc main_arg20) = m ((c : Thread nD τ).loc main_arg20) :=
  calc W21 m ρ c (Proc.devRef .tc main_arg20)
    _ = W20 m ρ c (Proc.devRef .tc main_arg20) := by host_carry hostOps8
    _ = m ((c : Thread nD τ).loc main_arg20) := c20_arg20 m ρ c

/-! ## Intermediate arrays, from the boundary after which nothing writes them to the boundary where they are read again -/

private theorem c2_v1 : W2 m ρ c (Proc.devRef .tc main_v1) = W1 m ρ c (Proc.devRef .tc main_v1) :=
  by host_carry hostOps0_1

private theorem c3_v1 : W3 m ρ c (Proc.devRef .tc main_v1) = W1 m ρ c (Proc.devRef .tc main_v1) :=
  calc W3 m ρ c (Proc.devRef .tc main_v1)
    _ = W2 m ρ c (Proc.devRef .tc main_v1) := by host_carry hostOps0_2
    _ = W1 m ρ c (Proc.devRef .tc main_v1) := c2_v1 m ρ c

private theorem c4_v1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W1 m ρ c (Proc.devRef .tc main_v1) := c3_v1 m ρ c

private theorem c5_v1 : W5 m ρ c (Proc.devRef .tc main_v1) = W1 m ρ c (Proc.devRef .tc main_v1) :=
  calc W5 m ρ c (Proc.devRef .tc main_v1)
    _ = W4 m ρ c (Proc.devRef .tc main_v1) := by host_carry hostOps1
    _ = W1 m ρ c (Proc.devRef .tc main_v1) := c4_v1 m ρ c

theorem W6_v1 : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W1 m ρ c (Proc.devRef .tc main_v1) := c5_v1 m ρ c

private theorem c7_v1 : W7 m ρ c (Proc.devRef .tc main_v1) = W1 m ρ c (Proc.devRef .tc main_v1) :=
  calc W7 m ρ c (Proc.devRef .tc main_v1)
    _ = W6 m ρ c (Proc.devRef .tc main_v1) := by host_carry hostOps2
    _ = W1 m ρ c (Proc.devRef .tc main_v1) := W6_v1 m ρ c

private theorem c8_v1 : W8 m ρ c (Proc.devRef .tc main_v1) = W1 m ρ c (Proc.devRef .tc main_v1) :=
  calc W8 m ρ c (Proc.devRef .tc main_v1)
    _ = W7 m ρ c (Proc.devRef .tc main_v1) := by host_carry hostOps2_1
    _ = W1 m ρ c (Proc.devRef .tc main_v1) := c7_v1 m ρ c

private theorem c9_v1 : W9 m ρ c (Proc.devRef .tc main_v1) = W1 m ρ c (Proc.devRef .tc main_v1) :=
  calc W9 m ρ c (Proc.devRef .tc main_v1)
    _ = W8 m ρ c (Proc.devRef .tc main_v1) := W9_of_ne m ρ c main_v1 (by decide)
    _ = W1 m ρ c (Proc.devRef .tc main_v1) := c8_v1 m ρ c

private theorem c10_v1 : W10 m ρ c (Proc.devRef .tc main_v1) = W1 m ρ c (Proc.devRef .tc main_v1) :=
  calc W10 m ρ c (Proc.devRef .tc main_v1)
    _ = W9 m ρ c (Proc.devRef .tc main_v1) := by host_carry hostOps3
    _ = W1 m ρ c (Proc.devRef .tc main_v1) := c9_v1 m ρ c

theorem W11_v1 : W11 m ρ c (Proc.devRef .tc main_v1) = W1 m ρ c (Proc.devRef .tc main_v1) :=
  calc W11 m ρ c (Proc.devRef .tc main_v1)
    _ = W10 m ρ c (Proc.devRef .tc main_v1) := W11_of_ne m ρ c main_v1 (by decide)
    _ = W1 m ρ c (Proc.devRef .tc main_v1) := c10_v1 m ρ c

private theorem c2_v3 : W2 m ρ c (Proc.devRef .tc main_v3) = W1 m ρ c (Proc.devRef .tc main_v3) :=
  by host_carry hostOps0_1

private theorem c3_v3 : W3 m ρ c (Proc.devRef .tc main_v3) = W1 m ρ c (Proc.devRef .tc main_v3) :=
  calc W3 m ρ c (Proc.devRef .tc main_v3)
    _ = W2 m ρ c (Proc.devRef .tc main_v3) := by host_carry hostOps0_2
    _ = W1 m ρ c (Proc.devRef .tc main_v3) := c2_v3 m ρ c

theorem W4_v3 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W1 m ρ c (Proc.devRef .tc main_v3) := c3_v3 m ρ c

private theorem c5_v3 : W5 m ρ c (Proc.devRef .tc main_v3) = W1 m ρ c (Proc.devRef .tc main_v3) :=
  calc W5 m ρ c (Proc.devRef .tc main_v3)
    _ = W4 m ρ c (Proc.devRef .tc main_v3) := by host_carry hostOps1
    _ = W1 m ρ c (Proc.devRef .tc main_v3) := W4_v3 m ρ c

private theorem c6_v3 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W1 m ρ c (Proc.devRef .tc main_v3) := c5_v3 m ρ c

private theorem c7_v3 : W7 m ρ c (Proc.devRef .tc main_v3) = W1 m ρ c (Proc.devRef .tc main_v3) :=
  calc W7 m ρ c (Proc.devRef .tc main_v3)
    _ = W6 m ρ c (Proc.devRef .tc main_v3) := by host_carry hostOps2
    _ = W1 m ρ c (Proc.devRef .tc main_v3) := c6_v3 m ρ c

private theorem c8_v3 : W8 m ρ c (Proc.devRef .tc main_v3) = W1 m ρ c (Proc.devRef .tc main_v3) :=
  calc W8 m ρ c (Proc.devRef .tc main_v3)
    _ = W7 m ρ c (Proc.devRef .tc main_v3) := by host_carry hostOps2_1
    _ = W1 m ρ c (Proc.devRef .tc main_v3) := c7_v3 m ρ c

theorem W9_v3 : W9 m ρ c (Proc.devRef .tc main_v3) = W1 m ρ c (Proc.devRef .tc main_v3) :=
  calc W9 m ρ c (Proc.devRef .tc main_v3)
    _ = W8 m ρ c (Proc.devRef .tc main_v3) := W9_of_ne m ρ c main_v3 (by decide)
    _ = W1 m ρ c (Proc.devRef .tc main_v3) := c8_v3 m ρ c

private theorem c10_v3 : W10 m ρ c (Proc.devRef .tc main_v3) = W1 m ρ c (Proc.devRef .tc main_v3) :=
  calc W10 m ρ c (Proc.devRef .tc main_v3)
    _ = W9 m ρ c (Proc.devRef .tc main_v3) := by host_carry hostOps3
    _ = W1 m ρ c (Proc.devRef .tc main_v3) := W9_v3 m ρ c

private theorem c11_v3 : W11 m ρ c (Proc.devRef .tc main_v3) = W1 m ρ c (Proc.devRef .tc main_v3) :=
  calc W11 m ρ c (Proc.devRef .tc main_v3)
    _ = W10 m ρ c (Proc.devRef .tc main_v3) := W11_of_ne m ρ c main_v3 (by decide)
    _ = W1 m ρ c (Proc.devRef .tc main_v3) := c10_v3 m ρ c

private theorem c12_v3 : W12 m ρ c (Proc.devRef .tc main_v3) = W1 m ρ c (Proc.devRef .tc main_v3) :=
  calc W12 m ρ c (Proc.devRef .tc main_v3)
    _ = W11 m ρ c (Proc.devRef .tc main_v3) := by host_carry hostOps4
    _ = W1 m ρ c (Proc.devRef .tc main_v3) := c11_v3 m ρ c

private theorem c13_v3 : W13 m ρ c (Proc.devRef .tc main_v3) = W1 m ρ c (Proc.devRef .tc main_v3) :=
  calc W13 m ρ c (Proc.devRef .tc main_v3)
    _ = W12 m ρ c (Proc.devRef .tc main_v3) := by host_carry hostOps4_1
    _ = W1 m ρ c (Proc.devRef .tc main_v3) := c12_v3 m ρ c

theorem W14_v3 : W14 m ρ c (Proc.devRef .tc main_v3) = W1 m ρ c (Proc.devRef .tc main_v3) :=
  calc W14 m ρ c (Proc.devRef .tc main_v3)
    _ = W13 m ρ c (Proc.devRef .tc main_v3) := W14_of_ne m ρ c main_v3 (by decide)
    _ = W1 m ρ c (Proc.devRef .tc main_v3) := c13_v3 m ρ c

private theorem c2_v12 : W2 m ρ c (Proc.devRef .tc main_v12) = W1 m ρ c (Proc.devRef .tc main_v12) :=
  by host_carry hostOps0_1

private theorem c3_v12 : W3 m ρ c (Proc.devRef .tc main_v12) = W1 m ρ c (Proc.devRef .tc main_v12) :=
  calc W3 m ρ c (Proc.devRef .tc main_v12)
    _ = W2 m ρ c (Proc.devRef .tc main_v12) := by host_carry hostOps0_2
    _ = W1 m ρ c (Proc.devRef .tc main_v12) := c2_v12 m ρ c

theorem W4_v12 : W4 m ρ c (Proc.devRef .tc main_v12) = W1 m ρ c (Proc.devRef .tc main_v12) :=
  calc W4 m ρ c (Proc.devRef .tc main_v12)
    _ = W3 m ρ c (Proc.devRef .tc main_v12) := W4_of_ne m ρ c main_v12 (by decide)
    _ = W1 m ρ c (Proc.devRef .tc main_v12) := c3_v12 m ρ c

private theorem c5_v12 : W5 m ρ c (Proc.devRef .tc main_v12) = W1 m ρ c (Proc.devRef .tc main_v12) :=
  calc W5 m ρ c (Proc.devRef .tc main_v12)
    _ = W4 m ρ c (Proc.devRef .tc main_v12) := by host_carry hostOps1
    _ = W1 m ρ c (Proc.devRef .tc main_v12) := W4_v12 m ρ c

private theorem c6_v12 : W6 m ρ c (Proc.devRef .tc main_v12) = W1 m ρ c (Proc.devRef .tc main_v12) :=
  calc W6 m ρ c (Proc.devRef .tc main_v12)
    _ = W5 m ρ c (Proc.devRef .tc main_v12) := W6_of_ne m ρ c main_v12 (by decide)
    _ = W1 m ρ c (Proc.devRef .tc main_v12) := c5_v12 m ρ c

private theorem c7_v12 : W7 m ρ c (Proc.devRef .tc main_v12) = W1 m ρ c (Proc.devRef .tc main_v12) :=
  calc W7 m ρ c (Proc.devRef .tc main_v12)
    _ = W6 m ρ c (Proc.devRef .tc main_v12) := by host_carry hostOps2
    _ = W1 m ρ c (Proc.devRef .tc main_v12) := c6_v12 m ρ c

private theorem c8_v12 : W8 m ρ c (Proc.devRef .tc main_v12) = W1 m ρ c (Proc.devRef .tc main_v12) :=
  calc W8 m ρ c (Proc.devRef .tc main_v12)
    _ = W7 m ρ c (Proc.devRef .tc main_v12) := by host_carry hostOps2_1
    _ = W1 m ρ c (Proc.devRef .tc main_v12) := c7_v12 m ρ c

theorem W9_v12 : W9 m ρ c (Proc.devRef .tc main_v12) = W1 m ρ c (Proc.devRef .tc main_v12) :=
  calc W9 m ρ c (Proc.devRef .tc main_v12)
    _ = W8 m ρ c (Proc.devRef .tc main_v12) := W9_of_ne m ρ c main_v12 (by decide)
    _ = W1 m ρ c (Proc.devRef .tc main_v12) := c8_v12 m ρ c

private theorem c10_v12 : W10 m ρ c (Proc.devRef .tc main_v12) = W1 m ρ c (Proc.devRef .tc main_v12) :=
  calc W10 m ρ c (Proc.devRef .tc main_v12)
    _ = W9 m ρ c (Proc.devRef .tc main_v12) := by host_carry hostOps3
    _ = W1 m ρ c (Proc.devRef .tc main_v12) := W9_v12 m ρ c

private theorem c11_v12 : W11 m ρ c (Proc.devRef .tc main_v12) = W1 m ρ c (Proc.devRef .tc main_v12) :=
  calc W11 m ρ c (Proc.devRef .tc main_v12)
    _ = W10 m ρ c (Proc.devRef .tc main_v12) := W11_of_ne m ρ c main_v12 (by decide)
    _ = W1 m ρ c (Proc.devRef .tc main_v12) := c10_v12 m ρ c

private theorem c12_v12 : W12 m ρ c (Proc.devRef .tc main_v12) = W1 m ρ c (Proc.devRef .tc main_v12) :=
  calc W12 m ρ c (Proc.devRef .tc main_v12)
    _ = W11 m ρ c (Proc.devRef .tc main_v12) := by host_carry hostOps4
    _ = W1 m ρ c (Proc.devRef .tc main_v12) := c11_v12 m ρ c

private theorem c13_v12 : W13 m ρ c (Proc.devRef .tc main_v12) = W1 m ρ c (Proc.devRef .tc main_v12) :=
  calc W13 m ρ c (Proc.devRef .tc main_v12)
    _ = W12 m ρ c (Proc.devRef .tc main_v12) := by host_carry hostOps4_1
    _ = W1 m ρ c (Proc.devRef .tc main_v12) := c12_v12 m ρ c

theorem W14_v12 : W14 m ρ c (Proc.devRef .tc main_v12) = W1 m ρ c (Proc.devRef .tc main_v12) :=
  calc W14 m ρ c (Proc.devRef .tc main_v12)
    _ = W13 m ρ c (Proc.devRef .tc main_v12) := W14_of_ne m ρ c main_v12 (by decide)
    _ = W1 m ρ c (Proc.devRef .tc main_v12) := c13_v12 m ρ c

private theorem c7_v24 : W7 m ρ c (Proc.devRef .tc main_v24) = W6 m ρ c (Proc.devRef .tc main_v24) :=
  by host_carry hostOps2

private theorem c8_v24 : W8 m ρ c (Proc.devRef .tc main_v24) = W6 m ρ c (Proc.devRef .tc main_v24) :=
  calc W8 m ρ c (Proc.devRef .tc main_v24)
    _ = W7 m ρ c (Proc.devRef .tc main_v24) := by host_carry hostOps2_1
    _ = W6 m ρ c (Proc.devRef .tc main_v24) := c7_v24 m ρ c

theorem W9_v24 : W9 m ρ c (Proc.devRef .tc main_v24) = W6 m ρ c (Proc.devRef .tc main_v24) :=
  calc W9 m ρ c (Proc.devRef .tc main_v24)
    _ = W8 m ρ c (Proc.devRef .tc main_v24) := W9_of_ne m ρ c main_v24 (by decide)
    _ = W6 m ρ c (Proc.devRef .tc main_v24) := c8_v24 m ρ c

private theorem c12_v36 : W12 m ρ c (Proc.devRef .tc main_v36) = W11 m ρ c (Proc.devRef .tc main_v36) :=
  by host_carry hostOps4

private theorem c13_v36 : W13 m ρ c (Proc.devRef .tc main_v36) = W11 m ρ c (Proc.devRef .tc main_v36) :=
  calc W13 m ρ c (Proc.devRef .tc main_v36)
    _ = W12 m ρ c (Proc.devRef .tc main_v36) := by host_carry hostOps4_1
    _ = W11 m ρ c (Proc.devRef .tc main_v36) := c12_v36 m ρ c

theorem W14_v36 : W14 m ρ c (Proc.devRef .tc main_v36) = W11 m ρ c (Proc.devRef .tc main_v36) :=
  calc W14 m ρ c (Proc.devRef .tc main_v36)
    _ = W13 m ρ c (Proc.devRef .tc main_v36) := W14_of_ne m ρ c main_v36 (by decide)
    _ = W11 m ρ c (Proc.devRef .tc main_v36) := c13_v36 m ρ c

theorem W19_v62 : W19 m ρ c (Proc.devRef .tc main_v62) = W18 m ρ c (Proc.devRef .tc main_v62) :=
  by host_carry hostOps7

theorem W21_v64 : W21 m ρ c (Proc.devRef .tc main_v64) = W20 m ρ c (Proc.devRef .tc main_v64) :=
  by host_carry hostOps8

end Cert.KernelIdeal.KF

end
-- ==== Proof.LibTakeFill.lean ====
/-
  A TAKE WITH OUT-OF-RANGE ENTRIES FILLED. `jnp.take(table, idx)` in its default mode first wraps a negative index the
  way NumPy does (`w = idx + N` where `idx < 0`, else `w = idx`, `N` the table's extent), then keeps the gathered entry
  where `0 ≤ w ≤ N - 1` and writes a fill value elsewhere. The in-range test is printed over the [n × 1] column of wrapped
  indices: the reduction by `and` along the second axis of `(col ≥ lo) & (col ≤ hi)`.

  * `wrap_in_range`: an index in `[-N, N)` wraps into `[0, N - 1]`;
  * `wrap_of_nonneg`: a non-negative index is left as it is;
  * `foldl_andi_of_all_one`: a left fold by `and` from 1 over `i1` words that are all 1 is 1;
  * `fill_mask_eq_one`: the printed in-range test is 1 at a row whose wrapped index lies between the bounds.

  Every statement holds at any number of rows `n` and any table extent below 2³⁰.
-/
import Idealize.ShloMosaic.Lib.ReduceAll
import Idealize.ShloMosaic.Lib.StableHlo.Predicate
import Idealize.ShloMosaic.Lib.ValueIdx

namespace Cert.Lib.TakeFill

open Idealize.ShloMosaic
open Idealize.ShloMosaic.StableHlo.Predicate (ixP)
open Idealize.ShloMosaic.ValueIdx (ix1)

/-- An integer in the signed 32-bit range is its own balanced remainder modulo 2³². -/
private theorem bmod_self {m : Int} (h₁ : -2 ^ 31 ≤ m) (h₂ : m < 2 ^ 31) : m.bmod (2 ^ 32) = m :=
  Int.bmod_eq_of_le (by omega) (by omega)

/-- The extent of a table below 2³⁰, as a 32-bit word, reads as itself. -/
private theorem toInt_extent (N : Nat) (hN : N < 2 ^ 31) : (BitVec.ofNat 32 N).toInt = (N : Int) := by
  rw [BitVec.toInt_ofNat']
  exact bmod_self (by omega) (by omega)

/-- THE WRAP LANDS IN RANGE. For a table of extent `N` (positive, below 2³⁰) an index `x` with `-N ≤ x < N`, wrapped
    the NumPy way (`x + N` where `x < 0`, else `x`), lies in `[0, N - 1]`: a negative `x` has `0 ≤ x + N ≤ N - 1` and the
    sum does not leave the word; a non-negative `x` is below `N` already. -/
theorem wrap_in_range (N : Nat) (hN : 0 < N) (hN' : N < 2 ^ 30) (x : BitVec 32) (hlo : -(N : Int) ≤ x.toInt)
    (hhi : x.toInt < (N : Int)) :
    0 ≤ (Scalar.select (IntOp.cmpi .slt x 0#32) (IntOp.addi x (BitVec.ofNat 32 N)) x).toInt ∧
      (Scalar.select (IntOp.cmpi .slt x 0#32) (IntOp.addi x (BitVec.ofNat 32 N)) x).toInt ≤ (N : Int) - 1 := by
  have h0 : (0#32).toInt = 0 := rfl
  by_cases h : x.toInt < 0
  · have hc : IntOp.cmpi .slt x 0#32 = (1 : BitVec 1) := IntOp.cmpi_slt.2 (by rw [h0]; exact h)
    have hn : (BitVec.ofNat 32 N).toInt = (N : Int) := toInt_extent N (by omega)
    have hs : (IntOp.addi x (BitVec.ofNat 32 N)).toInt = x.toInt + (N : Int) := by
      rw [IntOp.addi, BitVec.toInt_add, hn]
      exact bmod_self (by omega) (by omega)
    rw [Scalar.select, if_pos hc, hs]
    omega
  · have hc : ¬ IntOp.cmpi .slt x 0#32 = (1 : BitVec 1) := fun e => h (by have := IntOp.cmpi_slt.1 e; rwa [h0] at this)
    rw [Scalar.select, if_neg hc]
    omega

/-- A NON-NEGATIVE INDEX IS NOT WRAPPED: the comparison `x < 0` fails, so the selection keeps `x`. -/
theorem wrap_of_nonneg (N : Nat) (x : BitVec 32) (h : 0 ≤ x.toInt) :
    Scalar.select (IntOp.cmpi .slt x 0#32) (IntOp.addi x (BitVec.ofNat 32 N)) x = x := by
  have h0 : (0#32).toInt = 0 := rfl
  have hc : ¬ IntOp.cmpi .slt x 0#32 = (1 : BitVec 1) := fun e => by
    have := IntOp.cmpi_slt.1 e
    rw [h0] at this
    omega
  rw [Scalar.select, if_neg hc]

/-- A left fold by `and` from 1 over `i1` words that are all 1 is 1 (the converse of reading such a fold back). -/
theorem foldl_andi_of_all_one {ι : Type} (f : ι → BitVec 1) :
    ∀ l : List ι, (∀ i ∈ l, f i = 1#1) → l.foldl (fun r i => IntOp.andi r (f i)) 1#1 = 1#1
  | [], _ => rfl
  | a :: l, h => by
    have ha : IntOp.andi 1#1 (f a) = 1#1 := IntOp.andi_eq_one.2 ⟨rfl, h a List.mem_cons_self⟩
    rw [List.foldl_cons, ha]
    exact foldl_andi_of_all_one f l fun i hi => h i (List.mem_cons_of_mem _ hi)

/-- THE IN-RANGE TEST AT A ROW. The reduction by `and` along the second axis of `(col ≥ lo) & (col ≤ hi)` over an
    [n × 1] column, from an initial value whose element is 1, is 1 at row `p` as soon as the column's entry of that row
    lies between the two bounds' entries there: the only index of the column that reduces into row `p` is (`p`, 0), and
    both comparisons hold at it. -/
theorem fill_mask_eq_one {n : Nat} {u : Shape} (hred : (⟨2, ![n, 1]⟩ : Shape).ReducesTo [1] ⟨1, ![n]⟩)
    (hu : 0 < u.numel) (init : u.Idx → BitVec 1) (hinit : init (Shape.Idx.first hu) = 1#1)
    (col lo hi : IVec ⟨2, ![n, 1]⟩ 32) (p : Fin n)
    (hx : (lo (ixP p)).toInt ≤ (col (ixP p)).toInt ∧ (col (ixP p)).toInt ≤ (hi (ixP p)).toInt) :
    Host.reduce IntOp.andi (andi (cmpi .sge col lo) (cmpi .sle col hi)) init hred hu (ix1 p) = 1#1 := by
  rw [Host.reduce_eq_foldl, hinit]
  refine foldl_andi_of_all_one _ _ fun i hmem => ?_
  -- an index that reduces into row p is (p, 0)
  have hd : hred.drop i = ix1 p := of_decide_eq_true (List.mem_filter.1 hmem).2
  have hv : (hred.drop i 0 : Nat) = i 0 := Shape.ReducesTo.drop_apply_val hred i 0
  have hr : (i 0 : Nat) = p := by rw [← hv, hd]; rfl
  have hip : i = ixP p := by
    funext b
    match b with
    | ⟨0, _⟩ => exact Fin.ext hr
    | ⟨1, _⟩ => exact Subsingleton.elim (α := Fin 1) _ _
  subst hip
  exact IntOp.andi_eq_one.2 ⟨IntOp.cmpi_sge.2 hx.1, IntOp.cmpi_sle.2 hx.2⟩

end Cert.Lib.TakeFill
-- ==== Proof.Take.lean ====
/-
  A TAKE WHOSE INDICES ARE IN RANGE IS THE GATHER. jnp.take in fill mode wraps a negative index the NumPy way
  (`w = s + 50000` where `s < 0`, else `w = s`), gathers at the wrapped index, and keeps the gathered row where
  `0 ≤ w ≤ 49999`, writing a fill word elsewhere. When every index lies in [-50000, 50000) every wrapped index lies in
  [0, 49999], so the in-range test is 1 at every row (`mask_one`), and a selection on a condition that is 1 everywhere
  keeps its first operand (`select_bcast_one`).
-/
import proofs.«407242_j23235773071434_1_alg».proof.Proof.Gen.KernelIdeal
import proofs.«407242_j23235773071434_1_alg».proof.Proof.LibTakeFill
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.Take

open Idealize.ShloMosaic Cert.KernelIdeal Cert.KernelIdeal.Gen
open Idealize.ShloMosaic.StableHlo.Predicate (ixP)
open Idealize.ShloMosaic.ValueIdx (ix1)

/-- the wrapped index column -/
abbrev col (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- THE IN-RANGE TEST IS ALL ONES: with every index in [-50000, 50000) every wrapped index lies in [0, 49999]. -/
theorem mask_one (s : IVec S800000 32)
    (hs : ∀ p : Fin 800000, -50000 ≤ (s (Idealize.ShloMosaic.ValueIdx.ix1 p)).toInt ∧ (s (Idealize.ShloMosaic.ValueIdx.ix1 p)).toInt < 50000) :
    Host.reduce IntOp.andi
      (andi (cmpi .sge (col s) (broadcastInDim S800000x1 ![] bcast_S_S800000x1 (constantI S_ 32 0#32)))
        (cmpi .sle (col s) (broadcastInDim S800000x1 ![0, 1] bcast_S1x1_S800000x1_0_1 (broadcastInDim S1x1 ![1] bcast_S1_S1x1_1 (constantI S1 32 49999#32)))))
      (constantI S_ 1 1#1) reducesTo_S800000x1_S800000_d1 h_S_ = fun _ => 1#1 := by
  funext j
  obtain ⟨p, rfl⟩ : ∃ p : Fin 800000, j = ix1 p := ⟨j 0, Idealize.ShloMosaic.ValueIdx.eq_ix1 j⟩
  -- the column's entry of row p is the wrapped index of edge p
  have hcol : col s (ixP p)
      = Scalar.select (IntOp.cmpi .slt (s (ix1 p)) 0#32) (IntOp.addi (s (ix1 p)) (BitVec.ofNat 32 50000)) (s (ix1 p)) :=
    Idealize.ShloMosaic.broadcastInDim_apply _ _ _ (ixP p) (ix1 p) (fun a => by
      obtain rfl : a = 0 := Subsingleton.elim _ _
      rfl)
  obtain ⟨h₁, h₂⟩ := Cert.Lib.TakeFill.wrap_in_range 50000 (by decide) (by decide) (s (ix1 p)) (hs p).1 (hs p).2
  refine Cert.Lib.TakeFill.fill_mask_eq_one reducesTo_S800000x1_S800000_d1 h_S_ (constantI S_ 1 1#1) rfl (col s) _ _ p ?_
  -- the two bounds read 0 and 49999 at every row
  show (0#32).toInt ≤ (col s (ixP p)).toInt ∧ (col s (ixP p)).toInt ≤ (49999#32).toInt
  rw [hcol, show (0#32).toInt = 0 from rfl, show (49999#32).toInt = 49999 from by decide]
  exact ⟨h₁, by omega⟩

/-- A SELECTION ON A CONDITION THAT IS 1 EVERYWHERE keeps its first operand. -/
theorem select_bcast_one {S T : Shape} (dims : Fin S.rank → Fin T.rank) (ev : S.BroadcastsInDim T dims) (g f : FVec Ideal T .f32) :
    select (broadcastInDim T dims ev (fun _ => (1#1 : BitVec 1))) g f = g := by
  funext i
  exact Idealize.ShloMosaic.ValueIdx.select_one (g i) (f i)

end Cert.KernelIdeal.Take

end
-- ==== Proof.Region0.lean ====
/-
  THE FIRST MESSAGE LAYER'S REGION. Its grid has 100 points; point t takes rows 8000 t … 8000 t + 7999 of the edge
  feature matrix [800000, 13], the whole weight matrix [13, 64] and the bias row [1, 64], and writes the same rows of
  the result: each entry the leaky rectifier of the row's product with the weight column plus the bias entry. Since an
  entry only depends on its own row, the 100 blocks together are the whole-array layer `denseLeaky`.
-/
import proofs.«407242_j23235773071434_1_alg».proof.Proof.Gen.KernelIdeal.Frame
import proofs.«407242_j23235773071434_1_alg».proof.Proof.LibDense

set_option maxRecDepth 16384

noncomputable section

namespace Cert.KernelIdeal.Region0

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.Lib.Dense

variable (V : (c : Dev nD) → (b : Ref sig .tc) → Buf (Elt Ideal) ((c : Thread nD τ).loc b))

/-- The three arrays the region reads, as it finds them. -/
abbrev xarr (c : Dev nD) : FVec Ideal S800000x13 .f32 := V c (Pipeline.arrRef spec0 0)
abbrev warr (c : Dev nD) : FVec Ideal S13x64 .f32 := V c (Pipeline.arrRef spec0 1)
abbrev barr (c : Dev nD) : FVec Ideal S1x64 .f32 := V c (Pipeline.arrRef spec0 2)

theorem hz : (![0, 0] : Fin 2 → Nat) = fun _ => 0 := funext fun a => by fin_cases a <;> rfl

/-- The body's stored value at an entry of the block: the rectified affine layer of the three loaded blocks. -/
theorem pay (x : Vec Ideal S8000x13 .f32) (w : Vec Ideal S13x64 .f32) (b : Vec Ideal S1x64 .f32) (y : S8000x64.Idx) :
    k0_pay1 (F := Ideal) x w b y = leaky (affine (M := 8000) (K := 13) (N := 64) x w b y) :=
  (leaky_vec _ y).trans (congrArg leaky (pay_affine (M := 8000) (K := 13) (N := 64) x w b _ _ _ y))

/-- Where each window's block sits at point t: the row block t for the features and the result, the one block for the
    weights and the bias. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (1 : Fin 2) = 0
    ∧ win0_3.index t (0 : Fin 2) = t.val :=
  (by decide +kernel : ∀ t : Fin grid0.N, _)

/-- What point t writes back is block t of the whole-array layer. -/
theorem flushed_eq (c : Dev nD) (t : Fin cfg0.N) :
    (dat0 V c).flushed 3 t = ((cfg0.win 3).blk t).view.read (Elt Ideal)
      (denseLeaky (M := 800000) (K := 13) (N := 64) (xarr V c) (warr V c) (barr V c)) := by
  show (cfg0.win 3).cut (grid0.coords t) ((dat0 V c).after 3 t) = _
  rw [after0_3]
  unfold out0_3
  rw [View.canon_unit_zero hz]
  simp only [View.ld_unit_zero (S := S8000x13) hz, View.ld_unit_zero (S := S13x64) hz, View.ld_unit_zero (S := S1x64) hz]
  obtain ⟨e0, e1, e2, e3, e4, e5, e6, e7⟩ := idx_facts t
  funext y
  refine (pay (iblk0 V c 0 t) (iblk0 V c 1 t) (iblk0 V c 2 t) y).trans ?_
  show _ = leaky (affine (M := 800000) (K := 13) (N := 64) (xarr V c) (warr V c) (barr V c) (((cfg0.win 3).blk t).view.emb y))
  refine congrArg leaky (affine_congr (Mb := 8000) (M := 800000) (K := 13) (N := 64) _ _ _ _ _ _ y _ ?_ ?_ ?_)
  · intro k
    show xarr V c (((cfg0.win 0).blk t).view.emb (ix2 (y 0) k)) = _
    refine congrArg (xarr V c) (funext fun a => Fin.ext ?_)
    match a with
    | ⟨0, _⟩ => show win0_0.index t (0 : Fin 2) * 8000 + 1 * (y 0).val = win0_3.index t (0 : Fin 2) * 8000 + 1 * (y 0).val; omega
    | ⟨1, _⟩ => show win0_0.index t (1 : Fin 2) * 13 + 1 * k.val = k.val; omega
  · intro k
    show warr V c (((cfg0.win 1).blk t).view.emb (ix2 k (y 1))) = _
    refine congrArg (warr V c) (funext fun a => Fin.ext ?_)
    match a with
    | ⟨0, _⟩ => show win0_1.index t (0 : Fin 2) * 13 + 1 * k.val = k.val; omega
    | ⟨1, _⟩ => show win0_1.index t (1 : Fin 2) * 64 + 1 * (y 1).val = win0_3.index t (1 : Fin 2) * 64 + 1 * (y 1).val; omega
  · show barr V c (((cfg0.win 2).blk t).view.emb (ix2 0 (y 1))) = _
    refine congrArg (barr V c) (funext fun a => Fin.ext ?_)
    match a with
    | ⟨0, _⟩ => show win0_2.index t (0 : Fin 2) * 1 + 1 * 0 = 0; omega
    | ⟨1, _⟩ => show win0_2.index t (1 : Fin 2) * 64 + 1 * (y 1).val = win0_3.index t (1 : Fin 2) * 64 + 1 * (y 1).val; omega

/-- An entry of the result is in point t's block iff each coordinate is in the block's range on its axis. -/
theorem mem_blk (t : Fin cfg0.N) (i : S800000x64.Idx) :
    i ∈ ((cfg0.win 3).blk t).view.set ↔ ∀ a : Fin 2, win0_3.index t a * S8000x64.size a ≤ (i a).val ∧ (i a).val < win0_3.index t a * S8000x64.size a + S8000x64.size a := by
  show i ∈ ((View.whole main_v16).slice (win0_3.rect t)).set ↔ _
  rw [View.set_slice_whole, Rect.mem_set_unit]
  exact Iff.rfl

/-- Row r lies in the block of point r / 8000. -/
theorem cover (i : S800000x64.Idx) : ∃ t : Fin cfg0.N, (cfg0.win 3).flush t = true ∧ i ∈ ((cfg0.win 3).blk t).view.set := by
  have hi0 : (i 0).val < 800000 := (i 0).isLt
  have hi1 : (i 1).val < 64 := (i 1).isLt
  have hN : cfg0.N = 100 := N_0
  refine ⟨⟨(i 0).val / 8000, by rw [hN]; omega⟩, flush0_3 _, ?_⟩
  rw [mem_blk]
  obtain ⟨e0, e1, e2, e3, e4, e5, e6, e7⟩ := idx_facts ⟨(i 0).val / 8000, by rw [hN]; omega⟩
  intro a
  match a with
  | ⟨0, _⟩ => show win0_3.index _ (0 : Fin 2) * 8000 ≤ (i 0).val ∧ (i 0).val < win0_3.index _ (0 : Fin 2) * 8000 + 8000; rw [e7]; show (i 0).val / 8000 * 8000 ≤ _ ∧ _ < (i 0).val / 8000 * 8000 + 8000; omega
  | ⟨1, _⟩ => show win0_3.index _ (1 : Fin 2) * 64 ≤ (i 1).val ∧ (i 1).val < win0_3.index _ (1 : Fin 2) * 64 + 64; rw [e6]; omega

/-- THE RESULT ARRAY AFTER THE REGION is the whole-array layer of the arrays the region found. -/
theorem final (c : Dev nD) : (dat0 V c).arrAt 3 cfg0.N
    = denseLeaky (M := 800000) (K := 13) (N := 64) (xarr V c) (warr V c) (barr V c) :=
  (dat0 V c).arrAt_eq_of_cover 3 _ (fun t _ => flushed_eq V c t) (cover)

end Cert.KernelIdeal.Region0

end
-- ==== Proof.Region1.lean ====
import proofs.«407242_j23235773071434_1_alg».proof.Proof.Gen.KernelIdeal.Frame
import proofs.«407242_j23235773071434_1_alg».proof.Proof.LibDense

set_option maxRecDepth 16384

noncomputable section

namespace Cert.KernelIdeal.Region1

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.Lib.Dense

variable (V : (c : Dev nD) → (b : Ref sig .tc) → Buf (Elt Ideal) ((c : Thread nD τ).loc b))

/-- The three arrays the region reads, as it finds them. -/
abbrev xarr (c : Dev nD) : FVec Ideal S50000x74 .f32 := V c (Pipeline.arrRef spec1 0)
abbrev warr (c : Dev nD) : FVec Ideal S74x64 .f32 := V c (Pipeline.arrRef spec1 1)
abbrev barr (c : Dev nD) : FVec Ideal S1x64 .f32 := V c (Pipeline.arrRef spec1 2)

theorem hz : (![0, 0] : Fin 2 → Nat) = fun _ => 0 := funext fun a => by fin_cases a <;> rfl

/-- The body's stored value at an entry of the block: the rectified affine layer of the three loaded blocks. -/
theorem pay (x : Vec Ideal S5000x74 .f32) (w : Vec Ideal S74x64 .f32) (b : Vec Ideal S1x64 .f32) (y : S5000x64.Idx) :
    k1_pay1 (F := Ideal) x w b y = leaky (affine (M := 5000) (K := 74) (N := 64) x w b y) :=
  (leaky_vec _ y).trans (congrArg leaky (pay_affine (M := 5000) (K := 74) (N := 64) x w b _ _ _ y))

/-- Where each window's block sits at point t: the row block t for the features and the result, the one block for the
    weights and the bias. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0 ∧ win1_3.index t (1 : Fin 2) = 0
    ∧ win1_3.index t (0 : Fin 2) = t.val :=
  (by decide +kernel : ∀ t : Fin grid1.N, _)

/-- What point t writes back is block t of the whole-array layer. -/
theorem flushed_eq (c : Dev nD) (t : Fin cfg1.N) :
    (dat1 V c).flushed 3 t = ((cfg1.win 3).blk t).view.read (Elt Ideal)
      (denseLeaky (M := 50000) (K := 74) (N := 64) (xarr V c) (warr V c) (barr V c)) := by
  show (cfg1.win 3).cut (grid1.coords t) ((dat1 V c).after 3 t) = _
  rw [after1_3]
  unfold out1_3
  rw [View.canon_unit_zero hz]
  simp only [View.ld_unit_zero (S := S5000x74) hz, View.ld_unit_zero (S := S74x64) hz, View.ld_unit_zero (S := S1x64) hz]
  obtain ⟨e0, e1, e2, e3, e4, e5, e6, e7⟩ := idx_facts t
  funext y
  refine (pay (iblk1 V c 0 t) (iblk1 V c 1 t) (iblk1 V c 2 t) y).trans ?_
  show _ = leaky (affine (M := 50000) (K := 74) (N := 64) (xarr V c) (warr V c) (barr V c) (((cfg1.win 3).blk t).view.emb y))
  refine congrArg leaky (affine_congr (Mb := 5000) (M := 50000) (K := 74) (N := 64) _ _ _ _ _ _ y _ ?_ ?_ ?_)
  · intro k
    show xarr V c (((cfg1.win 0).blk t).view.emb (ix2 (y 0) k)) = _
    refine congrArg (xarr V c) (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 74 + 1 * k.val = k.val; omega
  · intro k
    show warr V c (((cfg1.win 1).blk t).view.emb (ix2 k (y 1))) = _
    refine congrArg (warr V c) (funext fun a => Fin.ext ?_)
    match a with
    | ⟨0, _⟩ => show win1_1.index t (0 : Fin 2) * 74 + 1 * k.val = k.val; omega
    | ⟨1, _⟩ => show win1_1.index t (1 : Fin 2) * 64 + 1 * (y 1).val = win1_3.index t (1 : Fin 2) * 64 + 1 * (y 1).val; omega
  · show barr V c (((cfg1.win 2).blk t).view.emb (ix2 0 (y 1))) = _
    refine congrArg (barr V c) (funext fun a => Fin.ext ?_)
    match a with
    | ⟨0, _⟩ => show win1_2.index t (0 : Fin 2) * 1 + 1 * 0 = 0; omega
    | ⟨1, _⟩ => show win1_2.index t (1 : Fin 2) * 64 + 1 * (y 1).val = win1_3.index t (1 : Fin 2) * 64 + 1 * (y 1).val; omega

/-- An entry of the result is in point t's block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v24).slice (win1_3.rect t)).set ↔ _
  rw [View.set_slice_whole, Rect.mem_set_unit]
  exact Iff.rfl

/-- Row r lies in the block of point r / 5000. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  refine ⟨⟨(i 0).val / 5000, by rw [hN]; omega⟩, flush1_3 _, ?_⟩
  rw [mem_blk]
  obtain ⟨e0, e1, e2, e3, e4, e5, e6, e7⟩ := idx_facts ⟨(i 0).val / 5000, by rw [hN]; omega⟩
  intro a
  match a with
  | ⟨0, _⟩ => show win1_3.index _ (0 : Fin 2) * 5000 ≤ (i 0).val ∧ (i 0).val < win1_3.index _ (0 : Fin 2) * 5000 + 5000; rw [e7]; show (i 0).val / 5000 * 5000 ≤ _ ∧ _ < (i 0).val / 5000 * 5000 + 5000; omega
  | ⟨1, _⟩ => show win1_3.index _ (1 : Fin 2) * 64 ≤ (i 1).val ∧ (i 1).val < win1_3.index _ (1 : Fin 2) * 64 + 64; rw [e6]; omega

/-- THE RESULT ARRAY AFTER THE REGION is the whole-array layer of the arrays the region found. -/
theorem final (c : Dev nD) : (dat1 V c).arrAt 3 cfg1.N
    = denseLeaky (M := 50000) (K := 74) (N := 64) (xarr V c) (warr V c) (barr V c) :=
  (dat1 V c).arrAt_eq_of_cover 3 _ (fun t _ => flushed_eq V c t) (cover)

end Cert.KernelIdeal.Region1

end
-- ==== Proof.KF0.lean ====
/-
  THE KERNEL PROGRAM'S FIRST ROUND, boundary by boundary: what each buffer the next stretch or region reads holds, as the
  specification's function of the argument arrays. The source and destination index vectors and the inverse degree come
  first; the gather of the source rows is the specification's plain gather because every source index is in range, so the
  take's in-range test is all ones; each region's result array is the whole-array affine layer of the arrays it read.
-/
import proofs.«407242_j23235773071434_1_alg».proof.Proof.KBase
import proofs.«407242_j23235773071434_1_alg».proof.Proof.KCarry
import proofs.«407242_j23235773071434_1_alg».proof.Proof.Take
import proofs.«407242_j23235773071434_1_alg».proof.Proof.Region0
import proofs.«407242_j23235773071434_1_alg».proof.Proof.Region1
import Idealize.ShloMosaic.Lib.StableHlo.Run

set_option maxRecDepth 16384

noncomputable section

namespace Cert.KernelIdeal.KF

open Idealize.ShloMosaic Idealize.ShloMosaic.TcCoe Idealize.SL.Sem Idealize.ShloMosaic.StableHlo
open Cert.KernelIdeal Cert.KernelIdeal.Gen Cert.Lib.Dense

/-- Contents carried to a typed reference's buffer type and back are the contents. -/
theorem ofBuf_toBuf {sg : RefSig} {Val : EltTy → Type} {T : BufTy} (x : StableHlo.TRef sg T) (v : T.Contents Val) : x.ofBuf (x.toBuf v) = v := by
  obtain ⟨r, h, h1, h2⟩ := x; subst h; rfl
/-- At a buffer whose type IS the value's type the carrying is the identity. -/
theorem ofBuf_v1 (v : (main_v1 : Ref sig .tc).ty.Contents (Elt Ideal)) : (StableHlo.TRef.of main_v1 : StableHlo.TRef sig ⟨S800000, .i32⟩).ofBuf v = v := rfl
theorem ofBuf_arg0 (v : (main_arg0 : Ref sig .tc).ty.Contents (Elt Ideal)) : (StableHlo.TRef.of main_arg0 : StableHlo.TRef sig ⟨S50000x10, .f32⟩).ofBuf v = v := rfl
theorem toBuf_v13 (v : (⟨S800000x10, .f32⟩ : BufTy).Contents (Elt Ideal)) : (StableHlo.TRef.of main_v13 : StableHlo.TRef sig ⟨S800000x10, .f32⟩).toBuf v = v := rfl

variable (m : (ℓ : Loc nD τ sig) → Buf (Elt Ideal) ℓ) (ρ : Dev nD → PrngReg) (c : Dev nD)

theorem W1_v1 : W1 m ρ c (Proc.devRef .tc main_v1) = Cert.Spec.src (kArgs m c) := by
  show StableHlo.after hostOps0 (W0 m ρ c) (Proc.devRef .tc main_v1) = _
  after_results
  rfl

theorem W1_v3 : W1 m ρ c (Proc.devRef .tc main_v3) = Cert.Spec.dst (kArgs m c) := by
  show StableHlo.after hostOps0 (W0 m ρ c) (Proc.devRef .tc main_v3) = _
  after_results
  rfl

theorem W1_v12 : W1 m ρ c (Proc.devRef .tc main_v12) = Cert.Spec.invd (kArgs m c) := by
  show StableHlo.after hostOps0 (W0 m ρ c) (Proc.devRef .tc main_v12) = _
  after_results
  rfl

set_option maxHeartbeats 1000000 in
theorem W2_v13 (hs : Cert.Spec.SrcOk (kArgs m c)) : W2 m ρ c (Proc.devRef .tc main_v13) = Cert.Spec.gat0 (kArgs m c) := by
  show StableHlo.after hostOps0_1 (W1 m ρ c) (Proc.devRef .tc main_v13) = _
  generalize hV : W1 m ρ c = V
  after_results_simp
  subst hV
  simp only [ofBuf_toBuf]
  rw [toBuf_v13]
  simp only [ofBuf_v1, ofBuf_arg0]
  rw [W1_v1 m ρ c, W1_arg0 m ρ c]
  rw [Take.mask_one (Cert.Spec.src (kArgs m c)) hs, Take.select_bcast_one]
  rfl

theorem W3_v14 (hs : Cert.Spec.SrcOk (kArgs m c)) : W3 m ρ c (Proc.devRef .tc main_v14) = Cert.Spec.cat0 (kArgs m c) := by
  show StableHlo.after hostOps0_2 (W2 m ρ c) (Proc.devRef .tc main_v14) = _
  generalize hV : W2 m ρ c = V
  after_results
  subst hV
  rw [W2_v13 m ρ c hs, W2_arg2 m ρ c]
  rfl

theorem W3_v15 : W3 m ρ c (Proc.devRef .tc main_v15) = biasRow (kArgs m c).mb0 := by
  show StableHlo.after hostOps0_2 (W2 m ρ c) (Proc.devRef .tc main_v15) = _
  generalize hV : W2 m ρ c = V
  after_results
  subst hV
  rw [W2_arg5 m ρ c]
  show shapeCast S1x64 (m ((c : Thread nD τ).loc main_arg5)) shapeCasts_S64_S1x64 = _
  exact shapeCast_row _ _

theorem W4_v16 (hs : Cert.Spec.SrcOk (kArgs m c)) : W4 m ρ c (Proc.devRef .tc main_v16) = Cert.Spec.msg0 (kArgs m c) := by
  refine (W4_arr m ρ c 3).trans ?_
  rw [Region0.final (V3 m ρ) c]
  show denseLeaky (M := 800000) (K := 13) (N := 64) (W3 m ρ c (Proc.devRef .tc main_v14)) (W3 m ρ c (Proc.devRef .tc main_arg4)) (W3 m ρ c (Proc.devRef .tc main_v15)) = _
  rw [W3_v14 m ρ c hs, W3_arg4 m ρ c, W3_v15 m ρ c]
  rfl

theorem W5_v22 (hs : Cert.Spec.SrcOk (kArgs m c)) : W5 m ρ c (Proc.devRef .tc main_v22) = Cert.Spec.agg0 (kArgs m c) := by
  show StableHlo.after hostOps1 (W4 m ρ c) (Proc.devRef .tc main_v22) = _
  generalize hV : W4 m ρ c = V
  after_results
  subst hV
  rw [W4_v16 m ρ c hs, W4_v3 m ρ c, W1_v3 m ρ c, W4_v12 m ρ c, W1_v12 m ρ c, W4_arg0 m ρ c]
  rfl

theorem W5_v23 : W5 m ρ c (Proc.devRef .tc main_v23) = biasRow (kArgs m c).ub0 := by
  show StableHlo.after hostOps1 (W4 m ρ c) (Proc.devRef .tc main_v23) = _
  generalize hV : W4 m ρ c = V
  after_results
  subst hV
  rw [W4_arg7 m ρ c]
  show shapeCast S1x64 (m ((c : Thread nD τ).loc main_arg7)) shapeCasts_S64_S1x64 = _
  exact shapeCast_row _ _

theorem W6_v24 (hs : Cert.Spec.SrcOk (kArgs m c)) : W6 m ρ c (Proc.devRef .tc main_v24) = Cert.Spec.h1 (kArgs m c) := by
  refine (W6_arr m ρ c 3).trans ?_
  rw [Region1.final (V5 m ρ) c]
  show denseLeaky (M := 50000) (K := 74) (N := 64) (W5 m ρ c (Proc.devRef .tc main_v22)) (W5 m ρ c (Proc.devRef .tc main_arg6)) (W5 m ρ c (Proc.devRef .tc main_v23)) = _
  rw [W5_v22 m ρ c hs, W5_arg6 m ρ c, W5_v23 m ρ c]
  rfl

end Cert.KernelIdeal.KF

end
-- ==== Proof.Region2.lean ====
import proofs.«407242_j23235773071434_1_alg».proof.Proof.Gen.KernelIdeal.Frame
import proofs.«407242_j23235773071434_1_alg».proof.Proof.LibDense

set_option maxRecDepth 16384

noncomputable section

namespace Cert.KernelIdeal.Region2

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.Lib.Dense

variable (V : (c : Dev nD) → (b : Ref sig .tc) → Buf (Elt Ideal) ((c : Thread nD τ).loc b))

/-- The three arrays the region reads, as it finds them. -/
abbrev xarr (c : Dev nD) : FVec Ideal S800000x67 .f32 := V c (Pipeline.arrRef spec2 0)
abbrev warr (c : Dev nD) : FVec Ideal S67x128 .f32 := V c (Pipeline.arrRef spec2 1)
abbrev barr (c : Dev nD) : FVec Ideal S1x128 .f32 := V c (Pipeline.arrRef spec2 2)

theorem hz : (![0, 0] : Fin 2 → Nat) = fun _ => 0 := funext fun a => by fin_cases a <;> rfl

/-- The body's stored value at an entry of the block: the rectified affine layer of the three loaded blocks. -/
theorem pay (x : Vec Ideal S8000x67 .f32) (w : Vec Ideal S67x128 .f32) (b : Vec Ideal S1x128 .f32) (y : S8000x128.Idx) :
    k2_pay1 (F := Ideal) x w b y = leaky (affine (M := 8000) (K := 67) (N := 128) x w b y) :=
  (leaky_vec _ y).trans (congrArg leaky (pay_affine (M := 8000) (K := 67) (N := 128) x w b _ _ _ y))

/-- Where each window's block sits at point t: the row block t for the features and the result, the one block for the
    weights and the bias. -/
theorem idx_facts : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0 ∧ win2_3.index t (1 : Fin 2) = 0
    ∧ win2_3.index t (0 : Fin 2) = t.val :=
  (by decide +kernel : ∀ t : Fin grid2.N, _)

/-- What point t writes back is block t of the whole-array layer. -/
theorem flushed_eq (c : Dev nD) (t : Fin cfg2.N) :
    (dat2 V c).flushed 3 t = ((cfg2.win 3).blk t).view.read (Elt Ideal)
      (denseLeaky (M := 800000) (K := 67) (N := 128) (xarr V c) (warr V c) (barr V c)) := by
  show (cfg2.win 3).cut (grid2.coords t) ((dat2 V c).after 3 t) = _
  rw [after2_3]
  unfold out2_3
  rw [View.canon_unit_zero hz]
  simp only [View.ld_unit_zero (S := S8000x67) hz, View.ld_unit_zero (S := S67x128) hz, View.ld_unit_zero (S := S1x128) hz]
  obtain ⟨e0, e1, e2, e3, e4, e5, e6, e7⟩ := idx_facts t
  funext y
  refine (pay (iblk2 V c 0 t) (iblk2 V c 1 t) (iblk2 V c 2 t) y).trans ?_
  show _ = leaky (affine (M := 800000) (K := 67) (N := 128) (xarr V c) (warr V c) (barr V c) (((cfg2.win 3).blk t).view.emb y))
  refine congrArg leaky (affine_congr (Mb := 8000) (M := 800000) (K := 67) (N := 128) _ _ _ _ _ _ y _ ?_ ?_ ?_)
  · intro k
    show xarr V c (((cfg2.win 0).blk t).view.emb (ix2 (y 0) k)) = _
    refine congrArg (xarr V c) (funext fun a => Fin.ext ?_)
    match a with
    | ⟨0, _⟩ => show win2_0.index t (0 : Fin 2) * 8000 + 1 * (y 0).val = win2_3.index t (0 : Fin 2) * 8000 + 1 * (y 0).val; omega
    | ⟨1, _⟩ => show win2_0.index t (1 : Fin 2) * 67 + 1 * k.val = k.val; omega
  · intro k
    show warr V c (((cfg2.win 1).blk t).view.emb (ix2 k (y 1))) = _
    refine congrArg (warr V c) (funext fun a => Fin.ext ?_)
    match a with
    | ⟨0, _⟩ => show win2_1.index t (0 : Fin 2) * 67 + 1 * k.val = k.val; omega
    | ⟨1, _⟩ => show win2_1.index t (1 : Fin 2) * 128 + 1 * (y 1).val = win2_3.index t (1 : Fin 2) * 128 + 1 * (y 1).val; omega
  · show barr V c (((cfg2.win 2).blk t).view.emb (ix2 0 (y 1))) = _
    refine congrArg (barr V c) (funext fun a => Fin.ext ?_)
    match a with
    | ⟨0, _⟩ => show win2_2.index t (0 : Fin 2) * 1 + 1 * 0 = 0; omega
    | ⟨1, _⟩ => show win2_2.index t (1 : Fin 2) * 128 + 1 * (y 1).val = win2_3.index t (1 : Fin 2) * 128 + 1 * (y 1).val; omega

/-- An entry of the result is in point t's block iff each coordinate is in the block's range on its axis. -/
theorem mem_blk (t : Fin cfg2.N) (i : S800000x128.Idx) :
    i ∈ ((cfg2.win 3).blk t).view.set ↔ ∀ a : Fin 2, win2_3.index t a * S8000x128.size a ≤ (i a).val ∧ (i a).val < win2_3.index t a * S8000x128.size a + S8000x128.size a := by
  show i ∈ ((View.whole main_v28).slice (win2_3.rect t)).set ↔ _
  rw [View.set_slice_whole, Rect.mem_set_unit]
  exact Iff.rfl

/-- Row r lies in the block of point r / 8000. -/
theorem cover (i : S800000x128.Idx) : ∃ t : Fin cfg2.N, (cfg2.win 3).flush t = true ∧ i ∈ ((cfg2.win 3).blk t).view.set := by
  have hi0 : (i 0).val < 800000 := (i 0).isLt
  have hi1 : (i 1).val < 128 := (i 1).isLt
  have hN : cfg2.N = 100 := N_2
  refine ⟨⟨(i 0).val / 8000, by rw [hN]; omega⟩, flush2_3 _, ?_⟩
  rw [mem_blk]
  obtain ⟨e0, e1, e2, e3, e4, e5, e6, e7⟩ := idx_facts ⟨(i 0).val / 8000, by rw [hN]; omega⟩
  intro a
  match a with
  | ⟨0, _⟩ => show win2_3.index _ (0 : Fin 2) * 8000 ≤ (i 0).val ∧ (i 0).val < win2_3.index _ (0 : Fin 2) * 8000 + 8000; rw [e7]; show (i 0).val / 8000 * 8000 ≤ _ ∧ _ < (i 0).val / 8000 * 8000 + 8000; omega
  | ⟨1, _⟩ => show win2_3.index _ (1 : Fin 2) * 128 ≤ (i 1).val ∧ (i 1).val < win2_3.index _ (1 : Fin 2) * 128 + 128; rw [e6]; omega

/-- THE RESULT ARRAY AFTER THE REGION is the whole-array layer of the arrays the region found. -/
theorem final (c : Dev nD) : (dat2 V c).arrAt 3 cfg2.N
    = denseLeaky (M := 800000) (K := 67) (N := 128) (xarr V c) (warr V c) (barr V c) :=
  (dat2 V c).arrAt_eq_of_cover 3 _ (fun t _ => flushed_eq V c t) (cover)

end Cert.KernelIdeal.Region2

end
-- ==== Proof.Region3.lean ====
import proofs.«407242_j23235773071434_1_alg».proof.Proof.Gen.KernelIdeal.Frame
import proofs.«407242_j23235773071434_1_alg».proof.Proof.LibDense

set_option maxRecDepth 16384

noncomputable section

namespace Cert.KernelIdeal.Region3

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.Lib.Dense

variable (V : (c : Dev nD) → (b : Ref sig .tc) → Buf (Elt Ideal) ((c : Thread nD τ).loc b))

/-- The three arrays the region reads, as it finds them. -/
abbrev xarr (c : Dev nD) : FVec Ideal S50000x192 .f32 := V c (Pipeline.arrRef spec3 0)
abbrev warr (c : Dev nD) : FVec Ideal S192x128 .f32 := V c (Pipeline.arrRef spec3 1)
abbrev barr (c : Dev nD) : FVec Ideal S1x128 .f32 := V c (Pipeline.arrRef spec3 2)

theorem hz : (![0, 0] : Fin 2 → Nat) = fun _ => 0 := funext fun a => by fin_cases a <;> rfl

/-- The body's stored value at an entry of the block: the rectified affine layer of the three loaded blocks. -/
theorem pay (x : Vec Ideal S5000x192 .f32) (w : Vec Ideal S192x128 .f32) (b : Vec Ideal S1x128 .f32) (y : S5000x128.Idx) :
    k3_pay1 (F := Ideal) x w b y = leaky (affine (M := 5000) (K := 192) (N := 128) x w b y) :=
  (leaky_vec _ y).trans (congrArg leaky (pay_affine (M := 5000) (K := 192) (N := 128) x w b _ _ _ y))

/-- Where each window's block sits at point t: the row block t for the features and the result, the one block for the
    weights and the bias. -/
theorem idx_facts : ∀ t : Fin cfg3.N, win3_0.index t (0 : Fin 2) = win3_3.index t (0 : Fin 2)
    ∧ win3_0.index t (1 : Fin 2) = 0 ∧ win3_1.index t (0 : Fin 2) = 0 ∧ win3_1.index t (1 : Fin 2) = 0
    ∧ win3_2.index t (0 : Fin 2) = 0 ∧ win3_2.index t (1 : Fin 2) = 0 ∧ win3_3.index t (1 : Fin 2) = 0
    ∧ win3_3.index t (0 : Fin 2) = t.val :=
  (by decide +kernel : ∀ t : Fin grid3.N, _)

/-- What point t writes back is block t of the whole-array layer. -/
theorem flushed_eq (c : Dev nD) (t : Fin cfg3.N) :
    (dat3 V c).flushed 3 t = ((cfg3.win 3).blk t).view.read (Elt Ideal)
      (denseLeaky (M := 50000) (K := 192) (N := 128) (xarr V c) (warr V c) (barr V c)) := by
  show (cfg3.win 3).cut (grid3.coords t) ((dat3 V c).after 3 t) = _
  rw [after3_3]
  unfold out3_3
  rw [View.canon_unit_zero hz]
  simp only [View.ld_unit_zero (S := S5000x192) hz, View.ld_unit_zero (S := S192x128) hz, View.ld_unit_zero (S := S1x128) hz]
  obtain ⟨e0, e1, e2, e3, e4, e5, e6, e7⟩ := idx_facts t
  funext y
  refine (pay (iblk3 V c 0 t) (iblk3 V c 1 t) (iblk3 V c 2 t) y).trans ?_
  show _ = leaky (affine (M := 50000) (K := 192) (N := 128) (xarr V c) (warr V c) (barr V c) (((cfg3.win 3).blk t).view.emb y))
  refine congrArg leaky (affine_congr (Mb := 5000) (M := 50000) (K := 192) (N := 128) _ _ _ _ _ _ y _ ?_ ?_ ?_)
  · intro k
    show xarr V c (((cfg3.win 0).blk t).view.emb (ix2 (y 0) k)) = _
    refine congrArg (xarr V c) (funext fun a => Fin.ext ?_)
    match a with
    | ⟨0, _⟩ => show win3_0.index t (0 : Fin 2) * 5000 + 1 * (y 0).val = win3_3.index t (0 : Fin 2) * 5000 + 1 * (y 0).val; omega
    | ⟨1, _⟩ => show win3_0.index t (1 : Fin 2) * 192 + 1 * k.val = k.val; omega
  · intro k
    show warr V c (((cfg3.win 1).blk t).view.emb (ix2 k (y 1))) = _
    refine congrArg (warr V c) (funext fun a => Fin.ext ?_)
    match a with
    | ⟨0, _⟩ => show win3_1.index t (0 : Fin 2) * 192 + 1 * k.val = k.val; omega
    | ⟨1, _⟩ => show win3_1.index t (1 : Fin 2) * 128 + 1 * (y 1).val = win3_3.index t (1 : Fin 2) * 128 + 1 * (y 1).val; omega
  · show barr V c (((cfg3.win 2).blk t).view.emb (ix2 0 (y 1))) = _
    refine congrArg (barr V c) (funext fun a => Fin.ext ?_)
    match a with
    | ⟨0, _⟩ => show win3_2.index t (0 : Fin 2) * 1 + 1 * 0 = 0; omega
    | ⟨1, _⟩ => show win3_2.index t (1 : Fin 2) * 128 + 1 * (y 1).val = win3_3.index t (1 : Fin 2) * 128 + 1 * (y 1).val; omega

/-- An entry of the result is in point t's block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v36).slice (win3_3.rect t)).set ↔ _
  rw [View.set_slice_whole, Rect.mem_set_unit]
  exact Iff.rfl

/-- Row r lies in the block of point r / 5000. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_3 _, ?_⟩
  rw [mem_blk]
  obtain ⟨e0, e1, e2, e3, e4, e5, e6, e7⟩ := idx_facts ⟨(i 0).val / 5000, by rw [hN]; omega⟩
  intro a
  match a with
  | ⟨0, _⟩ => show win3_3.index _ (0 : Fin 2) * 5000 ≤ (i 0).val ∧ (i 0).val < win3_3.index _ (0 : Fin 2) * 5000 + 5000; rw [e7]; show (i 0).val / 5000 * 5000 ≤ _ ∧ _ < (i 0).val / 5000 * 5000 + 5000; omega
  | ⟨1, _⟩ => show win3_3.index _ (1 : Fin 2) * 128 ≤ (i 1).val ∧ (i 1).val < win3_3.index _ (1 : Fin 2) * 128 + 128; rw [e6]; omega

/-- THE RESULT ARRAY AFTER THE REGION is the whole-array layer of the arrays the region found. -/
theorem final (c : Dev nD) : (dat3 V c).arrAt 3 cfg3.N
    = denseLeaky (M := 50000) (K := 192) (N := 128) (xarr V c) (warr V c) (barr V c) :=
  (dat3 V c).arrAt_eq_of_cover 3 _ (fun t _ => flushed_eq V c t) (cover)

end Cert.KernelIdeal.Region3

end
-- ==== Proof.KF1.lean ====
/-
  THE KERNEL PROGRAM'S SECOND ROUND, boundary by boundary: what each buffer the next stretch or region reads holds, as the
  specification's function of the argument arrays (under the hypothesis that every source index is in range).
-/
import proofs.«407242_j23235773071434_1_alg».proof.Proof.KBase
import proofs.«407242_j23235773071434_1_alg».proof.Proof.KCarry
import proofs.«407242_j23235773071434_1_alg».proof.Proof.Take
import proofs.«407242_j23235773071434_1_alg».proof.Proof.KF0
import proofs.«407242_j23235773071434_1_alg».proof.Proof.Region2
import proofs.«407242_j23235773071434_1_alg».proof.Proof.Region3
import Idealize.ShloMosaic.Lib.StableHlo.Run

set_option maxRecDepth 16384

noncomputable section

namespace Cert.KernelIdeal.KF

open Idealize.ShloMosaic Idealize.ShloMosaic.TcCoe Idealize.SL.Sem Idealize.ShloMosaic.StableHlo
open Cert.KernelIdeal Cert.KernelIdeal.Gen Cert.Lib.Dense

variable (m : (ℓ : Loc nD τ sig) → Buf (Elt Ideal) ℓ) (ρ : Dev nD → PrngReg) (c : Dev nD)

/-- A buffer read at its own printed type and written back at it is the buffer: the two transports along the type
    equation cancel, and at a literal reference, whose type equation holds by computation, each alone is the identity. -/
theorem cast_cast_id_k1 {α β : Sort _} (h : α = β) (h' : β = α) (a : α) : cast h' (cast h a) = a := by cases h; rfl
theorem ofBuf_v1_k1 (h h2 h3) (v : main_v1.ty.Contents (Elt Ideal)) :
    (TRef.of main_v1 h h2 h3 : TRef sig ⟨S800000, .i32⟩).ofBuf v = v := rfl
theorem ofBuf_v24 (h h2 h3) (v : main_v24.ty.Contents (Elt Ideal)) :
    (TRef.of main_v24 h h2 h3 : TRef sig ⟨S50000x64, .f32⟩).ofBuf v = v := rfl
theorem toBuf_v25 (h h2 h3) (v : (⟨S800000x64, .f32⟩ : BufTy).Contents (Elt Ideal)) :
    (TRef.of main_v25 h h2 h3 : TRef sig ⟨S800000x64, .f32⟩).toBuf v = v := rfl

/-- THE TAKE OF h1 BY THE SOURCE VECTOR IS THE GATHER: every source index is in range, so the in-range test is all ones and
    the selection keeps the gathered rows. -/
theorem W7_v25 (hs : Cert.Spec.SrcOk (kArgs m c)) : W7 m ρ c (Proc.devRef .tc main_v25) = Cert.Spec.gat1 (kArgs m c) := by
  show StableHlo.after hostOps2 (W6 m ρ c) (Proc.devRef .tc main_v25) = _
  generalize hV : W6 m ρ c = V
  after_results_simp
  simp only [cast_cast_id_k1]
  rw [ofBuf_v1_k1, ofBuf_v24, toBuf_v25]
  subst hV
  rw [W6_v1 m ρ c, W1_v1 m ρ c, W6_v24 m ρ c hs]
  rw [Take.mask_one _ hs, Take.select_bcast_one]
  rfl

theorem W8_v26 (hs : Cert.Spec.SrcOk (kArgs m c)) : W8 m ρ c (Proc.devRef .tc main_v26) = Cert.Spec.cat1 (kArgs m c) := by
  show StableHlo.after hostOps2_1 (W7 m ρ c) (Proc.devRef .tc main_v26) = _
  generalize hV : W7 m ρ c = V
  after_results
  subst hV
  rw [W7_v25 m ρ c hs, W7_arg2 m ρ c]
  rfl

theorem W8_v27 : W8 m ρ c (Proc.devRef .tc main_v27) = biasRow (kArgs m c).mb1 := by
  show StableHlo.after hostOps2_1 (W7 m ρ c) (Proc.devRef .tc main_v27) = _
  generalize hV : W7 m ρ c = V
  after_results
  subst hV
  rw [W7_arg9 m ρ c]
  show shapeCast S1x128 (m ((c : Thread nD τ).loc main_arg9)) shapeCasts_S128_S1x128 = _
  exact shapeCast_row _ _

theorem W9_v28 (hs : Cert.Spec.SrcOk (kArgs m c)) : W9 m ρ c (Proc.devRef .tc main_v28) = Cert.Spec.msg1 (kArgs m c) := by
  refine (W9_arr m ρ c 3).trans ?_
  rw [Region2.final (V8 m ρ) c]
  show denseLeaky (M := 800000) (K := 67) (N := 128) (W8 m ρ c (Proc.devRef .tc main_v26)) (W8 m ρ c (Proc.devRef .tc main_arg8)) (W8 m ρ c (Proc.devRef .tc main_v27)) = _
  rw [W8_v26 m ρ c hs, W8_arg8 m ρ c, W8_v27 m ρ c]
  rfl

theorem W10_v34 (hs : Cert.Spec.SrcOk (kArgs m c)) : W10 m ρ c (Proc.devRef .tc main_v34) = Cert.Spec.agg1 (kArgs m c) := by
  show StableHlo.after hostOps3 (W9 m ρ c) (Proc.devRef .tc main_v34) = _
  generalize hV : W9 m ρ c = V
  after_results
  subst hV
  rw [W9_v28 m ρ c hs, W9_v3 m ρ c, W1_v3 m ρ c, W9_v12 m ρ c, W1_v12 m ρ c, W9_v24 m ρ c, W6_v24 m ρ c hs]
  rfl

theorem W10_v35 : W10 m ρ c (Proc.devRef .tc main_v35) = biasRow (kArgs m c).ub1 := by
  show StableHlo.after hostOps3 (W9 m ρ c) (Proc.devRef .tc main_v35) = _
  generalize hV : W9 m ρ c = V
  after_results
  subst hV
  rw [W9_arg11 m ρ c]
  show shapeCast S1x128 (m ((c : Thread nD τ).loc main_arg11)) shapeCasts_S128_S1x128 = _
  exact shapeCast_row _ _

theorem W11_v36 (hs : Cert.Spec.SrcOk (kArgs m c)) : W11 m ρ c (Proc.devRef .tc main_v36) = Cert.Spec.h2 (kArgs m c) := by
  refine (W11_arr m ρ c 3).trans ?_
  rw [Region3.final (V10 m ρ) c]
  show denseLeaky (M := 50000) (K := 192) (N := 128) (W10 m ρ c (Proc.devRef .tc main_v34)) (W10 m ρ c (Proc.devRef .tc main_arg10)) (W10 m ρ c (Proc.devRef .tc main_v35)) = _
  rw [W10_v34 m ρ c hs, W10_arg10 m ρ c, W10_v35 m ρ c]
  rfl

end Cert.KernelIdeal.KF

end
-- ==== Proof.Region4.lean ====
import proofs.«407242_j23235773071434_1_alg».proof.Proof.Gen.KernelIdeal.Frame
import proofs.«407242_j23235773071434_1_alg».proof.Proof.LibDense

set_option maxRecDepth 16384

noncomputable section

namespace Cert.KernelIdeal.Region4

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.Lib.Dense

variable (V : (c : Dev nD) → (b : Ref sig .tc) → Buf (Elt Ideal) ((c : Thread nD τ).loc b))

/-- The three arrays the region reads, as it finds them. -/
abbrev xarr (c : Dev nD) : FVec Ideal S800000x131 .f32 := V c (Pipeline.arrRef spec4 0)
abbrev warr (c : Dev nD) : FVec Ideal S131x256 .f32 := V c (Pipeline.arrRef spec4 1)
abbrev barr (c : Dev nD) : FVec Ideal S1x256 .f32 := V c (Pipeline.arrRef spec4 2)

theorem hz : (![0, 0] : Fin 2 → Nat) = fun _ => 0 := funext fun a => by fin_cases a <;> rfl

/-- The body's stored value at an entry of the block: the rectified affine layer of the three loaded blocks. -/
theorem pay (x : Vec Ideal S8000x131 .f32) (w : Vec Ideal S131x256 .f32) (b : Vec Ideal S1x256 .f32) (y : S8000x256.Idx) :
    k4_pay1 (F := Ideal) x w b y = leaky (affine (M := 8000) (K := 131) (N := 256) x w b y) :=
  (leaky_vec _ y).trans (congrArg leaky (pay_affine (M := 8000) (K := 131) (N := 256) x w b _ _ _ y))

/-- Where each window's block sits at point t: the row block t for the features and the result, the one block for the
    weights and the bias. -/
theorem idx_facts : ∀ t : Fin cfg4.N, win4_0.index t (0 : Fin 2) = win4_3.index t (0 : Fin 2)
    ∧ win4_0.index t (1 : Fin 2) = 0 ∧ win4_1.index t (0 : Fin 2) = 0 ∧ win4_1.index t (1 : Fin 2) = 0
    ∧ win4_2.index t (0 : Fin 2) = 0 ∧ win4_2.index t (1 : Fin 2) = 0 ∧ win4_3.index t (1 : Fin 2) = 0
    ∧ win4_3.index t (0 : Fin 2) = t.val :=
  (by decide +kernel : ∀ t : Fin grid4.N, _)

/-- What point t writes back is block t of the whole-array layer. -/
theorem flushed_eq (c : Dev nD) (t : Fin cfg4.N) :
    (dat4 V c).flushed 3 t = ((cfg4.win 3).blk t).view.read (Elt Ideal)
      (denseLeaky (M := 800000) (K := 131) (N := 256) (xarr V c) (warr V c) (barr V c)) := by
  show (cfg4.win 3).cut (grid4.coords t) ((dat4 V c).after 3 t) = _
  rw [after4_3]
  unfold out4_3
  rw [View.canon_unit_zero hz]
  simp only [View.ld_unit_zero (S := S8000x131) hz, View.ld_unit_zero (S := S131x256) hz, View.ld_unit_zero (S := S1x256) hz]
  obtain ⟨e0, e1, e2, e3, e4, e5, e6, e7⟩ := idx_facts t
  funext y
  refine (pay (iblk4 V c 0 t) (iblk4 V c 1 t) (iblk4 V c 2 t) y).trans ?_
  show _ = leaky (affine (M := 800000) (K := 131) (N := 256) (xarr V c) (warr V c) (barr V c) (((cfg4.win 3).blk t).view.emb y))
  refine congrArg leaky (affine_congr (Mb := 8000) (M := 800000) (K := 131) (N := 256) _ _ _ _ _ _ y _ ?_ ?_ ?_)
  · intro k
    show xarr V c (((cfg4.win 0).blk t).view.emb (ix2 (y 0) k)) = _
    refine congrArg (xarr V c) (funext fun a => Fin.ext ?_)
    match a with
    | ⟨0, _⟩ => show win4_0.index t (0 : Fin 2) * 8000 + 1 * (y 0).val = win4_3.index t (0 : Fin 2) * 8000 + 1 * (y 0).val; omega
    | ⟨1, _⟩ => show win4_0.index t (1 : Fin 2) * 131 + 1 * k.val = k.val; omega
  · intro k
    show warr V c (((cfg4.win 1).blk t).view.emb (ix2 k (y 1))) = _
    refine congrArg (warr V c) (funext fun a => Fin.ext ?_)
    match a with
    | ⟨0, _⟩ => show win4_1.index t (0 : Fin 2) * 131 + 1 * k.val = k.val; omega
    | ⟨1, _⟩ => show win4_1.index t (1 : Fin 2) * 256 + 1 * (y 1).val = win4_3.index t (1 : Fin 2) * 256 + 1 * (y 1).val; omega
  · show barr V c (((cfg4.win 2).blk t).view.emb (ix2 0 (y 1))) = _
    refine congrArg (barr V c) (funext fun a => Fin.ext ?_)
    match a with
    | ⟨0, _⟩ => show win4_2.index t (0 : Fin 2) * 1 + 1 * 0 = 0; omega
    | ⟨1, _⟩ => show win4_2.index t (1 : Fin 2) * 256 + 1 * (y 1).val = win4_3.index t (1 : Fin 2) * 256 + 1 * (y 1).val; omega

/-- An entry of the result is in point t's block iff each coordinate is in the block's range on its axis. -/
theorem mem_blk (t : Fin cfg4.N) (i : S800000x256.Idx) :
    i ∈ ((cfg4.win 3).blk t).view.set ↔ ∀ a : Fin 2, win4_3.index t a * S8000x256.size a ≤ (i a).val ∧ (i a).val < win4_3.index t a * S8000x256.size a + S8000x256.size a := by
  show i ∈ ((View.whole main_v40).slice (win4_3.rect t)).set ↔ _
  rw [View.set_slice_whole, Rect.mem_set_unit]
  exact Iff.rfl

/-- Row r lies in the block of point r / 8000. -/
theorem cover (i : S800000x256.Idx) : ∃ t : Fin cfg4.N, (cfg4.win 3).flush t = true ∧ i ∈ ((cfg4.win 3).blk t).view.set := by
  have hi0 : (i 0).val < 800000 := (i 0).isLt
  have hi1 : (i 1).val < 256 := (i 1).isLt
  have hN : cfg4.N = 100 := N_4
  refine ⟨⟨(i 0).val / 8000, by rw [hN]; omega⟩, flush4_3 _, ?_⟩
  rw [mem_blk]
  obtain ⟨e0, e1, e2, e3, e4, e5, e6, e7⟩ := idx_facts ⟨(i 0).val / 8000, by rw [hN]; omega⟩
  intro a
  match a with
  | ⟨0, _⟩ => show win4_3.index _ (0 : Fin 2) * 8000 ≤ (i 0).val ∧ (i 0).val < win4_3.index _ (0 : Fin 2) * 8000 + 8000; rw [e7]; show (i 0).val / 8000 * 8000 ≤ _ ∧ _ < (i 0).val / 8000 * 8000 + 8000; omega
  | ⟨1, _⟩ => show win4_3.index _ (1 : Fin 2) * 256 ≤ (i 1).val ∧ (i 1).val < win4_3.index _ (1 : Fin 2) * 256 + 256; rw [e6]; omega

/-- THE RESULT ARRAY AFTER THE REGION is the whole-array layer of the arrays the region found. -/
theorem final (c : Dev nD) : (dat4 V c).arrAt 3 cfg4.N
    = denseLeaky (M := 800000) (K := 131) (N := 256) (xarr V c) (warr V c) (barr V c) :=
  (dat4 V c).arrAt_eq_of_cover 3 _ (fun t _ => flushed_eq V c t) (cover)

end Cert.KernelIdeal.Region4

end
-- ==== Proof.Region5.lean ====
import proofs.«407242_j23235773071434_1_alg».proof.Proof.Gen.KernelIdeal.Frame
import proofs.«407242_j23235773071434_1_alg».proof.Proof.LibDense

set_option maxRecDepth 16384

noncomputable section

namespace Cert.KernelIdeal.Region5

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.Lib.Dense

variable (V : (c : Dev nD) → (b : Ref sig .tc) → Buf (Elt Ideal) ((c : Thread nD τ).loc b))

/-- The three arrays the region reads, as it finds them. -/
abbrev xarr (c : Dev nD) : FVec Ideal S50000x384 .f32 := V c (Pipeline.arrRef spec5 0)
abbrev warr (c : Dev nD) : FVec Ideal S384x256 .f32 := V c (Pipeline.arrRef spec5 1)
abbrev barr (c : Dev nD) : FVec Ideal S1x256 .f32 := V c (Pipeline.arrRef spec5 2)

theorem hz : (![0, 0] : Fin 2 → Nat) = fun _ => 0 := funext fun a => by fin_cases a <;> rfl

/-- The body's stored value at an entry of the block: the rectified affine layer of the three loaded blocks. -/
theorem pay (x : Vec Ideal S5000x384 .f32) (w : Vec Ideal S384x256 .f32) (b : Vec Ideal S1x256 .f32) (y : S5000x256.Idx) :
    k5_pay1 (F := Ideal) x w b y = leaky (affine (M := 5000) (K := 384) (N := 256) x w b y) :=
  (leaky_vec _ y).trans (congrArg leaky (pay_affine (M := 5000) (K := 384) (N := 256) x w b _ _ _ y))

/-- Where each window's block sits at point t: the row block t for the features and the result, the one block for the
    weights and the bias. -/
theorem idx_facts : ∀ t : Fin cfg5.N, win5_0.index t (0 : Fin 2) = win5_3.index t (0 : Fin 2)
    ∧ win5_0.index t (1 : Fin 2) = 0 ∧ win5_1.index t (0 : Fin 2) = 0 ∧ win5_1.index t (1 : Fin 2) = 0
    ∧ win5_2.index t (0 : Fin 2) = 0 ∧ win5_2.index t (1 : Fin 2) = 0 ∧ win5_3.index t (1 : Fin 2) = 0
    ∧ win5_3.index t (0 : Fin 2) = t.val :=
  (by decide +kernel : ∀ t : Fin grid5.N, _)

/-- What point t writes back is block t of the whole-array layer. -/
theorem flushed_eq (c : Dev nD) (t : Fin cfg5.N) :
    (dat5 V c).flushed 3 t = ((cfg5.win 3).blk t).view.read (Elt Ideal)
      (denseLeaky (M := 50000) (K := 384) (N := 256) (xarr V c) (warr V c) (barr V c)) := by
  show (cfg5.win 3).cut (grid5.coords t) ((dat5 V c).after 3 t) = _
  rw [after5_3]
  unfold out5_3
  rw [View.canon_unit_zero hz]
  simp only [View.ld_unit_zero (S := S5000x384) hz, View.ld_unit_zero (S := S384x256) hz, View.ld_unit_zero (S := S1x256) hz]
  obtain ⟨e0, e1, e2, e3, e4, e5, e6, e7⟩ := idx_facts t
  funext y
  refine (pay (iblk5 V c 0 t) (iblk5 V c 1 t) (iblk5 V c 2 t) y).trans ?_
  show _ = leaky (affine (M := 50000) (K := 384) (N := 256) (xarr V c) (warr V c) (barr V c) (((cfg5.win 3).blk t).view.emb y))
  refine congrArg leaky (affine_congr (Mb := 5000) (M := 50000) (K := 384) (N := 256) _ _ _ _ _ _ y _ ?_ ?_ ?_)
  · intro k
    show xarr V c (((cfg5.win 0).blk t).view.emb (ix2 (y 0) k)) = _
    refine congrArg (xarr V c) (funext fun a => Fin.ext ?_)
    match a with
    | ⟨0, _⟩ => show win5_0.index t (0 : Fin 2) * 5000 + 1 * (y 0).val = win5_3.index t (0 : Fin 2) * 5000 + 1 * (y 0).val; omega
    | ⟨1, _⟩ => show win5_0.index t (1 : Fin 2) * 384 + 1 * k.val = k.val; omega
  · intro k
    show warr V c (((cfg5.win 1).blk t).view.emb (ix2 k (y 1))) = _
    refine congrArg (warr V c) (funext fun a => Fin.ext ?_)
    match a with
    | ⟨0, _⟩ => show win5_1.index t (0 : Fin 2) * 384 + 1 * k.val = k.val; omega
    | ⟨1, _⟩ => show win5_1.index t (1 : Fin 2) * 256 + 1 * (y 1).val = win5_3.index t (1 : Fin 2) * 256 + 1 * (y 1).val; omega
  · show barr V c (((cfg5.win 2).blk t).view.emb (ix2 0 (y 1))) = _
    refine congrArg (barr V c) (funext fun a => Fin.ext ?_)
    match a with
    | ⟨0, _⟩ => show win5_2.index t (0 : Fin 2) * 1 + 1 * 0 = 0; omega
    | ⟨1, _⟩ => show win5_2.index t (1 : Fin 2) * 256 + 1 * (y 1).val = win5_3.index t (1 : Fin 2) * 256 + 1 * (y 1).val; omega

/-- An entry of the result is in point t's block iff each coordinate is in the block's range on its axis. -/
theorem mem_blk (t : Fin cfg5.N) (i : S50000x256.Idx) :
    i ∈ ((cfg5.win 3).blk t).view.set ↔ ∀ a : Fin 2, win5_3.index t a * S5000x256.size a ≤ (i a).val ∧ (i a).val < win5_3.index t a * S5000x256.size a + S5000x256.size a := by
  show i ∈ ((View.whole main_v48).slice (win5_3.rect t)).set ↔ _
  rw [View.set_slice_whole, Rect.mem_set_unit]
  exact Iff.rfl

/-- Row r lies in the block of point r / 5000. -/
theorem cover (i : S50000x256.Idx) : ∃ t : Fin cfg5.N, (cfg5.win 3).flush t = true ∧ i ∈ ((cfg5.win 3).blk t).view.set := by
  have hi0 : (i 0).val < 50000 := (i 0).isLt
  have hi1 : (i 1).val < 256 := (i 1).isLt
  have hN : cfg5.N = 10 := N_5
  refine ⟨⟨(i 0).val / 5000, by rw [hN]; omega⟩, flush5_3 _, ?_⟩
  rw [mem_blk]
  obtain ⟨e0, e1, e2, e3, e4, e5, e6, e7⟩ := idx_facts ⟨(i 0).val / 5000, by rw [hN]; omega⟩
  intro a
  match a with
  | ⟨0, _⟩ => show win5_3.index _ (0 : Fin 2) * 5000 ≤ (i 0).val ∧ (i 0).val < win5_3.index _ (0 : Fin 2) * 5000 + 5000; rw [e7]; show (i 0).val / 5000 * 5000 ≤ _ ∧ _ < (i 0).val / 5000 * 5000 + 5000; omega
  | ⟨1, _⟩ => show win5_3.index _ (1 : Fin 2) * 256 ≤ (i 1).val ∧ (i 1).val < win5_3.index _ (1 : Fin 2) * 256 + 256; rw [e6]; omega

/-- THE RESULT ARRAY AFTER THE REGION is the whole-array layer of the arrays the region found. -/
theorem final (c : Dev nD) : (dat5 V c).arrAt 3 cfg5.N
    = denseLeaky (M := 50000) (K := 384) (N := 256) (xarr V c) (warr V c) (barr V c) :=
  (dat5 V c).arrAt_eq_of_cover 3 _ (fun t _ => flushed_eq V c t) (cover)

end Cert.KernelIdeal.Region5

end
-- ==== Proof.KF2.lean ====
/-
  THE KERNEL PROGRAM'S THIRD ROUND, boundary by boundary.
-/
import proofs.«407242_j23235773071434_1_alg».proof.Proof.KBase
import proofs.«407242_j23235773071434_1_alg».proof.Proof.KCarry
import proofs.«407242_j23235773071434_1_alg».proof.Proof.Take
import proofs.«407242_j23235773071434_1_alg».proof.Proof.KF0
import proofs.«407242_j23235773071434_1_alg».proof.Proof.KF1
import proofs.«407242_j23235773071434_1_alg».proof.Proof.Region4
import proofs.«407242_j23235773071434_1_alg».proof.Proof.Region5
import Idealize.ShloMosaic.Lib.StableHlo.Run

set_option maxRecDepth 16384

noncomputable section

namespace Cert.KernelIdeal.KF

open Idealize.ShloMosaic Idealize.ShloMosaic.TcCoe Idealize.SL.Sem Idealize.ShloMosaic.StableHlo
open Cert.KernelIdeal Cert.KernelIdeal.Gen Cert.Lib.Dense

/-- At a literal reference the transport of contents is the identity: the reference's type is the value's by computation. -/
theorem ofBuf_v36 (v : (main_v36 : Ref sig .tc).ty.Contents (Elt Ideal)) :
    (StableHlo.TRef.of main_v36 : StableHlo.TRef sig ⟨S50000x128, .f32⟩).ofBuf v = v := rfl
theorem toBuf_v37 (v : (⟨S800000x128, .f32⟩ : BufTy).Contents (Elt Ideal)) :
    (StableHlo.TRef.of main_v37 : StableHlo.TRef sig ⟨S800000x128, .f32⟩).toBuf v = v := rfl

variable (m : (ℓ : Loc nD τ sig) → Buf (Elt Ideal) ℓ) (ρ : Dev nD → PrngReg) (c : Dev nD)

set_option maxHeartbeats 1000000 in
theorem W12_v37 (hs : Cert.Spec.SrcOk (kArgs m c)) : W12 m ρ c (Proc.devRef .tc main_v37) = Cert.Spec.gat2 (kArgs m c) := by
  show StableHlo.after hostOps4 (W11 m ρ c) (Proc.devRef .tc main_v37) = _
  generalize hV : W11 m ρ c = V
  after_results_simp
  subst hV
  -- the typed references' transports are identities: what is left is the printed take over the two arrays it reads
  simp only [ofBuf_toBuf]
  rw [toBuf_v37]
  simp only [ofBuf_v1, ofBuf_v36]
  -- the two arrays the take reads: the source vector and the second round's node features
  rw [W11_v1 m ρ c, W1_v1 m ρ c, W11_v36 m ρ c hs]
  -- every source index is in range, so the in-range test is all ones and the selection keeps the gathered rows
  rw [Take.mask_one (Cert.Spec.src (kArgs m c)) hs, Take.select_bcast_one]
  rfl

theorem W13_v38 (hs : Cert.Spec.SrcOk (kArgs m c)) : W13 m ρ c (Proc.devRef .tc main_v38) = Cert.Spec.cat2 (kArgs m c) := by
  show StableHlo.after hostOps4_1 (W12 m ρ c) (Proc.devRef .tc main_v38) = _
  generalize hV : W12 m ρ c = V
  after_results
  subst hV
  rw [W12_v37 m ρ c hs, W12_arg2 m ρ c]
  rfl

theorem W13_v39 : W13 m ρ c (Proc.devRef .tc main_v39) = biasRow (kArgs m c).mb2 := by
  show StableHlo.after hostOps4_1 (W12 m ρ c) (Proc.devRef .tc main_v39) = _
  generalize hV : W12 m ρ c = V
  after_results
  subst hV
  rw [W12_arg13 m ρ c]
  show shapeCast S1x256 (m ((c : Thread nD τ).loc main_arg13)) shapeCasts_S256_S1x256 = _
  exact shapeCast_row _ _

theorem W14_v40 (hs : Cert.Spec.SrcOk (kArgs m c)) : W14 m ρ c (Proc.devRef .tc main_v40) = Cert.Spec.msg2 (kArgs m c) := by
  refine (W14_arr m ρ c 3).trans ?_
  rw [Region4.final (V13 m ρ) c]
  show denseLeaky (M := 800000) (K := 131) (N := 256) (W13 m ρ c (Proc.devRef .tc main_v38)) (W13 m ρ c (Proc.devRef .tc main_arg12)) (W13 m ρ c (Proc.devRef .tc main_v39)) = _
  rw [W13_v38 m ρ c hs, W13_arg12 m ρ c, W13_v39 m ρ c]
  rfl

theorem W15_v46 (hs : Cert.Spec.SrcOk (kArgs m c)) : W15 m ρ c (Proc.devRef .tc main_v46) = Cert.Spec.agg2 (kArgs m c) := by
  show StableHlo.after hostOps5 (W14 m ρ c) (Proc.devRef .tc main_v46) = _
  generalize hV : W14 m ρ c = V
  after_results
  subst hV
  rw [W14_v40 m ρ c hs, W14_v3 m ρ c, W1_v3 m ρ c, W14_v12 m ρ c, W1_v12 m ρ c, W14_v36 m ρ c, W11_v36 m ρ c hs]
  rfl

theorem W15_v47 : W15 m ρ c (Proc.devRef .tc main_v47) = biasRow (kArgs m c).ub2 := by
  show StableHlo.after hostOps5 (W14 m ρ c) (Proc.devRef .tc main_v47) = _
  generalize hV : W14 m ρ c = V
  after_results
  subst hV
  rw [W14_arg15 m ρ c]
  show shapeCast S1x256 (m ((c : Thread nD τ).loc main_arg15)) shapeCasts_S256_S1x256 = _
  exact shapeCast_row _ _

theorem W16_v48 (hs : Cert.Spec.SrcOk (kArgs m c)) : W16 m ρ c (Proc.devRef .tc main_v48) = Cert.Spec.h3 (kArgs m c) := by
  refine (W16_arr m ρ c 3).trans ?_
  rw [Region5.final (V15 m ρ) c]
  show denseLeaky (M := 50000) (K := 384) (N := 256) (W15 m ρ c (Proc.devRef .tc main_v46)) (W15 m ρ c (Proc.devRef .tc main_arg14)) (W15 m ρ c (Proc.devRef .tc main_v47)) = _
  rw [W15_v46 m ρ c hs, W15_arg14 m ρ c, W15_v47 m ρ c]
  rfl

end Cert.KernelIdeal.KF

end
-- ==== Proof.Region6.lean ====
import proofs.«407242_j23235773071434_1_alg».proof.Proof.Gen.KernelIdeal.Frame
import proofs.«407242_j23235773071434_1_alg».proof.Proof.LibDense

set_option maxRecDepth 16384

noncomputable section

namespace Cert.KernelIdeal.Region6

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.Lib.Dense

variable (V : (c : Dev nD) → (b : Ref sig .tc) → Buf (Elt Ideal) ((c : Thread nD τ).loc b))

/-- The three arrays the region reads, as it finds them. -/
abbrev xarr (c : Dev nD) : FVec Ideal S32x256 .f32 := V c (Pipeline.arrRef spec6 0)
abbrev warr (c : Dev nD) : FVec Ideal S256x128 .f32 := V c (Pipeline.arrRef spec6 1)
abbrev barr (c : Dev nD) : FVec Ideal S1x128 .f32 := V c (Pipeline.arrRef spec6 2)

theorem hz : (![0, 0] : Fin 2 → Nat) = fun _ => 0 := funext fun a => by fin_cases a <;> rfl

/-- The body's stored value at an entry of the block: the rectified affine layer of the three loaded blocks. -/
theorem pay (x : Vec Ideal S32x256 .f32) (w : Vec Ideal S256x128 .f32) (b : Vec Ideal S1x128 .f32) (y : S32x128.Idx) :
    k6_pay1 (F := Ideal) x w b y = leaky (affine (M := 32) (K := 256) (N := 128) x w b y) :=
  (leaky_vec _ y).trans (congrArg leaky (pay_affine (M := 32) (K := 256) (N := 128) x w b _ _ _ y))

/-- Where each window's block sits at point t: the row block t for the features and the result, the one block for the
    weights and the bias. -/
theorem idx_facts : ∀ t : Fin cfg6.N, win6_0.index t (0 : Fin 2) = win6_3.index t (0 : Fin 2)
    ∧ win6_0.index t (1 : Fin 2) = 0 ∧ win6_1.index t (0 : Fin 2) = 0 ∧ win6_1.index t (1 : Fin 2) = 0
    ∧ win6_2.index t (0 : Fin 2) = 0 ∧ win6_2.index t (1 : Fin 2) = 0 ∧ win6_3.index t (1 : Fin 2) = 0
    ∧ win6_3.index t (0 : Fin 2) = t.val :=
  (by decide +kernel : ∀ t : Fin grid6.N, _)

/-- What point t writes back is block t of the whole-array layer. -/
theorem flushed_eq (c : Dev nD) (t : Fin cfg6.N) :
    (dat6 V c).flushed 3 t = ((cfg6.win 3).blk t).view.read (Elt Ideal)
      (denseLeaky (M := 32) (K := 256) (N := 128) (xarr V c) (warr V c) (barr V c)) := by
  show (cfg6.win 3).cut (grid6.coords t) ((dat6 V c).after 3 t) = _
  rw [after6_3]
  unfold out6_3
  rw [View.canon_unit_zero hz]
  simp only [View.ld_unit_zero (S := S32x256) hz, View.ld_unit_zero (S := S256x128) hz, View.ld_unit_zero (S := S1x128) hz]
  obtain ⟨e0, e1, e2, e3, e4, e5, e6, e7⟩ := idx_facts t
  funext y
  refine (pay (iblk6 V c 0 t) (iblk6 V c 1 t) (iblk6 V c 2 t) y).trans ?_
  show _ = leaky (affine (M := 32) (K := 256) (N := 128) (xarr V c) (warr V c) (barr V c) (((cfg6.win 3).blk t).view.emb y))
  refine congrArg leaky (affine_congr (Mb := 32) (M := 32) (K := 256) (N := 128) _ _ _ _ _ _ y _ ?_ ?_ ?_)
  · intro k
    show xarr V c (((cfg6.win 0).blk t).view.emb (ix2 (y 0) k)) = _
    refine congrArg (xarr V c) (funext fun a => Fin.ext ?_)
    match a with
    | ⟨0, _⟩ => show win6_0.index t (0 : Fin 2) * 32 + 1 * (y 0).val = win6_3.index t (0 : Fin 2) * 32 + 1 * (y 0).val; omega
    | ⟨1, _⟩ => show win6_0.index t (1 : Fin 2) * 256 + 1 * k.val = k.val; omega
  · intro k
    show warr V c (((cfg6.win 1).blk t).view.emb (ix2 k (y 1))) = _
    refine congrArg (warr V c) (funext fun a => Fin.ext ?_)
    match a with
    | ⟨0, _⟩ => show win6_1.index t (0 : Fin 2) * 256 + 1 * k.val = k.val; omega
    | ⟨1, _⟩ => show win6_1.index t (1 : Fin 2) * 128 + 1 * (y 1).val = win6_3.index t (1 : Fin 2) * 128 + 1 * (y 1).val; omega
  · show barr V c (((cfg6.win 2).blk t).view.emb (ix2 0 (y 1))) = _
    refine congrArg (barr V c) (funext fun a => Fin.ext ?_)
    match a with
    | ⟨0, _⟩ => show win6_2.index t (0 : Fin 2) * 1 + 1 * 0 = 0; omega
    | ⟨1, _⟩ => show win6_2.index t (1 : Fin 2) * 128 + 1 * (y 1).val = win6_3.index t (1 : Fin 2) * 128 + 1 * (y 1).val; omega

/-- An entry of the result is in point t's block iff each coordinate is in the block's range on its axis. -/
theorem mem_blk (t : Fin cfg6.N) (i : S32x128.Idx) :
    i ∈ ((cfg6.win 3).blk t).view.set ↔ ∀ a : Fin 2, win6_3.index t a * S32x128.size a ≤ (i a).val ∧ (i a).val < win6_3.index t a * S32x128.size a + S32x128.size a := by
  show i ∈ ((View.whole main_v62).slice (win6_3.rect t)).set ↔ _
  rw [View.set_slice_whole, Rect.mem_set_unit]
  exact Iff.rfl

/-- Row r lies in the block of point r / 32. -/
theorem cover (i : S32x128.Idx) : ∃ t : Fin cfg6.N, (cfg6.win 3).flush t = true ∧ i ∈ ((cfg6.win 3).blk t).view.set := by
  have hi0 : (i 0).val < 32 := (i 0).isLt
  have hi1 : (i 1).val < 128 := (i 1).isLt
  have hN : cfg6.N = 1 := N_6
  refine ⟨⟨(i 0).val / 32, by rw [hN]; omega⟩, flush6_3 _, ?_⟩
  rw [mem_blk]
  obtain ⟨e0, e1, e2, e3, e4, e5, e6, e7⟩ := idx_facts ⟨(i 0).val / 32, by rw [hN]; omega⟩
  intro a
  match a with
  | ⟨0, _⟩ => show win6_3.index _ (0 : Fin 2) * 32 ≤ (i 0).val ∧ (i 0).val < win6_3.index _ (0 : Fin 2) * 32 + 32; rw [e7]; show (i 0).val / 32 * 32 ≤ _ ∧ _ < (i 0).val / 32 * 32 + 32; omega
  | ⟨1, _⟩ => show win6_3.index _ (1 : Fin 2) * 128 ≤ (i 1).val ∧ (i 1).val < win6_3.index _ (1 : Fin 2) * 128 + 128; rw [e6]; omega

/-- THE RESULT ARRAY AFTER THE REGION is the whole-array layer of the arrays the region found. -/
theorem final (c : Dev nD) : (dat6 V c).arrAt 3 cfg6.N
    = denseLeaky (M := 32) (K := 256) (N := 128) (xarr V c) (warr V c) (barr V c) :=
  (dat6 V c).arrAt_eq_of_cover 3 _ (fun t _ => flushed_eq V c t) (cover)

end Cert.KernelIdeal.Region6

end
-- ==== Proof.Region7.lean ====
import proofs.«407242_j23235773071434_1_alg».proof.Proof.Gen.KernelIdeal.Frame
import proofs.«407242_j23235773071434_1_alg».proof.Proof.LibDense

set_option maxRecDepth 16384

noncomputable section

namespace Cert.KernelIdeal.Region7

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.Lib.Dense

variable (V : (c : Dev nD) → (b : Ref sig .tc) → Buf (Elt Ideal) ((c : Thread nD τ).loc b))

/-- The three arrays the region reads, as it finds them. -/
abbrev xarr (c : Dev nD) : FVec Ideal S32x128 .f32 := V c (Pipeline.arrRef spec7 0)
abbrev warr (c : Dev nD) : FVec Ideal S128x64 .f32 := V c (Pipeline.arrRef spec7 1)
abbrev barr (c : Dev nD) : FVec Ideal S1x64 .f32 := V c (Pipeline.arrRef spec7 2)

theorem hz : (![0, 0] : Fin 2 → Nat) = fun _ => 0 := funext fun a => by fin_cases a <;> rfl

/-- The body's stored value at an entry of the block: the rectified affine layer of the three loaded blocks. -/
theorem pay (x : Vec Ideal S32x128 .f32) (w : Vec Ideal S128x64 .f32) (b : Vec Ideal S1x64 .f32) (y : S32x64.Idx) :
    k7_pay1 (F := Ideal) x w b y = leaky (affine (M := 32) (K := 128) (N := 64) x w b y) :=
  (leaky_vec _ y).trans (congrArg leaky (pay_affine (M := 32) (K := 128) (N := 64) x w b _ _ _ y))

/-- Where each window's block sits at point t: the row block t for the features and the result, the one block for the
    weights and the bias. -/
theorem idx_facts : ∀ t : Fin cfg7.N, win7_0.index t (0 : Fin 2) = win7_3.index t (0 : Fin 2)
    ∧ win7_0.index t (1 : Fin 2) = 0 ∧ win7_1.index t (0 : Fin 2) = 0 ∧ win7_1.index t (1 : Fin 2) = 0
    ∧ win7_2.index t (0 : Fin 2) = 0 ∧ win7_2.index t (1 : Fin 2) = 0 ∧ win7_3.index t (1 : Fin 2) = 0
    ∧ win7_3.index t (0 : Fin 2) = t.val :=
  (by decide +kernel : ∀ t : Fin grid7.N, _)

/-- What point t writes back is block t of the whole-array layer. -/
theorem flushed_eq (c : Dev nD) (t : Fin cfg7.N) :
    (dat7 V c).flushed 3 t = ((cfg7.win 3).blk t).view.read (Elt Ideal)
      (denseLeaky (M := 32) (K := 128) (N := 64) (xarr V c) (warr V c) (barr V c)) := by
  show (cfg7.win 3).cut (grid7.coords t) ((dat7 V c).after 3 t) = _
  rw [after7_3]
  unfold out7_3
  rw [View.canon_unit_zero hz]
  simp only [View.ld_unit_zero (S := S32x128) hz, View.ld_unit_zero (S := S128x64) hz, View.ld_unit_zero (S := S1x64) hz]
  obtain ⟨e0, e1, e2, e3, e4, e5, e6, e7⟩ := idx_facts t
  funext y
  refine (pay (iblk7 V c 0 t) (iblk7 V c 1 t) (iblk7 V c 2 t) y).trans ?_
  show _ = leaky (affine (M := 32) (K := 128) (N := 64) (xarr V c) (warr V c) (barr V c) (((cfg7.win 3).blk t).view.emb y))
  refine congrArg leaky (affine_congr (Mb := 32) (M := 32) (K := 128) (N := 64) _ _ _ _ _ _ y _ ?_ ?_ ?_)
  · intro k
    show xarr V c (((cfg7.win 0).blk t).view.emb (ix2 (y 0) k)) = _
    refine congrArg (xarr V c) (funext fun a => Fin.ext ?_)
    match a with
    | ⟨0, _⟩ => show win7_0.index t (0 : Fin 2) * 32 + 1 * (y 0).val = win7_3.index t (0 : Fin 2) * 32 + 1 * (y 0).val; omega
    | ⟨1, _⟩ => show win7_0.index t (1 : Fin 2) * 128 + 1 * k.val = k.val; omega
  · intro k
    show warr V c (((cfg7.win 1).blk t).view.emb (ix2 k (y 1))) = _
    refine congrArg (warr V c) (funext fun a => Fin.ext ?_)
    match a with
    | ⟨0, _⟩ => show win7_1.index t (0 : Fin 2) * 128 + 1 * k.val = k.val; omega
    | ⟨1, _⟩ => show win7_1.index t (1 : Fin 2) * 64 + 1 * (y 1).val = win7_3.index t (1 : Fin 2) * 64 + 1 * (y 1).val; omega
  · show barr V c (((cfg7.win 2).blk t).view.emb (ix2 0 (y 1))) = _
    refine congrArg (barr V c) (funext fun a => Fin.ext ?_)
    match a with
    | ⟨0, _⟩ => show win7_2.index t (0 : Fin 2) * 1 + 1 * 0 = 0; omega
    | ⟨1, _⟩ => show win7_2.index t (1 : Fin 2) * 64 + 1 * (y 1).val = win7_3.index t (1 : Fin 2) * 64 + 1 * (y 1).val; omega

/-- An entry of the result is in point t's block iff each coordinate is in the block's range on its axis. -/
theorem mem_blk (t : Fin cfg7.N) (i : S32x64.Idx) :
    i ∈ ((cfg7.win 3).blk t).view.set ↔ ∀ a : Fin 2, win7_3.index t a * S32x64.size a ≤ (i a).val ∧ (i a).val < win7_3.index t a * S32x64.size a + S32x64.size a := by
  show i ∈ ((View.whole main_v64).slice (win7_3.rect t)).set ↔ _
  rw [View.set_slice_whole, Rect.mem_set_unit]
  exact Iff.rfl

/-- Row r lies in the block of point r / 32. -/
theorem cover (i : S32x64.Idx) : ∃ t : Fin cfg7.N, (cfg7.win 3).flush t = true ∧ i ∈ ((cfg7.win 3).blk t).view.set := by
  have hi0 : (i 0).val < 32 := (i 0).isLt
  have hi1 : (i 1).val < 64 := (i 1).isLt
  have hN : cfg7.N = 1 := N_7
  refine ⟨⟨(i 0).val / 32, by rw [hN]; omega⟩, flush7_3 _, ?_⟩
  rw [mem_blk]
  obtain ⟨e0, e1, e2, e3, e4, e5, e6, e7⟩ := idx_facts ⟨(i 0).val / 32, by rw [hN]; omega⟩
  intro a
  match a with
  | ⟨0, _⟩ => show win7_3.index _ (0 : Fin 2) * 32 ≤ (i 0).val ∧ (i 0).val < win7_3.index _ (0 : Fin 2) * 32 + 32; rw [e7]; show (i 0).val / 32 * 32 ≤ _ ∧ _ < (i 0).val / 32 * 32 + 32; omega
  | ⟨1, _⟩ => show win7_3.index _ (1 : Fin 2) * 64 ≤ (i 1).val ∧ (i 1).val < win7_3.index _ (1 : Fin 2) * 64 + 64; rw [e6]; omega

/-- THE RESULT ARRAY AFTER THE REGION is the whole-array layer of the arrays the region found. -/
theorem final (c : Dev nD) : (dat7 V c).arrAt 3 cfg7.N
    = denseLeaky (M := 32) (K := 128) (N := 64) (xarr V c) (warr V c) (barr V c) :=
  (dat7 V c).arrAt_eq_of_cover 3 _ (fun t _ => flushed_eq V c t) (cover)

end Cert.KernelIdeal.Region7

end
-- ==== Proof.Region8.lean ====
import proofs.«407242_j23235773071434_1_alg».proof.Proof.Gen.KernelIdeal.Frame
import proofs.«407242_j23235773071434_1_alg».proof.Proof.LibDense

set_option maxRecDepth 16384

noncomputable section

namespace Cert.KernelIdeal.Region8

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.Lib.Dense

variable (V : (c : Dev nD) → (b : Ref sig .tc) → Buf (Elt Ideal) ((c : Thread nD τ).loc b))

/-- The three arrays the region reads, as it finds them. -/
abbrev xarr (c : Dev nD) : FVec Ideal S32x64 .f32 := V c (Pipeline.arrRef spec8 0)
abbrev warr (c : Dev nD) : FVec Ideal S64x1 .f32 := V c (Pipeline.arrRef spec8 1)
abbrev barr (c : Dev nD) : FVec Ideal S1x1 .f32 := V c (Pipeline.arrRef spec8 2)

theorem hz : (![0, 0] : Fin 2 → Nat) = fun _ => 0 := funext fun a => by fin_cases a <;> rfl

/-- The body's stored value at an entry of the block: the rectified affine layer of the three loaded blocks. -/
theorem pay (x : Vec Ideal S32x64 .f32) (w : Vec Ideal S64x1 .f32) (b : Vec Ideal S1x1 .f32) (y : S32x1.Idx) :
    k8_pay1 (F := Ideal) x w b y = (affine (M := 32) (K := 64) (N := 1) x w b y) :=
  ((pay_affine (M := 32) (K := 64) (N := 1) x w b _ _ _ y))

/-- Where each window's block sits at point t: the row block t for the features and the result, the one block for the
    weights and the bias. -/
theorem idx_facts : ∀ t : Fin cfg8.N, win8_0.index t (0 : Fin 2) = win8_3.index t (0 : Fin 2)
    ∧ win8_0.index t (1 : Fin 2) = 0 ∧ win8_1.index t (0 : Fin 2) = 0 ∧ win8_1.index t (1 : Fin 2) = 0
    ∧ win8_2.index t (0 : Fin 2) = 0 ∧ win8_2.index t (1 : Fin 2) = 0 ∧ win8_3.index t (1 : Fin 2) = 0
    ∧ win8_3.index t (0 : Fin 2) = t.val :=
  (by decide +kernel : ∀ t : Fin grid8.N, _)

/-- What point t writes back is block t of the whole-array layer. -/
theorem flushed_eq (c : Dev nD) (t : Fin cfg8.N) :
    (dat8 V c).flushed 3 t = ((cfg8.win 3).blk t).view.read (Elt Ideal)
      (affine (M := 32) (K := 64) (N := 1) (xarr V c) (warr V c) (barr V c)) := by
  show (cfg8.win 3).cut (grid8.coords t) ((dat8 V c).after 3 t) = _
  rw [after8_3]
  unfold out8_3
  rw [View.canon_unit_zero hz]
  simp only [View.ld_unit_zero (S := S32x64) hz, View.ld_unit_zero (S := S64x1) hz, View.ld_unit_zero (S := S1x1) hz]
  obtain ⟨e0, e1, e2, e3, e4, e5, e6, e7⟩ := idx_facts t
  funext y
  refine (pay (iblk8 V c 0 t) (iblk8 V c 1 t) (iblk8 V c 2 t) y).trans ?_
  show _ = (affine (M := 32) (K := 64) (N := 1) (xarr V c) (warr V c) (barr V c) (((cfg8.win 3).blk t).view.emb y))
  refine (affine_congr (Mb := 32) (M := 32) (K := 64) (N := 1) _ _ _ _ _ _ y _ ?_ ?_ ?_)
  · intro k
    show xarr V c (((cfg8.win 0).blk t).view.emb (ix2 (y 0) k)) = _
    refine congrArg (xarr V c) (funext fun a => Fin.ext ?_)
    match a with
    | ⟨0, _⟩ => show win8_0.index t (0 : Fin 2) * 32 + 1 * (y 0).val = win8_3.index t (0 : Fin 2) * 32 + 1 * (y 0).val; omega
    | ⟨1, _⟩ => show win8_0.index t (1 : Fin 2) * 64 + 1 * k.val = k.val; omega
  · intro k
    show warr V c (((cfg8.win 1).blk t).view.emb (ix2 k (y 1))) = _
    refine congrArg (warr V c) (funext fun a => Fin.ext ?_)
    match a with
    | ⟨0, _⟩ => show win8_1.index t (0 : Fin 2) * 64 + 1 * k.val = k.val; omega
    | ⟨1, _⟩ => show win8_1.index t (1 : Fin 2) * 1 + 1 * (y 1).val = win8_3.index t (1 : Fin 2) * 1 + 1 * (y 1).val; omega
  · show barr V c (((cfg8.win 2).blk t).view.emb (ix2 0 (y 1))) = _
    refine congrArg (barr V c) (funext fun a => Fin.ext ?_)
    match a with
    | ⟨0, _⟩ => show win8_2.index t (0 : Fin 2) * 1 + 1 * 0 = 0; omega
    | ⟨1, _⟩ => show win8_2.index t (1 : Fin 2) * 1 + 1 * (y 1).val = win8_3.index t (1 : Fin 2) * 1 + 1 * (y 1).val; omega

/-- An entry of the result is in point t's block iff each coordinate is in the block's range on its axis. -/
theorem mem_blk (t : Fin cfg8.N) (i : S32x1.Idx) :
    i ∈ ((cfg8.win 3).blk t).view.set ↔ ∀ a : Fin 2, win8_3.index t a * S32x1.size a ≤ (i a).val ∧ (i a).val < win8_3.index t a * S32x1.size a + S32x1.size a := by
  show i ∈ ((View.whole main_v66).slice (win8_3.rect t)).set ↔ _
  rw [View.set_slice_whole, Rect.mem_set_unit]
  exact Iff.rfl

/-- Row r lies in the block of point r / 32. -/
theorem cover (i : S32x1.Idx) : ∃ t : Fin cfg8.N, (cfg8.win 3).flush t = true ∧ i ∈ ((cfg8.win 3).blk t).view.set := by
  have hi0 : (i 0).val < 32 := (i 0).isLt
  have hi1 : (i 1).val < 1 := (i 1).isLt
  have hN : cfg8.N = 1 := N_8
  refine ⟨⟨(i 0).val / 32, by rw [hN]; omega⟩, flush8_3 _, ?_⟩
  rw [mem_blk]
  obtain ⟨e0, e1, e2, e3, e4, e5, e6, e7⟩ := idx_facts ⟨(i 0).val / 32, by rw [hN]; omega⟩
  intro a
  match a with
  | ⟨0, _⟩ => show win8_3.index _ (0 : Fin 2) * 32 ≤ (i 0).val ∧ (i 0).val < win8_3.index _ (0 : Fin 2) * 32 + 32; rw [e7]; show (i 0).val / 32 * 32 ≤ _ ∧ _ < (i 0).val / 32 * 32 + 32; omega
  | ⟨1, _⟩ => show win8_3.index _ (1 : Fin 2) * 1 ≤ (i 1).val ∧ (i 1).val < win8_3.index _ (1 : Fin 2) * 1 + 1; rw [e6]; omega

/-- THE RESULT ARRAY AFTER THE REGION is the whole-array layer of the arrays the region found. -/
theorem final (c : Dev nD) : (dat8 V c).arrAt 3 cfg8.N
    = affine (M := 32) (K := 64) (N := 1) (xarr V c) (warr V c) (barr V c) :=
  (dat8 V c).arrAt_eq_of_cover 3 _ (fun t _ => flushed_eq V c t) (cover)

end Cert.KernelIdeal.Region8

end
-- ==== Proof.KF3.lean ====
/-
  THE KERNEL PROGRAM'S PER-GRAPH MEAN AND LAST THREE LAYERS, boundary by boundary; and the whole run's result.
-/
import proofs.«407242_j23235773071434_1_alg».proof.Proof.KBase
import proofs.«407242_j23235773071434_1_alg».proof.Proof.KCarry
import proofs.«407242_j23235773071434_1_alg».proof.Proof.KF2
import proofs.«407242_j23235773071434_1_alg».proof.Proof.Region6
import proofs.«407242_j23235773071434_1_alg».proof.Proof.Region7
import proofs.«407242_j23235773071434_1_alg».proof.Proof.Region8
import Idealize.ShloMosaic.Lib.StableHlo.Run

set_option maxRecDepth 16384

noncomputable section

namespace Cert.KernelIdeal.KF

open Idealize.ShloMosaic Idealize.ShloMosaic.TcCoe Idealize.SL.Sem Idealize.ShloMosaic.StableHlo
open Cert.KernelIdeal Cert.KernelIdeal.Gen Cert.Lib.Dense

variable (m : (ℓ : Loc nD τ sig) → Buf (Elt Ideal) ℓ) (ρ : Dev nD → PrngReg) (c : Dev nD)

theorem W17_v60 (hs : Cert.Spec.SrcOk (kArgs m c)) : W17 m ρ c (Proc.devRef .tc main_v60) = Cert.Spec.pooled (kArgs m c) := by
  show StableHlo.after hostOps6 (W16 m ρ c) (Proc.devRef .tc main_v60) = _
  generalize hV : W16 m ρ c = V
  after_results
  subst hV
  rw [W16_v48 m ρ c hs, W16_arg3 m ρ c]
  rfl

theorem W17_v61 : W17 m ρ c (Proc.devRef .tc main_v61) = biasRow (kArgs m c).fb0 := by
  show StableHlo.after hostOps6 (W16 m ρ c) (Proc.devRef .tc main_v61) = _
  generalize hV : W16 m ρ c = V
  after_results
  subst hV
  rw [W16_arg17 m ρ c]
  show shapeCast S1x128 (m ((c : Thread nD τ).loc main_arg17)) shapeCasts_S128_S1x128 = _
  exact shapeCast_row _ _

theorem W18_v62 (hs : Cert.Spec.SrcOk (kArgs m c)) : W18 m ρ c (Proc.devRef .tc main_v62) = Cert.Spec.g1 (kArgs m c) := by
  refine (W18_arr m ρ c 3).trans ?_
  rw [Region6.final (V17 m ρ) c]
  show denseLeaky (M := 32) (K := 256) (N := 128) (W17 m ρ c (Proc.devRef .tc main_v60)) (W17 m ρ c (Proc.devRef .tc main_arg16)) (W17 m ρ c (Proc.devRef .tc main_v61)) = _
  rw [W17_v60 m ρ c hs, W17_arg16 m ρ c, W17_v61 m ρ c]
  rfl

theorem W19_v63 : W19 m ρ c (Proc.devRef .tc main_v63) = biasRow (kArgs m c).fb1 := by
  show StableHlo.after hostOps7 (W18 m ρ c) (Proc.devRef .tc main_v63) = _
  generalize hV : W18 m ρ c = V
  after_results
  subst hV
  rw [W18_arg19 m ρ c]
  show shapeCast S1x64 (m ((c : Thread nD τ).loc main_arg19)) shapeCasts_S64_S1x64 = _
  exact shapeCast_row _ _

theorem W20_v64 (hs : Cert.Spec.SrcOk (kArgs m c)) : W20 m ρ c (Proc.devRef .tc main_v64) = Cert.Spec.g2 (kArgs m c) := by
  refine (W20_arr m ρ c 3).trans ?_
  rw [Region7.final (V19 m ρ) c]
  show denseLeaky (M := 32) (K := 128) (N := 64) (W19 m ρ c (Proc.devRef .tc main_v62)) (W19 m ρ c (Proc.devRef .tc main_arg18)) (W19 m ρ c (Proc.devRef .tc main_v63)) = _
  rw [W19_v62 m ρ c, W18_v62 m ρ c hs, W19_arg18 m ρ c, W19_v63 m ρ c]
  rfl

theorem W21_v65 : W21 m ρ c (Proc.devRef .tc main_v65) = biasRow (kArgs m c).fb2 := by
  show StableHlo.after hostOps8 (W20 m ρ c) (Proc.devRef .tc main_v65) = _
  generalize hV : W20 m ρ c = V
  after_results
  subst hV
  rw [W20_arg21 m ρ c]
  show shapeCast S1x1 (m ((c : Thread nD τ).loc main_arg21)) shapeCasts_S1_S1x1 = _
  exact shapeCast_row _ _

/-- THE KERNEL PROGRAM'S RESULT: the last boundary's contents at the result buffer is the specification's result of the
    argument arrays. -/
theorem ker_result (hs : Cert.Spec.SrcOk (kArgs m c)) : W22 m ρ c (Proc.devRef .tc main_v66) = Cert.Spec.out (kArgs m c) := by
  refine (W22_arr m ρ c 3).trans ?_
  rw [Region8.final (V21 m ρ) c]
  show affine (M := 32) (K := 64) (N := 1) (W21 m ρ c (Proc.devRef .tc main_v64)) (W21 m ρ c (Proc.devRef .tc main_arg20)) (W21 m ρ c (Proc.devRef .tc main_v65)) = _
  rw [W21_v64 m ρ c, W20_v64 m ρ c hs, W21_arg20 m ρ c, W21_v65 m ρ c]
  rfl

end Cert.KernelIdeal.KF

end
-- ==== Proof.Pre.lean ====
/-
  THE SOURCE-INDEX RANGE, READ OUT OF THE PRECONDITION. The precondition is a conjunction, by `and`, of one `jnp.all` per
  argument array; its last two conjuncts are `all (edge_index[0] ≥ -50000)` and `all (edge_index[0] < 50000)`, each
  a reduction by `and` over all 800000 entries of a signed comparison of the edge index's first row with a broadcast
  constant. The whole conjunction being 1, each of the two reductions is 1, so each comparison is 1 at every entry, and a
  signed comparison that is 1 orders the two words' signed values: every source index lies in [-50000, 50000).
-/
import proofs.«407242_j23235773071434_1_alg».proof.Defs
import proofs.«407242_j23235773071434_1_alg».proof.Proof.Gen.Pre_finite_inputs
import proofs.«407242_j23235773071434_1_alg».proof.Proof.KBase
import Idealize.ShloMosaic.Lib.ReduceAll
import Idealize.ShloMosaic.Lib.StableHlo.Predicate

noncomputable section

namespace Cert.PreDecode

open Idealize.ShloMosaic Idealize.SL.Sem

/-- The scalar shape has one index. -/
instance : Subsingleton Cert.Pre_finite_inputs.S_.Idx := ⟨fun a b => funext fun d => d.elim0⟩

/-- The word -50000 and the word 50000, read signed. -/
theorem toInt_lo : (4294917296#32 : BitVec 32).toInt = -50000 := by decide
theorem toInt_hi : (50000#32 : BitVec 32).toInt = 50000 := by decide

/-- THE PRECONDITION DECODED: every source index of the launched edge index lies in [-50000, 50000). -/
theorem srcOk_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.Spec.SrcOk (Cert.KernelIdeal.KF.kArgs m c) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h
  -- the conjunction is left-nested: the last conjunct is the upper bound, the one before it the lower bound
  change IntOp.andi _ _ = 1#1 at h
  obtain ⟨h1, hlt⟩ := IntOp.andi_eq_one.1 h
  change IntOp.andi _ _ = 1#1 at h1
  obtain ⟨-, hge⟩ := IntOp.andi_eq_one.1 h1
  intro p
  have hge' := Host.reduce_andi_all _ _ _ _ _ hge (ValueIdx.ix1 p)
  have hlt' := Host.reduce_andi_all _ _ _ _ _ hlt (ValueIdx.ix1 p)
  -- a signed comparison that is 1 orders the signed values; the two constants read -50000 and 50000
  have a1 : (4294917296#32 : BitVec 32).toInt ≤ (Cert.Spec.src (Cert.KernelIdeal.KF.kArgs m c) (ValueIdx.ix1 p)).toInt :=
    IntOp.cmpi_sge.1 hge'
  have a2 : (Cert.Spec.src (Cert.KernelIdeal.KF.kArgs m c) (ValueIdx.ix1 p)).toInt < (50000#32 : BitVec 32).toInt :=
    IntOp.cmpi_slt.1 hlt'
  rw [toInt_lo] at a1
  rw [toInt_hi] at a2
  exact ⟨a1, a2⟩

end Cert.PreDecode

end
-- ==== Proof.lean ====
/-
  The certificate of the graph message-passing kernel against its jnp reference, over the extended reals, for finite
  float inputs and source indices in [-50000, 50000).

  Both programs compute the specification's staged value (Proof/Spec.lean): three rounds of "gather the source rows,
  append the edge features, a rectified affine layer per edge, add up at the destination nodes and scale by the inverse
  degree, append the node's features, a rectified affine layer per node", the per-graph mean, and three more affine
  layers. The kernel program runs every affine layer as a row-blocked region; a block's rows of the product depend only
  on that block's rows of the left operand, so the blocks together are the whole-array layer (Proof/RegionK.lean over
  Proof/LibDense.lean). Its gather masks out-of-range source indices with a NaN word where the reference clamps them:
  under the precondition no index is out of range, the mask is all ones and the two gathers agree (Proof/Take.lean,
  Proof/Pre.lean). Every other host operation is the same function in both programs. The kernel program's boundary
  contents are read stage by stage in Proof/KF0 … KF3.lean, the reference's in Proof/RF1, RF2.lean; the two runs are
  Proof/KernelRun.lean and Proof/RefRun.lean.
-/
import proofs.«407242_j23235773071434_1_alg».proof.Defs
import proofs.«407242_j23235773071434_1_alg».proof.Proof.Gen.Kernel
import proofs.«407242_j23235773071434_1_alg».proof.Proof.Gen.Kernel.Frame
import proofs.«407242_j23235773071434_1_alg».proof.Proof.Gen.KernelIdeal
import proofs.«407242_j23235773071434_1_alg».proof.Proof.Gen.KernelIdeal.Frame
import proofs.«407242_j23235773071434_1_alg».proof.Proof.Gen.ReferenceIdeal
import proofs.«407242_j23235773071434_1_alg».proof.Proof.Gen.Pre_finite_inputs
import proofs.«407242_j23235773071434_1_alg».proof.Proof.KernelRun
import proofs.«407242_j23235773071434_1_alg».proof.Proof.RefRun
import proofs.«407242_j23235773071434_1_alg».proof.Proof.RefArgs
import proofs.«407242_j23235773071434_1_alg».proof.Proof.RF2
import proofs.«407242_j23235773071434_1_alg».proof.Proof.KF3
import proofs.«407242_j23235773071434_1_alg».proof.Proof.Pre
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

set_option maxHeartbeats 4000000 in
/-- The reference terminates with its arguments unchanged: its run over the operation list, each argument buffer written
    by no operation. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RF.kept_arg0 _ c),
     (h c Cert.ReferenceIdeal.main_arg1).trans (Cert.ReferenceIdeal.RF.kept_arg1 _ c),
     (h c Cert.ReferenceIdeal.main_arg2).trans (Cert.ReferenceIdeal.RF.kept_arg2 _ c),
     (h c Cert.ReferenceIdeal.main_arg3).trans (Cert.ReferenceIdeal.RF.kept_arg3 _ c),
     (h c Cert.ReferenceIdeal.main_arg4).trans (Cert.ReferenceIdeal.RF.kept_arg4 _ c),
     (h c Cert.ReferenceIdeal.main_arg5).trans (Cert.ReferenceIdeal.RF.kept_arg5 _ c),
     (h c Cert.ReferenceIdeal.main_arg6).trans (Cert.ReferenceIdeal.RF.kept_arg6 _ c),
     (h c Cert.ReferenceIdeal.main_arg7).trans (Cert.ReferenceIdeal.RF.kept_arg7 _ c),
     (h c Cert.ReferenceIdeal.main_arg8).trans (Cert.ReferenceIdeal.RF.kept_arg8 _ c),
     (h c Cert.ReferenceIdeal.main_arg9).trans (Cert.ReferenceIdeal.RF.kept_arg9 _ c),
     (h c Cert.ReferenceIdeal.main_arg10).trans (Cert.ReferenceIdeal.RF.kept_arg10 _ c),
     (h c Cert.ReferenceIdeal.main_arg11).trans (Cert.ReferenceIdeal.RF.kept_arg11 _ c),
     (h c Cert.ReferenceIdeal.main_arg12).trans (Cert.ReferenceIdeal.RF.kept_arg12 _ c),
     (h c Cert.ReferenceIdeal.main_arg13).trans (Cert.ReferenceIdeal.RF.kept_arg13 _ c),
     (h c Cert.ReferenceIdeal.main_arg14).trans (Cert.ReferenceIdeal.RF.kept_arg14 _ c),
     (h c Cert.ReferenceIdeal.main_arg15).trans (Cert.ReferenceIdeal.RF.kept_arg15 _ c),
     (h c Cert.ReferenceIdeal.main_arg16).trans (Cert.ReferenceIdeal.RF.kept_arg16 _ c),
     (h c Cert.ReferenceIdeal.main_arg17).trans (Cert.ReferenceIdeal.RF.kept_arg17 _ c),
     (h c Cert.ReferenceIdeal.main_arg18).trans (Cert.ReferenceIdeal.RF.kept_arg18 _ c),
     (h c Cert.ReferenceIdeal.main_arg19).trans (Cert.ReferenceIdeal.RF.kept_arg19 _ c),
     (h c Cert.ReferenceIdeal.main_arg20).trans (Cert.ReferenceIdeal.RF.kept_arg20 _ c),
     (h c Cert.ReferenceIdeal.main_arg21).trans (Cert.ReferenceIdeal.RF.kept_arg21 _ c)⟩)
    (Cert.ReferenceIdeal.RunP.run_after (F := Ideal) m ρ)

/-- Memories that agree on the 22 arguments give the same argument bundle. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.ReferenceIdeal.RF.rArgs m' c = Cert.KernelIdeal.KF.kArgs m c := by
  unfold Cert.ReferenceIdeal.RF.rArgs Cert.KernelIdeal.KF.kArgs
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]

set_option maxHeartbeats 4000000 in
/-- Both runs end with the specification's result of the (shared) arguments. -/
theorem algebraic : Cert.algebraic_KernelIdeal_ReferenceIdeal := by
  intro m ρ m' ρ' hpre hagree
  refine ⟨fun c => Cert.Spec.out (Cert.KernelIdeal.KF.kArgs m c), ?_, ?_⟩
  · exact (θ_run Cert.KernelIdeal.defs _ _).mono (fun r h c =>
      ⟨(h c).1.trans (Cert.KernelIdeal.KF.ker_result m ρ c (Cert.PreDecode.srcOk_of_pre m hpre c)), (h c).2⟩)
      (Cert.KernelIdeal.GenRun.run_named (F := Ideal) m ρ)
  · exact (θ_run Cert.ReferenceIdeal.defs _ _).mono (fun _ h c =>
      ⟨(h c Cert.ReferenceIdeal.main_v142).trans ((Cert.ReferenceIdeal.RF.ref_result m' c).trans
          (congrArg Cert.Spec.out (args_eq m m' c hagree))),
       (h c Cert.ReferenceIdeal.main_arg0).trans (Cert.ReferenceIdeal.RF.kept_arg0 _ c),
       (h c Cert.ReferenceIdeal.main_arg1).trans (Cert.ReferenceIdeal.RF.kept_arg1 _ c),
       (h c Cert.ReferenceIdeal.main_arg2).trans (Cert.ReferenceIdeal.RF.kept_arg2 _ c),
       (h c Cert.ReferenceIdeal.main_arg3).trans (Cert.ReferenceIdeal.RF.kept_arg3 _ c),
       (h c Cert.ReferenceIdeal.main_arg4).trans (Cert.ReferenceIdeal.RF.kept_arg4 _ c),
       (h c Cert.ReferenceIdeal.main_arg5).trans (Cert.ReferenceIdeal.RF.kept_arg5 _ c),
       (h c Cert.ReferenceIdeal.main_arg6).trans (Cert.ReferenceIdeal.RF.kept_arg6 _ c),
       (h c Cert.ReferenceIdeal.main_arg7).trans (Cert.ReferenceIdeal.RF.kept_arg7 _ c),
       (h c Cert.ReferenceIdeal.main_arg8).trans (Cert.ReferenceIdeal.RF.kept_arg8 _ c),
       (h c Cert.ReferenceIdeal.main_arg9).trans (Cert.ReferenceIdeal.RF.kept_arg9 _ c),
       (h c Cert.ReferenceIdeal.main_arg10).trans (Cert.ReferenceIdeal.RF.kept_arg10 _ c),
       (h c Cert.ReferenceIdeal.main_arg11).trans (Cert.ReferenceIdeal.RF.kept_arg11 _ c),
       (h c Cert.ReferenceIdeal.main_arg12).trans (Cert.ReferenceIdeal.RF.kept_arg12 _ c),
       (h c Cert.ReferenceIdeal.main_arg13).trans (Cert.ReferenceIdeal.RF.kept_arg13 _ c),
       (h c Cert.ReferenceIdeal.main_arg14).trans (Cert.ReferenceIdeal.RF.kept_arg14 _ c),
       (h c Cert.ReferenceIdeal.main_arg15).trans (Cert.ReferenceIdeal.RF.kept_arg15 _ c),
       (h c Cert.ReferenceIdeal.main_arg16).trans (Cert.ReferenceIdeal.RF.kept_arg16 _ c),
       (h c Cert.ReferenceIdeal.main_arg17).trans (Cert.ReferenceIdeal.RF.kept_arg17 _ c),
       (h c Cert.ReferenceIdeal.main_arg18).trans (Cert.ReferenceIdeal.RF.kept_arg18 _ c),
       (h c Cert.ReferenceIdeal.main_arg19).trans (Cert.ReferenceIdeal.RF.kept_arg19 _ c),
       (h c Cert.ReferenceIdeal.main_arg20).trans (Cert.ReferenceIdeal.RF.kept_arg20 _ c),
       (h c Cert.ReferenceIdeal.main_arg21).trans (Cert.ReferenceIdeal.RF.kept_arg21 _ c)⟩)
      (Cert.ReferenceIdeal.RunP.run_after (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
